-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S500000x16 : Shape := ⟨2, ![500000, 16]⟩
abbrev S2x500000 : Shape := ⟨2, ![2, 500000]⟩
abbrev S32x128 : Shape := ⟨2, ![32, 128]⟩
abbrev S128 : Shape := ⟨1, ![128]⟩
abbrev S2x2x128x128 : Shape := ⟨4, ![2, 2, 128, 128]⟩
abbrev S2x2x128 : Shape := ⟨3, ![2, 2, 128]⟩
abbrev S272x128 : Shape := ⟨2, ![272, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S500000x16 : S_.BroadcastsInDim S500000x16 (![] : Fin 0 → Fin S500000x16.rank)
  reducesTo_S500000x16_S_d0_1 : S500000x16.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_
  bcast_S_S272x128 : S_.BroadcastsInDim S272x128 (![] : Fin 0 → Fin S272x128.rank)
  reducesTo_S272x128_S_d0_1 : S272x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S64 .f32) (main_arg24 : FVec F S64x1 .f32) (main_arg25 : FVec F S1 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg24
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg20 : FVec F S128 .f32) (main_arg21 : FVec F S128 .f32) (main_arg22 : FVec F S128x64 .f32) (main_arg23 : FVec F S64 .f32) (main_arg24 : FVec F S64x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg22
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S272x128 .f32 := Host.absf main_arg16
  let main_cst_26 : FVec F S_ .f32 := constant S_ .f32 0x7F800000#32
  let main_v70 : FVec F S272x128 .f32 := broadcastInDim S272x128 ![] bcast_S_S272x128 main_cst_26
  let main_v71 : IVec S272x128 1 := cmpf .olt main_v69 main_v70
  let main_c_27 : IVec S_ 1 := constantI S_ 1 1#1
  let main_v72 : IVec S_ 1 := (fun x v => Host.reduce IntOp.andi x v reducesTo_S272x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v48 : IVec S_ 1) (main_v49 : FVec F S2x2x128 .f32) (main_v50 : FVec F S2x2x128 .f32) : IVec S_ 1 :=
  let main_v51 : IVec S2x2x128 1 := cmpf .olt main_v49 main_v50
  let main_c_19 : IVec S_ 1 := constantI S_ 1 1#1
  let main_v52 : IVec S_ 1 := (fun x v => Host.reduce IntOp.andi x v reducesTo_S2x2x128_S_d0_1_2 h_S_) main_v51 main_c_19
  let main_v53 : IVec S_ 1 := andi main_v48 main_v52
  let main_v54 : FVec F S2x2x128 .f32 := Host.absf main_arg13
  let main_cst_20 : FVec F S_ .f32 := constant S_ .f32 0x7F800000#32
  let main_v55 : FVec F S2x2x128 .f32 := broadcastInDim S2x2x128 ![] bcast_S_S2x2x128 main_cst_20
  let main_v56 : IVec S2x2x128 1 := cmpf .olt main_v54 main_v55
  let main_c_21 : IVec S_ 1 := constantI S_ 1 1#1
  let main_v57 : IVec S_ 1 := (fun x v => Host.reduce IntOp.andi x v reducesTo_S2x2x128_S_d0_1_2 h_S_) main_v56 main_c_21
  let main_v58 : IVec S_ 1 := andi main_v53 main_v57
  let main_v59 : FVec F S2x2x128 .f32 := Host.absf main_arg14
  let main_cst_22 : FVec F S_ .f32 := constant S_ .f32 0x7F800000#32
  let main_v60 : FVec F S2x2x128 .f32 := broadcastInDim S2x2x128 ![] bcast_S_S2x2x128 main_cst_22
  let main_v61 : IVec S2x2x128 1 := cmpf .olt main_v59 main_v60
  let main_c_23 : IVec S_ 1 := constantI S_ 1 1#1
  let main_v62 : IVec S_ 1 := (fun x v => Host.reduce IntOp.andi x v reducesTo_S2x2x128_S_d0_1_2 h_S_) main_v61 main_c_23
  let main_v63 : IVec S_ 1 := andi main_v58 main_v62
  let main_v64 : FVec F S2x2x128 .f32 := Host.absf main_arg15
  let main_cst_24 : FVec F S_ .f32 := constant S_ .f32 0x7F800000#32
  let main_v65 : FVec F S2x2x128 .f32 := broadcastInDim S2x2x128 ![] bcast_S_S2x2x128 main_cst_24
  let main_v66 : IVec S2x2x128 1 := cmpf .olt main_v64 main_v65
  let main_c_25 : IVec S_ 1 := constantI S_ 1 1#1
  let main_v67 : IVec S_ 1 := (fun x v => Host.reduce IntOp.andi x v reducesTo_S2x2x128_S_d0_1_2 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S2x2x128x128 .f32) (main_arg10 : FVec F S2x2x128 .f32) (main_arg11 : FVec F S2x2x128x128 .f32) (main_arg12 : FVec F S2x2x128 .f32) (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v33 : IVec S_ 1) : IVec S_ 1 :=
  let main_v34 : FVec F S2x2x128x128 .f32 := Host.absf main_arg9
  let main_cst_12 : FVec F S_ .f32 := constant S_ .f32 0x7F800000#32
  let main_v35 : FVec F S2x2x128x128 .f32 := broadcastInDim S2x2x128x128 ![] bcast_S_S2x2x128x128 main_cst_12
  let main_v36 : IVec S2x2x128x128 1 := cmpf .olt main_v34 main_v35
  let main_c_13 : IVec S_ 1 := constantI S_ 1 1#1
  let main_v37 : IVec S_ 1 := (fun x v => Host.reduce IntOp.andi x v reducesTo_S2x2x128x128_S_d0_1_2_3 h_S_) main_v36 main_c_13
  let main_v38 : IVec S_ 1 := andi main_v33 main_v37
  let main_v39 : FVec F S2x2x128 .f32 := Host.absf main_arg10
  let main_cst_14 : FVec F S_ .f32 := constant S_ .f32 0x7F800000#32
  let main_v40 : FVec F S2x2x128 .f32 := broadcastInDim S2x2x128 ![] bcast_S_S2x2x128 main_cst_14
  let main_v41 : IVec S2x2x128 1 := cmpf .olt main_v39 main_v40
  let main_c_15 : IVec S_ 1 := constantI S_ 1 1#1
  let main_v42 : IVec S_ 1 := (fun x v => Host.reduce IntOp.andi x v reducesTo_S2x2x128_S_d0_1_2 h_S_) main_v41 main_c_15
  let main_v43 : IVec S_ 1 := andi main_v38 main_v42
  let main_v44 : FVec F S2x2x128x128 .f32 := Host.absf main_arg11
  let main_cst_16 : FVec F S_ .f32 := constant S_ .f32 0x7F800000#32
  let main_v45 : FVec F S2x2x128x128 .f32 := broadcastInDim S2x2x128x128 ![] bcast_S_S2x2x128x128 main_cst_16
  let main_v46 : IVec S2x2x128x128 1 := cmpf .olt main_v44 main_v45
  let main_c_17 : IVec S_ 1 := constantI S_ 1 1#1
  let main_v47 : IVec S_ 1 := (fun x v => Host.reduce IntOp.andi x v reducesTo_S2x2x128x128_S_d0_1_2_3 h_S_) main_v46 main_c_17
  let main_v48 : IVec S_ 1 := andi main_v43 main_v47
  let main_v49 : FVec F S2x2x128 .f32 := Host.absf main_arg12
  let main_cst_18 : FVec F S_ .f32 := constant S_ .f32 0x7F800000#32
  let main_v50 : FVec F S2x2x128 .f32 := broadcastInDim S2x2x128 ![] bcast_S_S2x2x128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128 .f32) (main_arg7 : FVec F S32x128 .f32) (main_arg8 : FVec F S128 .f32) (main_arg9 : FVec F S2x2x128x128 .f32) (main_arg10 : FVec F S2x2x128 .f32) (main_arg11 : FVec F S2x2x128x128 .f32) (main_arg12 : FVec F S2x2x128 .f32) (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128 .f32 := Host.absf main_arg7
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x32 .f32) (main_arg1 : FVec F S100000x32 .f32) (main_arg2 : FVec F S500000x16 .f32) (main_arg3 : IVec S2x500000 32) (main_arg4 : IVec S2x500000 32) (main_arg5 : FVec F S32x128 .f32) (main_arg6 : FVec F S128 .f32) (main_arg7 : FVec F S32x128 .f32) (main_arg8 : FVec F S128 .f32) (main_arg9 : FVec F S2x2x128x128 .f32) (main_arg10 : FVec F S2x2x128 .f32) (main_arg11 : FVec F S2x2x128x128 .f32) (main_arg12 : FVec F S2x2x128 .f32) (main_arg13 : FVec F S2x2x128 .f32) (main_arg14 : FVec F S2x2x128 .f32) (main_arg15 : FVec F S2x2x128 .f32) (main_arg16 : FVec F S272x128 .f32) (main_arg17 : FVec F S128 .f32) (main_arg18 : FVec F S128 .f32) (main_arg19 : FVec F S128 .f32) (main_arg20 : FVec F S128 .f32) (main_arg21 : FVec F S128 .f32) (main_arg22 : FVec F S128x64 .f32) (main_arg23 : FVec F S64 .f32) (main_arg24 : FVec F S64x1 .f32) (main_arg25 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S500000x16 .f32 := Host.absf main_arg2
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S32x128 .f32 := Host.absf main_arg5
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x32 : Shape := ⟨2, ![100000, 32]⟩
abbrev S500000x16 : Shape := ⟨2, ![500000, 16]⟩
abbrev S2x500000 : Shape := ⟨2, ![2, 500000]⟩
abbrev S32x128 : Shape := ⟨2, ![32, 128]⟩
abbrev S128 : Shape := ⟨1, ![128]⟩
abbrev S2x2x128x128 : Shape := ⟨4, ![2, 2, 128, 128]⟩
abbrev S2x2x128 : Shape := ⟨3, ![2, 2, 128]⟩
abbrev S272x128 : Shape := ⟨2, ![272, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x128 : Shape := ⟨2, ![100000, 128]⟩
abbrev S4000x32 : Shape := ⟨2, ![4000, 32]⟩
abbrev S4000x128 : Shape := ⟨2, ![4000, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S500000x128 : Shape := ⟨2, ![500000, 128]⟩
abbrev S1x1x128 : Shape := ⟨3, ![1, 1, 128]⟩
abbrev S1x1x128x128 : Shape := ⟨4, ![1, 1, 128, 128]⟩
abbrev S128x128 : Shape := ⟨2, ![128, 128]⟩
abbrev S2000x128 : Shape := ⟨2, ![2000, 128]⟩
abbrev S2000x1 : Shape := ⟨2, ![2000, 1]⟩
abbrev S16x128 : Shape := ⟨2, ![16, 128]⟩
abbrev S50x1x10000 : Shape := ⟨3, ![50, 1, 10000]⟩
abbrev S10000x128 : Shape := ⟨2, ![10000, 128]⟩
abbrev S10000x16 : Shape := ⟨2, ![10000, 16]⟩
abbrev S1x1x10000 : Shape := ⟨3, ![1, 1, 10000]⟩
abbrev S10000x64 : Shape := ⟨2, ![10000, 64]⟩
abbrev S1x64 : Shape := ⟨2, ![1, 64]⟩
abbrev S10000x1 : Shape := ⟨2, ![10000, 1]⟩
abbrev S1x1 : Shape := ⟨2, ![1, 1]⟩
abbrev S1x10000 : Shape := ⟨2, ![1, 10000]⟩

abbrev nBuf : Space → Nat
  | .hbm => 200
  | .vmem => 92
  | .smem => 0
  | _ => 0

abbrev hbmTy0_0 (i : Nat) : BufTy := match i % 128 with
  | 0 => ⟨S100000x32, .f32⟩
  | 1 => ⟨S100000x32, .f32⟩
  | 2 => ⟨S500000x16, .f32⟩
  | 3 => ⟨S2x500000, .i32⟩
  | 4 => ⟨S2x500000, .i32⟩
  | 5 => ⟨S32x128, .f32⟩
  | 6 => ⟨S128, .f32⟩
  | 7 => ⟨S32x128, .f32⟩
  | 8 => ⟨S128, .f32⟩
  | 9 => ⟨S2x2x128x128, .f32⟩
  | 10 => ⟨S2x2x128, .f32⟩
  | 11 => ⟨S2x2x128x128, .f32⟩
  | 12 => ⟨S2x2x128, .f32⟩
  | 13 => ⟨S2x2x128, .f32⟩
  | 14 => ⟨S2x2x128, .f32⟩
  | 15 => ⟨S2x2x128, .f32⟩
  | 16 => ⟨S272x128, .f32⟩
  | 17 => ⟨S128, .f32⟩
  | 18 => ⟨S128, .f32⟩
  | 19 => ⟨S128, .f32⟩
  | 20 => ⟨S128, .f32⟩
  | 21 => ⟨S128, .f32⟩
  | 22 => ⟨S128x64, .f32⟩
  | 23 => ⟨S64, .f32⟩
  | 24 => ⟨S64x1, .f32⟩
  | 25 => ⟨S1, .f32⟩
  | 26 => ⟨S100000x128, .bf16⟩
  | 27 => ⟨S100000x128, .bf16⟩
  | 28 => ⟨S1x500000, .i32⟩
  | 29 => ⟨S500000, .i32⟩
  | 30 => ⟨S1x500000, .i32⟩
  | 31 => ⟨S500000, .i32⟩
  | 32 => ⟨S1x500000, .i32⟩
  | 33 => ⟨S500000, .i32⟩
  | 34 => ⟨S1x500000, .i32⟩
  | 35 => ⟨S500000, .i32⟩
  | 36 => ⟨S_, .f32⟩
  | 37 => ⟨S500000, .f32⟩
  | 38 => ⟨S_, .f32⟩
  | 39 => ⟨S100000, .f32⟩
  | 40 => ⟨S500000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S_, .f32⟩
  | 47 => ⟨S100000, .f32⟩
  | 48 => ⟨S500000x1, .i32⟩
  | 49 => ⟨S100000, .f32⟩
  | 50 => ⟨S_, .f32⟩
  | 51 => ⟨S100000, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S_, .f32⟩
  | 58 => ⟨S100000x1, .f32⟩
  | 59 => ⟨S100000x1, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .bf16⟩
  | 69 => ⟨S500000x128, .f32⟩
  | 70 => ⟨S_, .f32⟩
  | 71 => ⟨S100000x128, .f32⟩
  | 72 => ⟨S500000x1, .i32⟩
  | 73 => ⟨S100000x128, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000x128, .bf16⟩
  | 83 => ⟨S500000x128, .f32⟩
  | 84 => ⟨S_, .f32⟩
  | 85 => ⟨S100000x128, .f32⟩
  | 86 => ⟨S500000x1, .i32⟩
  | 87 => ⟨S100000x128, .f32⟩
  | 88 => ⟨S1x1x128, .f32⟩
  | 89 => ⟨S128, .f32⟩
  | 90 => ⟨S1x1x128, .f32⟩
  | 91 => ⟨S128, .f32⟩
  | 92 => ⟨S1x1x128, .f32⟩
  | 93 => ⟨S128, .f32⟩
  | 94 => ⟨S1x1x128, .f32⟩
  | 95 => ⟨S128, .f32⟩
  | 96 => ⟨S1x1x128, .f32⟩
  | 97 => ⟨S128, .f32⟩
  | 98 => ⟨S1x1x128, .f32⟩
  | 99 => ⟨S128, .f32⟩
  | 100 => ⟨S1x1x128, .f32⟩
  | 101 => ⟨S128, .f32⟩
  | 102 => ⟨S1x1x128, .f32⟩
  | 103 => ⟨S128, .f32⟩
  | 104 => ⟨S1x1x128x128, .f32⟩
  | 105 => ⟨S128x128, .f32⟩
  | 106 => ⟨S1x1x128, .f32⟩
  | 107 => ⟨S128, .f32⟩
  | 108 => ⟨S1x1x128x128, .f32⟩
  | 109 => ⟨S128x128, .f32⟩
  | 110 => ⟨S1x1x128x128, .f32⟩
  | 111 => ⟨S128x128, .f32⟩
  | 112 => ⟨S1x1x128, .f32⟩
  | 113 => ⟨S128, .f32⟩
  | 114 => ⟨S1x1x128x128, .f32⟩
  | 115 => ⟨S128x128, .f32⟩
  | 116 => ⟨S100000x128, .bf16⟩
  | 117 => ⟨S100000x128, .bf16⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S500000x1, .i32⟩
  | 126 => ⟨S500000x128, .bf16⟩
  | 127 => ⟨S500000x128, .f32⟩
  | _ => ⟨S100000x32, .f32⟩

abbrev hbmTy0_1 (i : Nat) : BufTy := match i % 128 with
  | 0 => ⟨S_, .f32⟩
  | 1 => ⟨S100000x128, .f32⟩
  | 2 => ⟨S500000x1, .i32⟩
  | 3 => ⟨S100000x128, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x128, .bf16⟩
  | 13 => ⟨S500000x128, .f32⟩
  | 14 => ⟨S_, .f32⟩
  | 15 => ⟨S100000x128, .f32⟩
  | 16 => ⟨S500000x1, .i32⟩
  | 17 => ⟨S100000x128, .f32⟩
  | 18 => ⟨S1x1x128, .f32⟩
  | 19 => ⟨S128, .f32⟩
  | 20 => ⟨S1x1x128, .f32⟩
  | 21 => ⟨S128, .f32⟩
  | 22 => ⟨S1x1x128, .f32⟩
  | 23 => ⟨S128, .f32⟩
  | 24 => ⟨S1x1x128, .f32⟩
  | 25 => ⟨S128, .f32⟩
  | 26 => ⟨S1x1x128, .f32⟩
  | 27 => ⟨S128, .f32⟩
  | 28 => ⟨S1x1x128, .f32⟩
  | 29 => ⟨S128, .f32⟩
  | 30 => ⟨S1x1x128, .f32⟩
  | 31 => ⟨S128, .f32⟩
  | 32 => ⟨S1x1x128, .f32⟩
  | 33 => ⟨S128, .f32⟩
  | 34 => ⟨S1x1x128x128, .f32⟩
  | 35 => ⟨S128x128, .f32⟩
  | 36 => ⟨S1x1x128, .f32⟩
  | 37 => ⟨S128, .f32⟩
  | 38 => ⟨S1x1x128x128, .f32⟩
  | 39 => ⟨S128x128, .f32⟩
  | 40 => ⟨S1x1x128x128, .f32⟩
  | 41 => ⟨S128x128, .f32⟩
  | 42 => ⟨S1x1x128, .f32⟩
  | 43 => ⟨S128, .f32⟩
  | 44 => ⟨S1x1x128x128, .f32⟩
  | 45 => ⟨S128x128, .f32⟩
  | 46 => ⟨S100000x128, .bf16⟩
  | 47 => ⟨S100000x128, .bf16⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .bf16⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .bf16⟩
  | 66 => ⟨S500000x16, .bf16⟩
  | 67 => ⟨S128x128, .f32⟩
  | 68 => ⟨S128x128, .f32⟩
  | 69 => ⟨S16x128, .f32⟩
  | 70 => ⟨S50x1x10000, .f32⟩
  | 71 => ⟨S500000, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S4000x32, .f32⟩
  | .local _ .vmem, ⟨1, _⟩ => ⟨S4000x32, .f32⟩
  | .local _ .vmem, ⟨2, _⟩ => ⟨S32x128, .f32⟩
  | .local _ .vmem, ⟨3, _⟩ => ⟨S128, .f32⟩
  | .local _ .vmem, ⟨4, _⟩ => ⟨S4000x128, .bf16⟩
  | .local _ .vmem, ⟨5, _⟩ => ⟨S4000x128, .bf16⟩
  | .local _ .vmem, ⟨6, _⟩ => ⟨S4000x32, .f32⟩
  | .local _ .vmem, ⟨7, _⟩ => ⟨S4000x32, .f32⟩
  | .local _ .vmem, ⟨8, _⟩ => ⟨S32x128, .f32⟩
  | .local _ .vmem, ⟨9, _⟩ => ⟨S128, .f32⟩
  | .local _ .vmem, ⟨10, _⟩ => ⟨S4000x128, .bf16⟩
  | .local _ .vmem, ⟨11, _⟩ => ⟨S4000x128, .bf16⟩
  | .local _ .vmem, ⟨12, _⟩ => ⟨S2000x128, .f32⟩
  | .local _ .vmem, ⟨13, _⟩ => ⟨S2000x128, .f32⟩
  | .local _ .vmem, ⟨14, _⟩ => ⟨S2000x128, .bf16⟩
  | .local _ .vmem, ⟨15, _⟩ => ⟨S2000x128, .bf16⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .bf16⟩
  | .local _ .vmem, ⟨21, _⟩ => ⟨S2000x128, .bf16⟩
  | .local _ .vmem, ⟨22, _⟩ => ⟨S2000x1, .f32⟩
  | .local _ .vmem, ⟨23, _⟩ => ⟨S2000x1, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S128, .f32⟩
  | .local _ .vmem, ⟨29, _⟩ => ⟨S128, .f32⟩
  | .local _ .vmem, ⟨30, _⟩ => ⟨S128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S2000x128, .bf16⟩
  | .local _ .vmem, ⟨39, _⟩ => ⟨S2000x128, .bf16⟩
  | .local _ .vmem, ⟨40, _⟩ => ⟨S2000x128, .bf16⟩
  | .local _ .vmem, ⟨41, _⟩ => ⟨S2000x128, .bf16⟩
  | .local _ .vmem, ⟨42, _⟩ => ⟨S2000x128, .f32⟩
  | .local _ .vmem, ⟨43, _⟩ => ⟨S2000x128, .f32⟩
  | .local _ .vmem, ⟨44, _⟩ => ⟨S2000x128, .bf16⟩
  | .local _ .vmem, ⟨45, _⟩ => ⟨S2000x128, .bf16⟩
  | .local _ .vmem, ⟨46, _⟩ => ⟨S2000x1, .f32⟩
  | .local _ .vmem, ⟨47, _⟩ => ⟨S2000x1, .f32⟩
  | .local _ .vmem, ⟨48, _⟩ => ⟨S2000x128, .f32⟩
  | .local _ .vmem, ⟨49, _⟩ => ⟨S2000x128, .f32⟩
  | .local _ .vmem, ⟨50, _⟩ => ⟨S2000x128, .bf16⟩
  | .local _ .vmem, ⟨51, _⟩ => ⟨S2000x128, .bf16⟩
  | .local _ .vmem, ⟨52, _⟩ => ⟨S2000x1, .f32⟩
  | .local _ .vmem, ⟨53, _⟩ => ⟨S2000x1, .f32⟩
  | .local _ .vmem, ⟨54, _⟩ => ⟨S128x128, .f32⟩
  | .local _ .vmem, ⟨55, _⟩ => ⟨S128, .f32⟩
  | .local _ .vmem, ⟨56, _⟩ => ⟨S128x128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S128, .f32⟩
  | .local _ .vmem, ⟨61, _⟩ => ⟨S128x128, .f32⟩
  | .local _ .vmem, ⟨62, _⟩ => ⟨S128, .f32⟩
  | .local _ .vmem, ⟨63, _⟩ => ⟨S128x128, .f32⟩
  | .local _ .vmem, ⟨64, _⟩ => ⟨S128, .f32⟩
  | .local _ .vmem, ⟨65, _⟩ => ⟨S128, .f32⟩
  | .local _ .vmem, ⟨66, _⟩ => ⟨S128, .f32⟩
  | .local _ .vmem, ⟨67, _⟩ => ⟨S128, .f32⟩
  | .local _ .vmem, ⟨68, _⟩ => ⟨S2000x128, .bf16⟩
  | .local _ .vmem, ⟨69, _⟩ => ⟨S2000x128, .bf16⟩
  | .local _ .vmem, ⟨70, _⟩ => ⟨S2000x128, .bf16⟩
  | .local _ .vmem, ⟨71, _⟩ => ⟨S2000x128, .bf16⟩
  | .local _ .vmem, ⟨72, _⟩ => ⟨S10000x128, .bf16⟩
  | .local _ .vmem, ⟨73, _⟩ => ⟨S10000x128, .bf16⟩
  | .local _ .vmem, ⟨74, _⟩ => ⟨S10000x128, .bf16⟩
  | .local _ .vmem, ⟨75, _⟩ => ⟨S10000x128, .bf16⟩
  | .local _ .vmem, ⟨76, _⟩ => ⟨S10000x16, .bf16⟩
  | .local _ .vmem, ⟨77, _⟩ => ⟨S10000x16, .bf16⟩
  | .local _ .vmem, ⟨78, _⟩ => ⟨S128x128, .f32⟩
  | .local _ .vmem, ⟨79, _⟩ => ⟨S128x128, .f32⟩
  | .local _ .vmem, ⟨80, _⟩ => ⟨S16x128, .f32⟩
  | .local _ .vmem, ⟨81, _⟩ => ⟨S128, .f32⟩
  | .local _ .vmem, ⟨82, _⟩ => ⟨S128, .f32⟩
  | .local _ .vmem, ⟨83, _⟩ => ⟨S128, .f32⟩
  | .local _ .vmem, ⟨84, _⟩ => ⟨S128, .f32⟩
  | .local _ .vmem, ⟨85, _⟩ => ⟨S128, .f32⟩
  | .local _ .vmem, ⟨86, _⟩ => ⟨S128x64, .f32⟩
  | .local _ .vmem, ⟨87, _⟩ => ⟨S64, .f32⟩
  | .local _ .vmem, ⟨88, _⟩ => ⟨S64x1, .f32⟩
  | .local _ .vmem, ⟨89, _⟩ => ⟨S1, .f32⟩
  | .local _ .vmem, ⟨90, _⟩ => ⟨S1x1x10000, .f32⟩
  | .local _ .vmem, ⟨91, _⟩ => ⟨S1x1x10000, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_cst_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_cst_5 : Ref sig .tc := ⟨.hbm, 57, rfl⟩
abbrev main_v25 : Ref sig .tc := ⟨.hbm, 58, rfl⟩
abbrev main_v26 : Ref sig .tc := ⟨.hbm, 59, rfl⟩
abbrev main_c : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_8 : Ref sig .tc := ⟨.hbm, 74, rfl⟩
abbrev main_v38 : Ref sig .tc := ⟨.hbm, 75, rfl⟩
abbrev main_v39 : Ref sig .tc := ⟨.hbm, 76, rfl⟩
abbrev main_c_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77_0 : Ref sig .tc := ⟨.hbm, 116, rfl⟩
abbrev main_v77_1 : Ref sig .tc := ⟨.hbm, 117, rfl⟩
abbrev main_c_11 : Ref sig .tc := ⟨.hbm, 118, rfl⟩
abbrev main_v78 : Ref sig .tc := ⟨.hbm, 119, rfl⟩
abbrev main_v79 : Ref sig .tc := ⟨.hbm, 120, rfl⟩
abbrev main_c_12 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_13 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_14 : Ref sig .tc := ⟨.hbm, 132, rfl⟩
abbrev main_v89 : Ref sig .tc := ⟨.hbm, 133, rfl⟩
abbrev main_v90 : Ref sig .tc := ⟨.hbm, 134, rfl⟩
abbrev main_c_15 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_16 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128_0 : Ref sig .tc := ⟨.hbm, 174, rfl⟩
abbrev main_v128_1 : Ref sig .tc := ⟨.hbm, 175, rfl⟩
abbrev main_c_17 : Ref sig .tc := ⟨.hbm, 176, rfl⟩
abbrev main_v129 : Ref sig .tc := ⟨.hbm, 177, rfl⟩
abbrev main_v130 : Ref sig .tc := ⟨.hbm, 178, rfl⟩
abbrev main_c_18 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_19 : Ref sig .tc := ⟨.hbm, 185, rfl⟩
abbrev main_v136 : Ref sig .tc := ⟨.hbm, 186, rfl⟩
abbrev main_v137 : Ref sig .tc := ⟨.hbm, 187, rfl⟩
abbrev main_c_20 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg15_0 : Ref sig .tc := ⟨.vmem, 33, rfl⟩
abbrev cc2_stg16_0 : Ref sig .tc := ⟨.vmem, 34, rfl⟩
abbrev cc2_stg17_0 : Ref sig .tc := ⟨.vmem, 35, rfl⟩
abbrev cc2_stg18_0 : Ref sig .tc := ⟨.vmem, 36, rfl⟩
abbrev cc2_stg19_0 : Ref sig .tc := ⟨.vmem, 37, rfl⟩
abbrev cc2_stg20_0 : Ref sig .tc := ⟨.vmem, 38, rfl⟩
abbrev cc2_stg20_1 : Ref sig .tc := ⟨.vmem, 39, rfl⟩
abbrev cc2_stg21_0 : Ref sig .tc := ⟨.vmem, 40, rfl⟩
abbrev cc2_stg21_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg7_0 : Ref sig .tc := ⟨.vmem, 55, rfl⟩
abbrev cc3_stg8_0 : Ref sig .tc := ⟨.vmem, 56, rfl⟩
abbrev cc3_stg9_0 : Ref sig .tc := ⟨.vmem, 57, rfl⟩
abbrev cc3_stg10_0 : Ref sig .tc := ⟨.vmem, 58, rfl⟩
abbrev cc3_stg11_0 : Ref sig .tc := ⟨.vmem, 59, rfl⟩
abbrev cc3_stg12_0 : Ref sig .tc := ⟨.vmem, 60, rfl⟩
abbrev cc3_stg13_0 : Ref sig .tc := ⟨.vmem, 61, rfl⟩
abbrev cc3_stg14_0 : Ref sig .tc := ⟨.vmem, 62, rfl⟩
abbrev cc3_stg15_0 : Ref sig .tc := ⟨.vmem, 63, rfl⟩
abbrev cc3_stg16_0 : Ref sig .tc := ⟨.vmem, 64, rfl⟩
abbrev cc3_stg17_0 : Ref sig .tc := ⟨.vmem, 65, rfl⟩
abbrev cc3_stg18_0 : Ref sig .tc := ⟨.vmem, 66, rfl⟩
abbrev cc3_stg19_0 : Ref sig .tc := ⟨.vmem, 67, rfl⟩
abbrev cc3_stg20_0 : Ref sig .tc := ⟨.vmem, 68, rfl⟩
abbrev cc3_stg20_1 : Ref sig .tc := ⟨.vmem, 69, rfl⟩
abbrev cc3_stg21_0 : Ref sig .tc := ⟨.vmem, 70, rfl⟩
abbrev cc3_stg21_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg2_1 : Ref sig .tc := ⟨.vmem, 77, rfl⟩
abbrev cc4_stg3_0 : Ref sig .tc := ⟨.vmem, 78, rfl⟩
abbrev cc4_stg4_0 : Ref sig .tc := ⟨.vmem, 79, rfl⟩
abbrev cc4_stg5_0 : Ref sig .tc := ⟨.vmem, 80, rfl⟩
abbrev cc4_stg6_0 : Ref sig .tc := ⟨.vmem, 81, rfl⟩
abbrev cc4_stg7_0 : Ref sig .tc := ⟨.vmem, 82, rfl⟩
abbrev cc4_stg8_0 : Ref sig .tc := ⟨.vmem, 83, rfl⟩
abbrev cc4_stg9_0 : Ref sig .tc := ⟨.vmem, 84, rfl⟩
abbrev cc4_stg10_0 : Ref sig .tc := ⟨.vmem, 85, rfl⟩
abbrev cc4_stg11_0 : Ref sig .tc := ⟨.vmem, 86, rfl⟩
abbrev cc4_stg12_0 : Ref sig .tc := ⟨.vmem, 87, rfl⟩
abbrev cc4_stg13_0 : Ref sig .tc := ⟨.vmem, 88, rfl⟩
abbrev cc4_stg14_0 : Ref sig .tc := ⟨.vmem, 89, rfl⟩
abbrev cc4_stg15_0 : Ref sig .tc := ⟨.vmem, 90, rfl⟩
abbrev cc4_stg15_1 : Ref sig .tc := ⟨.vmem, 91, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem17_0 : DmaSem sig := 35
abbrev cc2_sem18_0 : DmaSem sig := 36
abbrev cc2_sem19_0 : DmaSem sig := 37
abbrev cc2_sem20_0 : DmaSem sig := 38
abbrev cc2_sem20_1 : DmaSem sig := 39
abbrev cc2_sem21_0 : DmaSem sig := 40
abbrev cc2_sem21_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem7_0 : DmaSem sig := 55
abbrev cc3_sem8_0 : DmaSem sig := 56
abbrev cc3_sem9_0 : DmaSem sig := 57
abbrev cc3_sem10_0 : DmaSem sig := 58
abbrev cc3_sem11_0 : DmaSem sig := 59
abbrev cc3_sem12_0 : DmaSem sig := 60
abbrev cc3_sem13_0 : DmaSem sig := 61
abbrev cc3_sem14_0 : DmaSem sig := 62
abbrev cc3_sem15_0 : DmaSem sig := 63
abbrev cc3_sem16_0 : DmaSem sig := 64
abbrev cc3_sem17_0 : DmaSem sig := 65
abbrev cc3_sem18_0 : DmaSem sig := 66
abbrev cc3_sem19_0 : DmaSem sig := 67
abbrev cc3_sem20_0 : DmaSem sig := 68
abbrev cc3_sem20_1 : DmaSem sig := 69
abbrev cc3_sem21_0 : DmaSem sig := 70
abbrev cc3_sem21_1 : DmaSem sig := 71
abbrev cc4_sem0_0 : DmaSem sig := 72
abbrev cc4_sem0_1 : DmaSem sig := 73
abbrev cc4_sem1_0 : DmaSem sig := 74
abbrev cc4_sem1_1 : DmaSem sig := 75
abbrev cc4_sem2_0 : DmaSem sig := 76
abbrev cc4_sem2_1 : DmaSem sig := 77
abbrev cc4_sem3_0 : DmaSem sig := 78
abbrev cc4_sem4_0 : DmaSem sig := 79
abbrev cc4_sem5_0 : DmaSem sig := 80
abbrev cc4_sem6_0 : DmaSem sig := 81
abbrev cc4_sem7_0 : DmaSem sig := 82
abbrev cc4_sem8_0 : DmaSem sig := 83
abbrev cc4_sem9_0 : DmaSem sig := 84
abbrev cc4_sem10_0 : DmaSem sig := 85
abbrev cc4_sem11_0 : DmaSem sig := 86
abbrev cc4_sem12_0 : DmaSem sig := 87
abbrev cc4_sem13_0 : DmaSem sig := 88
abbrev cc4_sem14_0 : DmaSem sig := 89
abbrev cc4_sem15_0 : DmaSem sig := 90
abbrev cc4_sem15_1 : DmaSem sig := 91

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_19 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_20 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_21 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S128 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 2 → Memref sig .tc .vmem S2000x128 .bf16 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S2000x128 .bf16 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_17 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_18 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_19 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_20 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_21 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S128x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S128x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S128 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S128 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S128 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 2 → Memref sig .tc .vmem S2000x128 .bf16 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

abbrev stage3_21 : Fin 2 → Memref sig .tc .vmem S2000x128 .bf16 := fun | 0 => Memref.whole cc3_stg21_0 | 1 => Memref.whole cc3_stg21_1 | ⟨_ + 2, h⟩ => absurd h (Nat.not_lt.2 (Nat.le_add_left _ _))
abbrev sem3_21 : Fin 2 → DmaSem sig := fun | 0 => cc3_sem21_0 | 1 => cc3_sem21_1 | ⟨_ + 2, h⟩ => absurd h (Nat.not_lt.2 (Nat.le_add_left _ _))
abbrev reads3_21 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_15 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S10000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S128x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S64x1 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 2 → Memref sig .tc .vmem S1x1x10000 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

class Facts₀ : Prop where
  inb_S4000x32_S4000x32_0_0 : ∀ a, (![0, 0] : Fin 2 → Nat) a + S4000x32.size a ≤ S4000x32.size a
  h_S4000x32 : 0 < S4000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000x128 : S_.BroadcastsInDim S100000x128 (![] : Fin 0 → Fin S100000x128.rank)
  slices_S2x2x128_S1x1x128_0_1_0 : S2x2x128.Slices ![0, 1, 0] S1x1x128
  shapeCasts_S1x1x128_S128 : S1x1x128.ShapeCasts S128
  slices_S2x2x128_S1x1x128_0_0_0 : S2x2x128.Slices ![0, 0, 0] S1x1x128
  slices_S2x2x128x128_S1x1x128x128_0_0_0_0 : S2x2x128x128.Slices ![0, 0, 0, 0] S1x1x128x128
  shapeCasts_S1x1x128x128_S128x128 : S1x1x128x128.ShapeCasts S128x128
  slices_S2x2x128x128_S1x1x128x128_0_1_0_0 : S2x2x128x128.Slices ![0, 1, 0, 0] S1x1x128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S2x2x128_S1x1x128_1_1_0 : S2x2x128.Slices ![1, 1, 0] S1x1x128
  slices_S2x2x128_S1x1x128_1_0_0 : S2x2x128.Slices ![1, 0, 0] S1x1x128
  slices_S2x2x128x128_S1x1x128x128_1_0_0_0 : S2x2x128x128.Slices ![1, 0, 0, 0] S1x1x128x128
  slices_S2x2x128x128_S1x1x128x128_1_1_0_0 : S2x2x128x128.Slices ![1, 1, 0, 0] S1x1x128x128
  slices_S272x128_S128x128_0_0 : S272x128.Slices ![0, 0] S128x128
  slices_S272x128_S128x128_128_0 : S272x128.Slices ![128, 0] S128x128
  slices_S272x128_S16x128_256_0 : S272x128.Slices ![256, 0] S16x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  transposes_S10000x1_p1_0_S1x10000 : S10000x1.Transposes [1, 0] S1x10000
  shapeCasts_S1x10000_S1x1x10000 : S1x10000.ShapeCasts S1x1x10000
  inb_S1x1x10000_S1x1x10000_0_0_0 : ∀ a, (![0, 0, 0] : Fin 3 → Nat) a + S1x1x10000.size a ≤ S1x1x10000.size a
  h_S1x1x10000 : 0 < S1x1x10000.numel
  shapeCasts_S50x1x10000_S500000 : S50x1x10000.ShapeCasts S500000
  dot_S4000x32_S32x128_S4000x128_1_0_0_1_n_n_wf : DotDims.WF S4000x32 S32x128 S4000x128 [1] [0] [0] [1] [] []
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S2000x128_S128x128_S2000x128_1_0_0_1_n_n_wf : DotDims.WF S2000x128 S128x128 S2000x128 [1] [0] [0] [1] [] []
  dot_S10000x128_S128x128_S10000x128_1_0_0_1_n_n_wf : DotDims.WF S10000x128 S128x128 S10000x128 [1] [0] [0] [1] [] []
  dot_S10000x16_S16x128_S10000x128_1_0_0_1_n_n_wf : DotDims.WF S10000x16 S16x128 S10000x128 [1] [0] [0] [1] [] []
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .bf16 = 32 ∨ (Rect.block (s := S100000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .bf16 = 32 ∨ (Rect.block (s := S100000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .bf16 = 32 ∨ (Rect.block (s := S100000x128) S2000x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128.size a ≤ S128.size a
  hwx2_11 : ∀ i : grid2.Coords, EltTy.bits .f32 = 32 ∨ (Rect.block (s := S128) S128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128.size a ≤ S128.size a
  hwx2_12 : ∀ i : grid2.Coords, EltTy.bits .f32 = 32 ∨ (Rect.block (s := S128) S128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .f32 = 32 ∨ (Rect.block (s := S128x128) S128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128.size a ≤ S128.size a
  hwx2_14 : ∀ i : grid2.Coords, EltTy.bits .f32 = 32 ∨ (Rect.block (s := S128) S128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .f32 = 32 ∨ (Rect.block (s := S128x128) S128x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S128.size a ≤ S128.size a
  hwx2_16 : ∀ i : grid2.Coords, EltTy.bits .f32 = 32 ∨ (Rect.block (s := S128) S128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S128.size a ≤ S128.size a
  hwx2_17 : ∀ i : grid2.Coords, EltTy.bits .f32 = 32 ∨ (Rect.block (s := S128) S128.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S128.size a ≤ S128.size a
  hwx2_18 : ∀ i : grid2.Coords, EltTy.bits .f32 = 32 ∨ (Rect.block (s := S128) S128.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S128.size a ≤ S128.size a
  hwx2_19 : ∀ i : grid2.Coords, EltTy.bits .f32 = 32 ∨ (Rect.block (s := S128) S128.size (cc2_transform_19 i) (hinb2_19 i)).WholeWords (EltTy.packing .f32)
  hstage2_20 : ∀ j, (stage2_20 j).IsWhole
  nbuf2_20 : grid2.bufCount reads2_20 false = 2
  hreads2_20 : ∀ i i' : grid2.Coords, (∀ a, reads2_20 a = true → i a = i' a) → cc2_transform_20 i = cc2_transform_20 i'
  hinb2_20 : ∀ (i : grid2.Coords) a, (cc2_transform_20 i a + 1) * S2000x128.size a ≤ S100000x128.size a
  hwx2_20 : ∀ i : grid2.Coords, EltTy.bits .bf16 = 32 ∨ (Rect.block (s := S100000x128) S2000x128.size (cc2_transform_20 i) (hinb2_20 i)).WholeWords (EltTy.packing .bf16)
  hstage2_21 : ∀ j, (stage2_21 j).IsWhole
  nbuf2_21 : grid2.bufCount reads2_21 false = 2
  hreads2_21 : ∀ i i' : grid2.Coords, (∀ a, reads2_21 a = true → i a = i' a) → cc2_transform_21 i = cc2_transform_21 i'
  hinb2_21 : ∀ (i : grid2.Coords) a, (cc2_transform_21 i a + 1) * S2000x128.size a ≤ S100000x128.size a
  hwx2_21 : ∀ i : grid2.Coords, EltTy.bits .bf16 = 32 ∨ (Rect.block (s := S100000x128) S2000x128.size (cc2_transform_21 i) (hinb2_21 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .bf16 = 32 ∨ (Rect.block (s := S100000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .bf16 = 32 ∨ (Rect.block (s := S100000x128) S2000x128.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .f32 = 32 ∨ (Rect.block (s := S100000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128.size a ≤ S128.size a
  hwx3_9 : ∀ i : grid3.Coords, EltTy.bits .f32 = 32 ∨ (Rect.block (s := S128) S128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128.size a ≤ S128.size a
  hwx3_10 : ∀ i : grid3.Coords, EltTy.bits .f32 = 32 ∨ (Rect.block (s := S128) S128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128.size a ≤ S128.size a
  hwx3_11 : ∀ i : grid3.Coords, EltTy.bits .f32 = 32 ∨ (Rect.block (s := S128) S128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128.size a ≤ S128.size a
  hwx3_12 : ∀ i : grid3.Coords, EltTy.bits .f32 = 32 ∨ (Rect.block (s := S128) S128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S128x128.size a ≤ S128x128.size a
  hwx3_13 : ∀ i : grid3.Coords, EltTy.bits .f32 = 32 ∨ (Rect.block (s := S128x128) S128x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S128.size a ≤ S128.size a
  hwx3_14 : ∀ i : grid3.Coords, EltTy.bits .f32 = 32 ∨ (Rect.block (s := S128) S128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S128x128.size a ≤ S128x128.size a
  hwx3_15 : ∀ i : grid3.Coords, EltTy.bits .f32 = 32 ∨ (Rect.block (s := S128x128) S128x128.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S128.size a ≤ S128.size a
  hwx3_16 : ∀ i : grid3.Coords, EltTy.bits .f32 = 32 ∨ (Rect.block (s := S128) S128.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S128.size a ≤ S128.size a
  hwx3_17 : ∀ i : grid3.Coords, EltTy.bits .f32 = 32 ∨ (Rect.block (s := S128) S128.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S128.size a ≤ S128.size a
  hwx3_18 : ∀ i : grid3.Coords, EltTy.bits .f32 = 32 ∨ (Rect.block (s := S128) S128.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S128.size a ≤ S128.size a
  hwx3_19 : ∀ i : grid3.Coords, EltTy.bits .f32 = 32 ∨ (Rect.block (s := S128) S128.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S2000x128.size a ≤ S100000x128.size a
  hwx3_20 : ∀ i : grid3.Coords, EltTy.bits .bf16 = 32 ∨ (Rect.block (s := S100000x128) S2000x128.size (cc3_transform_20 i) (hinb3_20 i)).WholeWords (EltTy.packing .bf16)
  hstage3_21 : ∀ j, (stage3_21 j).IsWhole
  nbuf3_21 : grid3.bufCount reads3_21 false = 2
  hreads3_21 : ∀ i i' : grid3.Coords, (∀ a, reads3_21 a = true → i a = i' a) → cc3_transform_21 i = cc3_transform_21 i'
  hinb3_21 : ∀ (i : grid3.Coords) a, (cc3_transform_21 i a + 1) * S2000x128.size a ≤ S100000x128.size a
  hwx3_21 : ∀ i : grid3.Coords, EltTy.bits .bf16 = 32 ∨ (Rect.block (s := S100000x128) S2000x128.size (cc3_transform_21 i) (hinb3_21 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S500000x128.size a
  hwx4_0 : ∀ i : grid4.Coords, EltTy.bits .bf16 = 32 ∨ (Rect.block (s := S500000x128) S10000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S500000x128.size a
  hwx4_1 : ∀ i : grid4.Coords, EltTy.bits .bf16 = 32 ∨ (Rect.block (s := S500000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S500000x16.size a
  hwx4_2 : ∀ i : grid4.Coords, EltTy.bits .bf16 = 32 ∨ (Rect.block (s := S500000x16) S10000x16.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x128.size a ≤ S16x128.size a
  hwx4_5 : ∀ i : grid4.Coords, EltTy.bits .f32 = 32 ∨ (Rect.block (s := S16x128) S16x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128.size a ≤ S128.size a
  hwx4_9 : ∀ i : grid4.Coords, EltTy.bits .f32 = 32 ∨ (Rect.block (s := S128) S128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S128.size a ≤ S128.size a
  hwx4_10 : ∀ i : grid4.Coords, EltTy.bits .f32 = 32 ∨ (Rect.block (s := S128) S128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S128x64.size a ≤ S128x64.size a
  hwx4_11 : ∀ i : grid4.Coords, EltTy.bits .f32 = 32 ∨ (Rect.block (s := S128x64) S128x64.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S64.size a ≤ S64.size a
  hwx4_12 : ∀ i : grid4.Coords, EltTy.bits .f32 = 32 ∨ (Rect.block (s := S64) S64.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S64x1.size a ≤ S64x1.size a
  hwx4_13 : ∀ i : grid4.Coords, EltTy.bits .f32 = 32 ∨ (Rect.block (s := S64x1) S64x1.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1.size a ≤ S1.size a
  hwx4_14 : ∀ i : grid4.Coords, EltTy.bits .f32 = 32 ∨ (Rect.block (s := S1) S1.size (cc4_transform_14 i) (hinb4_14 i)).WholeWords (EltTy.packing .f32)
  hstage4_15 : ∀ j, (stage4_15 j).IsWhole
  nbuf4_15 : grid4.bufCount reads4_15 false = 2
  hreads4_15 : ∀ i i' : grid4.Coords, (∀ a, reads4_15 a = true → i a = i' a) → cc4_transform_15 i = cc4_transform_15 i'
  hinb4_15 : ∀ (i : grid4.Coords) a, (cc4_transform_15 i a + 1) * S1x1x10000.size a ≤ S50x1x10000.size a
  hwx4_15 : ∀ i : grid4.Coords, EltTy.bits .f32 = 32 ∨ (Rect.block (s := S50x1x10000) S1x1x10000.size (cc4_transform_15 i) (hinb4_15 i)).WholeWords (EltTy.packing .f32)

variable [Facts₀]

def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v26) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v70) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v50) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v52) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v54) S128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v56) S128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v72) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v74) S128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v76) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v58) S128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v60) S128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v62) S128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v64) S128.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v77_0) S2000x128.size cc2_transform_20 reads2_20 true false 2 stage2_20 sem2_20
    hrank2 hreads2_20 hinb2_20 nbuf2_20 (Memref.isWhole_whole _) hwx2_20 hstage2_20

abbrev win2_21 : Pipeline.Window sig grid2 :=
  Pipeline.Window.ofSpec (Memref.whole main_v77_1) S2000x128.size cc2_transform_21 reads2_21 true false 2 stage2_21 sem2_21
    hrank2 hreads2_21 hinb2_21 nbuf2_21 (Memref.isWhole_whole _) hwx2_21 hstage2_21

abbrev win2 : Fin 22 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | ⟨_ + 22, h⟩ => absurd h (Nat.not_lt.2 (Nat.le_add_left _ _))
abbrev spec2 : Fin 22 → Pipeline.WinSpec sig grid2.rank := fun w => (win2 w).toWinSpec

abbrev win3_0 : Pipeline.Window sig grid3 :=
  Pipeline.Window.ofSpec (Memref.whole main_v88) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v99) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v77_1) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v26) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v117) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v119) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v121) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v101) S128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v103) S128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v105) S128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v107) S128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v123) S128x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v125) S128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v127) S128x128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v109) S128.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v111) S128.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v113) S128.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v115) S128.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v128_0) S2000x128.size cc3_transform_20 reads3_20 true false 2 stage3_20 sem3_20
    hrank3 hreads3_20 hinb3_20 nbuf3_20 (Memref.isWhole_whole _) hwx3_20 hstage3_20

abbrev win3_21 : Pipeline.Window sig grid3 :=
  Pipeline.Window.ofSpec (Memref.whole main_v128_1) S2000x128.size cc3_transform_21 reads3_21 true false 2 stage3_21 sem3_21
    hrank3 hreads3_21 hinb3_21 nbuf3_21 (Memref.isWhole_whole _) hwx3_21 hstage3_21

abbrev win3 : Fin 22 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | ⟨_ + 22, h⟩ => absurd h (Nat.not_lt.2 (Nat.le_add_left _ _))
abbrev spec3 : Fin 22 → Pipeline.WinSpec sig grid3.rank := fun w => (win3 w).toWinSpec

abbrev win4_0 : Pipeline.Window sig grid4 :=
  Pipeline.Window.ofSpec (Memref.whole main_v135) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v142) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v143) S10000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v144) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v145) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v146) S16x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg17) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg18) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg19) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg20) S128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_arg21) S128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg22) S128x64.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_arg23) S64.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg24) S64x1.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_arg25) S1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v147) S1x1x10000.size cc4_transform_15 reads4_15 true false 2 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S100000x32 : Shape := ⟨2, ![100000, 32]⟩
abbrev S500000x16 : Shape := ⟨2, ![500000, 16]⟩
abbrev S2x500000 : Shape := ⟨2, ![2, 500000]⟩
abbrev S32x128 : Shape := ⟨2, ![32, 128]⟩
abbrev S128 : Shape := ⟨1, ![128]⟩
abbrev S2x2x128x128 : Shape := ⟨4, ![2, 2, 128, 128]⟩
abbrev S2x2x128 : Shape := ⟨3, ![2, 2, 128]⟩
abbrev S272x128 : Shape := ⟨2, ![272, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x128 : Shape := ⟨2, ![100000, 128]⟩
abbrev S1x128 : Shape := ⟨2, ![1, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x1x128x128 : Shape := ⟨4, ![1, 1, 128, 128]⟩
abbrev S128x128 : Shape := ⟨2, ![128, 128]⟩
abbrev S1x1x128 : Shape := ⟨3, ![1, 1, 128]⟩
abbrev S500000x272 : Shape := ⟨2, ![500000, 272]⟩
abbrev S500000x64 : Shape := ⟨2, ![500000, 64]⟩
abbrev S1x64 : Shape := ⟨2, ![1, 64]⟩
abbrev S1x1 : Shape := ⟨2, ![1, 1]⟩

abbrev nBuf : Space → Nat
  | .hbm => 376
  | .vmem => 0
  | .smem => 0
  | _ => 0

abbrev hbmTy0_0 (i : Nat) : BufTy := match i % 128 with
  | 0 => ⟨S100000x32, .f32⟩
  | 1 => ⟨S100000x32, .f32⟩
  | 2 => ⟨S500000x16, .f32⟩
  | 3 => ⟨S2x500000, .i32⟩
  | 4 => ⟨S2x500000, .i32⟩
  | 5 => ⟨S32x128, .f32⟩
  | 6 => ⟨S128, .f32⟩
  | 7 => ⟨S32x128, .f32⟩
  | 8 => ⟨S128, .f32⟩
  | 9 => ⟨S2x2x128x128, .f32⟩
  | 10 => ⟨S2x2x128, .f32⟩
  | 11 => ⟨S2x2x128x128, .f32⟩
  | 12 => ⟨S2x2x128, .f32⟩
  | 13 => ⟨S2x2x128, .f32⟩
  | 14 => ⟨S2x2x128, .f32⟩
  | 15 => ⟨S2x2x128, .f32⟩
  | 16 => ⟨S272x128, .f32⟩
  | 17 => ⟨S128, .f32⟩
  | 18 => ⟨S128, .f32⟩
  | 19 => ⟨S128, .f32⟩
  | 20 => ⟨S128, .f32⟩
  | 21 => ⟨S128, .f32⟩
  | 22 => ⟨S128x64, .f32⟩
  | 23 => ⟨S64, .f32⟩
  | 24 => ⟨S64x1, .f32⟩
  | 25 => ⟨S1, .f32⟩
  | 26 => ⟨S100000x128, .f32⟩
  | 27 => ⟨S1x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x500000, .i32⟩
  | 35 => ⟨S500000, .i32⟩
  | 36 => ⟨S1x500000, .i32⟩
  | 37 => ⟨S500000, .i32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x128, .f32⟩
  | 47 => ⟨S_, .f32⟩
  | 48 => ⟨S100000x128, .f32⟩
  | 49 => ⟨S500000x1, .i32⟩
  | 50 => ⟨S100000x128, .f32⟩
  | 51 => ⟨S_, .f32⟩
  | 52 => ⟨S500000, .f32⟩
  | 53 => ⟨S_, .f32⟩
  | 54 => ⟨S100000, .f32⟩
  | 55 => ⟨S500000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S1x1x128x128, .f32⟩
  | 64 => ⟨S128x128, .f32⟩
  | 65 => ⟨S100000x128, .f32⟩
  | 66 => ⟨S1x1x128, .f32⟩
  | 67 => ⟨S128, .f32⟩
  | 68 => ⟨S1x128, .f32⟩
  | 69 => ⟨S100000x128, .f32⟩
  | 70 => ⟨S100000x128, .f32⟩
  | 71 => ⟨S1x1x128x128, .f32⟩
  | 72 => ⟨S128x128, .f32⟩
  | 73 => ⟨S100000x128, .f32⟩
  | 74 => ⟨S100000x128, .f32⟩
  | 75 => ⟨S1x500000, .i32⟩
  | 76 => ⟨S500000, .i32⟩
  | 77 => ⟨S1x500000, .i32⟩
  | 78 => ⟨S500000, .i32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x128, .f32⟩
  | 88 => ⟨S_, .f32⟩
  | 89 => ⟨S100000x128, .f32⟩
  | 90 => ⟨S500000x1, .i32⟩
  | 91 => ⟨S100000x128, .f32⟩
  | 92 => ⟨S_, .f32⟩
  | 93 => ⟨S500000, .f32⟩
  | 94 => ⟨S_, .f32⟩
  | 95 => ⟨S100000, .f32⟩
  | 96 => ⟨S500000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S1x1x128x128, .f32⟩
  | 105 => ⟨S128x128, .f32⟩
  | 106 => ⟨S100000x128, .f32⟩
  | 107 => ⟨S1x1x128, .f32⟩
  | 108 => ⟨S128, .f32⟩
  | 109 => ⟨S1x128, .f32⟩
  | 110 => ⟨S100000x128, .f32⟩
  | 111 => ⟨S100000x128, .f32⟩
  | 112 => ⟨S1x1x128x128, .f32⟩
  | 113 => ⟨S128x128, .f32⟩
  | 114 => ⟨S100000x128, .f32⟩
  | 115 => ⟨S100000x128, .f32⟩
  | 116 => ⟨S1x1x128, .f32⟩
  | 117 => ⟨S128, .f32⟩
  | 118 => ⟨S1x1x128, .f32⟩
  | 119 => ⟨S128, .f32⟩
  | 120 => ⟨S1x1x128, .f32⟩
  | 121 => ⟨S128, .f32⟩
  | 122 => ⟨S1x1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x32, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S1x1x128, .f32⟩
  | 17 => ⟨S128, .f32⟩
  | 18 => ⟨S1x1x128, .f32⟩
  | 19 => ⟨S128, .f32⟩
  | 20 => ⟨S1x1x128, .f32⟩
  | 21 => ⟨S128, .f32⟩
  | 22 => ⟨S1x1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S128, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S1x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S1x500000, .i32⟩
  | 45 => ⟨S500000, .i32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .f32⟩
  | 58 => ⟨S100000x128, .f32⟩
  | 59 => ⟨S500000x1, .i32⟩
  | 60 => ⟨S100000x128, .f32⟩
  | 61 => ⟨S_, .f32⟩
  | 62 => ⟨S500000, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S1x1x128x128, .f32⟩
  | 74 => ⟨S128x128, .f32⟩
  | 75 => ⟨S100000x128, .f32⟩
  | 76 => ⟨S1x1x128, .f32⟩
  | 77 => ⟨S128, .f32⟩
  | 78 => ⟨S1x128, .f32⟩
  | 79 => ⟨S100000x128, .f32⟩
  | 80 => ⟨S100000x128, .f32⟩
  | 81 => ⟨S1x1x128x128, .f32⟩
  | 82 => ⟨S128x128, .f32⟩
  | 83 => ⟨S100000x128, .f32⟩
  | 84 => ⟨S100000x128, .f32⟩
  | 85 => ⟨S1x500000, .i32⟩
  | 86 => ⟨S500000, .i32⟩
  | 87 => ⟨S1x500000, .i32⟩
  | 88 => ⟨S500000, .i32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000x128, .f32⟩
  | 98 => ⟨S_, .f32⟩
  | 99 => ⟨S100000x128, .f32⟩
  | 100 => ⟨S500000x1, .i32⟩
  | 101 => ⟨S100000x128, .f32⟩
  | 102 => ⟨S_, .f32⟩
  | 103 => ⟨S500000, .f32⟩
  | 104 => ⟨S_, .f32⟩
  | 105 => ⟨S100000, .f32⟩
  | 106 => ⟨S500000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S1x1x128x128, .f32⟩
  | 115 => ⟨S128x128, .f32⟩
  | 116 => ⟨S100000x128, .f32⟩
  | 117 => ⟨S1x1x128, .f32⟩
  | 118 => ⟨S128, .f32⟩
  | 119 => ⟨S1x128, .f32⟩
  | 120 => ⟨S100000x128, .f32⟩
  | 121 => ⟨S100000x128, .f32⟩
  | 122 => ⟨S1x1x128x128, .f32⟩
  | 123 => ⟨S128x128, .f32⟩
  | 124 => ⟨S100000x128, .f32⟩
  | 125 => ⟨S100000x128, .f32⟩
  | 126 => ⟨S1x1x128, .f32⟩
  | 127 => ⟨S128, .f32⟩
  | _ => ⟨S100000x32, .f32⟩

abbrev hbmTy0_2 (i : Nat) : BufTy := match i % 128 with
  | 0 => ⟨S1x1x128, .f32⟩
  | 1 => ⟨S128, .f32⟩
  | 2 => ⟨S1x1x128, .f32⟩
  | 3 => ⟨S128, .f32⟩
  | 4 => ⟨S1x1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S1x1x128, .f32⟩
  | 27 => ⟨S128, .f32⟩
  | 28 => ⟨S1x1x128, .f32⟩
  | 29 => ⟨S128, .f32⟩
  | 30 => ⟨S1x1x128, .f32⟩
  | 31 => ⟨S128, .f32⟩
  | 32 => ⟨S1x1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S128, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S100000x128, .f32⟩
  | 54 => ⟨S1x500000, .i32⟩
  | 55 => ⟨S500000, .i32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S1x500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x128, .f32⟩
  | 76 => ⟨S500000x272, .f32⟩
  | 77 => ⟨S500000x128, .f32⟩
  | 78 => ⟨S1x128, .f32⟩
  | 79 => ⟨S500000x128, .f32⟩
  | 80 => ⟨S500000x128, .f32⟩
  | 81 => ⟨S_, .f32⟩
  | 82 => ⟨S500000x128, .f32⟩
  | 83 => ⟨S500000x128, .f32⟩
  | 84 => ⟨S1x128, .f32⟩
  | 85 => ⟨S500000x128, .f32⟩
  | 86 => ⟨S500000x128, .f32⟩
  | 87 => ⟨S_, .f32⟩
  | 88 => ⟨S128, .f32⟩
  | 89 => ⟨S128, .f32⟩
  | 90 => ⟨S128, .f32⟩
  | 91 => ⟨S1x128, .f32⟩
  | 92 => ⟨S500000x128, .f32⟩
  | 93 => ⟨S500000x128, .f32⟩
  | 94 => ⟨S1x128, .f32⟩
  | 95 => ⟨S500000x128, .f32⟩
  | 96 => ⟨S500000x128, .f32⟩
  | 97 => ⟨S1x128, .f32⟩
  | 98 => ⟨S500000x128, .f32⟩
  | 99 => ⟨S500000x128, .f32⟩
  | 100 => ⟨S500000x64, .f32⟩
  | 101 => ⟨S1x64, .f32⟩
  | 102 => ⟨S500000x64, .f32⟩
  | 103 => ⟨S500000x64, .f32⟩
  | 104 => ⟨S_, .f32⟩
  | 105 => ⟨S500000x64, .f32⟩
  | 106 => ⟨S500000x64, .f32⟩
  | 107 => ⟨S500000x1, .f32⟩
  | 108 => ⟨S1x1, .f32⟩
  | 109 => ⟨S500000x1, .f32⟩
  | 110 => ⟨S500000x1, .f32⟩
  | 111 => ⟨S500000x1, .f32⟩
  | 112 => ⟨S500000x1, .f32⟩
  | 113 => ⟨S_, .f32⟩
  | 114 => ⟨S500000x1, .f32⟩
  | 115 => ⟨S500000x1, .f32⟩
  | 116 => ⟨S_, .f32⟩
  | 117 => ⟨S500000x1, .f32⟩
  | 118 => ⟨S500000x1, .f32⟩
  | 119 => ⟨S500000, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_cst_2 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_4 : Ref sig .tc := ⟨.hbm, 79, rfl⟩
abbrev main_v47 : Ref sig .tc := ⟨.hbm, 80, rfl⟩
abbrev main_v48 : Ref sig .tc := ⟨.hbm, 81, rfl⟩
abbrev main_c_5 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_7 : Ref sig .tc := ⟨.hbm, 92, rfl⟩
abbrev main_v57 : Ref sig .tc := ⟨.hbm, 93, rfl⟩
abbrev main_cst_8 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_10 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call0_cst : Ref sig .tc := ⟨.hbm, 140, rfl⟩
abbrev main_call0_v0 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_11 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call1_cst : Ref sig .tc := ⟨.hbm, 168, rfl⟩
abbrev main_call1_v0 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_12 : Ref sig .tc := ⟨.hbm, 176, rfl⟩
abbrev main_v132 : Ref sig .tc := ⟨.hbm, 177, rfl⟩
abbrev main_v133 : Ref sig .tc := ⟨.hbm, 178, rfl⟩
abbrev main_c_13 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_14 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_15 : Ref sig .tc := ⟨.hbm, 189, rfl⟩
abbrev main_v142 : Ref sig .tc := ⟨.hbm, 190, rfl⟩
abbrev main_cst_16 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_17 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_18 : Ref sig .tc := ⟨.hbm, 217, rfl⟩
abbrev main_v167 : Ref sig .tc := ⟨.hbm, 218, rfl⟩
abbrev main_v168 : Ref sig .tc := ⟨.hbm, 219, rfl⟩
abbrev main_c_19 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_20 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_cst_21 : Ref sig .tc := ⟨.hbm, 230, rfl⟩
abbrev main_v177 : Ref sig .tc := ⟨.hbm, 231, rfl⟩
abbrev main_cst_22 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_23 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_cst_24 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_call2_cst : Ref sig .tc := ⟨.hbm, 278, rfl⟩
abbrev main_call2_v0 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_cst_25 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_call3_cst : Ref sig .tc := ⟨.hbm, 306, rfl⟩
abbrev main_call3_v0 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_c_26 : Ref sig .tc := ⟨.hbm, 312, rfl⟩
abbrev main_v250 : Ref sig .tc := ⟨.hbm, 313, rfl⟩
abbrev main_v251 : Ref sig .tc := ⟨.hbm, 314, rfl⟩
abbrev main_c_27 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_c_28 : Ref sig .tc := ⟨.hbm, 323, rfl⟩
abbrev main_v259 : Ref sig .tc := ⟨.hbm, 324, rfl⟩
abbrev main_v260 : Ref sig .tc := ⟨.hbm, 325, rfl⟩
abbrev main_c_29 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_call4_cst : Ref sig .tc := ⟨.hbm, 337, rfl⟩
abbrev main_call4_v0 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_cst_30 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_v285 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_call5_cst : Ref sig .tc := ⟨.hbm, 360, rfl⟩
abbrev main_call5_v0 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_cst_31 : Ref sig .tc := ⟨.hbm, 369, rfl⟩
abbrev main_v298 : Ref sig .tc := ⟨.hbm, 370, rfl⟩
abbrev main_v299 : Ref sig .tc := ⟨.hbm, 371, rfl⟩
abbrev main_cst_32 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x2x128x128_S1x1x128x128_0_0_0_0 : S2x2x128x128.Slices ![0, 0, 0, 0] S1x1x128x128
  shapeCasts_S1x1x128x128_S128x128 : S1x1x128x128.ShapeCasts S128x128
  slices_S2x2x128_S1x1x128_0_0_0 : S2x2x128.Slices ![0, 0, 0] S1x1x128
  shapeCasts_S1x1x128_S128 : S1x1x128.ShapeCasts S128
  slices_S2x2x128x128_S1x1x128x128_0_1_0_0 : S2x2x128x128.Slices ![0, 1, 0, 0] S1x1x128x128
  slices_S2x2x128_S1x1x128_0_1_0 : S2x2x128.Slices ![0, 1, 0] S1x1x128
  bcast_S_S128 : S_.BroadcastsInDim S128 (![] : Fin 0 → Fin S128.rank)
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  concatenates_S500000x128_S500000x128_S500000x16_S500000x272_d1 : Shape.Concatenates [S500000x128, S500000x128, S500000x16] S500000x272 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  dot_S100000x32_S32x128_S100000x128_1_0_0_1_n_n_wf : DotDims.WF S100000x32 S32x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  dot_S500000x272_S272x128_S500000x128_1_0_0_1_n_n_wf : DotDims.WF S500000x272 S272x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S500000x272_S272x128_S500000x128_1_0_0_1_n_n : DotDims S500000x272 S272x128 S500000x128 where
  lhsContracting := [1]
  rhsContracting := [0]
  lhsNonContracting := [0]
  rhsNonContracting := [1]
  lhsBatch := []
  rhsBatch := []
  wf := dot_S500000x272_S272x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Spec.lean ====
import Idealize.ShloMosaic.PureOps.Ideal
import Idealize.ShloMosaic.Lib.ValueIdx

/-! # The network, stage by stage, as functions on the extended reals

Both programs compute a two-layer bipartite mean-aggregation network followed by an edge scorer. Its dense stages
are stated here index by index; the irregular stages between them (row gathers, accumulating scatters, parameter
slices) are the same host operations in both programs and are never opened.

* `lin`: an affine map `x W + b`.
* `bn`: evaluation-mode normalisation `(h - μ) · (v + ε)^(-1/2) · g + b`.
* `sage`: one node update. With `s` the summed neighbour rows, `inv` the reciprocal of the clamped in-degree and
  `h` the node's own row: `max (bn ((s · inv) Wl + bl + h Wr)) 0 + h`.
* `mlpRow`: the edge scorer on one edge `e`: the three-slab affine map of (source row, destination row, edge
  attributes), a rectifier, `bn`, an affine map and rectifier, an affine map to one logit, and the logistic
  function `1 / (1 + exp (-z))`. -/

noncomputable section

open scoped BigOperators

namespace Cert.Spec

open Idealize.ShloMosaic Idealize.ShloMosaic.ValueIdx

/-- A matrix and a vector of extended reals over literal extents. -/
abbrev Mat (M N : ℕ) := (⟨2, ![M, N]⟩ : Shape).Idx → EReal
abbrev Vec1 (N : ℕ) := (⟨1, ![N]⟩ : Shape).Idx → EReal

/-- The normalisation's ε (the binary value of the single-precision literal nearest 1e-5), zero and one. -/
abbrev eps : EReal := Ideal.ofBits .f32 0x3727C5AC#32
abbrev zero : EReal := Ideal.ofBits .f32 0x00000000#32
abbrev one : EReal := Ideal.ofBits .f32 0x3F800000#32

/-- `x W + b` at entry `i`. -/
def lin {M K N : ℕ} (x : Mat M K) (W : Mat K N) (b : Vec1 N) : Mat M N :=
  fun i => (∑ k : Fin K, x (ix2 (i 0) k) * W (ix2 k (i 1))) + b (ix1 (i 1))

/-- Evaluation-mode normalisation of one number. -/
def bn (h g b mu v : EReal) : EReal := (h - mu) * Ideal.rsqrt (v + eps) * g + b

/-- One node update at entry `i`: the mean of the neighbours (sum times reciprocal in-degree) through `Wl`, the bias,
    the node's own row through `Wr`, normalised, rectified, and the node's own entry added back. -/
def sage {M : ℕ} (s h : Mat M 128) (inv : Mat M 1) (Wl : Mat 128 128) (bl : Vec1 128) (Wr : Mat 128 128)
    (g b mu v : Vec1 128) : Mat M 128 :=
  fun i => max (bn ((∑ k : Fin 128, (s (ix2 (i 0) k) * inv (ix2 (i 0) 0)) * Wl (ix2 k (i 1))) + bl (ix1 (i 1))
      + ∑ k : Fin 128, h (ix2 (i 0) k) * Wr (ix2 k (i 1)))
    (g (ix1 (i 1))) (b (ix1 (i 1))) (mu (ix1 (i 1))) (v (ix1 (i 1)))) zero + h i

/-- The scorer's first layer on edge `e`, feature `j`: three slabs of one affine map, rectified, then normalised. -/
def mlpH1 {E : ℕ} (src dst : Mat E 128) (attr : Mat E 16) (W1s W1d : Mat 128 128) (W1a : Mat 16 128)
    (b1 g bb mu v : Vec1 128) (e : Fin E) (j : Fin 128) : EReal :=
  bn (max ((((∑ k : Fin 128, src (ix2 e k) * W1s (ix2 k j)) + ∑ k : Fin 128, dst (ix2 e k) * W1d (ix2 k j))
      + ∑ k : Fin 16, attr (ix2 e k) * W1a (ix2 k j)) + b1 (ix1 j)) zero)
    (g (ix1 j)) (bb (ix1 j)) (mu (ix1 j)) (v (ix1 j))

/-- The second layer from a row `h1` of first-layer features. -/
def mlpH2 (h1 : Fin 128 → EReal) (W2 : Mat 128 64) (b2 : Vec1 64) (j : Fin 64) : EReal :=
  max ((∑ k : Fin 128, h1 k * W2 (ix2 k j)) + b2 (ix1 j)) zero

/-- The logit of a row `h2` of second-layer features, through the logistic function. -/
def mlpOut (h2 : Fin 64 → EReal) (W3 : Mat 64 1) (b3 : Vec1 1) : EReal :=
  Ideal.div one (one + Ideal.exp (-((∑ k : Fin 64, h2 k * W3 (ix2 k 0)) + b3 (ix1 0))))

/-- The edge scorer on edge `e`. -/
def mlpRow {E : ℕ} (src dst : Mat E 128) (attr : Mat E 16) (W1s W1d : Mat 128 128) (W1a : Mat 16 128)
    (b1 g bb mu v : Vec1 128) (W2 : Mat 128 64) (b2 : Vec1 64) (W3 : Mat 64 1) (b3 : Vec1 1) (e : Fin E) : EReal :=
  mlpOut (fun j => mlpH2 (fun k => mlpH1 src dst attr W1s W1d W1a b1 g bb mu v e k) W2 b2 j) W3 b3

/-- Dividing by a non-zero extended real is multiplying by its reciprocal: `x / c = x · (1 / c)`. Both sides are
    `x · c⁻¹`. This is the one law between the two programs' mean aggregation. -/
theorem div_eq_mul_div_one (x c : EReal) (hc : c ≠ 0) : Ideal.div x c = x * Ideal.div 1 c := by
  rw [Ideal.div, if_neg hc, Ideal.div, if_neg hc, one_mul]

/-- A clamped in-degree `max n 1` is not zero. -/
theorem max_one_ne_zero (n : EReal) : max n (1 : EReal) ≠ 0 := by
  intro h
  have h1 : (1 : EReal) ≤ max n 1 := le_max_right _ _
  rw [h] at h1
  exact absurd h1 (by norm_num)

/-- A sum over the 272 columns of `[src | dst | attr]` splits into its three slabs. -/
theorem sum_split3 (f : Fin (128 + 128 + 16) → EReal) :
    ∑ k : Fin (128 + 128 + 16), f k
      = ((∑ k : Fin 128, f (Fin.castAdd 16 (Fin.castAdd 128 k))) + ∑ k : Fin 128, f (Fin.castAdd 16 (Fin.natAdd 128 k)))
        + ∑ k : Fin 16, f (Fin.natAdd (128 + 128) k) := by
  rw [Fin.sum_univ_add, Fin.sum_univ_add]

end Cert.Spec

end
-- ==== Proof.Net.lean ====
import proofs.«426788_j78829829750888_3_alg».proof.KernelIdeal
import proofs.«426788_j78829829750888_3_alg».proof.Proof.Gen.KernelIdeal
import proofs.«426788_j78829829750888_3_alg».proof.Proof.Spec

/-! # The whole network as one function of the twenty-six arguments

The dense stages are `Cert.Spec`'s; between them stand the irregular operations both programs share: a row of an
index table, a row index wrapped once into range and laid out as a column, an accumulating scatter of ones (the
in-degree), its clamp at one and reciprocal, a row gather, an accumulating scatter of gathered rows (the neighbour sum),
and slices of the stacked parameters. They are kept as whole-array operations and never read at an index. -/

noncomputable section

namespace Cert.KernelIdeal.Net

open Idealize.ShloMosaic Cert.KernelIdeal Cert.KernelIdeal.Facts₀ Cert.Spec

/-- Integer and real arrays of a literal shape. -/
abbrev IA (S : Shape) := (⟨S, .i32⟩ : BufTy).Contents (Elt Ideal)
abbrev FA (S : Shape) := FVec Ideal S .f32

/-- Row 0 (sources) and row 1 (destinations) of a [2, E] edge table. -/
def row0 (ei : IA S2x500000) : IA S500000 :=
  shapeCast S500000 (extractStridedSlice S1x500000 ![0, 0] ei slices_S2x500000_S1x500000_0_0) shapeCasts_S1x500000_S500000
def row1 (ei : IA S2x500000) : IA S500000 :=
  shapeCast S500000 (extractStridedSlice S1x500000 ![1, 0] ei slices_S2x500000_S1x500000_1_0) shapeCasts_S1x500000_S500000

/-- A row index, one period added when negative, as a column of gather indices. -/
def wrapCol (v : IA S500000) : IA S500000x1 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- A row index as a column of scatter indices. -/
def col (v : IA S500000) : IA S500000x1 := broadcastInDim S500000x1 ![0] bcast_S500000_S500000x1_0 v

/-- The in-degree of every node: ones accumulated at the destinations. -/
def deg (dst : IA S500000) : FA S100000 :=
  Host.scatterAdd scatter_S100000_S500000x1_S500000_n_0_0_1
    (broadcastInDim S100000 ![] bcast_S_S100000 (constant S_ .f32 0x00000000#32)) (col dst)
    (broadcastInDim S500000 ![] bcast_S_S500000 (constant S_ .f32 0x3F800000#32))

/-- The in-degree clamped below at one, as a column. -/
def degClamped (dst : IA S500000) : FA S100000x1 :=
  broadcastInDim S100000x1 ![0] bcast_S100000_S100000x1_0
    (maximumf (deg dst) (broadcastInDim S100000 ![] bcast_S_S100000 (constant S_ .f32 0x3F800000#32)))

/-- Its reciprocal. -/
def invDeg (dst : IA S500000) : FA S100000x1 :=
  Host.divf (broadcastInDim S100000x1 ![] bcast_S_S100000x1 (constant S_ .f32 0x3F800000#32)) (degClamped dst)

/-- The rows of `h` at the (wrapped) indices. -/
def rows (h : FA S100000x128) (idx : IA S500000) : FA S500000x128 :=
  Host.gather gather_S100000x128_S500000x1_S500000x128_1_0_n_n_0_1_1128 h (wrapCol idx)

/-- The sum, at every destination, of the source rows of its incoming edges. -/
def neighSum (h : FA S100000x128) (src dst : IA S500000) : FA S100000x128 :=
  Host.scatterAdd scatter_S100000x128_S500000x1_S500000x128_1_0_0_1
    (broadcastInDim S100000x128 ![] bcast_S_S100000x128 (constant S_ .f32 0x00000000#32)) (col dst) (rows h src)

/-- Entry `[l, t]` of a stacked [2, 2, 128] parameter. -/
def v00 (p : FA S2x2x128) : FA S128 :=
  shapeCast S128 (extractStridedSlice S1x1x128 ![0, 0, 0] p slices_S2x2x128_S1x1x128_0_0_0) shapeCasts_S1x1x128_S128
def v01 (p : FA S2x2x128) : FA S128 :=
  shapeCast S128 (extractStridedSlice S1x1x128 ![0, 1, 0] p slices_S2x2x128_S1x1x128_0_1_0) shapeCasts_S1x1x128_S128
def v10 (p : FA S2x2x128) : FA S128 :=
  shapeCast S128 (extractStridedSlice S1x1x128 ![1, 0, 0] p slices_S2x2x128_S1x1x128_1_0_0) shapeCasts_S1x1x128_S128
def v11 (p : FA S2x2x128) : FA S128 :=
  shapeCast S128 (extractStridedSlice S1x1x128 ![1, 1, 0] p slices_S2x2x128_S1x1x128_1_1_0) shapeCasts_S1x1x128_S128

/-- Entry `[l, t]` of a stacked [2, 2, 128, 128] parameter. -/
def m00 (p : FA S2x2x128x128) : FA S128x128 :=
  shapeCast S128x128 (extractStridedSlice S1x1x128x128 ![0, 0, 0, 0] p slices_S2x2x128x128_S1x1x128x128_0_0_0_0) shapeCasts_S1x1x128x128_S128x128
def m01 (p : FA S2x2x128x128) : FA S128x128 :=
  shapeCast S128x128 (extractStridedSlice S1x1x128x128 ![0, 1, 0, 0] p slices_S2x2x128x128_S1x1x128x128_0_1_0_0) shapeCasts_S1x1x128x128_S128x128
def m10 (p : FA S2x2x128x128) : FA S128x128 :=
  shapeCast S128x128 (extractStridedSlice S1x1x128x128 ![1, 0, 0, 0] p slices_S2x2x128x128_S1x1x128x128_1_0_0_0) shapeCasts_S1x1x128x128_S128x128
def m11 (p : FA S2x2x128x128) : FA S128x128 :=
  shapeCast S128x128 (extractStridedSlice S1x1x128x128 ![1, 1, 0, 0] p slices_S2x2x128x128_S1x1x128x128_1_1_0_0) shapeCasts_S1x1x128x128_S128x128

/-- The three row slabs of the scorer's first weight matrix. -/
def w1s (p : FA S272x128) : FA S128x128 := extractStridedSlice S128x128 ![0, 0] p slices_S272x128_S128x128_0_0
def w1d (p : FA S272x128) : FA S128x128 := extractStridedSlice S128x128 ![128, 0] p slices_S272x128_S128x128_128_0
def w1a (p : FA S272x128) : FA S16x128 := extractStridedSlice S16x128 ![256, 0] p slices_S272x128_S16x128_256_0

section Whole

variable (xU xR : FA S100000x32) (eA : FA S500000x16) (eUT eRU : IA S2x500000)
  (pUW : FA S32x128) (pUb : FA S128) (pRW : FA S32x128) (pRb : FA S128)
  (sWl : FA S2x2x128x128) (sbl : FA S2x2x128) (sWr : FA S2x2x128x128) (bg bb bm bv : FA S2x2x128)
  (eW1 : FA S272x128) (eb1 eg ebb em ev : FA S128) (eW2 : FA S128x64) (eb2 : FA S64) (eW3 : FA S64x1) (eb3 : FA S1)

/-- The projected node features. -/
def hU0 : FA S100000x128 := lin xU pUW pUb
def hR0 : FA S100000x128 := lin xR pRW pRb

/-- After the first layer. -/
def hR1 : FA S100000x128 :=
  sage (neighSum (hU0 xU pUW pUb) (row0 eUT) (row1 eUT)) (hR0 xR pRW pRb) (invDeg (row1 eUT))
    (m00 sWl) (v00 sbl) (m00 sWr) (v01 bg) (v01 bb) (v01 bm) (v01 bv)
def hU1 : FA S100000x128 :=
  sage (neighSum (hR0 xR pRW pRb) (row0 eRU) (row1 eRU)) (hU0 xU pUW pUb) (invDeg (row1 eRU))
    (m01 sWl) (v01 sbl) (m01 sWr) (v00 bg) (v00 bb) (v00 bm) (v00 bv)

/-- After the second layer. -/
def hR2 : FA S100000x128 :=
  sage (neighSum (hU1 xU xR eRU pUW pUb pRW pRb sWl sbl sWr bg bb bm bv) (row0 eUT) (row1 eUT))
    (hR1 xU xR eUT pUW pUb pRW pRb sWl sbl sWr bg bb bm bv) (invDeg (row1 eUT))
    (m10 sWl) (v10 sbl) (m10 sWr) (v11 bg) (v11 bb) (v11 bm) (v11 bv)
def hU2 : FA S100000x128 :=
  sage (neighSum (hR1 xU xR eUT pUW pUb pRW pRb sWl sbl sWr bg bb bm bv) (row0 eRU) (row1 eRU))
    (hU1 xU xR eRU pUW pUb pRW pRb sWl sbl sWr bg bb bm bv) (invDeg (row1 eRU))
    (m11 sWl) (v11 sbl) (m11 sWr) (v10 bg) (v10 bb) (v10 bm) (v10 bv)

/-- The score of every edge of the first edge type. -/
def out : FA S500000 := fun j =>
  mlpRow (rows (hU2 xU xR eUT eRU pUW pUb pRW pRb sWl sbl sWr bg bb bm bv) (row0 eUT))
    (rows (hR2 xU xR eUT eRU pUW pUb pRW pRb sWl sbl sWr bg bb bm bv) (row1 eUT)) eA
    (w1s eW1) (w1d eW1) (w1a eW1) eb1 eg ebb em ev eW2 eb2 eW3 eb3 (j 0)

end Whole

end Cert.KernelIdeal.Net

end
-- ==== Proof.EdgeIdx.lean ====
import Idealize.ShloMosaic.Lib.ValueIdx

namespace Cert.Spec

/-- The edge numbered `t * 10000 + q`: entry `q` of the `t`-th block of ten thousand edges. -/
def edgeOf (t : Fin 50) (q : Fin 10000) : Fin 500000 :=
  ⟨t.val * 10000 + q.val, by have := t.isLt; have := q.isLt; omega⟩

@[simp] theorem edgeOf_val (t : Fin 50) (q : Fin 10000) : (edgeOf t q).val = t.val * 10000 + q.val := rfl

end Cert.Spec
-- ==== Proof.LibBlocks.lean ====
import Idealize.ShloMosaic.Lib.Pipeline.Value
import Idealize.ShloMosaic.Lib.ValueIdx

noncomputable section

/-! # Blocks laid end to end

A `[B, 1, T]` array cast to a vector of `N` entries reads, at position `t * T + q`, the operand at `(t, 0, q)`: both
indices have the same row-major position. -/

namespace Cert.Blocks

open Idealize.ShloMosaic Idealize.ShloMosaic.ValueIdx

/-- Entry `t * T + q` of the flattened array is entry `(t, 0, q)` of the blocked one. -/
theorem shapeCast_b1t_flat_apply {B T N : ℕ} {α : Type} (x : (⟨3, ![B, 1, T]⟩ : Shape).Idx → α)
    (h : (⟨3, ![B, 1, T]⟩ : Shape).ShapeCasts ⟨1, ![N]⟩) (t : Fin B) (q : Fin T) (j : Fin N)
    (hj : j.val = t.val * T + q.val) :
    shapeCast ⟨1, ![N]⟩ x h (ix1 j) = x (ix3 t (0 : Fin 1) q) :=
  shapeCast_apply x h _ _ (by
    rw [Shape.rowMajor_val_three, Shape.rowMajor_val_one]
    show (t.val * 1 + 0) * T + q.val = j.val
    rw [hj, Nat.mul_one, Nat.add_zero])

end Cert.Blocks

end
-- ==== Proof.KG2.lean ====
import proofs.«426788_j78829829750888_3_alg».proof.Proof.Gen.KernelIdeal.Frame
import proofs.«426788_j78829829750888_3_alg».proof.Proof.Net
import Idealize.ShloMosaic.Lib.StableHlo.Run

/-! # Between the projections and the first layer

What the first layer's region finds in each array it reads, as the shared host operations applied to what the two
projection regions left: index rows, reciprocal degrees, neighbour sums (the gathered half-precision rows widened:
the identity on the extended reals) and the first layer's parameter slices. -/

set_option maxRecDepth 16384

noncomputable section

open Idealize.ShloMosaic Idealize.ShloMosaic.TcCoe Idealize.SL.Sem

namespace Cert.KernelIdeal.Hand

open Cert.KernelIdeal Cert.KernelIdeal.Gen Cert.KernelIdeal.Facts₀

variable (m : (ℓ : Loc nD τ sig) → Buf (Elt Ideal) ℓ) (ρ : Dev nD → PrngReg)

set_option maxHeartbeats 4000000 in
/-- Sources of the first edge type. -/
theorem W3_v3 (c : Dev nD) : W3 m ρ c (Proc.devRef .tc main_v3) = Net.row0 (W2 m ρ c (Proc.devRef .tc main_arg3)) := by
  show StableHlo.after hostOps2 (W2 m ρ c) (Proc.devRef .tc main_v3) = _
  simp only [hostOps2]
  after_results_simp
  rfl

set_option maxHeartbeats 4000000 in
/-- Destinations of the first edge type. -/
theorem W3_v5 (c : Dev nD) : W3 m ρ c (Proc.devRef .tc main_v5) = Net.row1 (W2 m ρ c (Proc.devRef .tc main_arg3)) := by
  show StableHlo.after hostOps2 (W2 m ρ c) (Proc.devRef .tc main_v5) = _
  simp only [hostOps2]
  after_results_simp
  rfl

set_option maxHeartbeats 4000000 in
/-- Sources of the second edge type. -/
theorem W3_v7 (c : Dev nD) : W3 m ρ c (Proc.devRef .tc main_v7) = Net.row0 (W2 m ρ c (Proc.devRef .tc main_arg4)) := by
  show StableHlo.after hostOps2 (W2 m ρ c) (Proc.devRef .tc main_v7) = _
  simp only [hostOps2]
  after_results_simp
  rfl

set_option maxHeartbeats 4000000 in
/-- Destinations of the second edge type. -/
theorem W3_v9 (c : Dev nD) : W3 m ρ c (Proc.devRef .tc main_v9) = Net.row1 (W2 m ρ c (Proc.devRef .tc main_arg4)) := by
  show StableHlo.after hostOps2 (W2 m ρ c) (Proc.devRef .tc main_v9) = _
  simp only [hostOps2]
  after_results_simp
  rfl

set_option maxHeartbeats 4000000 in
/-- Reciprocal clamped in-degree of the recipients. -/
theorem W3_v24 (c : Dev nD) : W3 m ρ c (Proc.devRef .tc main_v24) = Net.invDeg (Net.row1 (W2 m ρ c (Proc.devRef .tc main_arg3))) := by
  show StableHlo.after hostOps2 (W2 m ρ c) (Proc.devRef .tc main_v24) = _
  simp only [hostOps2]
  after_results_simp
  rfl

set_option maxHeartbeats 4000000 in
/-- Reciprocal clamped in-degree of the users. -/
theorem W3_v26 (c : Dev nD) : W3 m ρ c (Proc.devRef .tc main_v26) = Net.invDeg (Net.row1 (W2 m ρ c (Proc.devRef .tc main_arg4))) := by
  show StableHlo.after hostOps2 (W2 m ρ c) (Proc.devRef .tc main_v26) = _
  simp only [hostOps2]
  after_results_simp
  rfl

set_option maxHeartbeats 4000000 in
/-- User rows summed at the recipients. -/
theorem W3_v37 (c : Dev nD) : W3 m ρ c (Proc.devRef .tc main_v37) = Net.neighSum (W2 m ρ c (Proc.devRef .tc main_v0)) (Net.row0 (W2 m ρ c (Proc.devRef .tc main_arg3))) (Net.row1 (W2 m ρ c (Proc.devRef .tc main_arg3))) := by
  show StableHlo.after hostOps2 (W2 m ρ c) (Proc.devRef .tc main_v37) = _
  simp only [hostOps2]
  after_results_simp
  rfl

set_option maxHeartbeats 4000000 in
/-- Recipient rows summed at the users. -/
theorem W3_v48 (c : Dev nD) : W3 m ρ c (Proc.devRef .tc main_v48) = Net.neighSum (W2 m ρ c (Proc.devRef .tc main_v1)) (Net.row0 (W2 m ρ c (Proc.devRef .tc main_arg4))) (Net.row1 (W2 m ρ c (Proc.devRef .tc main_arg4))) := by
  show StableHlo.after hostOps2 (W2 m ρ c) (Proc.devRef .tc main_v48) = _
  simp only [hostOps2]
  after_results_simp
  rfl

set_option maxHeartbeats 4000000 in
/-- A first-layer parameter slice. -/
theorem W3_v50 (c : Dev nD) : W3 m ρ c (Proc.devRef .tc main_v50) = Net.v01 (W2 m ρ c (Proc.devRef .tc main_arg12)) := by
  show StableHlo.after hostOps2 (W2 m ρ c) (Proc.devRef .tc main_v50) = _
  simp only [hostOps2]
  after_results_simp
  rfl

set_option maxHeartbeats 4000000 in
/-- A first-layer parameter slice. -/
theorem W3_v52 (c : Dev nD) : W3 m ρ c (Proc.devRef .tc main_v52) = Net.v01 (W2 m ρ c (Proc.devRef .tc main_arg13)) := by
  show StableHlo.after hostOps2 (W2 m ρ c) (Proc.devRef .tc main_v52) = _
  simp only [hostOps2]
  after_results_simp
  rfl

set_option maxHeartbeats 4000000 in
/-- A first-layer parameter slice. -/
theorem W3_v54 (c : Dev nD) : W3 m ρ c (Proc.devRef .tc main_v54) = Net.v01 (W2 m ρ c (Proc.devRef .tc main_arg14)) := by
  show StableHlo.after hostOps2 (W2 m ρ c) (Proc.devRef .tc main_v54) = _
  simp only [hostOps2]
  after_results_simp
  rfl

set_option maxHeartbeats 4000000 in
/-- A first-layer parameter slice. -/
theorem W3_v56 (c : Dev nD) : W3 m ρ c (Proc.devRef .tc main_v56) = Net.v01 (W2 m ρ c (Proc.devRef .tc main_arg15)) := by
  show StableHlo.after hostOps2 (W2 m ρ c) (Proc.devRef .tc main_v56) = _
  simp only [hostOps2]
  after_results_simp
  rfl

set_option maxHeartbeats 4000000 in
/-- A first-layer parameter slice. -/
theorem W3_v58 (c : Dev nD) : W3 m ρ c (Proc.devRef .tc main_v58) = Net.v00 (W2 m ρ c (Proc.devRef .tc main_arg12)) := by
  show StableHlo.after hostOps2 (W2 m ρ c) (Proc.devRef .tc main_v58) = _
  simp only [hostOps2]
  after_results_simp
  rfl

set_option maxHeartbeats 4000000 in
/-- A first-layer parameter slice. -/
theorem W3_v60 (c : Dev nD) : W3 m ρ c (Proc.devRef .tc main_v60) = Net.v00 (W2 m ρ c (Proc.devRef .tc main_arg13)) := by
  show StableHlo.after hostOps2 (W2 m ρ c) (Proc.devRef .tc main_v60) = _
  simp only [hostOps2]
  after_results_simp
  rfl

set_option maxHeartbeats 4000000 in
/-- A first-layer parameter slice. -/
theorem W3_v62 (c : Dev nD) : W3 m ρ c (Proc.devRef .tc main_v62) = Net.v00 (W2 m ρ c (Proc.devRef .tc main_arg14)) := by
  show StableHlo.after hostOps2 (W2 m ρ c) (Proc.devRef .tc main_v62) = _
  simp only [hostOps2]
  after_results_simp
  rfl

set_option maxHeartbeats 4000000 in
/-- A first-layer parameter slice. -/
theorem W3_v64 (c : Dev nD) : W3 m ρ c (Proc.devRef .tc main_v64) = Net.v00 (W2 m ρ c (Proc.devRef .tc main_arg15)) := by
  show StableHlo.after hostOps2 (W2 m ρ c) (Proc.devRef .tc main_v64) = _
  simp only [hostOps2]
  after_results_simp
  rfl

set_option maxHeartbeats 4000000 in
/-- A first-layer parameter slice. -/
theorem W3_v66 (c : Dev nD) : W3 m ρ c (Proc.devRef .tc main_v66) = Net.m00 (W2 m ρ c (Proc.devRef .tc main_arg9)) := by
  show StableHlo.after hostOps2 (W2 m ρ c) (Proc.devRef .tc main_v66) = _
  simp only [hostOps2]
  after_results_simp
  rfl

set_option maxHeartbeats 4000000 in
/-- A first-layer parameter slice. -/
theorem W3_v68 (c : Dev nD) : W3 m ρ c (Proc.devRef .tc main_v68) = Net.v00 (W2 m ρ c (Proc.devRef .tc main_arg10)) := by
  show StableHlo.after hostOps2 (W2 m ρ c) (Proc.devRef .tc main_v68) = _
  simp only [hostOps2]
  after_results_simp
  rfl

set_option maxHeartbeats 4000000 in
/-- A first-layer parameter slice. -/
theorem W3_v70 (c : Dev nD) : W3 m ρ c (Proc.devRef .tc main_v70) = Net.m00 (W2 m ρ c (Proc.devRef .tc main_arg11)) := by
  show StableHlo.after hostOps2 (W2 m ρ c) (Proc.devRef .tc main_v70) = _
  simp only [hostOps2]
  after_results_simp
  rfl

set_option maxHeartbeats 4000000 in
/-- A first-layer parameter slice. -/
theorem W3_v72 (c : Dev nD) : W3 m ρ c (Proc.devRef .tc main_v72) = Net.m01 (W2 m ρ c (Proc.devRef .tc main_arg9)) := by
  show StableHlo.after hostOps2 (W2 m ρ c) (Proc.devRef .tc main_v72) = _
  simp only [hostOps2]
  after_results_simp
  rfl

set_option maxHeartbeats 4000000 in
/-- A first-layer parameter slice. -/
theorem W3_v74 (c : Dev nD) : W3 m ρ c (Proc.devRef .tc main_v74) = Net.v01 (W2 m ρ c (Proc.devRef .tc main_arg10)) := by
  show StableHlo.after hostOps2 (W2 m ρ c) (Proc.devRef .tc main_v74) = _
  simp only [hostOps2]
  after_results_simp
  rfl

set_option maxHeartbeats 4000000 in
/-- A first-layer parameter slice. -/
theorem W3_v76 (c : Dev nD) : W3 m ρ c (Proc.devRef .tc main_v76) = Net.m01 (W2 m ρ c (Proc.devRef .tc main_arg11)) := by
  show StableHlo.after hostOps2 (W2 m ρ c) (Proc.devRef .tc main_v76) = _
  simp only [hostOps2]
  after_results_simp
  rfl

end Cert.KernelIdeal.Hand

end
-- ==== Proof.KG3.lean ====
import proofs.«426788_j78829829750888_3_alg».proof.Proof.Gen.KernelIdeal.Frame
import proofs.«426788_j78829829750888_3_alg».proof.Proof.Net
import Idealize.ShloMosaic.Lib.StableHlo.Run

/-! # Between the two layers

What the second layer's region finds in the arrays the host operations between the layers write: the neighbour sums
of the first layer's outputs and the second layer's parameter slices. -/

set_option maxRecDepth 16384

noncomputable section

open Idealize.ShloMosaic Idealize.ShloMosaic.TcCoe Idealize.SL.Sem

namespace Cert.KernelIdeal.Hand

open Cert.KernelIdeal Cert.KernelIdeal.Gen Cert.KernelIdeal.Facts₀

variable (m : (ℓ : Loc nD τ sig) → Buf (Elt Ideal) ℓ) (ρ : Dev nD → PrngReg)

set_option maxHeartbeats 4000000 in
/-- First-layer user rows summed at the recipients. -/
theorem W5_v88 (c : Dev nD) : W5 m ρ c (Proc.devRef .tc main_v88) = Net.neighSum (W4 m ρ c (Proc.devRef .tc main_v77_1)) (W4 m ρ c (Proc.devRef .tc main_v3)) (W4 m ρ c (Proc.devRef .tc main_v5)) := by
  show StableHlo.after hostOps3 (W4 m ρ c) (Proc.devRef .tc main_v88) = _
  simp only [hostOps3]
  after_results_simp
  rfl

set_option maxHeartbeats 4000000 in
/-- First-layer recipient rows summed at the users. -/
theorem W5_v99 (c : Dev nD) : W5 m ρ c (Proc.devRef .tc main_v99) = Net.neighSum (W4 m ρ c (Proc.devRef .tc main_v77_0)) (W4 m ρ c (Proc.devRef .tc main_v7)) (W4 m ρ c (Proc.devRef .tc main_v9)) := by
  show StableHlo.after hostOps3 (W4 m ρ c) (Proc.devRef .tc main_v99) = _
  simp only [hostOps3]
  after_results_simp
  rfl

set_option maxHeartbeats 4000000 in
/-- A second-layer parameter slice. -/
theorem W5_v101 (c : Dev nD) : W5 m ρ c (Proc.devRef .tc main_v101) = Net.v11 (W4 m ρ c (Proc.devRef .tc main_arg12)) := by
  show StableHlo.after hostOps3 (W4 m ρ c) (Proc.devRef .tc main_v101) = _
  simp only [hostOps3]
  after_results_simp
  rfl

set_option maxHeartbeats 4000000 in
/-- A second-layer parameter slice. -/
theorem W5_v103 (c : Dev nD) : W5 m ρ c (Proc.devRef .tc main_v103) = Net.v11 (W4 m ρ c (Proc.devRef .tc main_arg13)) := by
  show StableHlo.after hostOps3 (W4 m ρ c) (Proc.devRef .tc main_v103) = _
  simp only [hostOps3]
  after_results_simp
  rfl

set_option maxHeartbeats 4000000 in
/-- A second-layer parameter slice. -/
theorem W5_v105 (c : Dev nD) : W5 m ρ c (Proc.devRef .tc main_v105) = Net.v11 (W4 m ρ c (Proc.devRef .tc main_arg14)) := by
  show StableHlo.after hostOps3 (W4 m ρ c) (Proc.devRef .tc main_v105) = _
  simp only [hostOps3]
  after_results_simp
  rfl

set_option maxHeartbeats 4000000 in
/-- A second-layer parameter slice. -/
theorem W5_v107 (c : Dev nD) : W5 m ρ c (Proc.devRef .tc main_v107) = Net.v11 (W4 m ρ c (Proc.devRef .tc main_arg15)) := by
  show StableHlo.after hostOps3 (W4 m ρ c) (Proc.devRef .tc main_v107) = _
  simp only [hostOps3]
  after_results_simp
  rfl

set_option maxHeartbeats 4000000 in
/-- A second-layer parameter slice. -/
theorem W5_v109 (c : Dev nD) : W5 m ρ c (Proc.devRef .tc main_v109) = Net.v10 (W4 m ρ c (Proc.devRef .tc main_arg12)) := by
  show StableHlo.after hostOps3 (W4 m ρ c) (Proc.devRef .tc main_v109) = _
  simp only [hostOps3]
  after_results_simp
  rfl

set_option maxHeartbeats 4000000 in
/-- A second-layer parameter slice. -/
theorem W5_v111 (c : Dev nD) : W5 m ρ c (Proc.devRef .tc main_v111) = Net.v10 (W4 m ρ c (Proc.devRef .tc main_arg13)) := by
  show StableHlo.after hostOps3 (W4 m ρ c) (Proc.devRef .tc main_v111) = _
  simp only [hostOps3]
  after_results_simp
  rfl

set_option maxHeartbeats 4000000 in
/-- A second-layer parameter slice. -/
theorem W5_v113 (c : Dev nD) : W5 m ρ c (Proc.devRef .tc main_v113) = Net.v10 (W4 m ρ c (Proc.devRef .tc main_arg14)) := by
  show StableHlo.after hostOps3 (W4 m ρ c) (Proc.devRef .tc main_v113) = _
  simp only [hostOps3]
  after_results_simp
  rfl

set_option maxHeartbeats 4000000 in
/-- A second-layer parameter slice. -/
theorem W5_v115 (c : Dev nD) : W5 m ρ c (Proc.devRef .tc main_v115) = Net.v10 (W4 m ρ c (Proc.devRef .tc main_arg15)) := by
  show StableHlo.after hostOps3 (W4 m ρ c) (Proc.devRef .tc main_v115) = _
  simp only [hostOps3]
  after_results_simp
  rfl

set_option maxHeartbeats 4000000 in
/-- A second-layer parameter slice. -/
theorem W5_v117 (c : Dev nD) : W5 m ρ c (Proc.devRef .tc main_v117) = Net.m10 (W4 m ρ c (Proc.devRef .tc main_arg9)) := by
  show StableHlo.after hostOps3 (W4 m ρ c) (Proc.devRef .tc main_v117) = _
  simp only [hostOps3]
  after_results_simp
  rfl

set_option maxHeartbeats 4000000 in
/-- A second-layer parameter slice. -/
theorem W5_v119 (c : Dev nD) : W5 m ρ c (Proc.devRef .tc main_v119) = Net.v10 (W4 m ρ c (Proc.devRef .tc main_arg10)) := by
  show StableHlo.after hostOps3 (W4 m ρ c) (Proc.devRef .tc main_v119) = _
  simp only [hostOps3]
  after_results_simp
  rfl

set_option maxHeartbeats 4000000 in
/-- A second-layer parameter slice. -/
theorem W5_v121 (c : Dev nD) : W5 m ρ c (Proc.devRef .tc main_v121) = Net.m10 (W4 m ρ c (Proc.devRef .tc main_arg11)) := by
  show StableHlo.after hostOps3 (W4 m ρ c) (Proc.devRef .tc main_v121) = _
  simp only [hostOps3]
  after_results_simp
  rfl

set_option maxHeartbeats 4000000 in
/-- A second-layer parameter slice. -/
theorem W5_v123 (c : Dev nD) : W5 m ρ c (Proc.devRef .tc main_v123) = Net.m11 (W4 m ρ c (Proc.devRef .tc main_arg9)) := by
  show StableHlo.after hostOps3 (W4 m ρ c) (Proc.devRef .tc main_v123) = _
  simp only [hostOps3]
  after_results_simp
  rfl

set_option maxHeartbeats 4000000 in
/-- A second-layer parameter slice. -/
theorem W5_v125 (c : Dev nD) : W5 m ρ c (Proc.devRef .tc main_v125) = Net.v11 (W4 m ρ c (Proc.devRef .tc main_arg10)) := by
  show StableHlo.after hostOps3 (W4 m ρ c) (Proc.devRef .tc main_v125) = _
  simp only [hostOps3]
  after_results_simp
  rfl

set_option maxHeartbeats 4000000 in
/-- A second-layer parameter slice. -/
theorem W5_v127 (c : Dev nD) : W5 m ρ c (Proc.devRef .tc main_v127) = Net.m11 (W4 m ρ c (Proc.devRef .tc main_arg11)) := by
  show StableHlo.after hostOps3 (W4 m ρ c) (Proc.devRef .tc main_v127) = _
  simp only [hostOps3]
  after_results_simp
  rfl

end Cert.KernelIdeal.Hand

end
-- ==== Proof.KG4.lean ====
import proofs.«426788_j78829829750888_3_alg».proof.Proof.Gen.KernelIdeal.Frame
import proofs.«426788_j78829829750888_3_alg».proof.Proof.Net
import Idealize.ShloMosaic.Lib.StableHlo.Run

/-! # After the second layer

What the scorer's region finds in the arrays the host operations before it write (the gathered source and destination
rows, the edge attributes narrowed to half precision, which is the identity on the extended reals, and the three row slabs of the
first weight matrix), and the final reshape of the scorer's output. -/

set_option maxRecDepth 16384

noncomputable section

open Idealize.ShloMosaic Idealize.ShloMosaic.TcCoe Idealize.SL.Sem

namespace Cert.KernelIdeal.Hand

open Cert.KernelIdeal Cert.KernelIdeal.Gen Cert.KernelIdeal.Facts₀

variable (m : (ℓ : Loc nD τ sig) → Buf (Elt Ideal) ℓ) (ρ : Dev nD → PrngReg)

set_option maxHeartbeats 4000000 in
/-- Second-layer user rows at the edges' sources. -/
theorem W7_v135 (c : Dev nD) : W7 m ρ c (Proc.devRef .tc main_v135) = Net.rows (W6 m ρ c (Proc.devRef .tc main_v128_1)) (W6 m ρ c (Proc.devRef .tc main_v3)) := by
  show StableHlo.after hostOps4 (W6 m ρ c) (Proc.devRef .tc main_v135) = _
  simp only [hostOps4]
  after_results_simp
  rfl

set_option maxHeartbeats 4000000 in
/-- Second-layer recipient rows at the edges' destinations. -/
theorem W7_v142 (c : Dev nD) : W7 m ρ c (Proc.devRef .tc main_v142) = Net.rows (W6 m ρ c (Proc.devRef .tc main_v128_0)) (W6 m ρ c (Proc.devRef .tc main_v5)) := by
  show StableHlo.after hostOps4 (W6 m ρ c) (Proc.devRef .tc main_v142) = _
  simp only [hostOps4]
  after_results_simp
  rfl

set_option maxHeartbeats 4000000 in
/-- The edge attributes. -/
theorem W7_v143 (c : Dev nD) : W7 m ρ c (Proc.devRef .tc main_v143) = (W6 m ρ c (Proc.devRef .tc main_arg2) : Net.FA S500000x16) := by
  show StableHlo.after hostOps4 (W6 m ρ c) (Proc.devRef .tc main_v143) = _
  simp only [hostOps4]
  after_results_simp
  rfl

set_option maxHeartbeats 4000000 in
/-- Rows 0 to 127 of the first weight matrix. -/
theorem W7_v144 (c : Dev nD) : W7 m ρ c (Proc.devRef .tc main_v144) = Net.w1s (W6 m ρ c (Proc.devRef .tc main_arg16)) := by
  show StableHlo.after hostOps4 (W6 m ρ c) (Proc.devRef .tc main_v144) = _
  simp only [hostOps4]
  after_results_simp
  rfl

set_option maxHeartbeats 4000000 in
/-- Rows 128 to 255 of the first weight matrix. -/
theorem W7_v145 (c : Dev nD) : W7 m ρ c (Proc.devRef .tc main_v145) = Net.w1d (W6 m ρ c (Proc.devRef .tc main_arg16)) := by
  show StableHlo.after hostOps4 (W6 m ρ c) (Proc.devRef .tc main_v145) = _
  simp only [hostOps4]
  after_results_simp
  rfl

set_option maxHeartbeats 4000000 in
/-- Rows 256 to 271 of the first weight matrix. -/
theorem W7_v146 (c : Dev nD) : W7 m ρ c (Proc.devRef .tc main_v146) = Net.w1a (W6 m ρ c (Proc.devRef .tc main_arg16)) := by
  show StableHlo.after hostOps4 (W6 m ρ c) (Proc.devRef .tc main_v146) = _
  simp only [hostOps4]
  after_results_simp
  rfl

set_option maxHeartbeats 4000000 in
/-- The result: the scorer's blocks laid end to end. -/
theorem W9_v148 (c : Dev nD) : W9 m ρ c (Proc.devRef .tc main_v148) = shapeCast S500000 (W8 m ρ c (Proc.devRef .tc main_v147)) Facts₀.shapeCasts_S50x1x10000_S500000 := by
  show StableHlo.after hostOps5 (W8 m ρ c) (Proc.devRef .tc main_v148) = _
  simp only [hostOps5]
  after_results_simp
  rfl

end Cert.KernelIdeal.Hand

end
-- ==== Proof.KKeep.lean ====
import proofs.«426788_j78829829750888_3_alg».proof.Proof.Gen.KernelIdeal.Frame
import proofs.«426788_j78829829750888_3_alg».proof.Proof.Net
import Idealize.ShloMosaic.Lib.StableHlo.Run

/-! # What is kept across the program's boundaries

No host operation and no region writes an argument array, a region writes only its output arrays, and a host stretch
only its own results: so an argument read at any boundary is the launch contents, and an intermediate array read
later is what it was when written. -/

set_option maxRecDepth 16384

noncomputable section

open Idealize.ShloMosaic Idealize.ShloMosaic.TcCoe Idealize.SL.Sem

namespace Cert.KernelIdeal.Hand

open Cert.KernelIdeal Cert.KernelIdeal.Gen Cert.KernelIdeal.Facts₀

/-- A buffer no operation of a host stretch writes keeps its contents: the stretch's results are told apart from it one by one. -/
macro "host_keep " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

variable (m : (ℓ : Loc nD τ sig) → Buf (Elt Ideal) ℓ) (ρ : Dev nD → PrngReg)

/-- Argument `k` of @main as launched on core `c`. -/
abbrev arg (c : Dev nD) (k : Ref sig .tc) : Buf (Elt Ideal) ((c : Thread nD τ).loc k) := m ((c : Thread nD τ).loc k)

/-! ## The arguments -/
theorem W2_arg2 (c : Dev nD) : W2 m ρ c (Proc.devRef .tc main_arg2) = arg m c main_arg2 :=
  (W2_of_ne m ρ c main_arg2 (by decide)).trans (W1_of_ne m ρ c main_arg2 (by decide))
theorem W2_arg3 (c : Dev nD) : W2 m ρ c (Proc.devRef .tc main_arg3) = arg m c main_arg3 :=
  (W2_of_ne m ρ c main_arg3 (by decide)).trans (W1_of_ne m ρ c main_arg3 (by decide))
theorem W2_arg4 (c : Dev nD) : W2 m ρ c (Proc.devRef .tc main_arg4) = arg m c main_arg4 :=
  (W2_of_ne m ρ c main_arg4 (by decide)).trans (W1_of_ne m ρ c main_arg4 (by decide))
theorem W2_arg9 (c : Dev nD) : W2 m ρ c (Proc.devRef .tc main_arg9) = arg m c main_arg9 :=
  (W2_of_ne m ρ c main_arg9 (by decide)).trans (W1_of_ne m ρ c main_arg9 (by decide))
theorem W2_arg10 (c : Dev nD) : W2 m ρ c (Proc.devRef .tc main_arg10) = arg m c main_arg10 :=
  (W2_of_ne m ρ c main_arg10 (by decide)).trans (W1_of_ne m ρ c main_arg10 (by decide))
theorem W2_arg11 (c : Dev nD) : W2 m ρ c (Proc.devRef .tc main_arg11) = arg m c main_arg11 :=
  (W2_of_ne m ρ c main_arg11 (by decide)).trans (W1_of_ne m ρ c main_arg11 (by decide))
theorem W2_arg12 (c : Dev nD) : W2 m ρ c (Proc.devRef .tc main_arg12) = arg m c main_arg12 :=
  (W2_of_ne m ρ c main_arg12 (by decide)).trans (W1_of_ne m ρ c main_arg12 (by decide))
theorem W2_arg13 (c : Dev nD) : W2 m ρ c (Proc.devRef .tc main_arg13) = arg m c main_arg13 :=
  (W2_of_ne m ρ c main_arg13 (by decide)).trans (W1_of_ne m ρ c main_arg13 (by decide))
theorem W2_arg14 (c : Dev nD) : W2 m ρ c (Proc.devRef .tc main_arg14) = arg m c main_arg14 :=
  (W2_of_ne m ρ c main_arg14 (by decide)).trans (W1_of_ne m ρ c main_arg14 (by decide))
theorem W2_arg15 (c : Dev nD) : W2 m ρ c (Proc.devRef .tc main_arg15) = arg m c main_arg15 :=
  (W2_of_ne m ρ c main_arg15 (by decide)).trans (W1_of_ne m ρ c main_arg15 (by decide))
theorem W2_arg16 (c : Dev nD) : W2 m ρ c (Proc.devRef .tc main_arg16) = arg m c main_arg16 :=
  (W2_of_ne m ρ c main_arg16 (by decide)).trans (W1_of_ne m ρ c main_arg16 (by decide))
theorem W2_arg17 (c : Dev nD) : W2 m ρ c (Proc.devRef .tc main_arg17) = arg m c main_arg17 :=
  (W2_of_ne m ρ c main_arg17 (by decide)).trans (W1_of_ne m ρ c main_arg17 (by decide))
theorem W2_arg18 (c : Dev nD) : W2 m ρ c (Proc.devRef .tc main_arg18) = arg m c main_arg18 :=
  (W2_of_ne m ρ c main_arg18 (by decide)).trans (W1_of_ne m ρ c main_arg18 (by decide))
theorem W2_arg19 (c : Dev nD) : W2 m ρ c (Proc.devRef .tc main_arg19) = arg m c main_arg19 :=
  (W2_of_ne m ρ c main_arg19 (by decide)).trans (W1_of_ne m ρ c main_arg19 (by decide))
theorem W2_arg20 (c : Dev nD) : W2 m ρ c (Proc.devRef .tc main_arg20) = arg m c main_arg20 :=
  (W2_of_ne m ρ c main_arg20 (by decide)).trans (W1_of_ne m ρ c main_arg20 (by decide))
theorem W2_arg21 (c : Dev nD) : W2 m ρ c (Proc.devRef .tc main_arg21) = arg m c main_arg21 :=
  (W2_of_ne m ρ c main_arg21 (by decide)).trans (W1_of_ne m ρ c main_arg21 (by decide))
theorem W2_arg22 (c : Dev nD) : W2 m ρ c (Proc.devRef .tc main_arg22) = arg m c main_arg22 :=
  (W2_of_ne m ρ c main_arg22 (by decide)).trans (W1_of_ne m ρ c main_arg22 (by decide))
theorem W2_arg23 (c : Dev nD) : W2 m ρ c (Proc.devRef .tc main_arg23) = arg m c main_arg23 :=
  (W2_of_ne m ρ c main_arg23 (by decide)).trans (W1_of_ne m ρ c main_arg23 (by decide))
theorem W2_arg24 (c : Dev nD) : W2 m ρ c (Proc.devRef .tc main_arg24) = arg m c main_arg24 :=
  (W2_of_ne m ρ c main_arg24 (by decide)).trans (W1_of_ne m ρ c main_arg24 (by decide))
theorem W2_arg25 (c : Dev nD) : W2 m ρ c (Proc.devRef .tc main_arg25) = arg m c main_arg25 :=
  (W2_of_ne m ρ c main_arg25 (by decide)).trans (W1_of_ne m ρ c main_arg25 (by decide))
set_option maxHeartbeats 1000000 in
theorem W3_arg2 (c : Dev nD) : W3 m ρ c (Proc.devRef .tc main_arg2) = arg m c main_arg2 :=
  (show StableHlo.after hostOps2 (W2 m ρ c) (Proc.devRef .tc main_arg2) = W2 m ρ c (Proc.devRef .tc main_arg2) by host_keep hostOps2).trans (W2_arg2 m ρ c)
set_option maxHeartbeats 1000000 in
theorem W3_arg9 (c : Dev nD) : W3 m ρ c (Proc.devRef .tc main_arg9) = arg m c main_arg9 :=
  (show StableHlo.after hostOps2 (W2 m ρ c) (Proc.devRef .tc main_arg9) = W2 m ρ c (Proc.devRef .tc main_arg9) by host_keep hostOps2).trans (W2_arg9 m ρ c)
set_option maxHeartbeats 1000000 in
theorem W3_arg10 (c : Dev nD) : W3 m ρ c (Proc.devRef .tc main_arg10) = arg m c main_arg10 :=
  (show StableHlo.after hostOps2 (W2 m ρ c) (Proc.devRef .tc main_arg10) = W2 m ρ c (Proc.devRef .tc main_arg10) by host_keep hostOps2).trans (W2_arg10 m ρ c)
set_option maxHeartbeats 1000000 in
theorem W3_arg11 (c : Dev nD) : W3 m ρ c (Proc.devRef .tc main_arg11) = arg m c main_arg11 :=
  (show StableHlo.after hostOps2 (W2 m ρ c) (Proc.devRef .tc main_arg11) = W2 m ρ c (Proc.devRef .tc main_arg11) by host_keep hostOps2).trans (W2_arg11 m ρ c)
set_option maxHeartbeats 1000000 in
theorem W3_arg12 (c : Dev nD) : W3 m ρ c (Proc.devRef .tc main_arg12) = arg m c main_arg12 :=
  (show StableHlo.after hostOps2 (W2 m ρ c) (Proc.devRef .tc main_arg12) = W2 m ρ c (Proc.devRef .tc main_arg12) by host_keep hostOps2).trans (W2_arg12 m ρ c)
set_option maxHeartbeats 1000000 in
theorem W3_arg13 (c : Dev nD) : W3 m ρ c (Proc.devRef .tc main_arg13) = arg m c main_arg13 :=
  (show StableHlo.after hostOps2 (W2 m ρ c) (Proc.devRef .tc main_arg13) = W2 m ρ c (Proc.devRef .tc main_arg13) by host_keep hostOps2).trans (W2_arg13 m ρ c)
set_option maxHeartbeats 1000000 in
theorem W3_arg14 (c : Dev nD) : W3 m ρ c (Proc.devRef .tc main_arg14) = arg m c main_arg14 :=
  (show StableHlo.after hostOps2 (W2 m ρ c) (Proc.devRef .tc main_arg14) = W2 m ρ c (Proc.devRef .tc main_arg14) by host_keep hostOps2).trans (W2_arg14 m ρ c)
set_option maxHeartbeats 1000000 in
theorem W3_arg15 (c : Dev nD) : W3 m ρ c (Proc.devRef .tc main_arg15) = arg m c main_arg15 :=
  (show StableHlo.after hostOps2 (W2 m ρ c) (Proc.devRef .tc main_arg15) = W2 m ρ c (Proc.devRef .tc main_arg15) by host_keep hostOps2).trans (W2_arg15 m ρ c)
set_option maxHeartbeats 1000000 in
theorem W3_arg16 (c : Dev nD) : W3 m ρ c (Proc.devRef .tc main_arg16) = arg m c main_arg16 :=
  (show StableHlo.after hostOps2 (W2 m ρ c) (Proc.devRef .tc main_arg16) = W2 m ρ c (Proc.devRef .tc main_arg16) by host_keep hostOps2).trans (W2_arg16 m ρ c)
set_option maxHeartbeats 1000000 in
theorem W3_arg17 (c : Dev nD) : W3 m ρ c (Proc.devRef .tc main_arg17) = arg m c main_arg17 :=
  (show StableHlo.after hostOps2 (W2 m ρ c) (Proc.devRef .tc main_arg17) = W2 m ρ c (Proc.devRef .tc main_arg17) by host_keep hostOps2).trans (W2_arg17 m ρ c)
set_option maxHeartbeats 1000000 in
theorem W3_arg18 (c : Dev nD) : W3 m ρ c (Proc.devRef .tc main_arg18) = arg m c main_arg18 :=
  (show StableHlo.after hostOps2 (W2 m ρ c) (Proc.devRef .tc main_arg18) = W2 m ρ c (Proc.devRef .tc main_arg18) by host_keep hostOps2).trans (W2_arg18 m ρ c)
set_option maxHeartbeats 1000000 in
theorem W3_arg19 (c : Dev nD) : W3 m ρ c (Proc.devRef .tc main_arg19) = arg m c main_arg19 :=
  (show StableHlo.after hostOps2 (W2 m ρ c) (Proc.devRef .tc main_arg19) = W2 m ρ c (Proc.devRef .tc main_arg19) by host_keep hostOps2).trans (W2_arg19 m ρ c)
set_option maxHeartbeats 1000000 in
theorem W3_arg20 (c : Dev nD) : W3 m ρ c (Proc.devRef .tc main_arg20) = arg m c main_arg20 :=
  (show StableHlo.after hostOps2 (W2 m ρ c) (Proc.devRef .tc main_arg20) = W2 m ρ c (Proc.devRef .tc main_arg20) by host_keep hostOps2).trans (W2_arg20 m ρ c)
set_option maxHeartbeats 1000000 in
theorem W3_arg21 (c : Dev nD) : W3 m ρ c (Proc.devRef .tc main_arg21) = arg m c main_arg21 :=
  (show StableHlo.after hostOps2 (W2 m ρ c) (Proc.devRef .tc main_arg21) = W2 m ρ c (Proc.devRef .tc main_arg21) by host_keep hostOps2).trans (W2_arg21 m ρ c)
set_option maxHeartbeats 1000000 in
theorem W3_arg22 (c : Dev nD) : W3 m ρ c (Proc.devRef .tc main_arg22) = arg m c main_arg22 :=
  (show StableHlo.after hostOps2 (W2 m ρ c) (Proc.devRef .tc main_arg22) = W2 m ρ c (Proc.devRef .tc main_arg22) by host_keep hostOps2).trans (W2_arg22 m ρ c)
set_option maxHeartbeats 1000000 in
theorem W3_arg23 (c : Dev nD) : W3 m ρ c (Proc.devRef .tc main_arg23) = arg m c main_arg23 :=
  (show StableHlo.after hostOps2 (W2 m ρ c) (Proc.devRef .tc main_arg23) = W2 m ρ c (Proc.devRef .tc main_arg23) by host_keep hostOps2).trans (W2_arg23 m ρ c)
set_option maxHeartbeats 1000000 in
theorem W3_arg24 (c : Dev nD) : W3 m ρ c (Proc.devRef .tc main_arg24) = arg m c main_arg24 :=
  (show StableHlo.after hostOps2 (W2 m ρ c) (Proc.devRef .tc main_arg24) = W2 m ρ c (Proc.devRef .tc main_arg24) by host_keep hostOps2).trans (W2_arg24 m ρ c)
set_option maxHeartbeats 1000000 in
theorem W3_arg25 (c : Dev nD) : W3 m ρ c (Proc.devRef .tc main_arg25) = arg m c main_arg25 :=
  (show StableHlo.after hostOps2 (W2 m ρ c) (Proc.devRef .tc main_arg25) = W2 m ρ c (Proc.devRef .tc main_arg25) by host_keep hostOps2).trans (W2_arg25 m ρ c)
theorem W4_arg2 (c : Dev nD) : W4 m ρ c (Proc.devRef .tc main_arg2) = arg m c main_arg2 :=
  (W4_of_ne m ρ c main_arg2 (by decide)).trans (W3_arg2 m ρ c)
theorem W4_arg9 (c : Dev nD) : W4 m ρ c (Proc.devRef .tc main_arg9) = arg m c main_arg9 :=
  (W4_of_ne m ρ c main_arg9 (by decide)).trans (W3_arg9 m ρ c)
theorem W4_arg10 (c : Dev nD) : W4 m ρ c (Proc.devRef .tc main_arg10) = arg m c main_arg10 :=
  (W4_of_ne m ρ c main_arg10 (by decide)).trans (W3_arg10 m ρ c)
theorem W4_arg11 (c : Dev nD) : W4 m ρ c (Proc.devRef .tc main_arg11) = arg m c main_arg11 :=
  (W4_of_ne m ρ c main_arg11 (by decide)).trans (W3_arg11 m ρ c)
theorem W4_arg12 (c : Dev nD) : W4 m ρ c (Proc.devRef .tc main_arg12) = arg m c main_arg12 :=
  (W4_of_ne m ρ c main_arg12 (by decide)).trans (W3_arg12 m ρ c)
theorem W4_arg13 (c : Dev nD) : W4 m ρ c (Proc.devRef .tc main_arg13) = arg m c main_arg13 :=
  (W4_of_ne m ρ c main_arg13 (by decide)).trans (W3_arg13 m ρ c)
theorem W4_arg14 (c : Dev nD) : W4 m ρ c (Proc.devRef .tc main_arg14) = arg m c main_arg14 :=
  (W4_of_ne m ρ c main_arg14 (by decide)).trans (W3_arg14 m ρ c)
theorem W4_arg15 (c : Dev nD) : W4 m ρ c (Proc.devRef .tc main_arg15) = arg m c main_arg15 :=
  (W4_of_ne m ρ c main_arg15 (by decide)).trans (W3_arg15 m ρ c)
theorem W4_arg16 (c : Dev nD) : W4 m ρ c (Proc.devRef .tc main_arg16) = arg m c main_arg16 :=
  (W4_of_ne m ρ c main_arg16 (by decide)).trans (W3_arg16 m ρ c)
theorem W4_arg17 (c : Dev nD) : W4 m ρ c (Proc.devRef .tc main_arg17) = arg m c main_arg17 :=
  (W4_of_ne m ρ c main_arg17 (by decide)).trans (W3_arg17 m ρ c)
theorem W4_arg18 (c : Dev nD) : W4 m ρ c (Proc.devRef .tc main_arg18) = arg m c main_arg18 :=
  (W4_of_ne m ρ c main_arg18 (by decide)).trans (W3_arg18 m ρ c)
theorem W4_arg19 (c : Dev nD) : W4 m ρ c (Proc.devRef .tc main_arg19) = arg m c main_arg19 :=
  (W4_of_ne m ρ c main_arg19 (by decide)).trans (W3_arg19 m ρ c)
theorem W4_arg20 (c : Dev nD) : W4 m ρ c (Proc.devRef .tc main_arg20) = arg m c main_arg20 :=
  (W4_of_ne m ρ c main_arg20 (by decide)).trans (W3_arg20 m ρ c)
theorem W4_arg21 (c : Dev nD) : W4 m ρ c (Proc.devRef .tc main_arg21) = arg m c main_arg21 :=
  (W4_of_ne m ρ c main_arg21 (by decide)).trans (W3_arg21 m ρ c)
theorem W4_arg22 (c : Dev nD) : W4 m ρ c (Proc.devRef .tc main_arg22) = arg m c main_arg22 :=
  (W4_of_ne m ρ c main_arg22 (by decide)).trans (W3_arg22 m ρ c)
theorem W4_arg23 (c : Dev nD) : W4 m ρ c (Proc.devRef .tc main_arg23) = arg m c main_arg23 :=
  (W4_of_ne m ρ c main_arg23 (by decide)).trans (W3_arg23 m ρ c)
theorem W4_arg24 (c : Dev nD) : W4 m ρ c (Proc.devRef .tc main_arg24) = arg m c main_arg24 :=
  (W4_of_ne m ρ c main_arg24 (by decide)).trans (W3_arg24 m ρ c)
theorem W4_arg25 (c : Dev nD) : W4 m ρ c (Proc.devRef .tc main_arg25) = arg m c main_arg25 :=
  (W4_of_ne m ρ c main_arg25 (by decide)).trans (W3_arg25 m ρ c)
set_option maxHeartbeats 1000000 in
theorem W5_arg2 (c : Dev nD) : W5 m ρ c (Proc.devRef .tc main_arg2) = arg m c main_arg2 :=
  (show StableHlo.after hostOps3 (W4 m ρ c) (Proc.devRef .tc main_arg2) = W4 m ρ c (Proc.devRef .tc main_arg2) by host_keep hostOps3).trans (W4_arg2 m ρ c)
set_option maxHeartbeats 1000000 in
theorem W5_arg16 (c : Dev nD) : W5 m ρ c (Proc.devRef .tc main_arg16) = arg m c main_arg16 :=
  (show StableHlo.after hostOps3 (W4 m ρ c) (Proc.devRef .tc main_arg16) = W4 m ρ c (Proc.devRef .tc main_arg16) by host_keep hostOps3).trans (W4_arg16 m ρ c)
set_option maxHeartbeats 1000000 in
theorem W5_arg17 (c : Dev nD) : W5 m ρ c (Proc.devRef .tc main_arg17) = arg m c main_arg17 :=
  (show StableHlo.after hostOps3 (W4 m ρ c) (Proc.devRef .tc main_arg17) = W4 m ρ c (Proc.devRef .tc main_arg17) by host_keep hostOps3).trans (W4_arg17 m ρ c)
set_option maxHeartbeats 1000000 in
theorem W5_arg18 (c : Dev nD) : W5 m ρ c (Proc.devRef .tc main_arg18) = arg m c main_arg18 :=
  (show StableHlo.after hostOps3 (W4 m ρ c) (Proc.devRef .tc main_arg18) = W4 m ρ c (Proc.devRef .tc main_arg18) by host_keep hostOps3).trans (W4_arg18 m ρ c)
set_option maxHeartbeats 1000000 in
theorem W5_arg19 (c : Dev nD) : W5 m ρ c (Proc.devRef .tc main_arg19) = arg m c main_arg19 :=
  (show StableHlo.after hostOps3 (W4 m ρ c) (Proc.devRef .tc main_arg19) = W4 m ρ c (Proc.devRef .tc main_arg19) by host_keep hostOps3).trans (W4_arg19 m ρ c)
set_option maxHeartbeats 1000000 in
theorem W5_arg20 (c : Dev nD) : W5 m ρ c (Proc.devRef .tc main_arg20) = arg m c main_arg20 :=
  (show StableHlo.after hostOps3 (W4 m ρ c) (Proc.devRef .tc main_arg20) = W4 m ρ c (Proc.devRef .tc main_arg20) by host_keep hostOps3).trans (W4_arg20 m ρ c)
set_option maxHeartbeats 1000000 in
theorem W5_arg21 (c : Dev nD) : W5 m ρ c (Proc.devRef .tc main_arg21) = arg m c main_arg21 :=
  (show StableHlo.after hostOps3 (W4 m ρ c) (Proc.devRef .tc main_arg21) = W4 m ρ c (Proc.devRef .tc main_arg21) by host_keep hostOps3).trans (W4_arg21 m ρ c)
set_option maxHeartbeats 1000000 in
theorem W5_arg22 (c : Dev nD) : W5 m ρ c (Proc.devRef .tc main_arg22) = arg m c main_arg22 :=
  (show StableHlo.after hostOps3 (W4 m ρ c) (Proc.devRef .tc main_arg22) = W4 m ρ c (Proc.devRef .tc main_arg22) by host_keep hostOps3).trans (W4_arg22 m ρ c)
set_option maxHeartbeats 1000000 in
theorem W5_arg23 (c : Dev nD) : W5 m ρ c (Proc.devRef .tc main_arg23) = arg m c main_arg23 :=
  (show StableHlo.after hostOps3 (W4 m ρ c) (Proc.devRef .tc main_arg23) = W4 m ρ c (Proc.devRef .tc main_arg23) by host_keep hostOps3).trans (W4_arg23 m ρ c)
set_option maxHeartbeats 1000000 in
theorem W5_arg24 (c : Dev nD) : W5 m ρ c (Proc.devRef .tc main_arg24) = arg m c main_arg24 :=
  (show StableHlo.after hostOps3 (W4 m ρ c) (Proc.devRef .tc main_arg24) = W4 m ρ c (Proc.devRef .tc main_arg24) by host_keep hostOps3).trans (W4_arg24 m ρ c)
set_option maxHeartbeats 1000000 in
theorem W5_arg25 (c : Dev nD) : W5 m ρ c (Proc.devRef .tc main_arg25) = arg m c main_arg25 :=
  (show StableHlo.after hostOps3 (W4 m ρ c) (Proc.devRef .tc main_arg25) = W4 m ρ c (Proc.devRef .tc main_arg25) by host_keep hostOps3).trans (W4_arg25 m ρ c)
theorem W6_arg2 (c : Dev nD) : W6 m ρ c (Proc.devRef .tc main_arg2) = arg m c main_arg2 :=
  (W6_of_ne m ρ c main_arg2 (by decide)).trans (W5_arg2 m ρ c)
theorem W6_arg16 (c : Dev nD) : W6 m ρ c (Proc.devRef .tc main_arg16) = arg m c main_arg16 :=
  (W6_of_ne m ρ c main_arg16 (by decide)).trans (W5_arg16 m ρ c)
theorem W6_arg17 (c : Dev nD) : W6 m ρ c (Proc.devRef .tc main_arg17) = arg m c main_arg17 :=
  (W6_of_ne m ρ c main_arg17 (by decide)).trans (W5_arg17 m ρ c)
theorem W6_arg18 (c : Dev nD) : W6 m ρ c (Proc.devRef .tc main_arg18) = arg m c main_arg18 :=
  (W6_of_ne m ρ c main_arg18 (by decide)).trans (W5_arg18 m ρ c)
theorem W6_arg19 (c : Dev nD) : W6 m ρ c (Proc.devRef .tc main_arg19) = arg m c main_arg19 :=
  (W6_of_ne m ρ c main_arg19 (by decide)).trans (W5_arg19 m ρ c)
theorem W6_arg20 (c : Dev nD) : W6 m ρ c (Proc.devRef .tc main_arg20) = arg m c main_arg20 :=
  (W6_of_ne m ρ c main_arg20 (by decide)).trans (W5_arg20 m ρ c)
theorem W6_arg21 (c : Dev nD) : W6 m ρ c (Proc.devRef .tc main_arg21) = arg m c main_arg21 :=
  (W6_of_ne m ρ c main_arg21 (by decide)).trans (W5_arg21 m ρ c)
theorem W6_arg22 (c : Dev nD) : W6 m ρ c (Proc.devRef .tc main_arg22) = arg m c main_arg22 :=
  (W6_of_ne m ρ c main_arg22 (by decide)).trans (W5_arg22 m ρ c)
theorem W6_arg23 (c : Dev nD) : W6 m ρ c (Proc.devRef .tc main_arg23) = arg m c main_arg23 :=
  (W6_of_ne m ρ c main_arg23 (by decide)).trans (W5_arg23 m ρ c)
theorem W6_arg24 (c : Dev nD) : W6 m ρ c (Proc.devRef .tc main_arg24) = arg m c main_arg24 :=
  (W6_of_ne m ρ c main_arg24 (by decide)).trans (W5_arg24 m ρ c)
theorem W6_arg25 (c : Dev nD) : W6 m ρ c (Proc.devRef .tc main_arg25) = arg m c main_arg25 :=
  (W6_of_ne m ρ c main_arg25 (by decide)).trans (W5_arg25 m ρ c)
theorem W7_arg17 (c : Dev nD) : W7 m ρ c (Proc.devRef .tc main_arg17) = arg m c main_arg17 :=
  (show StableHlo.after hostOps4 (W6 m ρ c) (Proc.devRef .tc main_arg17) = W6 m ρ c (Proc.devRef .tc main_arg17) by host_keep hostOps4).trans (W6_arg17 m ρ c)
theorem W7_arg18 (c : Dev nD) : W7 m ρ c (Proc.devRef .tc main_arg18) = arg m c main_arg18 :=
  (show StableHlo.after hostOps4 (W6 m ρ c) (Proc.devRef .tc main_arg18) = W6 m ρ c (Proc.devRef .tc main_arg18) by host_keep hostOps4).trans (W6_arg18 m ρ c)
theorem W7_arg19 (c : Dev nD) : W7 m ρ c (Proc.devRef .tc main_arg19) = arg m c main_arg19 :=
  (show StableHlo.after hostOps4 (W6 m ρ c) (Proc.devRef .tc main_arg19) = W6 m ρ c (Proc.devRef .tc main_arg19) by host_keep hostOps4).trans (W6_arg19 m ρ c)
theorem W7_arg20 (c : Dev nD) : W7 m ρ c (Proc.devRef .tc main_arg20) = arg m c main_arg20 :=
  (show StableHlo.after hostOps4 (W6 m ρ c) (Proc.devRef .tc main_arg20) = W6 m ρ c (Proc.devRef .tc main_arg20) by host_keep hostOps4).trans (W6_arg20 m ρ c)
theorem W7_arg21 (c : Dev nD) : W7 m ρ c (Proc.devRef .tc main_arg21) = arg m c main_arg21 :=
  (show StableHlo.after hostOps4 (W6 m ρ c) (Proc.devRef .tc main_arg21) = W6 m ρ c (Proc.devRef .tc main_arg21) by host_keep hostOps4).trans (W6_arg21 m ρ c)
theorem W7_arg22 (c : Dev nD) : W7 m ρ c (Proc.devRef .tc main_arg22) = arg m c main_arg22 :=
  (show StableHlo.after hostOps4 (W6 m ρ c) (Proc.devRef .tc main_arg22) = W6 m ρ c (Proc.devRef .tc main_arg22) by host_keep hostOps4).trans (W6_arg22 m ρ c)
theorem W7_arg23 (c : Dev nD) : W7 m ρ c (Proc.devRef .tc main_arg23) = arg m c main_arg23 :=
  (show StableHlo.after hostOps4 (W6 m ρ c) (Proc.devRef .tc main_arg23) = W6 m ρ c (Proc.devRef .tc main_arg23) by host_keep hostOps4).trans (W6_arg23 m ρ c)
theorem W7_arg24 (c : Dev nD) : W7 m ρ c (Proc.devRef .tc main_arg24) = arg m c main_arg24 :=
  (show StableHlo.after hostOps4 (W6 m ρ c) (Proc.devRef .tc main_arg24) = W6 m ρ c (Proc.devRef .tc main_arg24) by host_keep hostOps4).trans (W6_arg24 m ρ c)
theorem W7_arg25 (c : Dev nD) : W7 m ρ c (Proc.devRef .tc main_arg25) = arg m c main_arg25 :=
  (show StableHlo.after hostOps4 (W6 m ρ c) (Proc.devRef .tc main_arg25) = W6 m ρ c (Proc.devRef .tc main_arg25) by host_keep hostOps4).trans (W6_arg25 m ρ c)

/-! ## The intermediate arrays -/
set_option maxHeartbeats 1000000 in
theorem W3_v0 (c : Dev nD) : W3 m ρ c (Proc.devRef .tc main_v0) = W2 m ρ c (Proc.devRef .tc main_v0) := by
  show StableHlo.after hostOps2 (W2 m ρ c) (Proc.devRef .tc main_v0) = W2 m ρ c (Proc.devRef .tc main_v0)
  host_keep hostOps2
set_option maxHeartbeats 1000000 in
theorem W3_v1 (c : Dev nD) : W3 m ρ c (Proc.devRef .tc main_v1) = W2 m ρ c (Proc.devRef .tc main_v1) := by
  show StableHlo.after hostOps2 (W2 m ρ c) (Proc.devRef .tc main_v1) = W2 m ρ c (Proc.devRef .tc main_v1)
  host_keep hostOps2
theorem W4_v3 (c : Dev nD) : W4 m ρ c (Proc.devRef .tc main_v3) = W3 m ρ c (Proc.devRef .tc main_v3) := W4_of_ne m ρ c main_v3 (by decide)
theorem W4_v5 (c : Dev nD) : W4 m ρ c (Proc.devRef .tc main_v5) = W3 m ρ c (Proc.devRef .tc main_v5) := W4_of_ne m ρ c main_v5 (by decide)
theorem W4_v7 (c : Dev nD) : W4 m ρ c (Proc.devRef .tc main_v7) = W3 m ρ c (Proc.devRef .tc main_v7) := W4_of_ne m ρ c main_v7 (by decide)
theorem W4_v9 (c : Dev nD) : W4 m ρ c (Proc.devRef .tc main_v9) = W3 m ρ c (Proc.devRef .tc main_v9) := W4_of_ne m ρ c main_v9 (by decide)
theorem W4_v24 (c : Dev nD) : W4 m ρ c (Proc.devRef .tc main_v24) = W3 m ρ c (Proc.devRef .tc main_v24) :=
  (W4_arr m ρ c 2).trans (((dat2 (V3 m ρ) c).arrAt_in 2 rfl _).trans (A_eq2 (V3 m ρ) c 2))
theorem W4_v26 (c : Dev nD) : W4 m ρ c (Proc.devRef .tc main_v26) = W3 m ρ c (Proc.devRef .tc main_v26) :=
  (W4_arr m ρ c 5).trans (((dat2 (V3 m ρ) c).arrAt_in 5 rfl _).trans (A_eq2 (V3 m ρ) c 5))
set_option maxHeartbeats 1000000 in
theorem W5_v3 (c : Dev nD) : W5 m ρ c (Proc.devRef .tc main_v3) = W4 m ρ c (Proc.devRef .tc main_v3) := by
  show StableHlo.after hostOps3 (W4 m ρ c) (Proc.devRef .tc main_v3) = W4 m ρ c (Proc.devRef .tc main_v3)
  host_keep hostOps3
set_option maxHeartbeats 1000000 in
theorem W5_v5 (c : Dev nD) : W5 m ρ c (Proc.devRef .tc main_v5) = W4 m ρ c (Proc.devRef .tc main_v5) := by
  show StableHlo.after hostOps3 (W4 m ρ c) (Proc.devRef .tc main_v5) = W4 m ρ c (Proc.devRef .tc main_v5)
  host_keep hostOps3
set_option maxHeartbeats 1000000 in
theorem W5_v24 (c : Dev nD) : W5 m ρ c (Proc.devRef .tc main_v24) = W4 m ρ c (Proc.devRef .tc main_v24) := by
  show StableHlo.after hostOps3 (W4 m ρ c) (Proc.devRef .tc main_v24) = W4 m ρ c (Proc.devRef .tc main_v24)
  host_keep hostOps3
set_option maxHeartbeats 1000000 in
theorem W5_v26 (c : Dev nD) : W5 m ρ c (Proc.devRef .tc main_v26) = W4 m ρ c (Proc.devRef .tc main_v26) := by
  show StableHlo.after hostOps3 (W4 m ρ c) (Proc.devRef .tc main_v26) = W4 m ρ c (Proc.devRef .tc main_v26)
  host_keep hostOps3
set_option maxHeartbeats 1000000 in
theorem W5_v77_0 (c : Dev nD) : W5 m ρ c (Proc.devRef .tc main_v77_0) = W4 m ρ c (Proc.devRef .tc main_v77_0) := by
  show StableHlo.after hostOps3 (W4 m ρ c) (Proc.devRef .tc main_v77_0) = W4 m ρ c (Proc.devRef .tc main_v77_0)
  host_keep hostOps3
set_option maxHeartbeats 1000000 in
theorem W5_v77_1 (c : Dev nD) : W5 m ρ c (Proc.devRef .tc main_v77_1) = W4 m ρ c (Proc.devRef .tc main_v77_1) := by
  show StableHlo.after hostOps3 (W4 m ρ c) (Proc.devRef .tc main_v77_1) = W4 m ρ c (Proc.devRef .tc main_v77_1)
  host_keep hostOps3
theorem W6_v3 (c : Dev nD) : W6 m ρ c (Proc.devRef .tc main_v3) = W5 m ρ c (Proc.devRef .tc main_v3) := W6_of_ne m ρ c main_v3 (by decide)
theorem W6_v5 (c : Dev nD) : W6 m ρ c (Proc.devRef .tc main_v5) = W5 m ρ c (Proc.devRef .tc main_v5) := W6_of_ne m ρ c main_v5 (by decide)

end Cert.KernelIdeal.Hand

end
-- ==== Proof.KGlue.lean ====
import proofs.«426788_j78829829750888_3_alg».proof.Proof.Gen.KernelIdeal.Frame
import proofs.«426788_j78829829750888_3_alg».proof.Proof.Net
import proofs.«426788_j78829829750888_3_alg».proof.Proof.EdgeIdx
import proofs.«426788_j78829829750888_3_alg».proof.Proof.LibBlocks
import proofs.«426788_j78829829750888_3_alg».proof.Proof.KG2
import proofs.«426788_j78829829750888_3_alg».proof.Proof.KG3
import proofs.«426788_j78829829750888_3_alg».proof.Proof.KG4
import proofs.«426788_j78829829750888_3_alg».proof.Proof.KKeep

/-! # The kernel program's result as the network of its arguments

The walk through the program's boundaries: each region's output is its stage of the network at what the region
finds (the seven region facts), what it finds is the shared host operations of what the boundary before held, and the
arguments are kept throughout. -/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Facts₀

/-- What the five regions leave in their output arrays, as functions of the arrays they find at entry: the seven
    facts the walk through the program's boundaries rests on. -/
structure RegionValues : Prop where
  r0 : ∀ (V : (c : Dev nD) → (b : Ref sig .tc) → Buf (Elt Ideal) ((c : Thread nD τ).loc b)) (c : Dev nD),
    (dat0 V c).arrAt 3 cfg0.N = Cert.Spec.lin (V c main_arg0) (V c main_arg5) (V c main_arg6)
  r1 : ∀ (V : (c : Dev nD) → (b : Ref sig .tc) → Buf (Elt Ideal) ((c : Thread nD τ).loc b)) (c : Dev nD),
    (dat1 V c).arrAt 3 cfg1.N = Cert.Spec.lin (V c main_arg1) (V c main_arg7) (V c main_arg8)
  r2r : ∀ (V : (c : Dev nD) → (b : Ref sig .tc) → Buf (Elt Ideal) ((c : Thread nD τ).loc b)) (c : Dev nD),
    (dat2 V c).arrAt 20 cfg2.N = Cert.Spec.sage (V c main_v37) (V c main_v1) (V c main_v24) (V c main_v66) (V c main_v68) (V c main_v70)
      (V c main_v50) (V c main_v52) (V c main_v54) (V c main_v56)
  r2u : ∀ (V : (c : Dev nD) → (b : Ref sig .tc) → Buf (Elt Ideal) ((c : Thread nD τ).loc b)) (c : Dev nD),
    (dat2 V c).arrAt 21 cfg2.N = Cert.Spec.sage (V c main_v48) (V c main_v0) (V c main_v26) (V c main_v72) (V c main_v74) (V c main_v76)
      (V c main_v58) (V c main_v60) (V c main_v62) (V c main_v64)
  r3r : ∀ (V : (c : Dev nD) → (b : Ref sig .tc) → Buf (Elt Ideal) ((c : Thread nD τ).loc b)) (c : Dev nD),
    (dat3 V c).arrAt 20 cfg3.N = Cert.Spec.sage (V c main_v88) (V c main_v77_0) (V c main_v24) (V c main_v117) (V c main_v119) (V c main_v121)
      (V c main_v101) (V c main_v103) (V c main_v105) (V c main_v107)
  r3u : ∀ (V : (c : Dev nD) → (b : Ref sig .tc) → Buf (Elt Ideal) ((c : Thread nD τ).loc b)) (c : Dev nD),
    (dat3 V c).arrAt 21 cfg3.N = Cert.Spec.sage (V c main_v99) (V c main_v77_1) (V c main_v26) (V c main_v123) (V c main_v125) (V c main_v127)
      (V c main_v109) (V c main_v111) (V c main_v113) (V c main_v115)
  r4 : ∀ (V : (c : Dev nD) → (b : Ref sig .tc) → Buf (Elt Ideal) ((c : Thread nD τ).loc b)) (c : Dev nD),
    (dat4 V c).arrAt 15 cfg4.N = fun i : S50x1x10000.Idx =>
      Cert.Spec.mlpRow (V c main_v135) (V c main_v142) (V c main_v143) (V c main_v144) (V c main_v145) (V c main_v146)
        (V c main_arg17) (V c main_arg18) (V c main_arg19) (V c main_arg20) (V c main_arg21) (V c main_arg22) (V c main_arg23)
        (V c main_arg24) (V c main_arg25) (Cert.Spec.edgeOf (i 0) (i 2))

variable (H : RegionValues)
variable (m : (ℓ : Loc nD τ sig) → Buf (Elt Ideal) ℓ) (ρ : Dev nD → PrngReg)

include H

/-- The projected user features, after the two projection regions. -/
theorem W2_hU0 (c : Dev nD) : W2 m ρ c (Proc.devRef .tc main_v0) = Net.hU0 (arg m c main_arg0) (arg m c main_arg5) (arg m c main_arg6) := by
  rw [W2_of_ne m ρ c main_v0 (by decide), W1_arr m ρ c 3, H.r0 (V0 m ρ) c]
  rfl

/-- The projected recipient features. -/
theorem W2_hR0 (c : Dev nD) : W2 m ρ c (Proc.devRef .tc main_v1) = Net.hR0 (arg m c main_arg1) (arg m c main_arg7) (arg m c main_arg8) := by
  rw [W2_arr m ρ c 3, H.r1 (V1 m ρ) c]
  dsimp only [V1]
  rw [W1_of_ne m ρ c main_arg1 (by decide), W1_of_ne m ρ c main_arg7 (by decide), W1_of_ne m ρ c main_arg8 (by decide)]
  rfl

/-- The recipient features after the first layer. -/
theorem W4_hR1 (c : Dev nD) : W4 m ρ c (Proc.devRef .tc main_v77_0) = Net.hR1 (arg m c main_arg0) (arg m c main_arg1) (arg m c main_arg3) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [W4_arr m ρ c 20, H.r2r (V3 m ρ) c]
  dsimp only [V3]
  rw [W3_v37, W3_v1, W3_v24, W3_v66, W3_v68, W3_v70, W3_v50, W3_v52, W3_v54, W3_v56,
    W2_hU0 H, W2_hR0 H, W2_arg3, W2_arg9, W2_arg10, W2_arg11, W2_arg12, W2_arg13, W2_arg14, W2_arg15]
  rfl

/-- The user features after the first layer. -/
theorem W4_hU1 (c : Dev nD) : W4 m ρ c (Proc.devRef .tc main_v77_1) = Net.hU1 (arg m c main_arg0) (arg m c main_arg1) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [W4_arr m ρ c 21, H.r2u (V3 m ρ) c]
  dsimp only [V3]
  rw [W3_v48, W3_v0, W3_v26, W3_v72, W3_v74, W3_v76, W3_v58, W3_v60, W3_v62, W3_v64,
    W2_hU0 H, W2_hR0 H, W2_arg4, W2_arg9, W2_arg10, W2_arg11, W2_arg12, W2_arg13, W2_arg14, W2_arg15]
  rfl

/-- The recipient features after the second layer. -/
theorem W6_hR2 (c : Dev nD) : W6 m ρ c (Proc.devRef .tc main_v128_0) = Net.hR2 (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [W6_arr m ρ c 20, H.r3r (V5 m ρ) c]
  dsimp only [V5]
  rw [W5_v88, W5_v77_0, W5_v24, W5_v117, W5_v119, W5_v121, W5_v101, W5_v103, W5_v105, W5_v107,
    W4_hU1 H, W4_hR1 H, W4_v3, W4_v5, W4_v24, W3_v3, W3_v5, W3_v24, W2_arg3,
    W4_arg9, W4_arg10, W4_arg11, W4_arg12, W4_arg13, W4_arg14, W4_arg15]
  rfl

/-- The user features after the second layer. -/
theorem W6_hU2 (c : Dev nD) : W6 m ρ c (Proc.devRef .tc main_v128_1) = Net.hU2 (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [W6_arr m ρ c 21, H.r3u (V5 m ρ) c]
  dsimp only [V5]
  rw [W5_v99, W5_v77_1, W5_v26, W5_v123, W5_v125, W5_v127, W5_v109, W5_v111, W5_v113, W5_v115,
    W4_hU1 H, W4_hR1 H, W4_v7, W4_v9, W4_v26, W3_v7, W3_v9, W3_v26, W2_arg4,
    W4_arg9, W4_arg10, W4_arg11, W4_arg12, W4_arg13, W4_arg14, W4_arg15]
  rfl

set_option maxHeartbeats 2000000 in
/-- The scorer's blocks: block `t`, entry `q` holds the score of edge `t * 10000 + q`. -/
theorem W8_scores (c : Dev nD) : W8 m ρ c (Proc.devRef .tc main_v147) = fun i : S50x1x10000.Idx =>
    Net.out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (ix1 (Cert.Spec.edgeOf (i 0) (i 2))) := by
  rw [W8_arr m ρ c 15, H.r4 (V7 m ρ) c]
  dsimp only [V7]
  rw [W7_v135, W7_v142, W7_v143, W7_v144, W7_v145, W7_v146,
    W7_arg17, W7_arg18, W7_arg19, W7_arg20, W7_arg21, W7_arg22, W7_arg23, W7_arg24, W7_arg25,
    W6_v3, W6_v5, W5_v3, W5_v5, W4_v3, W4_v5, W3_v3, W3_v5, W2_arg3, W6_arg2, W6_arg16,
    W6_hU2 H, W6_hR2 H]
  rfl

/-- THE RESULT: the kernel program's result array is the network of its arguments. -/
theorem kernel_value (c : Dev nD) : W9 m ρ c (Proc.devRef .tc main_v148) = Net.out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) := by
  rw [W9_v148, W8_scores H]
  funext j
  obtain ⟨e, rfl⟩ : ∃ e : Fin 500000, j = ix1 e := ⟨j 0, eq_ix1 j⟩
  have ht : e.val / 10000 < 50 := by have := e.isLt; omega
  have hq : e.val % 10000 < 10000 := Nat.mod_lt _ (by norm_num)
  refine (Cert.Blocks.shapeCast_b1t_flat_apply _ _ ⟨e.val / 10000, ht⟩ ⟨e.val % 10000, hq⟩ e (by
    show e.val = e.val / 10000 * 10000 + e.val % 10000; omega)).trans ?_
  show Net.out _ _ _ _ _ _ _ _ _ _ _ _ _ _ _ _ _ _ _ _ _ _ _ _ _ _ (ix1 (Cert.Spec.edgeOf ⟨e.val / 10000, ht⟩ ⟨e.val % 10000, hq⟩)) = _
  congr 2
  exact Fin.ext (by show e.val / 10000 * 10000 + e.val % 10000 = e.val; omega)

end Cert.KernelIdeal.Hand

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KLin.lean ====
import proofs.«426788_j78829829750888_3_alg».proof.Proof.Gen.KernelIdeal.Frame
import proofs.«426788_j78829829750888_3_alg».proof.Proof.Spec
import proofs.«426788_j78829829750888_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-! # The two linear projections

Each of the first two regions computes `x W + b` for a 100000 × 32 array `x`, a 32 × 128 array `W` and a bias `b` of
128 entries, 4000 rows at a time over 25 grid points. At point `t` the region reads rows `4000 t … 4000 t + 3999` of
`x`, all of `W` and all of `b`, and writes rows `4000 t … 4000 t + 3999` of the result. Entry `(p, q)` of what it
writes is `∑ k, x (4000 t + p, k) · W (k, q) + b q`: the narrowing casts are the identity on the extended reals, the
product starts from the zero accumulator, and the bias is one row repeated down the tile. Row `r` of the result lies
in the tile of point `r / 4000`, every point writes its tile back, so the 25 tiles fill the array and the array ends
holding the affine map entry by entry. -/

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The zero offsets of a rank-two rectangle, however spelt. -/
theorem zero_off2 : (![0, 0] : Fin 2 → Nat) = fun _ => 0 := funext fun a => by fin_cases a <;> rfl

/-- The zero offset of a rank-one rectangle. -/
theorem zero_off1 : (![0] : Fin 1 → Nat) = fun _ => 0 := funext fun a => by fin_cases a; rfl

/-! ## Region 0 -/

/-- Entry (p, q) of the first projection's tile: row p of the input tile against column q of the weights, plus
    the bias at q. The narrowing casts are the identity on the extended reals. -/
theorem tile0_apply (x : Vec Ideal S4000x32 .f32) (W : Vec Ideal S32x128 .f32) (b : Vec Ideal S128 .f32)
    (p : Fin 4000) (q : Fin 128) :
    k0_pay1 (F := Ideal) x W b (ix2 p q) = (∑ k : Fin 32, x (ix2 p k) * W (ix2 k q)) + b (ix1 q) := by
  unfold k0_pay1
  refine (truncf_apply (ψ := .bf16) _ bitsLt_bf16_f32 (ix2 p q)).trans ?_
  refine (addf_apply _ _ (ix2 p q)).trans ?_
  refine congrArg₂ (· + ·) ?_ ?_
  · exact Cert.PlainDot.matmul_zero_apply _ rfl _ _ _ (ix2 p q)
  · refine (broadcastTo_1b_ab_apply _ _ p q).trans ?_
    exact shapeCast_a_1a_apply _ _ 0 q

/-- The index maps over the 25 grid points: the row tiles of the input and of the output move with the point,
    the weights and the bias stay at their one block. -/
theorem index0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of the input's tile at point t is row 4000 t + p of the input array. -/
theorem rows0_apply (c : Dev nD) (t : Fin cfg0.N) (p : Fin 4000) (k : Fin 32) (r : Fin 100000)
    (hr : r.val = t.val * 4000 + p.val) :
    (iblk0 V c 0 t : Vec Ideal S4000x32 .f32) (ix2 p k) = (V c main_arg0 : S100000x32.Idx → EReal) (ix2 r k) := by
  obtain ⟨e0, e1, -⟩ := index0_facts t
  unfold iblk0
  show V c main_arg0 (((cfg0.win 0).blk t).view.emb (ix2 p k)) = V c main_arg0 (ix2 r k)
  refine congrArg _ (funext fun a => Fin.ext ?_)
  match a with
  | ⟨0, _⟩ => show win0_0.index t (0 : Fin 2) * 4000 + 1 * p.val = r.val; rw [e0, hr]; omega
  | ⟨1, _⟩ => show win0_0.index t (1 : Fin 2) * 32 + 1 * k.val = k.val; rw [e1]; omega

/-- The weights' one block is the weight array. -/
theorem weights0_apply (c : Dev nD) (t : Fin cfg0.N) (k : Fin 32) (q : Fin 128) :
    (iblk0 V c 1 t : Vec Ideal S32x128 .f32) (ix2 k q) = (V c main_arg5 : S32x128.Idx → EReal) (ix2 k q) := by
  obtain ⟨-, -, e0, e1, -⟩ := index0_facts t
  unfold iblk0
  show V c main_arg5 (((cfg0.win 1).blk t).view.emb (ix2 k q)) = V c main_arg5 (ix2 k q)
  refine congrArg _ (funext fun a => Fin.ext ?_)
  match a with
  | ⟨0, _⟩ => show win0_1.index t (0 : Fin 2) * 32 + 1 * k.val = k.val; rw [e0]; omega
  | ⟨1, _⟩ => show win0_1.index t (1 : Fin 2) * 128 + 1 * q.val = q.val; rw [e1]; omega

/-- The bias's one block is the bias array. -/
theorem bias0_apply (c : Dev nD) (t : Fin cfg0.N) (q : Fin 128) :
    (iblk0 V c 2 t : Vec Ideal S128 .f32) (ix1 q) = (V c main_arg6 : S128.Idx → EReal) (ix1 q) := by
  obtain ⟨-, -, -, -, e0, -⟩ := index0_facts t
  unfold iblk0
  show V c main_arg6 (((cfg0.win 2).blk t).view.emb (ix1 q)) = V c main_arg6 (ix1 q)
  refine congrArg _ (funext fun a => Fin.ext ?_)
  match a with
  | ⟨0, _⟩ => show win0_2.index t (0 : Fin 1) * 128 + 1 * q.val = q.val; rw [e0]; omega

/-- What point t writes back to the output array is tile t of the affine map of the three arrays. -/
theorem flushed0_eq (c : Dev nD) (t : Fin cfg0.N) :
    (dat0 V c).flushed 3 t
      = ((cfg0.win 3).blk t).view.read (Elt Ideal) (Cert.Spec.lin (V c main_arg0) (V c main_arg5) (V c main_arg6)) := by
  show (cfg0.win 3).cut (grid0.coords t) ((dat0 V c).after 3 t) = _
  rw [after0_3]
  unfold out0_3
  rw [View.canon_unit_zero zero_off2]
  simp only [View.ld_unit_zero (S := S4000x32) zero_off2, View.ld_unit_zero (S := S32x128) zero_off2,
    View.ld_unit_zero (S := S128) zero_off1]
  obtain ⟨-, -, -, -, -, e0, e1⟩ := index0_facts t
  funext j
  obtain ⟨p, q, rfl⟩ : ∃ (p : Fin 4000) (q : Fin 128), j = ix2 p q := ⟨j 0, j 1, eq_ix2 j⟩
  have hrow : (((cfg0.win 3).blk t).view.emb (ix2 p q) 0).val = t.val * 4000 + p.val := by
    show win0_3.index t (0 : Fin 2) * 4000 + 1 * p.val = _; rw [e0]; omega
  have hcol : (((cfg0.win 3).blk t).view.emb (ix2 p q) 1).val = q.val := by
    show win0_3.index t (1 : Fin 2) * 128 + 1 * q.val = _; rw [e1]; omega
  show k0_pay1 (F := Ideal) (iblk0 V c 0 t) (iblk0 V c 1 t) (iblk0 V c 2 t) (ix2 p q)
    = Cert.Spec.lin (V c main_arg0) (V c main_arg5) (V c main_arg6) (((cfg0.win 3).blk t).view.emb (ix2 p q))
  refine (tile0_apply _ _ _ p q).trans ?_
  unfold Cert.Spec.lin
  have hq : (((cfg0.win 3).blk t).view.emb (ix2 p q) 1 : Fin 128) = q := Fin.ext hcol
  refine congrArg₂ (· + ·) (Finset.sum_congr rfl fun k _ => congrArg₂ (· * ·) ?_ ?_) ?_
  · exact rows0_apply V c t p k _ hrow
  · rw [hq]; exact weights0_apply V c t k q
  · rw [hq]; exact bias0_apply V c t q

/-- An index of the output array lies in point t's tile iff each coordinate lies in the tile's range. -/
theorem mem_tile0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v0).slice (win0_3.rect t)).set ↔ _
  rw [View.set_slice_whole, Rect.mem_set_unit]
  exact Iff.rfl

/-- Row r of the output array lies in the tile of point r / 4000, and every point writes back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  have hlt : (i 0).val / 4000 < cfg0.N := by rw [hN]; omega
  obtain ⟨-, -, -, -, -, e0, e1⟩ := index0_facts ⟨(i 0).val / 4000, hlt⟩
  refine ⟨⟨(i 0).val / 4000, hlt⟩, flush0_3 _, ?_⟩
  rw [mem_tile0]
  intro a
  match a with
  | ⟨0, _⟩ =>
    show win0_3.index ⟨(i 0).val / 4000, hlt⟩ (0 : Fin 2) * 4000 ≤ (i 0).val
      ∧ (i 0).val < win0_3.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, hlt⟩ (1 : Fin 2) * 128 ≤ (i 1).val
      ∧ (i 1).val < win0_3.index ⟨(i 0).val / 4000, hlt⟩ (1 : Fin 2) * 128 + 128
    rw [e1]; omega

/-- Region 0 leaves in its output array the affine map of the three arrays it reads. -/
theorem region0_value (c : Dev nD) :
    (dat0 V c).arrAt 3 cfg0.N = Cert.Spec.lin (V c main_arg0) (V c main_arg5) (V c main_arg6) :=
  (dat0 V c).arrAt_eq_of_cover 3 (Cert.Spec.lin (V c main_arg0) (V c main_arg5) (V c main_arg6))
    (fun t _ => flushed0_eq V c t) cover0

/-! ## Region 1 -/

/-- Entry (p, q) of the second projection's tile: row p of the input tile against column q of the weights, plus
    the bias at q. The narrowing casts are the identity on the extended reals. -/
theorem tile1_apply (x : Vec Ideal S4000x32 .f32) (W : Vec Ideal S32x128 .f32) (b : Vec Ideal S128 .f32)
    (p : Fin 4000) (q : Fin 128) :
    k1_pay1 (F := Ideal) x W b (ix2 p q) = (∑ k : Fin 32, x (ix2 p k) * W (ix2 k q)) + b (ix1 q) := by
  unfold k1_pay1
  refine (truncf_apply (ψ := .bf16) _ bitsLt_bf16_f32 (ix2 p q)).trans ?_
  refine (addf_apply _ _ (ix2 p q)).trans ?_
  refine congrArg₂ (· + ·) ?_ ?_
  · exact Cert.PlainDot.matmul_zero_apply _ rfl _ _ _ (ix2 p q)
  · refine (broadcastTo_1b_ab_apply _ _ p q).trans ?_
    exact shapeCast_a_1a_apply _ _ 0 q

/-- The index maps over the 25 grid points: the row tiles of the input and of the output move with the point,
    the weights and the bias stay at their one block. -/
theorem index1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row p of the input's tile at point t is row 4000 t + p of the input array. -/
theorem rows1_apply (c : Dev nD) (t : Fin cfg1.N) (p : Fin 4000) (k : Fin 32) (r : Fin 100000)
    (hr : r.val = t.val * 4000 + p.val) :
    (iblk1 V c 0 t : Vec Ideal S4000x32 .f32) (ix2 p k) = (V c main_arg1 : S100000x32.Idx → EReal) (ix2 r k) := by
  obtain ⟨e0, e1, -⟩ := index1_facts t
  unfold iblk1
  show V c main_arg1 (((cfg1.win 0).blk t).view.emb (ix2 p k)) = V c main_arg1 (ix2 r k)
  refine congrArg _ (funext fun a => Fin.ext ?_)
  match a with
  | ⟨0, _⟩ => show win1_0.index t (0 : Fin 2) * 4000 + 1 * p.val = r.val; rw [e0, hr]; omega
  | ⟨1, _⟩ => show win1_0.index t (1 : Fin 2) * 32 + 1 * k.val = k.val; rw [e1]; omega

/-- The weights' one block is the weight array. -/
theorem weights1_apply (c : Dev nD) (t : Fin cfg1.N) (k : Fin 32) (q : Fin 128) :
    (iblk1 V c 1 t : Vec Ideal S32x128 .f32) (ix2 k q) = (V c main_arg7 : S32x128.Idx → EReal) (ix2 k q) := by
  obtain ⟨-, -, e0, e1, -⟩ := index1_facts t
  unfold iblk1
  show V c main_arg7 (((cfg1.win 1).blk t).view.emb (ix2 k q)) = V c main_arg7 (ix2 k q)
  refine congrArg _ (funext fun a => Fin.ext ?_)
  match a with
  | ⟨0, _⟩ => show win1_1.index t (0 : Fin 2) * 32 + 1 * k.val = k.val; rw [e0]; omega
  | ⟨1, _⟩ => show win1_1.index t (1 : Fin 2) * 128 + 1 * q.val = q.val; rw [e1]; omega

/-- The bias's one block is the bias array. -/
theorem bias1_apply (c : Dev nD) (t : Fin cfg1.N) (q : Fin 128) :
    (iblk1 V c 2 t : Vec Ideal S128 .f32) (ix1 q) = (V c main_arg8 : S128.Idx → EReal) (ix1 q) := by
  obtain ⟨-, -, -, -, e0, -⟩ := index1_facts t
  unfold iblk1
  show V c main_arg8 (((cfg1.win 2).blk t).view.emb (ix1 q)) = V c main_arg8 (ix1 q)
  refine congrArg _ (funext fun a => Fin.ext ?_)
  match a with
  | ⟨0, _⟩ => show win1_2.index t (0 : Fin 1) * 128 + 1 * q.val = q.val; rw [e0]; omega

/-- What point t writes back to the output array is tile t of the affine map of the three arrays. -/
theorem flushed1_eq (c : Dev nD) (t : Fin cfg1.N) :
    (dat1 V c).flushed 3 t
      = ((cfg1.win 3).blk t).view.read (Elt Ideal) (Cert.Spec.lin (V c main_arg1) (V c main_arg7) (V c main_arg8)) := by
  show (cfg1.win 3).cut (grid1.coords t) ((dat1 V c).after 3 t) = _
  rw [after1_3]
  unfold out1_3
  rw [View.canon_unit_zero zero_off2]
  simp only [View.ld_unit_zero (S := S4000x32) zero_off2, View.ld_unit_zero (S := S32x128) zero_off2,
    View.ld_unit_zero (S := S128) zero_off1]
  obtain ⟨-, -, -, -, -, e0, e1⟩ := index1_facts t
  funext j
  obtain ⟨p, q, rfl⟩ : ∃ (p : Fin 4000) (q : Fin 128), j = ix2 p q := ⟨j 0, j 1, eq_ix2 j⟩
  have hrow : (((cfg1.win 3).blk t).view.emb (ix2 p q) 0).val = t.val * 4000 + p.val := by
    show win1_3.index t (0 : Fin 2) * 4000 + 1 * p.val = _; rw [e0]; omega
  have hcol : (((cfg1.win 3).blk t).view.emb (ix2 p q) 1).val = q.val := by
    show win1_3.index t (1 : Fin 2) * 128 + 1 * q.val = _; rw [e1]; omega
  show k1_pay1 (F := Ideal) (iblk1 V c 0 t) (iblk1 V c 1 t) (iblk1 V c 2 t) (ix2 p q)
    = Cert.Spec.lin (V c main_arg1) (V c main_arg7) (V c main_arg8) (((cfg1.win 3).blk t).view.emb (ix2 p q))
  refine (tile1_apply _ _ _ p q).trans ?_
  unfold Cert.Spec.lin
  have hq : (((cfg1.win 3).blk t).view.emb (ix2 p q) 1 : Fin 128) = q := Fin.ext hcol
  refine congrArg₂ (· + ·) (Finset.sum_congr rfl fun k _ => congrArg₂ (· * ·) ?_ ?_) ?_
  · exact rows1_apply V c t p k _ hrow
  · rw [hq]; exact weights1_apply V c t k q
  · rw [hq]; exact bias1_apply V c t q

/-- An index of the output array lies in point t's tile iff each coordinate lies in the tile's range. -/
theorem mem_tile1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v1).slice (win1_3.rect t)).set ↔ _
  rw [View.set_slice_whole, Rect.mem_set_unit]
  exact Iff.rfl

/-- Row r of the output array lies in the tile of point r / 4000, and every point writes back. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  have hlt : (i 0).val / 4000 < cfg1.N := by rw [hN]; omega
  obtain ⟨-, -, -, -, -, e0, e1⟩ := index1_facts ⟨(i 0).val / 4000, hlt⟩
  refine ⟨⟨(i 0).val / 4000, hlt⟩, flush1_3 _, ?_⟩
  rw [mem_tile1]
  intro a
  match a with
  | ⟨0, _⟩ =>
    show win1_3.index ⟨(i 0).val / 4000, hlt⟩ (0 : Fin 2) * 4000 ≤ (i 0).val
      ∧ (i 0).val < win1_3.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_3.index ⟨(i 0).val / 4000, hlt⟩ (1 : Fin 2) * 128 ≤ (i 1).val
      ∧ (i 1).val < win1_3.index ⟨(i 0).val / 4000, hlt⟩ (1 : Fin 2) * 128 + 128
    rw [e1]; omega

/-- Region 1 likewise. -/
theorem region1_value (c : Dev nD) :
    (dat1 V c).arrAt 3 cfg1.N = Cert.Spec.lin (V c main_arg1) (V c main_arg7) (V c main_arg8) :=
  (dat1 V c).arrAt_eq_of_cover 3 (Cert.Spec.lin (V c main_arg1) (V c main_arg7) (V c main_arg8))
    (fun t _ => flushed1_eq V c t) cover1

end Cert.KernelIdeal.Hand

end
-- ==== Proof.KSage2.lean ====
import proofs.«426788_j78829829750888_3_alg».proof.Proof.Gen.KernelIdeal.Frame
import proofs.«426788_j78829829750888_3_alg».proof.Proof.Spec
import proofs.«426788_j78829829750888_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## Layout steps read at an entry -/

/-- A column `[a, 1]` repeated across `b` columns reads, at `(p, c)`, the column's entry in row `p`. -/
theorem region2_broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid out as one row and repeated down `a` rows reads, at `(p, c)`, the vector's entry `c`. -/
theorem region2_broadcast_row {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Entry `(p, q)` of a block's product with a square parameter matrix, accumulated from zero: the row-by-column sum. -/
theorem region2_matmul_apply {φ₁ φ₂ : FTy} (l : FVec Ideal S2000x128 φ₁) (r : FVec Ideal S128x128 φ₂)
    (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.PlainDot.matmul_zero_apply dot_S2000x128_S128x128_S2000x128_1_0_0_1_n_n rfl none l r (ix2 p q)

/-! ## The body on one block of rows -/

/-- The normalised pre-activation at entry `(p, q)` of a block: the mean of the neighbours through the first matrix, the
    bias, the node's own row through the second matrix, centred and scaled by the reciprocal root of the shifted variance. -/
theorem region2_k2_pay4_apply (x0 : Vec Ideal S2000x128 .f32) (x2 : Vec Ideal S2000x1 .f32) (x1 : Vec Ideal S2000x128 .bf16)
    (x6 x8 : Vec Ideal S128x128 .f32) (x7 x11 x12 : Vec Ideal S128 .f32) (p : Fin 2000) (q : Fin 128) :
    k2_pay4 x0 x2 x1 x6 x8 x7 x11 x12 (ix2 p q)
      = (((∑ k : Fin 128, (x0 (ix2 p k) * x2 (ix2 p 0)) * x6 (ix2 k q)) + x7 (ix1 q)
          + ∑ k : Fin 128, x1 (ix2 p k) * x8 (ix2 k q)) - x11 (ix1 q)) * Ideal.rsqrt (x12 (ix1 q) + Cert.Spec.eps) := by
  unfold k2_pay4 k2_pay2
  simp only [shapeCast_self]
  simp only [mulf_apply, subf_apply, addf_apply]
  rw [region2_broadcast_row, region2_broadcast_row, region2_broadcast_row]
  rw [region2_matmul_apply, region2_matmul_apply]
  simp only [truncf_apply, mulf_apply, region2_broadcast_column]
  rfl

/-- What the body stores for the recipient side, at entry `(p, q)` of a block, is the node update of the blocks it
    loaded: scale and shift after the normalisation, the rectifier, and the node's own entry added back. -/
theorem region2_body_r_apply (x0 : Vec Ideal S2000x128 .f32) (x1 : Vec Ideal S2000x128 .bf16) (x2 : Vec Ideal S2000x1 .f32)
    (x6 : Vec Ideal S128x128 .f32) (x7 : Vec Ideal S128 .f32) (x8 : Vec Ideal S128x128 .f32)
    (x9 x10 x11 x12 : Vec Ideal S128 .f32) (p : Fin 2000) (q : Fin 128) :
    k2_pay6 (k2_pay2 x1) (k2_pay3 x10) (k2_pay4 x0 x2 x1 x6 x8 x7 x11 x12) (k2_pay5 x9) (ix2 p q)
      = Cert.Spec.sage x0 x1 x2 x6 x7 x8 x9 x10 x11 x12 (ix2 p q) := by
  unfold k2_pay6 k2_pay5 k2_pay3 k2_pay2
  simp only [shapeCast_self]
  simp only [addf_apply, mulf_apply, maximumf_apply, truncf_apply, extf_apply, broadcast_apply]
  rw [region2_broadcast_row, region2_broadcast_row, region2_k2_pay4_apply]
  rfl

/-- The pre-activation of the user side at entry `(p, q)` of a block, before the normalisation. -/
theorem region2_k2_pay8_apply (x3 : Vec Ideal S2000x128 .f32) (x5 : Vec Ideal S2000x1 .f32) (x4 : Vec Ideal S2000x128 .bf16)
    (x13 x15 : Vec Ideal S128x128 .f32) (x14 : Vec Ideal S128 .f32) (p : Fin 2000) (q : Fin 128) :
    k2_pay8 x3 x5 x4 x13 x15 x14 (ix2 p q)
      = (∑ k : Fin 128, (x3 (ix2 p k) * x5 (ix2 p 0)) * x13 (ix2 k q)) + x14 (ix1 q)
          + ∑ k : Fin 128, x4 (ix2 p k) * x15 (ix2 k q) := by
  unfold k2_pay8 k2_pay7
  simp only [shapeCast_self]
  simp only [addf_apply]
  rw [region2_broadcast_row]
  rw [region2_matmul_apply, region2_matmul_apply]
  simp only [truncf_apply, mulf_apply, region2_broadcast_column]

/-- What the body stores for the user side, at entry `(p, q)` of a block, is the node update of the blocks it loaded. -/
theorem region2_body_u_apply (x3 : Vec Ideal S2000x128 .f32) (x4 : Vec Ideal S2000x128 .bf16) (x5 : Vec Ideal S2000x1 .f32)
    (x13 : Vec Ideal S128x128 .f32) (x14 : Vec Ideal S128 .f32) (x15 : Vec Ideal S128x128 .f32)
    (x16 x17 x18 x19 : Vec Ideal S128 .f32) (p : Fin 2000) (q : Fin 128) :
    k2_pay1 (k2_pay7 x4) (k2_pay8 x3 x5 x4 x13 x15 x14) (k2_pay9 x16) (k2_pay10 x17) (k2_pay11 x18) x19 (ix2 p q)
      = Cert.Spec.sage x3 x4 x5 x13 x14 x15 x16 x17 x18 x19 (ix2 p q) := by
  unfold k2_pay1 k2_pay7 k2_pay9 k2_pay10 k2_pay11
  simp only [shapeCast_self]
  simp only [addf_apply, subf_apply, mulf_apply, maximumf_apply, truncf_apply, extf_apply, broadcast_apply]
  rw [region2_broadcast_row, region2_broadcast_row, region2_broadcast_row, region2_broadcast_row, region2_k2_pay8_apply]
  rfl

/-! ## One store through the whole staging buffer leaves its payload -/

theorem region2_zero_offsets2 : (![0, 0] : Fin 2 → Nat) = fun _ => 0 := funext fun a => by fin_cases a <;> rfl

theorem region2_zero_offsets1 : (![0] : Fin 1 → Nat) = fun _ => 0 := funext fun a => by fin_cases a <;> rfl

/-- The first output's staging buffer after the body is the node update of the recipient side's blocks. -/
theorem region2_out_r (x0 : Vec Ideal S2000x128 .f32) (x1 : Vec Ideal S2000x128 .bf16) (x2 : Vec Ideal S2000x1 .f32) (x3 : Vec Ideal S2000x128 .f32) (x4 : Vec Ideal S2000x128 .bf16) (x5 : Vec Ideal S2000x1 .f32) (x6 : Vec Ideal S128x128 .f32) (x7 : Vec Ideal S128 .f32) (x8 : Vec Ideal S128x128 .f32) (x9 : Vec Ideal S128 .f32) (x10 : Vec Ideal S128 .f32) (x11 : Vec Ideal S128 .f32) (x12 : Vec Ideal S128 .f32) (x13 : Vec Ideal S128x128 .f32) (x14 : Vec Ideal S128 .f32) (x15 : Vec Ideal S128x128 .f32) (x16 : Vec Ideal S128 .f32) (x17 : Vec Ideal S128 .f32) (x18 : Vec Ideal S128 .f32) (x19 : Vec Ideal S128 .f32) :
    out2_20 x0 x1 x2 x3 x4 x5 x6 x7 x8 x9 x10 x11 x12 x13 x14 x15 x16 x17 x18 x19
      = Cert.Spec.sage x0 x1 x2 x6 x7 x8 x9 x10 x11 x12 := by
  unfold out2_20
  rw [View.canon_unit_zero region2_zero_offsets2]
  simp only [View.ld_unit_zero (S := S2000x128) region2_zero_offsets2, View.ld_unit_zero (S := S2000x1) region2_zero_offsets2,
    View.ld_unit_zero (S := S128x128) region2_zero_offsets2, View.ld_unit_zero (S := S128) region2_zero_offsets1]
  funext j
  obtain ⟨p, q, rfl⟩ : ∃ (p : Fin 2000) (q : Fin 128), j = ix2 p q := ⟨j 0, j 1, eq_ix2 j⟩
  exact region2_body_r_apply x0 x1 x2 x6 x7 x8 x9 x10 x11 x12 p q

/-- The second output's staging buffer after the body is the node update of the user side's blocks. -/
theorem region2_out_u (x0 : Vec Ideal S2000x128 .f32) (x1 : Vec Ideal S2000x128 .bf16) (x2 : Vec Ideal S2000x1 .f32) (x3 : Vec Ideal S2000x128 .f32) (x4 : Vec Ideal S2000x128 .bf16) (x5 : Vec Ideal S2000x1 .f32) (x6 : Vec Ideal S128x128 .f32) (x7 : Vec Ideal S128 .f32) (x8 : Vec Ideal S128x128 .f32) (x9 : Vec Ideal S128 .f32) (x10 : Vec Ideal S128 .f32) (x11 : Vec Ideal S128 .f32) (x12 : Vec Ideal S128 .f32) (x13 : Vec Ideal S128x128 .f32) (x14 : Vec Ideal S128 .f32) (x15 : Vec Ideal S128x128 .f32) (x16 : Vec Ideal S128 .f32) (x17 : Vec Ideal S128 .f32) (x18 : Vec Ideal S128 .f32) (x19 : Vec Ideal S128 .f32) :
    out2_21 x0 x1 x2 x3 x4 x5 x6 x7 x8 x9 x10 x11 x12 x13 x14 x15 x16 x17 x18 x19
      = Cert.Spec.sage x3 x4 x5 x13 x14 x15 x16 x17 x18 x19 := by
  unfold out2_21
  rw [View.canon_unit_zero region2_zero_offsets2]
  simp only [View.ld_unit_zero (S := S2000x128) region2_zero_offsets2, View.ld_unit_zero (S := S2000x1) region2_zero_offsets2,
    View.ld_unit_zero (S := S128x128) region2_zero_offsets2, View.ld_unit_zero (S := S128) region2_zero_offsets1]
  funext j
  obtain ⟨p, q, rfl⟩ : ∃ (p : Fin 2000) (q : Fin 128), j = ix2 p q := ⟨j 0, j 1, eq_ix2 j⟩
  exact region2_body_u_apply x3 x4 x5 x13 x14 x15 x16 x17 x18 x19 p q

/-! ## The node update reads one row of the row-indexed arrays -/

/-- Entry `(p, q)` of the update of a block is entry `(r, q)` of the update of the whole arrays, when row `p` of each
    block is row `r` of its array: the update at a row reads the neighbour sums, the own features and the reciprocal
    degree of that row only. -/
theorem region2_sage_row (s : Vec Ideal S2000x128 .f32) (h : Vec Ideal S2000x128 .bf16) (inv : Vec Ideal S2000x1 .f32)
    (s' : Vec Ideal S100000x128 .f32) (h' : Vec Ideal S100000x128 .bf16) (inv' : Vec Ideal S100000x1 .f32)
    (Wl : Vec Ideal S128x128 .f32) (bl : Vec Ideal S128 .f32) (Wr : Vec Ideal S128x128 .f32) (g b mu v : Vec Ideal S128 .f32)
    (p : Fin 2000) (r : Fin 100000) (q : Fin 128)
    (hs : ∀ k : Fin 128, s (ix2 p k) = s' (ix2 r k)) (hh : ∀ k : Fin 128, h (ix2 p k) = h' (ix2 r k))
    (hinv : inv (ix2 p 0) = inv' (ix2 r 0)) :
    Cert.Spec.sage s h inv Wl bl Wr g b mu v (ix2 p q) = Cert.Spec.sage s' h' inv' Wl bl Wr g b mu v (ix2 r q) := by
  show max (Cert.Spec.bn ((∑ k : Fin 128, (s (ix2 p k) * inv (ix2 p 0)) * Wl (ix2 k q)) + bl (ix1 q)
        + ∑ k : Fin 128, h (ix2 p k) * Wr (ix2 k q)) (g (ix1 q)) (b (ix1 q)) (mu (ix1 q)) (v (ix1 q))) Cert.Spec.zero + h (ix2 p q)
    = max (Cert.Spec.bn ((∑ k : Fin 128, (s' (ix2 r k) * inv' (ix2 r 0)) * Wl (ix2 k q)) + bl (ix1 q)
        + ∑ k : Fin 128, h' (ix2 r k) * Wr (ix2 k q)) (g (ix1 q)) (b (ix1 q)) (mu (ix1 q)) (v (ix1 q))) Cert.Spec.zero + h' (ix2 r q)
  simp only [hs, hh, hinv]

/-! ## Where each window's block lies in its array -/

/-- The row-blocked windows' index maps at each of the grid's points: at point `t` such a window sits at block row `t`,
    column block `0`. -/
theorem region2_index_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_20.index t (0 : Fin 2) = t.val ∧ win2_20.index t (1 : Fin 2) = 0
    ∧ win2_21.index t (0 : Fin 2) = t.val ∧ win2_21.index t (1 : Fin 2) = 0 :=
  (by decide +kernel : ∀ t : Fin grid2.N, _)

/-- The parameter windows' index maps at each of the grid's points: always at their one block. -/
theorem region2_index_params : ∀ t : Fin cfg2.N,
    win2_6.index t (0 : Fin 2) = 0 ∧ win2_6.index t (1 : Fin 2) = 0
    ∧ win2_7.index t (0 : Fin 1) = 0
    ∧ win2_8.index t (0 : Fin 2) = 0 ∧ win2_8.index t (1 : Fin 2) = 0
    ∧ win2_9.index t (0 : Fin 1) = 0 ∧ win2_10.index t (0 : Fin 1) = 0
    ∧ win2_11.index t (0 : Fin 1) = 0 ∧ win2_12.index t (0 : Fin 1) = 0
    ∧ win2_13.index t (0 : Fin 2) = 0 ∧ win2_13.index t (1 : Fin 2) = 0
    ∧ win2_14.index t (0 : Fin 1) = 0
    ∧ win2_15.index t (0 : Fin 2) = 0 ∧ win2_15.index t (1 : Fin 2) = 0
    ∧ win2_16.index t (0 : Fin 1) = 0 ∧ win2_17.index t (0 : Fin 1) = 0
    ∧ win2_18.index t (0 : Fin 1) = 0 ∧ win2_19.index t (0 : Fin 1) = 0 :=
  (by decide +kernel : ∀ t : Fin grid2.N, _)

/-- The array row under row `p` of the block at point `t`: blocks are 2000 rows, one after the other. -/
def region2_row (t : Fin cfg2.N) (p : Fin 2000) : Fin 100000 :=
  ⟨t.val * 2000 + p.val, by
    have ht : t.val < 50 := Nat.lt_of_lt_of_eq t.isLt N_2
    have hp := p.isLt
    omega⟩

/-- A parameter window's block at any point is the whole parameter array. -/
theorem region2_block6 (c : Dev nD) (t : Fin cfg2.N) : iblk2 V c 6 t = V c main_v66 := by
  have e := region2_index_params t
  funext y
  show V c main_v66 (((cfg2.win 6).blk t).view.emb y) = V c main_v66 y
  congr 1
  funext a
  apply Fin.ext
  match a with
  | ⟨0, _⟩ => show win2_6.index t (0 : Fin 2) * 128 + 1 * (y 0).val = (y 0).val; rw [e.1]; omega
  | ⟨1, _⟩ => show win2_6.index t (1 : Fin 2) * 128 + 1 * (y 1).val = (y 1).val; rw [e.2.1]; omega

/-- A parameter window's block at any point is the whole parameter array. -/
theorem region2_block7 (c : Dev nD) (t : Fin cfg2.N) : iblk2 V c 7 t = V c main_v68 := by
  have e := region2_index_params t
  funext y
  show V c main_v68 (((cfg2.win 7).blk t).view.emb y) = V c main_v68 y
  congr 1
  funext a
  apply Fin.ext
  match a with
  | ⟨0, _⟩ => show win2_7.index t (0 : Fin 1) * 128 + 1 * (y 0).val = (y 0).val; rw [e.2.2.1]; omega

/-- A parameter window's block at any point is the whole parameter array. -/
theorem region2_block8 (c : Dev nD) (t : Fin cfg2.N) : iblk2 V c 8 t = V c main_v70 := by
  have e := region2_index_params t
  funext y
  show V c main_v70 (((cfg2.win 8).blk t).view.emb y) = V c main_v70 y
  congr 1
  funext a
  apply Fin.ext
  match a with
  | ⟨0, _⟩ => show win2_8.index t (0 : Fin 2) * 128 + 1 * (y 0).val = (y 0).val; rw [e.2.2.2.1]; omega
  | ⟨1, _⟩ => show win2_8.index t (1 : Fin 2) * 128 + 1 * (y 1).val = (y 1).val; rw [e.2.2.2.2.1]; omega

/-- A parameter window's block at any point is the whole parameter array. -/
theorem region2_block9 (c : Dev nD) (t : Fin cfg2.N) : iblk2 V c 9 t = V c main_v50 := by
  have e := region2_index_params t
  funext y
  show V c main_v50 (((cfg2.win 9).blk t).view.emb y) = V c main_v50 y
  congr 1
  funext a
  apply Fin.ext
  match a with
  | ⟨0, _⟩ => show win2_9.index t (0 : Fin 1) * 128 + 1 * (y 0).val = (y 0).val; rw [e.2.2.2.2.2.1]; omega

/-- A parameter window's block at any point is the whole parameter array. -/
theorem region2_block10 (c : Dev nD) (t : Fin cfg2.N) : iblk2 V c 10 t = V c main_v52 := by
  have e := region2_index_params t
  funext y
  show V c main_v52 (((cfg2.win 10).blk t).view.emb y) = V c main_v52 y
  congr 1
  funext a
  apply Fin.ext
  match a with
  | ⟨0, _⟩ => show win2_10.index t (0 : Fin 1) * 128 + 1 * (y 0).val = (y 0).val; rw [e.2.2.2.2.2.2.1]; omega

/-- A parameter window's block at any point is the whole parameter array. -/
theorem region2_block11 (c : Dev nD) (t : Fin cfg2.N) : iblk2 V c 11 t = V c main_v54 := by
  have e := region2_index_params t
  funext y
  show V c main_v54 (((cfg2.win 11).blk t).view.emb y) = V c main_v54 y
  congr 1
  funext a
  apply Fin.ext
  match a with
  | ⟨0, _⟩ => show win2_11.index t (0 : Fin 1) * 128 + 1 * (y 0).val = (y 0).val; rw [e.2.2.2.2.2.2.2.1]; omega

/-- A parameter window's block at any point is the whole parameter array. -/
theorem region2_block12 (c : Dev nD) (t : Fin cfg2.N) : iblk2 V c 12 t = V c main_v56 := by
  have e := region2_index_params t
  funext y
  show V c main_v56 (((cfg2.win 12).blk t).view.emb y) = V c main_v56 y
  congr 1
  funext a
  apply Fin.ext
  match a with
  | ⟨0, _⟩ => show win2_12.index t (0 : Fin 1) * 128 + 1 * (y 0).val = (y 0).val; rw [e.2.2.2.2.2.2.2.2.1]; omega

/-- A parameter window's block at any point is the whole parameter array. -/
theorem region2_block13 (c : Dev nD) (t : Fin cfg2.N) : iblk2 V c 13 t = V c main_v72 := by
  have e := region2_index_params t
  funext y
  show V c main_v72 (((cfg2.win 13).blk t).view.emb y) = V c main_v72 y
  congr 1
  funext a
  apply Fin.ext
  match a with
  | ⟨0, _⟩ => show win2_13.index t (0 : Fin 2) * 128 + 1 * (y 0).val = (y 0).val; rw [e.2.2.2.2.2.2.2.2.2.1]; omega
  | ⟨1, _⟩ => show win2_13.index t (1 : Fin 2) * 128 + 1 * (y 1).val = (y 1).val; rw [e.2.2.2.2.2.2.2.2.2.2.1]; omega

/-- A parameter window's block at any point is the whole parameter array. -/
theorem region2_block14 (c : Dev nD) (t : Fin cfg2.N) : iblk2 V c 14 t = V c main_v74 := by
  have e := region2_index_params t
  funext y
  show V c main_v74 (((cfg2.win 14).blk t).view.emb y) = V c main_v74 y
  congr 1
  funext a
  apply Fin.ext
  match a with
  | ⟨0, _⟩ => show win2_14.index t (0 : Fin 1) * 128 + 1 * (y 0).val = (y 0).val; rw [e.2.2.2.2.2.2.2.2.2.2.2.1]; omega

/-- A parameter window's block at any point is the whole parameter array. -/
theorem region2_block15 (c : Dev nD) (t : Fin cfg2.N) : iblk2 V c 15 t = V c main_v76 := by
  have e := region2_index_params t
  funext y
  show V c main_v76 (((cfg2.win 15).blk t).view.emb y) = V c main_v76 y
  congr 1
  funext a
  apply Fin.ext
  match a with
  | ⟨0, _⟩ => show win2_15.index t (0 : Fin 2) * 128 + 1 * (y 0).val = (y 0).val; rw [e.2.2.2.2.2.2.2.2.2.2.2.2.1]; omega
  | ⟨1, _⟩ => show win2_15.index t (1 : Fin 2) * 128 + 1 * (y 1).val = (y 1).val; rw [e.2.2.2.2.2.2.2.2.2.2.2.2.2.1]; omega

/-- A parameter window's block at any point is the whole parameter array. -/
theorem region2_block16 (c : Dev nD) (t : Fin cfg2.N) : iblk2 V c 16 t = V c main_v58 := by
  have e := region2_index_params t
  funext y
  show V c main_v58 (((cfg2.win 16).blk t).view.emb y) = V c main_v58 y
  congr 1
  funext a
  apply Fin.ext
  match a with
  | ⟨0, _⟩ => show win2_16.index t (0 : Fin 1) * 128 + 1 * (y 0).val = (y 0).val; rw [e.2.2.2.2.2.2.2.2.2.2.2.2.2.2.1]; omega

/-- A parameter window's block at any point is the whole parameter array. -/
theorem region2_block17 (c : Dev nD) (t : Fin cfg2.N) : iblk2 V c 17 t = V c main_v60 := by
  have e := region2_index_params t
  funext y
  show V c main_v60 (((cfg2.win 17).blk t).view.emb y) = V c main_v60 y
  congr 1
  funext a
  apply Fin.ext
  match a with
  | ⟨0, _⟩ => show win2_17.index t (0 : Fin 1) * 128 + 1 * (y 0).val = (y 0).val; rw [e.2.2.2.2.2.2.2.2.2.2.2.2.2.2.2.1]; omega

/-- A parameter window's block at any point is the whole parameter array. -/
theorem region2_block18 (c : Dev nD) (t : Fin cfg2.N) : iblk2 V c 18 t = V c main_v62 := by
  have e := region2_index_params t
  funext y
  show V c main_v62 (((cfg2.win 18).blk t).view.emb y) = V c main_v62 y
  congr 1
  funext a
  apply Fin.ext
  match a with
  | ⟨0, _⟩ => show win2_18.index t (0 : Fin 1) * 128 + 1 * (y 0).val = (y 0).val; rw [e.2.2.2.2.2.2.2.2.2.2.2.2.2.2.2.2.1]; omega

/-- A parameter window's block at any point is the whole parameter array. -/
theorem region2_block19 (c : Dev nD) (t : Fin cfg2.N) : iblk2 V c 19 t = V c main_v64 := by
  have e := region2_index_params t
  funext y
  show V c main_v64 (((cfg2.win 19).blk t).view.emb y) = V c main_v64 y
  congr 1
  funext a
  apply Fin.ext
  match a with
  | ⟨0, _⟩ => show win2_19.index t (0 : Fin 1) * 128 + 1 * (y 0).val = (y 0).val; rw [e.2.2.2.2.2.2.2.2.2.2.2.2.2.2.2.2.2]; omega

/-- Row `p` of the block of window 0 at point `t` is row `region2_row t p` of its array. -/
theorem region2_block0_apply (c : Dev nD) (t : Fin cfg2.N) (p : Fin 2000) (k : Fin 128) :
    (iblk2 V c 0 t : Vec Ideal S2000x128 .f32) (ix2 p k) = (V c main_v37 : Vec Ideal S100000x128 .f32) (ix2 (region2_row t p) k) := by
  have e := region2_index_rows t
  show V c main_v37 (((cfg2.win 0).blk t).view.emb (ix2 p k)) = V c main_v37 (ix2 (region2_row t p) k)
  congr 1
  funext a
  apply Fin.ext
  match a with
  | ⟨0, _⟩ => show win2_0.index t (0 : Fin 2) * 2000 + 1 * p.val = t.val * 2000 + p.val; rw [e.1]; omega
  | ⟨1, _⟩ => show win2_0.index t (1 : Fin 2) * 128 + 1 * k.val = k.val; rw [e.2.1]; omega

/-- Row `p` of the block of window 1 at point `t` is row `region2_row t p` of its array. -/
theorem region2_block1_apply (c : Dev nD) (t : Fin cfg2.N) (p : Fin 2000) (k : Fin 128) :
    (iblk2 V c 1 t : Vec Ideal S2000x128 .bf16) (ix2 p k) = (V c main_v1 : Vec Ideal S100000x128 .bf16) (ix2 (region2_row t p) k) := by
  have e := region2_index_rows t
  show V c main_v1 (((cfg2.win 1).blk t).view.emb (ix2 p k)) = V c main_v1 (ix2 (region2_row t p) k)
  congr 1
  funext a
  apply Fin.ext
  match a with
  | ⟨0, _⟩ => show win2_1.index t (0 : Fin 2) * 2000 + 1 * p.val = t.val * 2000 + p.val; rw [e.2.2.1]; omega
  | ⟨1, _⟩ => show win2_1.index t (1 : Fin 2) * 128 + 1 * k.val = k.val; rw [e.2.2.2.1]; omega

/-- The one entry in row `p` of the block of window 2 at point `t` is the entry in row `region2_row t p` of its array. -/
theorem region2_block2_apply (c : Dev nD) (t : Fin cfg2.N) (p : Fin 2000) :
    (iblk2 V c 2 t : Vec Ideal S2000x1 .f32) (ix2 p 0) = (V c main_v24 : Vec Ideal S100000x1 .f32) (ix2 (region2_row t p) 0) := by
  have e := region2_index_rows t
  show V c main_v24 (((cfg2.win 2).blk t).view.emb (ix2 p 0)) = V c main_v24 (ix2 (region2_row t p) 0)
  congr 1
  funext a
  apply Fin.ext
  match a with
  | ⟨0, _⟩ => show win2_2.index t (0 : Fin 2) * 2000 + 1 * p.val = t.val * 2000 + p.val; rw [e.2.2.2.2.1]; omega
  | ⟨1, _⟩ => show win2_2.index t (1 : Fin 2) * 1 + 1 * 0 = 0; rw [e.2.2.2.2.2.1]

/-- Row `p` of the block of window 3 at point `t` is row `region2_row t p` of its array. -/
theorem region2_block3_apply (c : Dev nD) (t : Fin cfg2.N) (p : Fin 2000) (k : Fin 128) :
    (iblk2 V c 3 t : Vec Ideal S2000x128 .f32) (ix2 p k) = (V c main_v48 : Vec Ideal S100000x128 .f32) (ix2 (region2_row t p) k) := by
  have e := region2_index_rows t
  show V c main_v48 (((cfg2.win 3).blk t).view.emb (ix2 p k)) = V c main_v48 (ix2 (region2_row t p) k)
  congr 1
  funext a
  apply Fin.ext
  match a with
  | ⟨0, _⟩ => show win2_3.index t (0 : Fin 2) * 2000 + 1 * p.val = t.val * 2000 + p.val; rw [e.2.2.2.2.2.2.1]; omega
  | ⟨1, _⟩ => show win2_3.index t (1 : Fin 2) * 128 + 1 * k.val = k.val; rw [e.2.2.2.2.2.2.2.1]; omega

/-- Row `p` of the block of window 4 at point `t` is row `region2_row t p` of its array. -/
theorem region2_block4_apply (c : Dev nD) (t : Fin cfg2.N) (p : Fin 2000) (k : Fin 128) :
    (iblk2 V c 4 t : Vec Ideal S2000x128 .bf16) (ix2 p k) = (V c main_v0 : Vec Ideal S100000x128 .bf16) (ix2 (region2_row t p) k) := by
  have e := region2_index_rows t
  show V c main_v0 (((cfg2.win 4).blk t).view.emb (ix2 p k)) = V c main_v0 (ix2 (region2_row t p) k)
  congr 1
  funext a
  apply Fin.ext
  match a with
  | ⟨0, _⟩ => show win2_4.index t (0 : Fin 2) * 2000 + 1 * p.val = t.val * 2000 + p.val; rw [e.2.2.2.2.2.2.2.2.1]; omega
  | ⟨1, _⟩ => show win2_4.index t (1 : Fin 2) * 128 + 1 * k.val = k.val; rw [e.2.2.2.2.2.2.2.2.2.1]; omega

/-- The one entry in row `p` of the block of window 5 at point `t` is the entry in row `region2_row t p` of its array. -/
theorem region2_block5_apply (c : Dev nD) (t : Fin cfg2.N) (p : Fin 2000) :
    (iblk2 V c 5 t : Vec Ideal S2000x1 .f32) (ix2 p 0) = (V c main_v26 : Vec Ideal S100000x1 .f32) (ix2 (region2_row t p) 0) := by
  have e := region2_index_rows t
  show V c main_v26 (((cfg2.win 5).blk t).view.emb (ix2 p 0)) = V c main_v26 (ix2 (region2_row t p) 0)
  congr 1
  funext a
  apply Fin.ext
  match a with
  | ⟨0, _⟩ => show win2_5.index t (0 : Fin 2) * 2000 + 1 * p.val = t.val * 2000 + p.val; rw [e.2.2.2.2.2.2.2.2.2.2.1]; omega
  | ⟨1, _⟩ => show win2_5.index t (1 : Fin 2) * 1 + 1 * 0 = 0; rw [e.2.2.2.2.2.2.2.2.2.2.2.1]

/-- Entry `(p, q)` of the first output's block at point `t` lies at `(region2_row t p, q)` of the output array. -/
theorem region2_emb20 (t : Fin cfg2.N) (p : Fin 2000) (q : Fin 128) :
    (((cfg2.win 20).blk t).view.emb (ix2 p q) : S100000x128.Idx) = ix2 (region2_row t p) q := by
  have e := region2_index_rows t
  funext a
  apply Fin.ext
  match a with
  | ⟨0, _⟩ => show win2_20.index t (0 : Fin 2) * 2000 + 1 * p.val = t.val * 2000 + p.val; rw [e.2.2.2.2.2.2.2.2.2.2.2.2.1]; omega
  | ⟨1, _⟩ => show win2_20.index t (1 : Fin 2) * 128 + 1 * q.val = q.val; rw [e.2.2.2.2.2.2.2.2.2.2.2.2.2.1]; omega

/-- Entry `(p, q)` of the second output's block at point `t` lies at `(region2_row t p, q)` of the output array. -/
theorem region2_emb21 (t : Fin cfg2.N) (p : Fin 2000) (q : Fin 128) :
    (((cfg2.win 21).blk t).view.emb (ix2 p q) : S100000x128.Idx) = ix2 (region2_row t p) q := by
  have e := region2_index_rows t
  funext a
  apply Fin.ext
  match a with
  | ⟨0, _⟩ => show win2_21.index t (0 : Fin 2) * 2000 + 1 * p.val = t.val * 2000 + p.val; rw [e.2.2.2.2.2.2.2.2.2.2.2.2.2.2.1]; omega
  | ⟨1, _⟩ => show win2_21.index t (1 : Fin 2) * 128 + 1 * q.val = q.val; rw [e.2.2.2.2.2.2.2.2.2.2.2.2.2.2.2]; omega

/-! ## From the blocks to the arrays -/

/-- What point `t` writes back to the first output array is block `t` of the node update of the recipient side's whole arrays. -/
theorem region2_flushed_r (c : Dev nD) (t : Fin cfg2.N) :
    (dat2 V c).flushed 20 t = ((cfg2.win 20).blk t).view.read (Elt Ideal)
      (Cert.Spec.sage (V c main_v37) (V c main_v1) (V c main_v24) (V c main_v66) (V c main_v68) (V c main_v70) (V c main_v50) (V c main_v52) (V c main_v54) (V c main_v56)) := by
  show (cfg2.win 20).cut (grid2.coords t) ((dat2 V c).after 20 t) = _
  rw [after2_20, region2_out_r, region2_block6, region2_block7, region2_block8, region2_block9, region2_block10, region2_block11, region2_block12]
  funext j
  obtain ⟨p, q, rfl⟩ : ∃ (p : Fin 2000) (q : Fin 128), j = ix2 p q := ⟨j 0, j 1, eq_ix2 j⟩
  show Cert.Spec.sage (iblk2 V c 0 t) (iblk2 V c 1 t) (iblk2 V c 2 t) (V c main_v66) (V c main_v68) (V c main_v70) (V c main_v50) (V c main_v52) (V c main_v54) (V c main_v56) (ix2 p q)
    = Cert.Spec.sage (V c main_v37) (V c main_v1) (V c main_v24) (V c main_v66) (V c main_v68) (V c main_v70) (V c main_v50) (V c main_v52) (V c main_v54) (V c main_v56) (((cfg2.win 20).blk t).view.emb (ix2 p q))
  rw [region2_emb20]
  exact region2_sage_row _ _ _ _ _ _ _ _ _ _ _ _ _ p (region2_row t p) q (fun k => region2_block0_apply V c t p k)
    (fun k => region2_block1_apply V c t p k) (region2_block2_apply V c t p)

/-- An index of the first output array is in point `t`'s block iff each coordinate is in the block's range on its axis. -/
theorem region2_mem_block_r (t : Fin cfg2.N) (i : S100000x128.Idx) :
    i ∈ ((cfg2.win 20).blk t).view.set ↔ ∀ a : Fin 2, win2_20.index t a * S2000x128.size a ≤ (i a).val
      ∧ (i a).val < win2_20.index t a * S2000x128.size a + S2000x128.size a := by
  show i ∈ ((View.whole main_v77_0).slice (win2_20.rect t)).set ↔ _
  rw [View.set_slice_whole, Rect.mem_set_unit]
  exact Iff.rfl

/-- Every index of the first output array is in the block of the point its row falls in: row `r` is in block `r / 2000`. -/
theorem region2_cover_r (i : S100000x128.Idx) :
    ∃ t : Fin cfg2.N, (cfg2.win 20).flush t = true ∧ i ∈ ((cfg2.win 20).blk t).view.set := by
  have hi0 : (i 0).val < 100000 := (i 0).isLt
  have hi1 : (i 1).val < 128 := (i 1).isLt
  have hlt : (i 0).val / 2000 < cfg2.N := Nat.lt_of_lt_of_eq (by omega : (i 0).val / 2000 < 50) N_2.symm
  have e := region2_index_rows ⟨(i 0).val / 2000, hlt⟩
  have e0 : win2_20.index ⟨(i 0).val / 2000, hlt⟩ (0 : Fin 2) = (i 0).val / 2000 := e.2.2.2.2.2.2.2.2.2.2.2.2.1
  have e1 : win2_20.index ⟨(i 0).val / 2000, hlt⟩ (1 : Fin 2) = 0 := e.2.2.2.2.2.2.2.2.2.2.2.2.2.1
  refine ⟨⟨(i 0).val / 2000, hlt⟩, flush2_20 _, ?_⟩
  rw [region2_mem_block_r]
  intro a
  match a with
  | ⟨0, _⟩ =>
    show win2_20.index ⟨(i 0).val / 2000, hlt⟩ (0 : Fin 2) * 2000 ≤ (i 0).val
      ∧ (i 0).val < win2_20.index ⟨(i 0).val / 2000, hlt⟩ (0 : Fin 2) * 2000 + 2000
    rw [e0]; omega
  | ⟨1, _⟩ =>
    show win2_20.index ⟨(i 0).val / 2000, hlt⟩ (1 : Fin 2) * 128 ≤ (i 1).val
      ∧ (i 1).val < win2_20.index ⟨(i 0).val / 2000, hlt⟩ (1 : Fin 2) * 128 + 128
    rw [e1]; omega

/-- Region 2 leaves in its first output array the node update of the recipient side: neighbour sums, own rows and
    reciprocal degrees as the region finds them, the layer's recipient parameters. -/
theorem region2_value_r (c : Dev nD) :
    (dat2 V c).arrAt 20 cfg2.N = Cert.Spec.sage (V c main_v37) (V c main_v1) (V c main_v24) (V c main_v66) (V c main_v68) (V c main_v70)
      (V c main_v50) (V c main_v52) (V c main_v54) (V c main_v56) :=
  (dat2 V c).arrAt_eq_of_cover 20 _ (fun t _ => region2_flushed_r V c t) (region2_cover_r)

/-- What point `t` writes back to the second output array is block `t` of the node update of the user side's whole arrays. -/
theorem region2_flushed_u (c : Dev nD) (t : Fin cfg2.N) :
    (dat2 V c).flushed 21 t = ((cfg2.win 21).blk t).view.read (Elt Ideal)
      (Cert.Spec.sage (V c main_v48) (V c main_v0) (V c main_v26) (V c main_v72) (V c main_v74) (V c main_v76) (V c main_v58) (V c main_v60) (V c main_v62) (V c main_v64)) := by
  show (cfg2.win 21).cut (grid2.coords t) ((dat2 V c).after 21 t) = _
  rw [after2_21, region2_out_u, region2_block13, region2_block14, region2_block15, region2_block16, region2_block17, region2_block18, region2_block19]
  funext j
  obtain ⟨p, q, rfl⟩ : ∃ (p : Fin 2000) (q : Fin 128), j = ix2 p q := ⟨j 0, j 1, eq_ix2 j⟩
  show Cert.Spec.sage (iblk2 V c 3 t) (iblk2 V c 4 t) (iblk2 V c 5 t) (V c main_v72) (V c main_v74) (V c main_v76) (V c main_v58) (V c main_v60) (V c main_v62) (V c main_v64) (ix2 p q)
    = Cert.Spec.sage (V c main_v48) (V c main_v0) (V c main_v26) (V c main_v72) (V c main_v74) (V c main_v76) (V c main_v58) (V c main_v60) (V c main_v62) (V c main_v64) (((cfg2.win 21).blk t).view.emb (ix2 p q))
  rw [region2_emb21]
  exact region2_sage_row _ _ _ _ _ _ _ _ _ _ _ _ _ p (region2_row t p) q (fun k => region2_block3_apply V c t p k)
    (fun k => region2_block4_apply V c t p k) (region2_block5_apply V c t p)

/-- An index of the second output array is in point `t`'s block iff each coordinate is in the block's range on its axis. -/
theorem region2_mem_block_u (t : Fin cfg2.N) (i : S100000x128.Idx) :
    i ∈ ((cfg2.win 21).blk t).view.set ↔ ∀ a : Fin 2, win2_21.index t a * S2000x128.size a ≤ (i a).val
      ∧ (i a).val < win2_21.index t a * S2000x128.size a + S2000x128.size a := by
  show i ∈ ((View.whole main_v77_1).slice (win2_21.rect t)).set ↔ _
  rw [View.set_slice_whole, Rect.mem_set_unit]
  exact Iff.rfl

/-- Every index of the second output array is in the block of the point its row falls in: row `r` is in block `r / 2000`. -/
theorem region2_cover_u (i : S100000x128.Idx) :
    ∃ t : Fin cfg2.N, (cfg2.win 21).flush t = true ∧ i ∈ ((cfg2.win 21).blk t).view.set := by
  have hi0 : (i 0).val < 100000 := (i 0).isLt
  have hi1 : (i 1).val < 128 := (i 1).isLt
  have hlt : (i 0).val / 2000 < cfg2.N := Nat.lt_of_lt_of_eq (by omega : (i 0).val / 2000 < 50) N_2.symm
  have e := region2_index_rows ⟨(i 0).val / 2000, hlt⟩
  have e0 : win2_21.index ⟨(i 0).val / 2000, hlt⟩ (0 : Fin 2) = (i 0).val / 2000 := e.2.2.2.2.2.2.2.2.2.2.2.2.2.2.1
  have e1 : win2_21.index ⟨(i 0).val / 2000, hlt⟩ (1 : Fin 2) = 0 := e.2.2.2.2.2.2.2.2.2.2.2.2.2.2.2
  refine ⟨⟨(i 0).val / 2000, hlt⟩, flush2_21 _, ?_⟩
  rw [region2_mem_block_u]
  intro a
  match a with
  | ⟨0, _⟩ =>
    show win2_21.index ⟨(i 0).val / 2000, hlt⟩ (0 : Fin 2) * 2000 ≤ (i 0).val
      ∧ (i 0).val < win2_21.index ⟨(i 0).val / 2000, hlt⟩ (0 : Fin 2) * 2000 + 2000
    rw [e0]; omega
  | ⟨1, _⟩ =>
    show win2_21.index ⟨(i 0).val / 2000, hlt⟩ (1 : Fin 2) * 128 ≤ (i 1).val
      ∧ (i 1).val < win2_21.index ⟨(i 0).val / 2000, hlt⟩ (1 : Fin 2) * 128 + 128
    rw [e1]; omega

/-- And in its second output array the node update of the user side. -/
theorem region2_value_u (c : Dev nD) :
    (dat2 V c).arrAt 21 cfg2.N = Cert.Spec.sage (V c main_v48) (V c main_v0) (V c main_v26) (V c main_v72) (V c main_v74) (V c main_v76)
      (V c main_v58) (V c main_v60) (V c main_v62) (V c main_v64) :=
  (dat2 V c).arrAt_eq_of_cover 21 _ (fun t _ => region2_flushed_u V c t) (region2_cover_u)

end Cert.KernelIdeal.Hand

end
-- ==== Proof.KSage3.lean ====
import proofs.«426788_j78829829750888_3_alg».proof.Proof.Gen.KernelIdeal.Frame
import proofs.«426788_j78829829750888_3_alg».proof.Proof.Spec
import proofs.«426788_j78829829750888_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## Layout steps read at an entry -/

/-- A column `[a, 1]` repeated across `b` columns reads, at `(p, c)`, the column's entry in row `p`. -/
theorem region3_broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid out as one row and repeated down `a` rows reads, at `(p, c)`, the vector's entry `c`. -/
theorem region3_broadcast_row {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Entry `(p, q)` of a block's product with a square parameter matrix, accumulated from zero: the row-by-column sum. -/
theorem region3_matmul_apply {φ₁ φ₂ : FTy} (l : FVec Ideal S2000x128 φ₁) (r : FVec Ideal S128x128 φ₂)
    (p : Fin 2000) (q : Fin 128) :
    matmul dot_S2000x128_S128x128_S2000x128_1_0_0_1_n_n none l r (constant S2000x128 .f32 0x00000000#32) (ix2 p q)
      = ∑ k : Fin 128, l (ix2 p k) * r (ix2 k q) :=
  Cert.PlainDot.matmul_zero_apply dot_S2000x128_S128x128_S2000x128_1_0_0_1_n_n rfl none l r (ix2 p q)

/-! ## The body on one block of rows -/

/-- The normalised pre-activation at entry `(p, q)` of a block: the mean of the neighbours through the first matrix, the
    bias, the node's own row through the second matrix, centred and scaled by the reciprocal root of the shifted variance. -/
theorem region3_k2_pay4_apply (x0 : Vec Ideal S2000x128 .f32) (x2 : Vec Ideal S2000x1 .f32) (x1 : Vec Ideal S2000x128 .bf16)
    (x6 x8 : Vec Ideal S128x128 .f32) (x7 x11 x12 : Vec Ideal S128 .f32) (p : Fin 2000) (q : Fin 128) :
    k3_pay4 x0 x2 x1 x6 x8 x7 x11 x12 (ix2 p q)
      = (((∑ k : Fin 128, (x0 (ix2 p k) * x2 (ix2 p 0)) * x6 (ix2 k q)) + x7 (ix1 q)
          + ∑ k : Fin 128, x1 (ix2 p k) * x8 (ix2 k q)) - x11 (ix1 q)) * Ideal.rsqrt (x12 (ix1 q) + Cert.Spec.eps) := by
  unfold k3_pay4 k3_pay2
  simp only [shapeCast_self]
  simp only [mulf_apply, subf_apply, addf_apply]
  rw [region3_broadcast_row, region3_broadcast_row, region3_broadcast_row]
  rw [region3_matmul_apply, region3_matmul_apply]
  simp only [truncf_apply, mulf_apply, region3_broadcast_column]
  rfl

/-- What the body stores for the recipient side, at entry `(p, q)` of a block, is the node update of the blocks it
    loaded: scale and shift after the normalisation, the rectifier, and the node's own entry added back. -/
theorem region3_body_r_apply (x0 : Vec Ideal S2000x128 .f32) (x1 : Vec Ideal S2000x128 .bf16) (x2 : Vec Ideal S2000x1 .f32)
    (x6 : Vec Ideal S128x128 .f32) (x7 : Vec Ideal S128 .f32) (x8 : Vec Ideal S128x128 .f32)
    (x9 x10 x11 x12 : Vec Ideal S128 .f32) (p : Fin 2000) (q : Fin 128) :
    k3_pay6 (k3_pay2 x1) (k3_pay3 x10) (k3_pay4 x0 x2 x1 x6 x8 x7 x11 x12) (k3_pay5 x9) (ix2 p q)
      = Cert.Spec.sage x0 x1 x2 x6 x7 x8 x9 x10 x11 x12 (ix2 p q) := by
  unfold k3_pay6 k3_pay5 k3_pay3 k3_pay2
  simp only [shapeCast_self]
  simp only [addf_apply, mulf_apply, maximumf_apply, truncf_apply, extf_apply, broadcast_apply]
  rw [region3_broadcast_row, region3_broadcast_row, region3_k2_pay4_apply]
  rfl

/-- The pre-activation of the user side at entry `(p, q)` of a block, before the normalisation. -/
theorem region3_k2_pay8_apply (x3 : Vec Ideal S2000x128 .f32) (x5 : Vec Ideal S2000x1 .f32) (x4 : Vec Ideal S2000x128 .bf16)
    (x13 x15 : Vec Ideal S128x128 .f32) (x14 : Vec Ideal S128 .f32) (p : Fin 2000) (q : Fin 128) :
    k3_pay8 x3 x5 x4 x13 x15 x14 (ix2 p q)
      = (∑ k : Fin 128, (x3 (ix2 p k) * x5 (ix2 p 0)) * x13 (ix2 k q)) + x14 (ix1 q)
          + ∑ k : Fin 128, x4 (ix2 p k) * x15 (ix2 k q) := by
  unfold k3_pay8 k3_pay7
  simp only [shapeCast_self]
  simp only [addf_apply]
  rw [region3_broadcast_row]
  rw [region3_matmul_apply, region3_matmul_apply]
  simp only [truncf_apply, mulf_apply, region3_broadcast_column]

/-- What the body stores for the user side, at entry `(p, q)` of a block, is the node update of the blocks it loaded. -/
theorem region3_body_u_apply (x3 : Vec Ideal S2000x128 .f32) (x4 : Vec Ideal S2000x128 .bf16) (x5 : Vec Ideal S2000x1 .f32)
    (x13 : Vec Ideal S128x128 .f32) (x14 : Vec Ideal S128 .f32) (x15 : Vec Ideal S128x128 .f32)
    (x16 x17 x18 x19 : Vec Ideal S128 .f32) (p : Fin 2000) (q : Fin 128) :
    k3_pay1 (k3_pay7 x4) (k3_pay8 x3 x5 x4 x13 x15 x14) (k3_pay9 x16) (k3_pay10 x17) (k3_pay11 x18) x19 (ix2 p q)
      = Cert.Spec.sage x3 x4 x5 x13 x14 x15 x16 x17 x18 x19 (ix2 p q) := by
  unfold k3_pay1 k3_pay7 k3_pay9 k3_pay10 k3_pay11
  simp only [shapeCast_self]
  simp only [addf_apply, subf_apply, mulf_apply, maximumf_apply, truncf_apply, extf_apply, broadcast_apply]
  rw [region3_broadcast_row, region3_broadcast_row, region3_broadcast_row, region3_broadcast_row, region3_k2_pay8_apply]
  rfl

/-! ## One store through the whole staging buffer leaves its payload -/

theorem region3_zero_offsets2 : (![0, 0] : Fin 2 → Nat) = fun _ => 0 := funext fun a => by fin_cases a <;> rfl

theorem region3_zero_offsets1 : (![0] : Fin 1 → Nat) = fun _ => 0 := funext fun a => by fin_cases a <;> rfl

/-- The first output's staging buffer after the body is the node update of the recipient side's blocks. -/
theorem region3_out_r (x0 : Vec Ideal S2000x128 .f32) (x1 : Vec Ideal S2000x128 .bf16) (x2 : Vec Ideal S2000x1 .f32) (x3 : Vec Ideal S2000x128 .f32) (x4 : Vec Ideal S2000x128 .bf16) (x5 : Vec Ideal S2000x1 .f32) (x6 : Vec Ideal S128x128 .f32) (x7 : Vec Ideal S128 .f32) (x8 : Vec Ideal S128x128 .f32) (x9 : Vec Ideal S128 .f32) (x10 : Vec Ideal S128 .f32) (x11 : Vec Ideal S128 .f32) (x12 : Vec Ideal S128 .f32) (x13 : Vec Ideal S128x128 .f32) (x14 : Vec Ideal S128 .f32) (x15 : Vec Ideal S128x128 .f32) (x16 : Vec Ideal S128 .f32) (x17 : Vec Ideal S128 .f32) (x18 : Vec Ideal S128 .f32) (x19 : Vec Ideal S128 .f32) :
    out3_20 x0 x1 x2 x3 x4 x5 x6 x7 x8 x9 x10 x11 x12 x13 x14 x15 x16 x17 x18 x19
      = Cert.Spec.sage x0 x1 x2 x6 x7 x8 x9 x10 x11 x12 := by
  unfold out3_20
  rw [View.canon_unit_zero region3_zero_offsets2]
  simp only [View.ld_unit_zero (S := S2000x128) region3_zero_offsets2, View.ld_unit_zero (S := S2000x1) region3_zero_offsets2,
    View.ld_unit_zero (S := S128x128) region3_zero_offsets2, View.ld_unit_zero (S := S128) region3_zero_offsets1]
  funext j
  obtain ⟨p, q, rfl⟩ : ∃ (p : Fin 2000) (q : Fin 128), j = ix2 p q := ⟨j 0, j 1, eq_ix2 j⟩
  exact region3_body_r_apply x0 x1 x2 x6 x7 x8 x9 x10 x11 x12 p q

/-- The second output's staging buffer after the body is the node update of the user side's blocks. -/
theorem region3_out_u (x0 : Vec Ideal S2000x128 .f32) (x1 : Vec Ideal S2000x128 .bf16) (x2 : Vec Ideal S2000x1 .f32) (x3 : Vec Ideal S2000x128 .f32) (x4 : Vec Ideal S2000x128 .bf16) (x5 : Vec Ideal S2000x1 .f32) (x6 : Vec Ideal S128x128 .f32) (x7 : Vec Ideal S128 .f32) (x8 : Vec Ideal S128x128 .f32) (x9 : Vec Ideal S128 .f32) (x10 : Vec Ideal S128 .f32) (x11 : Vec Ideal S128 .f32) (x12 : Vec Ideal S128 .f32) (x13 : Vec Ideal S128x128 .f32) (x14 : Vec Ideal S128 .f32) (x15 : Vec Ideal S128x128 .f32) (x16 : Vec Ideal S128 .f32) (x17 : Vec Ideal S128 .f32) (x18 : Vec Ideal S128 .f32) (x19 : Vec Ideal S128 .f32) :
    out3_21 x0 x1 x2 x3 x4 x5 x6 x7 x8 x9 x10 x11 x12 x13 x14 x15 x16 x17 x18 x19
      = Cert.Spec.sage x3 x4 x5 x13 x14 x15 x16 x17 x18 x19 := by
  unfold out3_21
  rw [View.canon_unit_zero region3_zero_offsets2]
  simp only [View.ld_unit_zero (S := S2000x128) region3_zero_offsets2, View.ld_unit_zero (S := S2000x1) region3_zero_offsets2,
    View.ld_unit_zero (S := S128x128) region3_zero_offsets2, View.ld_unit_zero (S := S128) region3_zero_offsets1]
  funext j
  obtain ⟨p, q, rfl⟩ : ∃ (p : Fin 2000) (q : Fin 128), j = ix2 p q := ⟨j 0, j 1, eq_ix2 j⟩
  exact region3_body_u_apply x3 x4 x5 x13 x14 x15 x16 x17 x18 x19 p q

/-! ## The node update reads one row of the row-indexed arrays -/

/-- Entry `(p, q)` of the update of a block is entry `(r, q)` of the update of the whole arrays, when row `p` of each
    block is row `r` of its array: the update at a row reads the neighbour sums, the own features and the reciprocal
    degree of that row only. -/
theorem region3_sage_row (s : Vec Ideal S2000x128 .f32) (h : Vec Ideal S2000x128 .bf16) (inv : Vec Ideal S2000x1 .f32)
    (s' : Vec Ideal S100000x128 .f32) (h' : Vec Ideal S100000x128 .bf16) (inv' : Vec Ideal S100000x1 .f32)
    (Wl : Vec Ideal S128x128 .f32) (bl : Vec Ideal S128 .f32) (Wr : Vec Ideal S128x128 .f32) (g b mu v : Vec Ideal S128 .f32)
    (p : Fin 2000) (r : Fin 100000) (q : Fin 128)
    (hs : ∀ k : Fin 128, s (ix2 p k) = s' (ix2 r k)) (hh : ∀ k : Fin 128, h (ix2 p k) = h' (ix2 r k))
    (hinv : inv (ix2 p 0) = inv' (ix2 r 0)) :
    Cert.Spec.sage s h inv Wl bl Wr g b mu v (ix2 p q) = Cert.Spec.sage s' h' inv' Wl bl Wr g b mu v (ix2 r q) := by
  show max (Cert.Spec.bn ((∑ k : Fin 128, (s (ix2 p k) * inv (ix2 p 0)) * Wl (ix2 k q)) + bl (ix1 q)
        + ∑ k : Fin 128, h (ix2 p k) * Wr (ix2 k q)) (g (ix1 q)) (b (ix1 q)) (mu (ix1 q)) (v (ix1 q))) Cert.Spec.zero + h (ix2 p q)
    = max (Cert.Spec.bn ((∑ k : Fin 128, (s' (ix2 r k) * inv' (ix2 r 0)) * Wl (ix2 k q)) + bl (ix1 q)
        + ∑ k : Fin 128, h' (ix2 r k) * Wr (ix2 k q)) (g (ix1 q)) (b (ix1 q)) (mu (ix1 q)) (v (ix1 q))) Cert.Spec.zero + h' (ix2 r q)
  simp only [hs, hh, hinv]

/-! ## Where each window's block lies in its array -/

/-- The row-blocked windows' index maps at each of the grid's points: at point `t` such a window sits at block row `t`,
    column block `0`. -/
theorem region3_index_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_20.index t (0 : Fin 2) = t.val ∧ win3_20.index t (1 : Fin 2) = 0
    ∧ win3_21.index t (0 : Fin 2) = t.val ∧ win3_21.index t (1 : Fin 2) = 0 :=
  (by decide +kernel : ∀ t : Fin grid3.N, _)

/-- The parameter windows' index maps at each of the grid's points: always at their one block. -/
theorem region3_index_params : ∀ t : Fin cfg3.N,
    win3_6.index t (0 : Fin 2) = 0 ∧ win3_6.index t (1 : Fin 2) = 0
    ∧ win3_7.index t (0 : Fin 1) = 0
    ∧ win3_8.index t (0 : Fin 2) = 0 ∧ win3_8.index t (1 : Fin 2) = 0
    ∧ win3_9.index t (0 : Fin 1) = 0 ∧ win3_10.index t (0 : Fin 1) = 0
    ∧ win3_11.index t (0 : Fin 1) = 0 ∧ win3_12.index t (0 : Fin 1) = 0
    ∧ win3_13.index t (0 : Fin 2) = 0 ∧ win3_13.index t (1 : Fin 2) = 0
    ∧ win3_14.index t (0 : Fin 1) = 0
    ∧ win3_15.index t (0 : Fin 2) = 0 ∧ win3_15.index t (1 : Fin 2) = 0
    ∧ win3_16.index t (0 : Fin 1) = 0 ∧ win3_17.index t (0 : Fin 1) = 0
    ∧ win3_18.index t (0 : Fin 1) = 0 ∧ win3_19.index t (0 : Fin 1) = 0 :=
  (by decide +kernel : ∀ t : Fin grid3.N, _)

/-- The array row under row `p` of the block at point `t`: blocks are 2000 rows, one after the other. -/
def region3_row (t : Fin cfg3.N) (p : Fin 2000) : Fin 100000 :=
  ⟨t.val * 2000 + p.val, by
    have ht : t.val < 50 := Nat.lt_of_lt_of_eq t.isLt N_3
    have hp := p.isLt
    omega⟩

/-- A parameter window's block at any point is the whole parameter array. -/
theorem region3_block6 (c : Dev nD) (t : Fin cfg3.N) : iblk3 V c 6 t = V c main_v117 := by
  have e := region3_index_params t
  funext y
  show V c main_v117 (((cfg3.win 6).blk t).view.emb y) = V c main_v117 y
  congr 1
  funext a
  apply Fin.ext
  match a with
  | ⟨0, _⟩ => show win3_6.index t (0 : Fin 2) * 128 + 1 * (y 0).val = (y 0).val; rw [e.1]; omega
  | ⟨1, _⟩ => show win3_6.index t (1 : Fin 2) * 128 + 1 * (y 1).val = (y 1).val; rw [e.2.1]; omega

/-- A parameter window's block at any point is the whole parameter array. -/
theorem region3_block7 (c : Dev nD) (t : Fin cfg3.N) : iblk3 V c 7 t = V c main_v119 := by
  have e := region3_index_params t
  funext y
  show V c main_v119 (((cfg3.win 7).blk t).view.emb y) = V c main_v119 y
  congr 1
  funext a
  apply Fin.ext
  match a with
  | ⟨0, _⟩ => show win3_7.index t (0 : Fin 1) * 128 + 1 * (y 0).val = (y 0).val; rw [e.2.2.1]; omega

/-- A parameter window's block at any point is the whole parameter array. -/
theorem region3_block8 (c : Dev nD) (t : Fin cfg3.N) : iblk3 V c 8 t = V c main_v121 := by
  have e := region3_index_params t
  funext y
  show V c main_v121 (((cfg3.win 8).blk t).view.emb y) = V c main_v121 y
  congr 1
  funext a
  apply Fin.ext
  match a with
  | ⟨0, _⟩ => show win3_8.index t (0 : Fin 2) * 128 + 1 * (y 0).val = (y 0).val; rw [e.2.2.2.1]; omega
  | ⟨1, _⟩ => show win3_8.index t (1 : Fin 2) * 128 + 1 * (y 1).val = (y 1).val; rw [e.2.2.2.2.1]; omega

/-- A parameter window's block at any point is the whole parameter array. -/
theorem region3_block9 (c : Dev nD) (t : Fin cfg3.N) : iblk3 V c 9 t = V c main_v101 := by
  have e := region3_index_params t
  funext y
  show V c main_v101 (((cfg3.win 9).blk t).view.emb y) = V c main_v101 y
  congr 1
  funext a
  apply Fin.ext
  match a with
  | ⟨0, _⟩ => show win3_9.index t (0 : Fin 1) * 128 + 1 * (y 0).val = (y 0).val; rw [e.2.2.2.2.2.1]; omega

/-- A parameter window's block at any point is the whole parameter array. -/
theorem region3_block10 (c : Dev nD) (t : Fin cfg3.N) : iblk3 V c 10 t = V c main_v103 := by
  have e := region3_index_params t
  funext y
  show V c main_v103 (((cfg3.win 10).blk t).view.emb y) = V c main_v103 y
  congr 1
  funext a
  apply Fin.ext
  match a with
  | ⟨0, _⟩ => show win3_10.index t (0 : Fin 1) * 128 + 1 * (y 0).val = (y 0).val; rw [e.2.2.2.2.2.2.1]; omega

/-- A parameter window's block at any point is the whole parameter array. -/
theorem region3_block11 (c : Dev nD) (t : Fin cfg3.N) : iblk3 V c 11 t = V c main_v105 := by
  have e := region3_index_params t
  funext y
  show V c main_v105 (((cfg3.win 11).blk t).view.emb y) = V c main_v105 y
  congr 1
  funext a
  apply Fin.ext
  match a with
  | ⟨0, _⟩ => show win3_11.index t (0 : Fin 1) * 128 + 1 * (y 0).val = (y 0).val; rw [e.2.2.2.2.2.2.2.1]; omega

/-- A parameter window's block at any point is the whole parameter array. -/
theorem region3_block12 (c : Dev nD) (t : Fin cfg3.N) : iblk3 V c 12 t = V c main_v107 := by
  have e := region3_index_params t
  funext y
  show V c main_v107 (((cfg3.win 12).blk t).view.emb y) = V c main_v107 y
  congr 1
  funext a
  apply Fin.ext
  match a with
  | ⟨0, _⟩ => show win3_12.index t (0 : Fin 1) * 128 + 1 * (y 0).val = (y 0).val; rw [e.2.2.2.2.2.2.2.2.1]; omega

/-- A parameter window's block at any point is the whole parameter array. -/
theorem region3_block13 (c : Dev nD) (t : Fin cfg3.N) : iblk3 V c 13 t = V c main_v123 := by
  have e := region3_index_params t
  funext y
  show V c main_v123 (((cfg3.win 13).blk t).view.emb y) = V c main_v123 y
  congr 1
  funext a
  apply Fin.ext
  match a with
  | ⟨0, _⟩ => show win3_13.index t (0 : Fin 2) * 128 + 1 * (y 0).val = (y 0).val; rw [e.2.2.2.2.2.2.2.2.2.1]; omega
  | ⟨1, _⟩ => show win3_13.index t (1 : Fin 2) * 128 + 1 * (y 1).val = (y 1).val; rw [e.2.2.2.2.2.2.2.2.2.2.1]; omega

/-- A parameter window's block at any point is the whole parameter array. -/
theorem region3_block14 (c : Dev nD) (t : Fin cfg3.N) : iblk3 V c 14 t = V c main_v125 := by
  have e := region3_index_params t
  funext y
  show V c main_v125 (((cfg3.win 14).blk t).view.emb y) = V c main_v125 y
  congr 1
  funext a
  apply Fin.ext
  match a with
  | ⟨0, _⟩ => show win3_14.index t (0 : Fin 1) * 128 + 1 * (y 0).val = (y 0).val; rw [e.2.2.2.2.2.2.2.2.2.2.2.1]; omega

/-- A parameter window's block at any point is the whole parameter array. -/
theorem region3_block15 (c : Dev nD) (t : Fin cfg3.N) : iblk3 V c 15 t = V c main_v127 := by
  have e := region3_index_params t
  funext y
  show V c main_v127 (((cfg3.win 15).blk t).view.emb y) = V c main_v127 y
  congr 1
  funext a
  apply Fin.ext
  match a with
  | ⟨0, _⟩ => show win3_15.index t (0 : Fin 2) * 128 + 1 * (y 0).val = (y 0).val; rw [e.2.2.2.2.2.2.2.2.2.2.2.2.1]; omega
  | ⟨1, _⟩ => show win3_15.index t (1 : Fin 2) * 128 + 1 * (y 1).val = (y 1).val; rw [e.2.2.2.2.2.2.2.2.2.2.2.2.2.1]; omega

/-- A parameter window's block at any point is the whole parameter array. -/
theorem region3_block16 (c : Dev nD) (t : Fin cfg3.N) : iblk3 V c 16 t = V c main_v109 := by
  have e := region3_index_params t
  funext y
  show V c main_v109 (((cfg3.win 16).blk t).view.emb y) = V c main_v109 y
  congr 1
  funext a
  apply Fin.ext
  match a with
  | ⟨0, _⟩ => show win3_16.index t (0 : Fin 1) * 128 + 1 * (y 0).val = (y 0).val; rw [e.2.2.2.2.2.2.2.2.2.2.2.2.2.2.1]; omega

/-- A parameter window's block at any point is the whole parameter array. -/
theorem region3_block17 (c : Dev nD) (t : Fin cfg3.N) : iblk3 V c 17 t = V c main_v111 := by
  have e := region3_index_params t
  funext y
  show V c main_v111 (((cfg3.win 17).blk t).view.emb y) = V c main_v111 y
  congr 1
  funext a
  apply Fin.ext
  match a with
  | ⟨0, _⟩ => show win3_17.index t (0 : Fin 1) * 128 + 1 * (y 0).val = (y 0).val; rw [e.2.2.2.2.2.2.2.2.2.2.2.2.2.2.2.1]; omega

/-- A parameter window's block at any point is the whole parameter array. -/
theorem region3_block18 (c : Dev nD) (t : Fin cfg3.N) : iblk3 V c 18 t = V c main_v113 := by
  have e := region3_index_params t
  funext y
  show V c main_v113 (((cfg3.win 18).blk t).view.emb y) = V c main_v113 y
  congr 1
  funext a
  apply Fin.ext
  match a with
  | ⟨0, _⟩ => show win3_18.index t (0 : Fin 1) * 128 + 1 * (y 0).val = (y 0).val; rw [e.2.2.2.2.2.2.2.2.2.2.2.2.2.2.2.2.1]; omega

/-- A parameter window's block at any point is the whole parameter array. -/
theorem region3_block19 (c : Dev nD) (t : Fin cfg3.N) : iblk3 V c 19 t = V c main_v115 := by
  have e := region3_index_params t
  funext y
  show V c main_v115 (((cfg3.win 19).blk t).view.emb y) = V c main_v115 y
  congr 1
  funext a
  apply Fin.ext
  match a with
  | ⟨0, _⟩ => show win3_19.index t (0 : Fin 1) * 128 + 1 * (y 0).val = (y 0).val; rw [e.2.2.2.2.2.2.2.2.2.2.2.2.2.2.2.2.2]; omega

/-- Row `p` of the block of window 0 at point `t` is row `region3_row t p` of its array. -/
theorem region3_block0_apply (c : Dev nD) (t : Fin cfg3.N) (p : Fin 2000) (k : Fin 128) :
    (iblk3 V c 0 t : Vec Ideal S2000x128 .f32) (ix2 p k) = (V c main_v88 : Vec Ideal S100000x128 .f32) (ix2 (region3_row t p) k) := by
  have e := region3_index_rows t
  show V c main_v88 (((cfg3.win 0).blk t).view.emb (ix2 p k)) = V c main_v88 (ix2 (region3_row t p) k)
  congr 1
  funext a
  apply Fin.ext
  match a with
  | ⟨0, _⟩ => show win3_0.index t (0 : Fin 2) * 2000 + 1 * p.val = t.val * 2000 + p.val; rw [e.1]; omega
  | ⟨1, _⟩ => show win3_0.index t (1 : Fin 2) * 128 + 1 * k.val = k.val; rw [e.2.1]; omega

/-- Row `p` of the block of window 1 at point `t` is row `region3_row t p` of its array. -/
theorem region3_block1_apply (c : Dev nD) (t : Fin cfg3.N) (p : Fin 2000) (k : Fin 128) :
    (iblk3 V c 1 t : Vec Ideal S2000x128 .bf16) (ix2 p k) = (V c main_v77_0 : Vec Ideal S100000x128 .bf16) (ix2 (region3_row t p) k) := by
  have e := region3_index_rows t
  show V c main_v77_0 (((cfg3.win 1).blk t).view.emb (ix2 p k)) = V c main_v77_0 (ix2 (region3_row t p) k)
  congr 1
  funext a
  apply Fin.ext
  match a with
  | ⟨0, _⟩ => show win3_1.index t (0 : Fin 2) * 2000 + 1 * p.val = t.val * 2000 + p.val; rw [e.2.2.1]; omega
  | ⟨1, _⟩ => show win3_1.index t (1 : Fin 2) * 128 + 1 * k.val = k.val; rw [e.2.2.2.1]; omega

/-- The one entry in row `p` of the block of window 2 at point `t` is the entry in row `region3_row t p` of its array. -/
theorem region3_block2_apply (c : Dev nD) (t : Fin cfg3.N) (p : Fin 2000) :
    (iblk3 V c 2 t : Vec Ideal S2000x1 .f32) (ix2 p 0) = (V c main_v24 : Vec Ideal S100000x1 .f32) (ix2 (region3_row t p) 0) := by
  have e := region3_index_rows t
  show V c main_v24 (((cfg3.win 2).blk t).view.emb (ix2 p 0)) = V c main_v24 (ix2 (region3_row t p) 0)
  congr 1
  funext a
  apply Fin.ext
  match a with
  | ⟨0, _⟩ => show win3_2.index t (0 : Fin 2) * 2000 + 1 * p.val = t.val * 2000 + p.val; rw [e.2.2.2.2.1]; omega
  | ⟨1, _⟩ => show win3_2.index t (1 : Fin 2) * 1 + 1 * 0 = 0; rw [e.2.2.2.2.2.1]

/-- Row `p` of the block of window 3 at point `t` is row `region3_row t p` of its array. -/
theorem region3_block3_apply (c : Dev nD) (t : Fin cfg3.N) (p : Fin 2000) (k : Fin 128) :
    (iblk3 V c 3 t : Vec Ideal S2000x128 .f32) (ix2 p k) = (V c main_v99 : Vec Ideal S100000x128 .f32) (ix2 (region3_row t p) k) := by
  have e := region3_index_rows t
  show V c main_v99 (((cfg3.win 3).blk t).view.emb (ix2 p k)) = V c main_v99 (ix2 (region3_row t p) k)
  congr 1
  funext a
  apply Fin.ext
  match a with
  | ⟨0, _⟩ => show win3_3.index t (0 : Fin 2) * 2000 + 1 * p.val = t.val * 2000 + p.val; rw [e.2.2.2.2.2.2.1]; omega
  | ⟨1, _⟩ => show win3_3.index t (1 : Fin 2) * 128 + 1 * k.val = k.val; rw [e.2.2.2.2.2.2.2.1]; omega

/-- Row `p` of the block of window 4 at point `t` is row `region3_row t p` of its array. -/
theorem region3_block4_apply (c : Dev nD) (t : Fin cfg3.N) (p : Fin 2000) (k : Fin 128) :
    (iblk3 V c 4 t : Vec Ideal S2000x128 .bf16) (ix2 p k) = (V c main_v77_1 : Vec Ideal S100000x128 .bf16) (ix2 (region3_row t p) k) := by
  have e := region3_index_rows t
  show V c main_v77_1 (((cfg3.win 4).blk t).view.emb (ix2 p k)) = V c main_v77_1 (ix2 (region3_row t p) k)
  congr 1
  funext a
  apply Fin.ext
  match a with
  | ⟨0, _⟩ => show win3_4.index t (0 : Fin 2) * 2000 + 1 * p.val = t.val * 2000 + p.val; rw [e.2.2.2.2.2.2.2.2.1]; omega
  | ⟨1, _⟩ => show win3_4.index t (1 : Fin 2) * 128 + 1 * k.val = k.val; rw [e.2.2.2.2.2.2.2.2.2.1]; omega

/-- The one entry in row `p` of the block of window 5 at point `t` is the entry in row `region3_row t p` of its array. -/
theorem region3_block5_apply (c : Dev nD) (t : Fin cfg3.N) (p : Fin 2000) :
    (iblk3 V c 5 t : Vec Ideal S2000x1 .f32) (ix2 p 0) = (V c main_v26 : Vec Ideal S100000x1 .f32) (ix2 (region3_row t p) 0) := by
  have e := region3_index_rows t
  show V c main_v26 (((cfg3.win 5).blk t).view.emb (ix2 p 0)) = V c main_v26 (ix2 (region3_row t p) 0)
  congr 1
  funext a
  apply Fin.ext
  match a with
  | ⟨0, _⟩ => show win3_5.index t (0 : Fin 2) * 2000 + 1 * p.val = t.val * 2000 + p.val; rw [e.2.2.2.2.2.2.2.2.2.2.1]; omega
  | ⟨1, _⟩ => show win3_5.index t (1 : Fin 2) * 1 + 1 * 0 = 0; rw [e.2.2.2.2.2.2.2.2.2.2.2.1]

/-- Entry `(p, q)` of the first output's block at point `t` lies at `(region3_row t p, q)` of the output array. -/
theorem region3_emb20 (t : Fin cfg3.N) (p : Fin 2000) (q : Fin 128) :
    (((cfg3.win 20).blk t).view.emb (ix2 p q) : S100000x128.Idx) = ix2 (region3_row t p) q := by
  have e := region3_index_rows t
  funext a
  apply Fin.ext
  match a with
  | ⟨0, _⟩ => show win3_20.index t (0 : Fin 2) * 2000 + 1 * p.val = t.val * 2000 + p.val; rw [e.2.2.2.2.2.2.2.2.2.2.2.2.1]; omega
  | ⟨1, _⟩ => show win3_20.index t (1 : Fin 2) * 128 + 1 * q.val = q.val; rw [e.2.2.2.2.2.2.2.2.2.2.2.2.2.1]; omega

/-- Entry `(p, q)` of the second output's block at point `t` lies at `(region3_row t p, q)` of the output array. -/
theorem region3_emb21 (t : Fin cfg3.N) (p : Fin 2000) (q : Fin 128) :
    (((cfg3.win 21).blk t).view.emb (ix2 p q) : S100000x128.Idx) = ix2 (region3_row t p) q := by
  have e := region3_index_rows t
  funext a
  apply Fin.ext
  match a with
  | ⟨0, _⟩ => show win3_21.index t (0 : Fin 2) * 2000 + 1 * p.val = t.val * 2000 + p.val; rw [e.2.2.2.2.2.2.2.2.2.2.2.2.2.2.1]; omega
  | ⟨1, _⟩ => show win3_21.index t (1 : Fin 2) * 128 + 1 * q.val = q.val; rw [e.2.2.2.2.2.2.2.2.2.2.2.2.2.2.2]; omega

/-! ## From the blocks to the arrays -/

/-- What point `t` writes back to the first output array is block `t` of the node update of the recipient side's whole arrays. -/
theorem region3_flushed_r (c : Dev nD) (t : Fin cfg3.N) :
    (dat3 V c).flushed 20 t = ((cfg3.win 20).blk t).view.read (Elt Ideal)
      (Cert.Spec.sage (V c main_v88) (V c main_v77_0) (V c main_v24) (V c main_v117) (V c main_v119) (V c main_v121) (V c main_v101) (V c main_v103) (V c main_v105) (V c main_v107)) := by
  show (cfg3.win 20).cut (grid3.coords t) ((dat3 V c).after 20 t) = _
  rw [after3_20, region3_out_r, region3_block6, region3_block7, region3_block8, region3_block9, region3_block10, region3_block11, region3_block12]
  funext j
  obtain ⟨p, q, rfl⟩ : ∃ (p : Fin 2000) (q : Fin 128), j = ix2 p q := ⟨j 0, j 1, eq_ix2 j⟩
  show Cert.Spec.sage (iblk3 V c 0 t) (iblk3 V c 1 t) (iblk3 V c 2 t) (V c main_v117) (V c main_v119) (V c main_v121) (V c main_v101) (V c main_v103) (V c main_v105) (V c main_v107) (ix2 p q)
    = Cert.Spec.sage (V c main_v88) (V c main_v77_0) (V c main_v24) (V c main_v117) (V c main_v119) (V c main_v121) (V c main_v101) (V c main_v103) (V c main_v105) (V c main_v107) (((cfg3.win 20).blk t).view.emb (ix2 p q))
  rw [region3_emb20]
  exact region3_sage_row _ _ _ _ _ _ _ _ _ _ _ _ _ p (region3_row t p) q (fun k => region3_block0_apply V c t p k)
    (fun k => region3_block1_apply V c t p k) (region3_block2_apply V c t p)

/-- An index of the first output array is in point `t`'s block iff each coordinate is in the block's range on its axis. -/
theorem region3_mem_block_r (t : Fin cfg3.N) (i : S100000x128.Idx) :
    i ∈ ((cfg3.win 20).blk t).view.set ↔ ∀ a : Fin 2, win3_20.index t a * S2000x128.size a ≤ (i a).val
      ∧ (i a).val < win3_20.index t a * S2000x128.size a + S2000x128.size a := by
  show i ∈ ((View.whole main_v128_0).slice (win3_20.rect t)).set ↔ _
  rw [View.set_slice_whole, Rect.mem_set_unit]
  exact Iff.rfl

/-- Every index of the first output array is in the block of the point its row falls in: row `r` is in block `r / 2000`. -/
theorem region3_cover_r (i : S100000x128.Idx) :
    ∃ t : Fin cfg3.N, (cfg3.win 20).flush t = true ∧ i ∈ ((cfg3.win 20).blk t).view.set := by
  have hi0 : (i 0).val < 100000 := (i 0).isLt
  have hi1 : (i 1).val < 128 := (i 1).isLt
  have hlt : (i 0).val / 2000 < cfg3.N := Nat.lt_of_lt_of_eq (by omega : (i 0).val / 2000 < 50) N_3.symm
  have e := region3_index_rows ⟨(i 0).val / 2000, hlt⟩
  have e0 : win3_20.index ⟨(i 0).val / 2000, hlt⟩ (0 : Fin 2) = (i 0).val / 2000 := e.2.2.2.2.2.2.2.2.2.2.2.2.1
  have e1 : win3_20.index ⟨(i 0).val / 2000, hlt⟩ (1 : Fin 2) = 0 := e.2.2.2.2.2.2.2.2.2.2.2.2.2.1
  refine ⟨⟨(i 0).val / 2000, hlt⟩, flush3_20 _, ?_⟩
  rw [region3_mem_block_r]
  intro a
  match a with
  | ⟨0, _⟩ =>
    show win3_20.index ⟨(i 0).val / 2000, hlt⟩ (0 : Fin 2) * 2000 ≤ (i 0).val
      ∧ (i 0).val < win3_20.index ⟨(i 0).val / 2000, hlt⟩ (0 : Fin 2) * 2000 + 2000
    rw [e0]; omega
  | ⟨1, _⟩ =>
    show win3_20.index ⟨(i 0).val / 2000, hlt⟩ (1 : Fin 2) * 128 ≤ (i 1).val
      ∧ (i 1).val < win3_20.index ⟨(i 0).val / 2000, hlt⟩ (1 : Fin 2) * 128 + 128
    rw [e1]; omega

/-- Region 3 leaves in its first output array the node update of the recipient side: neighbour sums, own rows and
    reciprocal degrees as the region finds them, the layer's recipient parameters. -/
theorem region3_value_r (c : Dev nD) :
    (dat3 V c).arrAt 20 cfg3.N = Cert.Spec.sage (V c main_v88) (V c main_v77_0) (V c main_v24) (V c main_v117) (V c main_v119) (V c main_v121)
      (V c main_v101) (V c main_v103) (V c main_v105) (V c main_v107) :=
  (dat3 V c).arrAt_eq_of_cover 20 _ (fun t _ => region3_flushed_r V c t) (region3_cover_r)

/-- What point `t` writes back to the second output array is block `t` of the node update of the user side's whole arrays. -/
theorem region3_flushed_u (c : Dev nD) (t : Fin cfg3.N) :
    (dat3 V c).flushed 21 t = ((cfg3.win 21).blk t).view.read (Elt Ideal)
      (Cert.Spec.sage (V c main_v99) (V c main_v77_1) (V c main_v26) (V c main_v123) (V c main_v125) (V c main_v127) (V c main_v109) (V c main_v111) (V c main_v113) (V c main_v115)) := by
  show (cfg3.win 21).cut (grid3.coords t) ((dat3 V c).after 21 t) = _
  rw [after3_21, region3_out_u, region3_block13, region3_block14, region3_block15, region3_block16, region3_block17, region3_block18, region3_block19]
  funext j
  obtain ⟨p, q, rfl⟩ : ∃ (p : Fin 2000) (q : Fin 128), j = ix2 p q := ⟨j 0, j 1, eq_ix2 j⟩
  show Cert.Spec.sage (iblk3 V c 3 t) (iblk3 V c 4 t) (iblk3 V c 5 t) (V c main_v123) (V c main_v125) (V c main_v127) (V c main_v109) (V c main_v111) (V c main_v113) (V c main_v115) (ix2 p q)
    = Cert.Spec.sage (V c main_v99) (V c main_v77_1) (V c main_v26) (V c main_v123) (V c main_v125) (V c main_v127) (V c main_v109) (V c main_v111) (V c main_v113) (V c main_v115) (((cfg3.win 21).blk t).view.emb (ix2 p q))
  rw [region3_emb21]
  exact region3_sage_row _ _ _ _ _ _ _ _ _ _ _ _ _ p (region3_row t p) q (fun k => region3_block3_apply V c t p k)
    (fun k => region3_block4_apply V c t p k) (region3_block5_apply V c t p)

/-- An index of the second output array is in point `t`'s block iff each coordinate is in the block's range on its axis. -/
theorem region3_mem_block_u (t : Fin cfg3.N) (i : S100000x128.Idx) :
    i ∈ ((cfg3.win 21).blk t).view.set ↔ ∀ a : Fin 2, win3_21.index t a * S2000x128.size a ≤ (i a).val
      ∧ (i a).val < win3_21.index t a * S2000x128.size a + S2000x128.size a := by
  show i ∈ ((View.whole main_v128_1).slice (win3_21.rect t)).set ↔ _
  rw [View.set_slice_whole, Rect.mem_set_unit]
  exact Iff.rfl

/-- Every index of the second output array is in the block of the point its row falls in: row `r` is in block `r / 2000`. -/
theorem region3_cover_u (i : S100000x128.Idx) :
    ∃ t : Fin cfg3.N, (cfg3.win 21).flush t = true ∧ i ∈ ((cfg3.win 21).blk t).view.set := by
  have hi0 : (i 0).val < 100000 := (i 0).isLt
  have hi1 : (i 1).val < 128 := (i 1).isLt
  have hlt : (i 0).val / 2000 < cfg3.N := Nat.lt_of_lt_of_eq (by omega : (i 0).val / 2000 < 50) N_3.symm
  have e := region3_index_rows ⟨(i 0).val / 2000, hlt⟩
  have e0 : win3_21.index ⟨(i 0).val / 2000, hlt⟩ (0 : Fin 2) = (i 0).val / 2000 := e.2.2.2.2.2.2.2.2.2.2.2.2.2.2.1
  have e1 : win3_21.index ⟨(i 0).val / 2000, hlt⟩ (1 : Fin 2) = 0 := e.2.2.2.2.2.2.2.2.2.2.2.2.2.2.2
  refine ⟨⟨(i 0).val / 2000, hlt⟩, flush3_21 _, ?_⟩
  rw [region3_mem_block_u]
  intro a
  match a with
  | ⟨0, _⟩ =>
    show win3_21.index ⟨(i 0).val / 2000, hlt⟩ (0 : Fin 2) * 2000 ≤ (i 0).val
      ∧ (i 0).val < win3_21.index ⟨(i 0).val / 2000, hlt⟩ (0 : Fin 2) * 2000 + 2000
    rw [e0]; omega
  | ⟨1, _⟩ =>
    show win3_21.index ⟨(i 0).val / 2000, hlt⟩ (1 : Fin 2) * 128 ≤ (i 1).val
      ∧ (i 1).val < win3_21.index ⟨(i 0).val / 2000, hlt⟩ (1 : Fin 2) * 128 + 128
    rw [e1]; omega

/-- And in its second output array the node update of the user side. -/
theorem region3_value_u (c : Dev nD) :
    (dat3 V c).arrAt 21 cfg3.N = Cert.Spec.sage (V c main_v99) (V c main_v77_1) (V c main_v26) (V c main_v123) (V c main_v125) (V c main_v127)
      (V c main_v109) (V c main_v111) (V c main_v113) (V c main_v115) :=
  (dat3 V c).arrAt_eq_of_cover 21 _ (fun t _ => region3_flushed_u V c t) (region3_cover_u)

end Cert.KernelIdeal.Hand

end
-- ==== Proof.KMlp.lean ====
import proofs.«426788_j78829829750888_3_alg».proof.Proof.Gen.KernelIdeal.Frame
import proofs.«426788_j78829829750888_3_alg».proof.Proof.Spec
import proofs.«426788_j78829829750888_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import proofs.«426788_j78829829750888_3_alg».proof.Proof.EdgeIdx
set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## The edge scorer's block, entry by entry

One grid point scores a block of ten thousand edges. Its arithmetic is three matrix products into one
[10000, 128] slab, a bias, a rectifier, a normalisation by per-feature constants, a product to 64 features
with bias and rectifier, a product to one logit with bias, and the logistic function; the resulting
column is then laid out as a row. Every step but the products and the final re-layout is entry by entry,
so the value at an entry is read by pushing the entry's coordinates inwards. -/

section Payload

/-- A vector of 128 per-feature constants, viewed as one row and repeated down the block's ten thousand
    rows, reads at row `q`, feature `j` its entry `j`. -/
theorem featRow_apply (v : FVec Ideal S128 .f32) (h1 : S128.ShapeCasts S1x128) (h2 : S1x128.Broadcasts S10000x128)
    (q : Fin 10000) (j : Fin 128) :
    broadcastTo S10000x128 (shapeCast S1x128 v h1) h2 (ix2 q j) = v (ix1 j) :=
  (broadcastTo_1b_ab_apply _ h2 q j).trans (shapeCast_a_1a_apply v h1 0 j)

/-- The same for the 64 second-layer biases. -/
theorem featRow64_apply (v : FVec Ideal S64 .f32) (h1 : S64.ShapeCasts S1x64) (h2 : S1x64.Broadcasts S10000x64)
    (q : Fin 10000) (j : Fin 64) :
    broadcastTo S10000x64 (shapeCast S1x64 v h1) h2 (ix2 q j) = v (ix1 j) :=
  (broadcastTo_1b_ab_apply _ h2 q j).trans (shapeCast_a_1a_apply v h1 0 j)

/-- The same for the one logit bias. -/
theorem featRow1_apply (v : FVec Ideal S1 .f32) (h1 : S1.ShapeCasts S1x1) (h2 : S1x1.Broadcasts S10000x1)
    (q : Fin 10000) (j : Fin 1) :
    broadcastTo S10000x1 (shapeCast S1x1 v h1) h2 (ix2 q j) = v (ix1 j) :=
  (broadcastTo_1b_ab_apply _ h2 q j).trans (shapeCast_a_1a_apply v h1 0 j)

/-- A [1, 128] row repeated down the block reads at `(q, j)` the row's entry `j`. -/
theorem oneRow_apply (s : FVec Ideal S1x128 .f32) (h2 : S1x128.Broadcasts S10000x128) (q : Fin 10000) (j : Fin 128) :
    broadcastTo S10000x128 s h2 (ix2 q j) = s (ix2 (0 : Fin 1) j) :=
  broadcastTo_1b_ab_apply s h2 q j

/-- Row `q` of a [10000, 128] block times column `j` of a [128, 128] matrix. -/
theorem prod128_apply (l : FVec Ideal S10000x128 .bf16) (r : FVec Ideal S128x128 .bf16) (q : Fin 10000) (j : Fin 128) :
    matmul dot_S10000x128_S128x128_S10000x128_1_0_0_1_n_n none l r (constant S10000x128 .f32 0x00000000#32) (ix2 q j)
      = ∑ k : Fin 128, l (ix2 q k) * r (ix2 k j) :=
  Cert.PlainDot.matmul_zero_apply _ rfl none l r (ix2 q j)

/-- Row `q` of a [10000, 16] block times column `j` of a [16, 128] matrix. -/
theorem prod16_apply (l : FVec Ideal S10000x16 .bf16) (r : FVec Ideal S16x128 .bf16) (q : Fin 10000) (j : Fin 128) :
    matmul dot_S10000x16_S16x128_S10000x128_1_0_0_1_n_n none l r (constant S10000x128 .f32 0x00000000#32) (ix2 q j)
      = ∑ k : Fin 16, l (ix2 q k) * r (ix2 k j) :=
  Cert.PlainDot.matmul_zero_apply _ rfl none l r (ix2 q j)

/-- Row `q` of a [10000, 128] block times column `j` of a [128, 64] matrix. -/
theorem prod64_apply (l : FVec Ideal S10000x128 .bf16) (r : FVec Ideal S128x64 .bf16) (q : Fin 10000) (j : Fin 64) :
    matmul dot_S10000x128_S128x64_S10000x64_1_0_0_1_n_n none l r (constant S10000x64 .f32 0x00000000#32) (ix2 q j)
      = ∑ k : Fin 128, l (ix2 q k) * r (ix2 k j) :=
  Cert.PlainDot.matmul_zero_apply _ rfl none l r (ix2 q j)

/-- Row `q` of a [10000, 64] block times the one column of a [64, 1] matrix. -/
theorem prod1_apply (l : FVec Ideal S10000x64 .bf16) (r : FVec Ideal S64x1 .bf16) (q : Fin 10000) (j : Fin 1) :
    matmul dot_S10000x64_S64x1_S10000x1_1_0_0_1_n_n none l r (constant S10000x1 .f32 0x00000000#32) (ix2 q j)
      = ∑ k : Fin 64, l (ix2 q k) * r (ix2 k j) :=
  Cert.PlainDot.matmul_zero_apply _ rfl none l r (ix2 q j)

/-- The normalisation's scale: entry `j` of the one row is `(v j + ε)^(-1/2)`. -/
theorem scale_apply (v : Vec Ideal S128 .f32) (u : Fin 1) (j : Fin 128) :
    (k4_pay3 (F := Ideal) v) (ix2 u j) = Ideal.rsqrt (v (ix1 j) + Cert.Spec.eps) := by
  unfold k4_pay3
  refine (shapeCast_a_1a_apply _ _ u j).trans ?_
  rfl

/-- The rectified first layer less the running mean, at edge `q` of the block and feature `j`: the three slabs'
    products summed, the bias added, the rectifier, the mean subtracted. -/
theorem centred_apply (x0 x1 : Vec Ideal S10000x128 .bf16) (x2 : Vec Ideal S10000x16 .bf16) (x3 x4 : Vec Ideal S128x128 .f32)
    (x5 : Vec Ideal S16x128 .f32) (x6 x9 : Vec Ideal S128 .f32) (q : Fin 10000) (j : Fin 128) :
    (k4_pay2 (F := Ideal) x0 x1 x2 x3 x4 x5 x6 x9) (ix2 q j)
      = max ((((∑ k : Fin 128, x0 (ix2 q k) * x3 (ix2 k j)) + ∑ k : Fin 128, x1 (ix2 q k) * x4 (ix2 k j))
          + ∑ k : Fin 16, x2 (ix2 q k) * x5 (ix2 k j)) + x6 (ix1 j)) Cert.Spec.zero - x9 (ix1 j) := by
  unfold k4_pay2
  simp only [shapeCast_self, subf_apply, maximumf_apply, addf_apply, prod128_apply, prod16_apply, featRow_apply,
    broadcast_apply, truncf_apply]
  rfl

end Payload

section Score

/-- A vector of 128 per-feature constants viewed as one row reads at `(0, j)` its entry `j`. -/
theorem asRow_apply (v : FVec Ideal S128 .f32) (h1 : S128.ShapeCasts S1x128) (u : Fin 1) (j : Fin 128) :
    shapeCast S1x128 v h1 (ix2 u j) = v (ix1 j) :=
  shapeCast_a_1a_apply v h1 u j

/-- The exponential of a block, entry by entry. -/
theorem expv_apply {s : Shape} {φ : FTy} (a : FVec Ideal s φ) (i : s.Idx) : exp a i = Ideal.exp (a i) := rfl

/-- Subtracting from the single-precision zero is negating. -/
theorem zero_sub_eq_neg (z : EReal) : Cert.Spec.zero - z = -z := by
  rw [show Cert.Spec.zero = (0 : EReal) from Ideal.ofBits_zero_f32, zero_sub]

/-- The stored [1, 1, 10000] row at entry `q`, from the centred first layer `h0`, the scale row `s` and the remaining
    parameters: scale, gain and shift feature by feature, the second layer, the logit, the logistic function. The
    column of scores is transposed to a row and given a leading unit axis, so entry `(0, 0, q)` of what is stored is
    entry `(q, 0)` of the column. -/
theorem score_apply (g bb : Vec Ideal S128 .f32) (h0 : FVec Ideal S10000x128 .f32) (s : FVec Ideal S1x128 .f32)
    (W2 : Vec Ideal S128x64 .f32) (b2 : Vec Ideal S64 .f32) (W3 : Vec Ideal S64x1 .f32) (b3 : Vec Ideal S1 .f32) (q : Fin 10000) :
    (k4_pay1 (F := Ideal) g bb h0 s W2 b2 W3 b3) (ix3 (0 : Fin 1) (0 : Fin 1) q)
      = Cert.Spec.mlpOut (fun j => Cert.Spec.mlpH2
          (fun k => h0 (ix2 q k) * s (ix2 (0 : Fin 1) k) * g (ix1 k) + bb (ix1 k)) W2 b2 j) W3 b3 := by
  unfold k4_pay1
  refine (shapeCast_ab_1ab_apply _ _ (0 : Fin 1) (0 : Fin 1) q).trans ?_
  refine (transpose_ix2_apply _ _ (0 : Fin 1) q).trans ?_
  simp only [divf_apply, addf_apply, expv_apply, subf_apply, broadcast_apply, prod1_apply, featRow1_apply, truncf_apply,
    maximumf_apply, prod64_apply, featRow64_apply, mulf_apply, oneRow_apply, asRow_apply]
  unfold Cert.Spec.mlpOut Cert.Spec.mlpH2
  refine congrArg (fun z => Ideal.div Cert.Spec.one (Cert.Spec.one + Ideal.exp z)) ?_
  exact zero_sub_eq_neg _

end Score

/-! ## From one block to the whole array

Grid point `t` reads rows `10000 t … 10000 t + 9999` of the three per-edge arrays and every parameter array whole,
and writes row `t` of the [50, 1, 10000] result. So entry `(t, 0, q)` of the result is the scorer on edge
`10000 t + q`, and the fifty rows cover the result. -/

section Blocks

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The single store of the body holds the score payload of the loaded blocks. -/
theorem stored_eq (x0 x1 : Vec Ideal S10000x128 .bf16) (x2 : Vec Ideal S10000x16 .bf16) (x3 x4 : Vec Ideal S128x128 .f32)
    (x5 : Vec Ideal S16x128 .f32) (x6 x7 x8 x9 x10 : Vec Ideal S128 .f32) (x11 : Vec Ideal S128x64 .f32)
    (x12 : Vec Ideal S64 .f32) (x13 : Vec Ideal S64x1 .f32) (x14 : Vec Ideal S1 .f32) :
    out4_15 (F := Ideal) x0 x1 x2 x3 x4 x5 x6 x7 x8 x9 x10 x11 x12 x13 x14
      = k4_pay1 x7 x8 (k4_pay2 x0 x1 x2 x3 x4 x5 x6 x9) (k4_pay3 x10) x11 x12 x13 x14 := by
  unfold out4_15
  rw [View.canon_unit_zero zeros3]
  simp only [View.ld_unit_zero (S := S10000x128) zeros2, View.ld_unit_zero (S := S10000x16) zeros2,
    View.ld_unit_zero (S := S128x128) zeros2, View.ld_unit_zero (S := S16x128) zeros2, View.ld_unit_zero (S := S128) zeros1,
    View.ld_unit_zero (S := S128x64) zeros2, View.ld_unit_zero (S := S64) zeros1, View.ld_unit_zero (S := S64x1) zeros2,
    View.ld_unit_zero (S := S1) zeros1]

/-- Entry `q` of what one grid point stores is the edge scorer on row `q` of that point's blocks. -/
theorem stored_apply (x0 x1 : Vec Ideal S10000x128 .bf16) (x2 : Vec Ideal S10000x16 .bf16) (x3 x4 : Vec Ideal S128x128 .f32)
    (x5 : Vec Ideal S16x128 .f32) (x6 x7 x8 x9 x10 : Vec Ideal S128 .f32) (x11 : Vec Ideal S128x64 .f32)
    (x12 : Vec Ideal S64 .f32) (x13 : Vec Ideal S64x1 .f32) (x14 : Vec Ideal S1 .f32) (q : Fin 10000) :
    out4_15 (F := Ideal) x0 x1 x2 x3 x4 x5 x6 x7 x8 x9 x10 x11 x12 x13 x14 (ix3 (0 : Fin 1) (0 : Fin 1) q)
      = Cert.Spec.mlpRow x0 x1 x2 x3 x4 x5 x6 x7 x8 x9 x10 x11 x12 x13 x14 q := by
  rw [stored_eq]
  refine (score_apply x7 x8 _ _ x11 x12 x13 x14 q).trans ?_
  unfold Cert.Spec.mlpRow Cert.Spec.mlpH1 Cert.Spec.bn
  simp only [centred_apply, scale_apply]

/-- The same at any index of the stored [1, 1, 10000] row: its two unit coordinates are zero. -/
theorem stored_at (x0 x1 : Vec Ideal S10000x128 .bf16) (x2 : Vec Ideal S10000x16 .bf16) (x3 x4 : Vec Ideal S128x128 .f32)
    (x5 : Vec Ideal S16x128 .f32) (x6 x7 x8 x9 x10 : Vec Ideal S128 .f32) (x11 : Vec Ideal S128x64 .f32)
    (x12 : Vec Ideal S64 .f32) (x13 : Vec Ideal S64x1 .f32) (x14 : Vec Ideal S1 .f32) (y : S1x1x10000.Idx) (q : Fin 10000)
    (hq : (y 2).val = q.val) :
    out4_15 (F := Ideal) x0 x1 x2 x3 x4 x5 x6 x7 x8 x9 x10 x11 x12 x13 x14 y
      = Cert.Spec.mlpRow x0 x1 x2 x3 x4 x5 x6 x7 x8 x9 x10 x11 x12 x13 x14 q := by
  have h0 : (y 0).val < 1 := (y 0).isLt
  have h1 : (y 1).val < 1 := (y 1).isLt
  have hy : y = ix3 (0 : Fin 1) (0 : Fin 1) q := funext fun a => Fin.ext (by
    match a with
    | ⟨0, _⟩ => show (y 0).val = 0; omega
    | ⟨1, _⟩ => show (y 1).val = 0; omega
    | ⟨2, _⟩ => exact hq)
  rw [hy]
  exact stored_apply x0 x1 x2 x3 x4 x5 x6 x7 x8 x9 x10 x11 x12 x13 x14 q

/-- The scorer on an edge depends on the per-edge arrays only through that edge's rows. -/
theorem mlpRow_congr {E E' : ℕ} (src dst : Cert.Spec.Mat E 128) (attr : Cert.Spec.Mat E 16) (src' dst' : Cert.Spec.Mat E' 128)
    (attr' : Cert.Spec.Mat E' 16) (W1s W1d : Cert.Spec.Mat 128 128) (W1a : Cert.Spec.Mat 16 128) (b1 g bb mu v : Cert.Spec.Vec1 128)
    (W2 : Cert.Spec.Mat 128 64) (b2 : Cert.Spec.Vec1 64) (W3 : Cert.Spec.Mat 64 1) (b3 : Cert.Spec.Vec1 1) (e : Fin E) (e' : Fin E')
    (hs : ∀ k, src (ix2 e k) = src' (ix2 e' k)) (hd : ∀ k, dst (ix2 e k) = dst' (ix2 e' k))
    (ha : ∀ k, attr (ix2 e k) = attr' (ix2 e' k)) :
    Cert.Spec.mlpRow src dst attr W1s W1d W1a b1 g bb mu v W2 b2 W3 b3 e
      = Cert.Spec.mlpRow src' dst' attr' W1s W1d W1a b1 g bb mu v W2 b2 W3 b3 e' := by
  unfold Cert.Spec.mlpRow Cert.Spec.mlpH1
  simp only [hs, hd, ha]

/-- The index maps over the fifty points: the three per-edge windows and the result move with the point along
    their leading axis and sit at block 0 on the others. -/
theorem idx_rows : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_15.index t (0 : Fin 3) = t.val ∧ win4_15.index t (1 : Fin 3) = 0 ∧ win4_15.index t (2 : Fin 3) = 0 :=
  (by decide +kernel : ∀ t : Fin grid4.N, _)

/-- Every parameter window sits at block 0 at every point. -/
theorem idx_params : ∀ t : Fin cfg4.N,
    (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ win4_6.index t (0 : Fin 1) = 0 ∧ win4_7.index t (0 : Fin 1) = 0 ∧ win4_8.index t (0 : Fin 1) = 0
    ∧ win4_9.index t (0 : Fin 1) = 0 ∧ win4_10.index t (0 : Fin 1) = 0
    ∧ (win4_11.index t (0 : Fin 2) = 0 ∧ win4_11.index t (1 : Fin 2) = 0)
    ∧ win4_12.index t (0 : Fin 1) = 0
    ∧ (win4_13.index t (0 : Fin 2) = 0 ∧ win4_13.index t (1 : Fin 2) = 0)
    ∧ win4_14.index t (0 : Fin 1) = 0 :=
  (by decide +kernel : ∀ t : Fin grid4.N, _)

end Blocks

section Array

/-- Row `q` of the source-row block at point `t` is row `10000 t + q` of the source-row array. -/
theorem srcRow_apply (c : Dev nD) (t : Fin cfg4.N) (q : Fin 10000) (k : Fin 128) (e : Fin 500000)
    (he : e.val = t.val * 10000 + q.val) :
    (iblk4 V c 0 t : Vec Ideal S10000x128 .bf16) (ix2 q k) = (V c main_v135 : S500000x128.Idx → EReal) (ix2 e k) := by
  obtain ⟨h0, h1, -⟩ := idx_rows t
  unfold iblk4
  rw [View.read_apply]
  show V c main_v135 _ = V c main_v135 _
  congr 1
  funext a
  apply Fin.ext
  match a with
  | ⟨0, _⟩ => show win4_0.index t (0 : Fin 2) * 10000 + 1 * q.val = e.val; rw [h0, he]; omega
  | ⟨1, _⟩ => show win4_0.index t (1 : Fin 2) * 128 + 1 * k.val = k.val; rw [h1]; omega

/-- The same for the destination rows. -/
theorem dstRow_apply (c : Dev nD) (t : Fin cfg4.N) (q : Fin 10000) (k : Fin 128) (e : Fin 500000)
    (he : e.val = t.val * 10000 + q.val) :
    (iblk4 V c 1 t : Vec Ideal S10000x128 .bf16) (ix2 q k) = (V c main_v142 : S500000x128.Idx → EReal) (ix2 e k) := by
  obtain ⟨-, -, h0, h1, -⟩ := idx_rows t
  unfold iblk4
  rw [View.read_apply]
  show V c main_v142 _ = V c main_v142 _
  congr 1
  funext a
  apply Fin.ext
  match a with
  | ⟨0, _⟩ => show win4_1.index t (0 : Fin 2) * 10000 + 1 * q.val = e.val; rw [h0, he]; omega
  | ⟨1, _⟩ => show win4_1.index t (1 : Fin 2) * 128 + 1 * k.val = k.val; rw [h1]; omega

/-- The same for the sixteen edge attributes. -/
theorem attrRow_apply (c : Dev nD) (t : Fin cfg4.N) (q : Fin 10000) (k : Fin 16) (e : Fin 500000)
    (he : e.val = t.val * 10000 + q.val) :
    (iblk4 V c 2 t : Vec Ideal S10000x16 .bf16) (ix2 q k) = (V c main_v143 : S500000x16.Idx → EReal) (ix2 e k) := by
  obtain ⟨-, -, -, -, h0, h1, -⟩ := idx_rows t
  unfold iblk4
  rw [View.read_apply]
  show V c main_v143 _ = V c main_v143 _
  congr 1
  funext a
  apply Fin.ext
  match a with
  | ⟨0, _⟩ => show win4_2.index t (0 : Fin 2) * 10000 + 1 * q.val = e.val; rw [h0, he]; omega
  | ⟨1, _⟩ => show win4_2.index t (1 : Fin 2) * 16 + 1 * k.val = k.val; rw [h1]; omega

/-- Each parameter window's block at any point is its whole array: the block is the array's shape and sits at offset zero. -/
theorem params_eq (c : Dev nD) (t : Fin cfg4.N) :
    (iblk4 V c 3 t : Vec Ideal S128x128 .f32) = V c main_v144
    ∧ (iblk4 V c 4 t : Vec Ideal S128x128 .f32) = V c main_v145
    ∧ (iblk4 V c 5 t : Vec Ideal S16x128 .f32) = V c main_v146
    ∧ (iblk4 V c 6 t : Vec Ideal S128 .f32) = V c main_arg17
    ∧ (iblk4 V c 7 t : Vec Ideal S128 .f32) = V c main_arg18
    ∧ (iblk4 V c 8 t : Vec Ideal S128 .f32) = V c main_arg19
    ∧ (iblk4 V c 9 t : Vec Ideal S128 .f32) = V c main_arg20
    ∧ (iblk4 V c 10 t : Vec Ideal S128 .f32) = V c main_arg21
    ∧ (iblk4 V c 11 t : Vec Ideal S128x64 .f32) = V c main_arg22
    ∧ (iblk4 V c 12 t : Vec Ideal S64 .f32) = V c main_arg23
    ∧ (iblk4 V c 13 t : Vec Ideal S64x1 .f32) = V c main_arg24
    ∧ (iblk4 V c 14 t : Vec Ideal S1 .f32) = V c main_arg25 := by
  obtain ⟨⟨a0, a1⟩, ⟨b0, b1⟩, ⟨c0, c1⟩, d6, d7, d8, d9, d10, ⟨f0, f1⟩, g0, ⟨k0, k1⟩, l0⟩ := idx_params t
  refine ⟨?_, ?_, ?_, ?_, ?_, ?_, ?_, ?_, ?_, ?_, ?_, ?_⟩
  · exact Memref.read_access_unit_zero (Elt Ideal) main_v144
      (off := fun a => win4_3.index t a * main_v144.ty.shape.size a)
      (funext fun a => match a with
        | ⟨0, _⟩ => (by show win4_3.index t (0 : Fin 2) * 128 = 0; rw [a0])
        | ⟨1, _⟩ => (by show win4_3.index t (1 : Fin 2) * 128 = 0; rw [a1])) _ (V c main_v144)
  · exact Memref.read_access_unit_zero (Elt Ideal) main_v145
      (off := fun a => win4_4.index t a * main_v145.ty.shape.size a)
      (funext fun a => match a with
        | ⟨0, _⟩ => (by show win4_4.index t (0 : Fin 2) * 128 = 0; rw [b0])
        | ⟨1, _⟩ => (by show win4_4.index t (1 : Fin 2) * 128 = 0; rw [b1])) _ (V c main_v145)
  · exact Memref.read_access_unit_zero (Elt Ideal) main_v146
      (off := fun a => win4_5.index t a * main_v146.ty.shape.size a)
      (funext fun a => match a with
        | ⟨0, _⟩ => (by show win4_5.index t (0 : Fin 2) * 16 = 0; rw [c0])
        | ⟨1, _⟩ => (by show win4_5.index t (1 : Fin 2) * 128 = 0; rw [c1])) _ (V c main_v146)
  · exact Memref.read_access_unit_zero (Elt Ideal) main_arg17
      (off := fun a => win4_6.index t a * main_arg17.ty.shape.size a)
      (funext fun a => match a with
        | ⟨0, _⟩ => (by show win4_6.index t (0 : Fin 1) * 128 = 0; rw [d6])) _ (V c main_arg17)
  · exact Memref.read_access_unit_zero (Elt Ideal) main_arg18
      (off := fun a => win4_7.index t a * main_arg18.ty.shape.size a)
      (funext fun a => match a with
        | ⟨0, _⟩ => (by show win4_7.index t (0 : Fin 1) * 128 = 0; rw [d7])) _ (V c main_arg18)
  · exact Memref.read_access_unit_zero (Elt Ideal) main_arg19
      (off := fun a => win4_8.index t a * main_arg19.ty.shape.size a)
      (funext fun a => match a with
        | ⟨0, _⟩ => (by show win4_8.index t (0 : Fin 1) * 128 = 0; rw [d8])) _ (V c main_arg19)
  · exact Memref.read_access_unit_zero (Elt Ideal) main_arg20
      (off := fun a => win4_9.index t a * main_arg20.ty.shape.size a)
      (funext fun a => match a with
        | ⟨0, _⟩ => (by show win4_9.index t (0 : Fin 1) * 128 = 0; rw [d9])) _ (V c main_arg20)
  · exact Memref.read_access_unit_zero (Elt Ideal) main_arg21
      (off := fun a => win4_10.index t a * main_arg21.ty.shape.size a)
      (funext fun a => match a with
        | ⟨0, _⟩ => (by show win4_10.index t (0 : Fin 1) * 128 = 0; rw [d10])) _ (V c main_arg21)
  · exact Memref.read_access_unit_zero (Elt Ideal) main_arg22
      (off := fun a => win4_11.index t a * main_arg22.ty.shape.size a)
      (funext fun a => match a with
        | ⟨0, _⟩ => (by show win4_11.index t (0 : Fin 2) * 128 = 0; rw [f0])
        | ⟨1, _⟩ => (by show win4_11.index t (1 : Fin 2) * 64 = 0; rw [f1])) _ (V c main_arg22)
  · exact Memref.read_access_unit_zero (Elt Ideal) main_arg23
      (off := fun a => win4_12.index t a * main_arg23.ty.shape.size a)
      (funext fun a => match a with
        | ⟨0, _⟩ => (by show win4_12.index t (0 : Fin 1) * 64 = 0; rw [g0])) _ (V c main_arg23)
  · exact Memref.read_access_unit_zero (Elt Ideal) main_arg24
      (off := fun a => win4_13.index t a * main_arg24.ty.shape.size a)
      (funext fun a => match a with
        | ⟨0, _⟩ => (by show win4_13.index t (0 : Fin 2) * 64 = 0; rw [k0])
        | ⟨1, _⟩ => (by show win4_13.index t (1 : Fin 2) * 1 = 0; rw [k1])) _ (V c main_arg24)
  · exact Memref.read_access_unit_zero (Elt Ideal) main_arg25
      (off := fun a => win4_14.index t a * main_arg25.ty.shape.size a)
      (funext fun a => match a with
        | ⟨0, _⟩ => (by show win4_14.index t (0 : Fin 1) * 1 = 0; rw [l0])) _ (V c main_arg25)

/-- The array of scores: entry `(t, 0, q)` is the scorer on edge `10000 t + q` of the arrays the region finds. -/
abbrev scoreArr (c : Dev nD) : S50x1x10000.Idx → EReal := fun i =>
  Cert.Spec.mlpRow (V c main_v135) (V c main_v142) (V c main_v143) (V c main_v144) (V c main_v145) (V c main_v146)
    (V c main_arg17) (V c main_arg18) (V c main_arg19) (V c main_arg20) (V c main_arg21) (V c main_arg22) (V c main_arg23)
    (V c main_arg24) (V c main_arg25) (Cert.Spec.edgeOf (i 0) (i 2))

/-- What point `t` writes back is row `t` of the score array. -/
theorem flushed_eq (c : Dev nD) (t : Fin cfg4.N) :
    (dat4 V c).flushed 15 t = ((cfg4.win 15).blk t).view.read (Elt Ideal) (scoreArr V c) := by
  show (cfg4.win 15).cut (grid4.coords t) ((dat4 V c).after 15 t) = _
  rw [after4_15]
  funext y
  obtain ⟨-, -, -, -, -, -, e0, -, e2⟩ := idx_rows t
  obtain ⟨p3, p4, p5, p6, p7, p8, p9, p10, p11, p12, p13, p14⟩ := params_eq V c t
  have hy0 : (y 0).val < 1 := (y 0).isLt
  have hy2 : (y 2).val < 10000 := (y 2).isLt
  have hv0 : ((((cfg4.win 15).blk t).view.emb y) 0).val = win4_15.index t (0 : Fin 3) * 1 + 1 * (y 0).val := rfl
  have hv2 : ((((cfg4.win 15).blk t).view.emb y) 2).val = win4_15.index t (2 : Fin 3) * 10000 + 1 * (y 2).val := rfl
  have he : (Cert.Spec.edgeOf ((((cfg4.win 15).blk t).view.emb y) 0) ((((cfg4.win 15).blk t).view.emb y) 2)).val
      = t.val * 10000 + (y 2).val := by
    have h : (Cert.Spec.edgeOf ((((cfg4.win 15).blk t).view.emb y) 0) ((((cfg4.win 15).blk t).view.emb y) 2)).val
        = ((((cfg4.win 15).blk t).view.emb y) 0).val * 10000 + ((((cfg4.win 15).blk t).view.emb y) 2).val := rfl
    refine h.trans ?_
    rw [hv0, hv2, e0, e2]
    generalize (y 0).val = a at hy0
    generalize (y 2).val = b
    generalize t.val = n
    omega
  refine (stored_at (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) (iblk4 V c 10 t) (iblk4 V c 11 t) (iblk4 V c 12 t)
    (iblk4 V c 13 t) (iblk4 V c 14 t) ((cfg4.win 15).xinj (grid4.coords t) y) ⟨(y 2).val, hy2⟩ rfl).trans ?_
  rw [p3, p4, p5, p6, p7, p8, p9, p10, p11, p12, p13, p14]
  exact mlpRow_congr _ _ _ _ _ _ _ _ _ _ _ _ _ _ _ _ _ _ _ _
    (fun k => srcRow_apply V c t ⟨(y 2).val, hy2⟩ k _ he)
    (fun k => dstRow_apply V c t ⟨(y 2).val, hy2⟩ k _ he)
    (fun k => attrRow_apply V c t ⟨(y 2).val, hy2⟩ k _ he)

/-- An index of the result lies in point `t`'s block iff each coordinate lies in the block's range on its axis. -/
theorem mem_block (t : Fin cfg4.N) (i : S50x1x10000.Idx) :
    i ∈ ((cfg4.win 15).blk t).view.set ↔ ∀ a : Fin 3, win4_15.index t a * S1x1x10000.size a ≤ (i a).val
      ∧ (i a).val < win4_15.index t a * S1x1x10000.size a + S1x1x10000.size a := by
  show i ∈ ((View.whole main_v147).slice (win4_15.rect t)).set ↔ _
  rw [View.set_slice_whole, Rect.mem_set_unit]
  exact Iff.rfl

end Array

/-- Region 4 leaves in its [50, 1, 10000] output array, at block `t` and entry `q`, the score of edge `t * 10000 + q`. -/
theorem region4_value (c : Dev nD) :
    (dat4 V c).arrAt 15 cfg4.N = fun i : S50x1x10000.Idx =>
      Cert.Spec.mlpRow (V c main_v135) (V c main_v142) (V c main_v143) (V c main_v144) (V c main_v145) (V c main_v146)
        (V c main_arg17) (V c main_arg18) (V c main_arg19) (V c main_arg20) (V c main_arg21) (V c main_arg22) (V c main_arg23)
        (V c main_arg24) (V c main_arg25) (Cert.Spec.edgeOf (i 0) (i 2)) := by
  refine (dat4 V c).arrAt_eq_of_cover 15 (scoreArr V c) (fun t _ => flushed_eq V c t) fun i => ?_
  have hi0 : (i 0).val < 50 := (i 0).isLt
  have hi1 : (i 1).val < 1 := (i 1).isLt
  have hi2 : (i 2).val < 10000 := (i 2).isLt
  obtain ⟨t, ht⟩ : ∃ t : Fin cfg4.N, t.val = (i 0).val := ⟨⟨(i 0).val, Nat.lt_of_lt_of_eq hi0 N_4.symm⟩, rfl⟩
  obtain ⟨-, -, -, -, -, -, e0, e1, e2⟩ := idx_rows t
  refine ⟨t, flush4_15 t, ?_⟩
  rw [mem_block]
  intro a
  match a with
  | ⟨0, _⟩ =>
    show win4_15.index t (0 : Fin 3) * 1 ≤ (i 0).val ∧ (i 0).val < win4_15.index t (0 : Fin 3) * 1 + 1
    rw [e0]; omega
  | ⟨1, _⟩ =>
    show win4_15.index t (1 : Fin 3) * 1 ≤ (i 1).val ∧ (i 1).val < win4_15.index t (1 : Fin 3) * 1 + 1
    rw [e1]; omega
  | ⟨2, _⟩ =>
    show win4_15.index t (2 : Fin 3) * 10000 ≤ (i 2).val ∧ (i 2).val < win4_15.index t (2 : Fin 3) * 10000 + 10000
    rw [e2]; omega

end Cert.KernelIdeal.Hand

end
-- ==== Proof.KValue.lean ====
import proofs.«426788_j78829829750888_3_alg».proof.Proof.KGlue
import proofs.«426788_j78829829750888_3_alg».proof.Proof.KLin
import proofs.«426788_j78829829750888_3_alg».proof.Proof.KSage2
import proofs.«426788_j78829829750888_3_alg».proof.Proof.KSage3
import proofs.«426788_j78829829750888_3_alg».proof.Proof.KMlp
import proofs.«426788_j78829829750888_3_alg».proof.Proof.KRun

/-! # The idealized kernel program's run, with its result named

Every weakly fair execution terminates with the result array at the network of the arguments (`Net.out`) and the
arguments unchanged: the run with the result at the last boundary's contents, and the walk through the boundaries. -/

set_option maxRecDepth 16384

noncomputable section

open Idealize.ShloMosaic Idealize.ShloMosaic.TcCoe Idealize.SL.Sem

namespace Cert.KernelIdeal.Hand

open Cert.KernelIdeal Cert.KernelIdeal.Gen

/-- The seven region facts, each proved in its own module. -/
theorem regionValues : RegionValues :=
  ⟨region0_value, region1_value, region2_value_r, region2_value_u, region3_value_r, region3_value_u, region4_value⟩

/-- The run of the idealized kernel program at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v148)
        = Net.out (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run (defs (F := Ideal)) _ _).mono (fun r h c => ⟨(h c).1.trans (kernel_value regionValues m ρ c), (h c).2⟩)
    (Gen.run_named m ρ)

end Cert.KernelIdeal.Hand

end
-- ==== Proof.RRun.lean ====
/- The reference program's run from its six windows: @main is the sequence of the six windows' operation lists joined, every operation names TensorCore buffers only and allocates none, so every weakly fair execution terminates with each buffer at the fold of the operations' results over its launch contents. -/
import proofs.«426788_j78829829750888_3_alg».proof.Proof.RRun0
import proofs.«426788_j78829829750888_3_alg».proof.Proof.RRun1
import proofs.«426788_j78829829750888_3_alg».proof.Proof.RRun2
import proofs.«426788_j78829829750888_3_alg».proof.Proof.RRun3
import proofs.«426788_j78829829750888_3_alg».proof.Proof.RRun4
import proofs.«426788_j78829829750888_3_alg».proof.Proof.RRun5

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Six lists one after the other

Stated over any six lists: @main runs its six windows in order, a window is the sequence of its operations, and
sequences run one after the other are the concatenation run as one; a property of every operation of each list is a
property of every operation of the concatenation. -/

section Join

variable (l0 l1 l2 l3 l4 l5 : List (HloOp τ sig (Elt F)))

/-- Six lists in order, as one. -/
abbrev joined : List (HloOp τ sig (Elt F)) := l0 ++ (l1 ++ (l2 ++ (l3 ++ (l4 ++ l5))))

/-- If each window of @main is the sequence of a list, @main is the sequence of the six lists joined. -/
theorem main_eq_of_windows (h0 : ∀ c, main_part0 (F := F) c = seq l0) (h1 : ∀ c, main_part1 (F := F) c = seq l1)
    (h2 : ∀ c, main_part2 (F := F) c = seq l2) (h3 : ∀ c, main_part3 (F := F) c = seq l3)
    (h4 : ∀ c, main_part4 (F := F) c = seq l4) (h5 : ∀ c, main_part5 (F := F) c = seq l5) (c : Dev nD) :
    main (F := F) c = seq (joined l0 l1 l2 l3 l4 l5) := by
  unfold main
  rw [h0, h1, h2, h3, h4, h5]
  simp only [joined, seq_append]

/-- What holds of every operation of six lists holds of every operation of the lists joined. -/
theorem forall_joined {p : HloOp τ sig (Elt F) → Prop} (s0 : l0.Forall p) (s1 : l1.Forall p) (s2 : l2.Forall p)
    (s3 : l3.Forall p) (s4 : l4.Forall p) (s5 : l5.Forall p) : (joined l0 l1 l2 l3 l4 l5).Forall p :=
  List.forall_append.2 ⟨s0, List.forall_append.2 ⟨s1, List.forall_append.2 ⟨s2, List.forall_append.2 ⟨s3,
    List.forall_append.2 ⟨s4, s5⟩⟩⟩⟩⟩

/-- The same for a property given member by member, over two lists, -/
theorem mem_append_of {p : HloOp τ sig (Elt F) → Prop} {a b : List (HloOp τ sig (Elt F))} (ha : ∀ op ∈ a, p op)
    (hb : ∀ op ∈ b, p op) : ∀ op ∈ a ++ b, p op := fun op h => (List.mem_append.1 h).elim (ha op) (hb op)

/-- and over six. -/
theorem mem_joined_of {p : HloOp τ sig (Elt F) → Prop} (f0 : ∀ op ∈ l0, p op) (f1 : ∀ op ∈ l1, p op) (f2 : ∀ op ∈ l2, p op)
    (f3 : ∀ op ∈ l3, p op) (f4 : ∀ op ∈ l4, p op) (f5 : ∀ op ∈ l5, p op) : ∀ op ∈ joined l0 l1 l2 l3 l4 l5, p op :=
  mem_append_of f0 (mem_append_of f1 (mem_append_of f2 (mem_append_of f3 (mem_append_of f4 f5))))

end Join

/-! ## @main's operations and its run -/

/-- @main's 350 operations, in order: the six windows' lists one after the other. -/
abbrev ops : List (HloOp τ sig (Elt F)) := ops0 ++ (ops1 ++ (ops2 ++ (ops3 ++ (ops4 ++ ops5))))

/-- @main is the sequence of its operations. -/
theorem main_eq (c : Dev nD) : main (F := F) c = seq ops :=
  main_eq_of_windows ops0 ops1 ops2 ops3 ops4 ops5 main_part0_eq main_part1_eq main_part2_eq main_part3_eq
    main_part4_eq main_part5_eq c

theorem scopedRefs_eq : (Finset.univ.filter fun b : Ref sig .tc => b.isScoped) = ∅ := by decide
theorem scopedSems_eq : (Finset.univ.filter fun sm : SemLoc sig => sm.isScoped .tc) = ∅ := by decide

/-- Every operation of @main names TensorCore buffers only. -/
theorem ops_sub : (ops : List (HloOp τ sig (Elt F))).Forall fun op => op.bufs ⊆ tcRefs τ sig :=
  forall_joined ops0 ops1 ops2 ops3 ops4 ops5 ops0_sub ops1_sub ops2_sub ops3_sub ops4_sub ops5_sub

/-- No operation of @main allocates a buffer. -/
theorem ops_fresh : ∀ op ∈ (ops : List (HloOp τ sig (Elt F))), op.fresh = ∅ :=
  mem_joined_of ops0 ops1 ops2 ops3 ops4 ops5 ops0_fresh ops1_fresh ops2_fresh ops3_fresh ops4_fresh ops5_fresh

/-- On every device, for any float values, from any memory with zero counters: every weakly fair execution of @main
    terminates with each TensorCore buffer at the fold of the 350 operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.HandRun

end
-- ==== Proof.RStageN.lean ====
import proofs.«426788_j78829829750888_3_alg».proof.ReferenceIdeal
import proofs.«426788_j78829829750888_3_alg».proof.Proof.Gen.ReferenceIdeal
import proofs.«426788_j78829829750888_3_alg».proof.Proof.Spec
import proofs.«426788_j78829829750888_3_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators
open Idealize.ShloMosaic Idealize.ShloMosaic.ValueIdx

namespace Cert.ReferenceIdeal.Hand

open Cert.ReferenceIdeal Cert.ReferenceIdeal.Facts₀ Cert.Spec

/-- A real array of a literal shape. -/
abbrev FA (S : Shape) := FVec Ideal S .f32

/-! ## Broadcasts and a contraction read at an entry

Three re-indexings, each at literal coordinates: a vector laid along every row, a one-column matrix laid along every
column, and a vector stood up as a one-column matrix. Then the host's plain contraction at an entry. -/

section Broadcasts
variable {α : Type}

/-- A vector of `n` entries made a one-row matrix and laid along each of `m` rows reads, at `(p, q)`, the vector at
    `q`. -/
theorem rowBcast_apply {m n : ℕ} (h1 : (⟨2, ![1, n]⟩ : Shape).BroadcastsInDim ⟨2, ![m, n]⟩ ![0, 1])
    (h2 : (⟨1, ![n]⟩ : Shape).BroadcastsInDim ⟨2, ![1, n]⟩ ![1]) (b : (⟨1, ![n]⟩ : Shape).Idx → α) (p : Fin m) (q : Fin n) :
    broadcastInDim ⟨2, ![m, n]⟩ ![0, 1] h1 (broadcastInDim ⟨2, ![1, n]⟩ ![1] h2 b) (ix2 p q) = b (ix1 q) := by
  have hq : q.val = if n = 1 then 0 else q.val := by
    split_ifs with hn
    · have := q.isLt; omega
    · rfl
  rw [broadcastInDim_apply ![0, 1] h1 _ (ix2 p q) (ix2 (0 : Fin 1) q) (fun a => by
    match a with
    | ⟨0, _⟩ => rfl
    | ⟨1, _⟩ => exact hq)]
  exact broadcastInDim_apply ![1] h2 b (ix2 (0 : Fin 1) q) (ix1 q) (fun a => by
    match a with
    | ⟨0, _⟩ => exact hq)

/-- A one-column matrix laid along each of `n` columns reads, at `(p, q)`, the column at `p`. -/
theorem colBcast_apply {m n : ℕ} (h : (⟨2, ![m, 1]⟩ : Shape).BroadcastsInDim ⟨2, ![m, n]⟩ ![0, 1])
    (y : (⟨2, ![m, 1]⟩ : Shape).Idx → α) (p : Fin m) (q : Fin n) :
    broadcastInDim ⟨2, ![m, n]⟩ ![0, 1] h y (ix2 p q) = y (ix2 p (0 : Fin 1)) := by
  refine broadcastInDim_apply ![0, 1] h y (ix2 p q) (ix2 p (0 : Fin 1)) (fun a => ?_)
  match a with
  | ⟨0, _⟩ =>
    show p.val = if m = 1 then 0 else p.val
    split_ifs with hm
    · have := p.isLt; omega
    · rfl
  | ⟨1, _⟩ => rfl

/-- A vector of `m` entries stood up as a one-column matrix reads, at `(p, 0)`, the vector at `p`. -/
theorem toCol_apply {m : ℕ} (h : (⟨1, ![m]⟩ : Shape).BroadcastsInDim ⟨2, ![m, 1]⟩ ![0])
    (c : (⟨1, ![m]⟩ : Shape).Idx → α) (p : Fin m) :
    broadcastInDim ⟨2, ![m, 1]⟩ ![0] h c (ix2 p (0 : Fin 1)) = c (ix1 p) := by
  refine broadcastInDim_apply ![0] h c (ix2 p (0 : Fin 1)) (ix1 p) (fun a => ?_)
  match a with
  | ⟨0, _⟩ =>
    show p.val = if m = 1 then 0 else p.val
    split_ifs with hm
    · have := p.isLt; omega
    · rfl

end Broadcasts

/-- The host's plain contraction at `(p, q)` is `∑ k, l (p, k) * r (k, q)`. -/
theorem hostDot_apply {M K N : ℕ} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (p : Fin M) (q : Fin N) :
    Host.dotGeneral d none l r (ix2 p q) = ∑ k : Fin K, l (ix2 p k) * r (ix2 k q) :=
  Cert.PlainDot.dotGeneral_apply d hd none _ l r (ix2 p q)

/-- A [128] vector laid along the rows of a [100000, 128] array. -/
abbrev bcN (b : FA S128) : FA S100000x128 :=
  broadcastInDim S100000x128 ![0, 1] bcast_S1x128_S100000x128_0_1 (broadcastInDim S1x128 ![1] bcast_S128_S1x128_1 b)

/-- The row-broadcast of a [128] vector at `(p, q)` is the vector at `q`. -/
theorem bcN_apply (b : FA S128) (p : Fin 100000) (q : Fin 128) : bcN b (ix2 p q) = b (ix1 q) :=
  rowBcast_apply bcast_S1x128_S100000x128_0_1 bcast_S128_S1x128_1 b p q

/-- The reference's affine map, a contraction and a row-broadcast bias, is `lin`. -/
theorem ref_lin (x : FA S100000x32) (W : FA S32x128) (b : FA S128) :
    addf (Host.dotGeneral dot_S100000x32_S32x128_S100000x128_1_0_0_1_n_n none x W) (bcN b) = lin x W b := by
  funext i
  obtain ⟨p, q, rfl⟩ : ∃ (p : Fin 100000) (q : Fin 128), i = ix2 p q := ⟨i 0, i 1, eq_ix2 i⟩
  rw [addf_apply, hostDot_apply dot_S100000x32_S32x128_S100000x128_1_0_0_1_n_n rfl x W p q, bcN_apply]
  rfl

/-- One term of the neighbour mean. The reference divides the neighbour sum's entry `(p, k)` by the clamped count of row
    `p`, read through a column and then a row broadcast; the specification multiplies it by the reciprocal of that clamped
    count, read from a one-column array at `(p, 0)`. The count is clamped below by one (the word `0x3F800000`), so it is
    not zero and `x / c = x · (1 / c)`. -/
theorem mean_term (s : FA S100000x128) (cnt : FA S100000)
    (hb1 : S_.BroadcastsInDim S100000x1 (![] : Fin 0 → Fin S100000x1.rank)) (p : Fin 100000) (k : Fin 128) :
    Host.divf s (broadcastInDim S100000x128 ![0, 1] bcast_S100000x1_S100000x128_0_1
        (broadcastInDim S100000x1 ![0] bcast_S100000_S100000x1_0
          (maximumf cnt (broadcastInDim S100000 ![] bcast_S_S100000 (constant S_ .f32 0x3F800000#32))))) (ix2 p k)
      = s (ix2 p k) * Host.divf (broadcastInDim S100000x1 ![] hb1 (constant S_ .f32 0x3F800000#32))
          (broadcastInDim S100000x1 ![0] bcast_S100000_S100000x1_0
            (maximumf cnt (broadcastInDim S100000 ![] bcast_S_S100000 (constant S_ .f32 0x3F800000#32)))) (ix2 p (0 : Fin 1)) := by
  rw [hostDivf_apply, hostDivf_apply, colBcast_apply, toCol_apply]
  show Ideal.div (s (ix2 p k)) (max (cnt (ix1 p)) (Ideal.ofBits .f32 0x3F800000#32))
    = s (ix2 p k) * Ideal.div (Ideal.ofBits .f32 0x3F800000#32) (max (cnt (ix1 p)) (Ideal.ofBits .f32 0x3F800000#32))
  rw [Ideal.ofBits_one_f32]
  exact div_eq_mul_div_one _ _ (max_one_ne_zero _)

/-- The reference's node update is `sage` at the reciprocal of the clamped count: the reference divides the neighbour
    sum by the clamped count broadcast along the rows, where `sage` multiplies by the reciprocal; the count is at least
    one, so the two agree (`Cert.Spec.div_eq_mul_div_one`, `max_one_ne_zero`). -/
theorem ref_sage (s h : FA S100000x128) (cnt : FA S100000) (Wl Wr : FA S128x128) (bl g b mu v : FA S128)
    (hb1 : S_.BroadcastsInDim S100000x1 (![] : Fin 0 → Fin S100000x1.rank)) :
    addf (maximumf
        (addf (mulf (mulf (subf (addf (addf (Host.dotGeneral dot_S100000x128_S128x128_S100000x128_1_0_0_1_n_n none
              (Host.divf s (broadcastInDim S100000x128 ![0, 1] bcast_S100000x1_S100000x128_0_1
                (broadcastInDim S100000x1 ![0] bcast_S100000_S100000x1_0
                  (maximumf cnt (broadcastInDim S100000 ![] bcast_S_S100000 (constant S_ .f32 0x3F800000#32)))))) Wl) (bcN bl))
            (Host.dotGeneral dot_S100000x128_S128x128_S100000x128_1_0_0_1_n_n none h Wr)) (bcN mu))
          (bcN (Host.rsqrt (addf v (broadcastInDim S128 ![] bcast_S_S128 (constant S_ .f32 0x3727C5AC#32)))))) (bcN g)) (bcN b))
        (broadcastInDim S100000x128 ![] bcast_S_S100000x128 (constant S_ .f32 0x00000000#32))) h
      = sage s h (Host.divf (broadcastInDim S100000x1 ![] hb1 (constant S_ .f32 0x3F800000#32))
          (broadcastInDim S100000x1 ![0] bcast_S100000_S100000x1_0
            (maximumf cnt (broadcastInDim S100000 ![] bcast_S_S100000 (constant S_ .f32 0x3F800000#32))))) Wl bl Wr g b mu v := by
  funext i
  obtain ⟨p, q, rfl⟩ : ∃ (p : Fin 100000) (q : Fin 128), i = ix2 p q := ⟨i 0, i 1, eq_ix2 i⟩
  simp only [addf_apply, maximumf_apply, mulf_apply, subf_apply, bcN_apply,
    hostDot_apply dot_S100000x128_S128x128_S100000x128_1_0_0_1_n_n rfl _ _ p q]
  rw [Finset.sum_congr rfl fun k _ => congrArg (· * Wl (ix2 k q)) (mean_term s cnt hb1 p k)]
  rfl

end Cert.ReferenceIdeal.Hand

end
-- ==== Proof.RStageE.lean ====
import proofs.«426788_j78829829750888_3_alg».proof.ReferenceIdeal
import proofs.«426788_j78829829750888_3_alg».proof.Proof.Gen.ReferenceIdeal
import proofs.«426788_j78829829750888_3_alg».proof.Proof.Spec
import proofs.«426788_j78829829750888_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.HandE

open Cert.ReferenceIdeal Cert.ReferenceIdeal.Facts₀ Cert.Spec

/-- A real array of a literal shape. -/
abbrev FA (S : Shape) := FVec Ideal S .f32

/-- A [128] vector laid along the rows of a [500000, 128] array. -/
abbrev bcE (b : FA S128) : FA S500000x128 :=
  broadcastInDim S500000x128 ![0, 1] bcast_S1x128_S500000x128_0_1 (broadcastInDim S1x128 ![1] bcast_S128_S1x128_1 b)

/-! ## Layout operations at an entry -/

section Layout
variable {α : Type}

/-- A `[K]` vector laid along the rows of an `[N, K]` array reads, at `(p, q)`, the vector at `q`. -/
theorem rowBc_apply {N K : ℕ} (h1 : (⟨1, ![K]⟩ : Shape).BroadcastsInDim ⟨2, ![1, K]⟩ (![1] : Fin 1 → Fin 2))
    (h2 : (⟨2, ![1, K]⟩ : Shape).BroadcastsInDim ⟨2, ![N, K]⟩ (![0, 1] : Fin 2 → Fin 2))
    (b : (⟨1, ![K]⟩ : Shape).Idx → α) (p : Fin N) (q : Fin K) :
    broadcastInDim ⟨2, ![N, K]⟩ ![0, 1] h2 (broadcastInDim ⟨2, ![1, K]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => exact (if_pos rfl).symm
    | ⟨1, _⟩ =>
      show q.val = if K = 1 then 0 else q.val
      have := q.isLt
      split <;> omega
  · match a with
    | ⟨0, _⟩ =>
      show q.val = if K = 1 then 0 else q.val
      have := q.isLt
      split <;> omega

/-- The three-piece concatenation `[x | y | z]` along the columns, read in its first piece. -/
theorem cat3_fst {E : ℕ} (x y : (⟨2, ![E, 128]⟩ : Shape).Idx → α) (z : (⟨2, ![E, 16]⟩ : Shape).Idx → α)
    (h : Shape.Concatenates [(⟨2, ![E, 128]⟩ : Shape), ⟨2, ![E, 128]⟩, ⟨2, ![E, 16]⟩] ⟨2, ![E, 272]⟩ 1)
    (e : Fin E) (k : Fin 128) (c : Fin 272) (hc : c.val = k.val) :
    concatenate ⟨2, ![E, 272]⟩ 1 [⟨⟨2, ![E, 128]⟩, x⟩, ⟨⟨2, ![E, 128]⟩, y⟩, ⟨⟨2, ![E, 16]⟩, z⟩] h (ix2 e c) = x (ix2 e k) := by
  refine concatenate_apply_piece 1 [⟨⟨2, ![E, 128]⟩, x⟩, ⟨⟨2, ![E, 128]⟩, y⟩, ⟨⟨2, ![E, 16]⟩, z⟩] h (ix2 e c) 0
    (by show 0 < 3; omega) _ x rfl rfl 0 rfl (ix2 e k) (fun b hb => ?_) ?_
  · match b with
    | ⟨0, _⟩ => rfl
    | ⟨1, _⟩ => exact absurd rfl hb
  · show 0 + k.val = c.val
    omega

/-- … in its second piece. -/
theorem cat3_snd {E : ℕ} (x y : (⟨2, ![E, 128]⟩ : Shape).Idx → α) (z : (⟨2, ![E, 16]⟩ : Shape).Idx → α)
    (h : Shape.Concatenates [(⟨2, ![E, 128]⟩ : Shape), ⟨2, ![E, 128]⟩, ⟨2, ![E, 16]⟩] ⟨2, ![E, 272]⟩ 1)
    (e : Fin E) (k : Fin 128) (c : Fin 272) (hc : c.val = 128 + k.val) :
    concatenate ⟨2, ![E, 272]⟩ 1 [⟨⟨2, ![E, 128]⟩, x⟩, ⟨⟨2, ![E, 128]⟩, y⟩, ⟨⟨2, ![E, 16]⟩, z⟩] h (ix2 e c) = y (ix2 e k) := by
  refine concatenate_apply_piece 1 [⟨⟨2, ![E, 128]⟩, x⟩, ⟨⟨2, ![E, 128]⟩, y⟩, ⟨⟨2, ![E, 16]⟩, z⟩] h (ix2 e c) 1
    (by show 1 < 3; omega) _ y rfl rfl 128 rfl (ix2 e k) (fun b hb => ?_) ?_
  · match b with
    | ⟨0, _⟩ => rfl
    | ⟨1, _⟩ => exact absurd rfl hb
  · show 128 + k.val = c.val
    omega

/-- … in its third piece. -/
theorem cat3_trd {E : ℕ} (x y : (⟨2, ![E, 128]⟩ : Shape).Idx → α) (z : (⟨2, ![E, 16]⟩ : Shape).Idx → α)
    (h : Shape.Concatenates [(⟨2, ![E, 128]⟩ : Shape), ⟨2, ![E, 128]⟩, ⟨2, ![E, 16]⟩] ⟨2, ![E, 272]⟩ 1)
    (e : Fin E) (k : Fin 16) (c : Fin 272) (hc : c.val = 256 + k.val) :
    concatenate ⟨2, ![E, 272]⟩ 1 [⟨⟨2, ![E, 128]⟩, x⟩, ⟨⟨2, ![E, 128]⟩, y⟩, ⟨⟨2, ![E, 16]⟩, z⟩] h (ix2 e c) = z (ix2 e k) := by
  refine concatenate_apply_piece 1 [⟨⟨2, ![E, 128]⟩, x⟩, ⟨⟨2, ![E, 128]⟩, y⟩, ⟨⟨2, ![E, 16]⟩, z⟩] h (ix2 e c) 2
    (by show 2 < 3; omega) _ z rfl rfl 256 rfl (ix2 e k) (fun b hb => ?_) ?_
  · match b with
    | ⟨0, _⟩ => rfl
    | ⟨1, _⟩ => exact absurd rfl hb
  · show 256 + k.val = c.val
    omega

end Layout

/-! ## The three layers at an entry -/

/-- The first contraction: over the 272 columns of `[src | dst | attr]` it is the three slabs' contractions against the
    matching row slabs of the weight matrix. -/
theorem dot_cat_apply (src dst : FA S500000x128) (attr : FA S500000x16) (W1 : FA S272x128)
    (hs : S272x128.Slices ![0, 0] S128x128) (hd : S272x128.Slices ![128, 0] S128x128)
    (ha : S272x128.Slices ![256, 0] (⟨2, ![16, 128]⟩ : Shape)) (e : Fin 500000) (j : Fin 128) :
    Host.dotGeneral dot_S500000x272_S272x128_S500000x128_1_0_0_1_n_n none
        (concatenate S500000x272 1 [⟨S500000x128, src⟩, ⟨S500000x128, dst⟩, ⟨S500000x16, attr⟩]
          concatenates_S500000x128_S500000x128_S500000x16_S500000x272_d1) W1 (ix2 e j)
      = ((∑ k : Fin 128, src (ix2 e k) * extractStridedSlice S128x128 ![0, 0] W1 hs (ix2 k j))
          + ∑ k : Fin 128, dst (ix2 e k) * extractStridedSlice S128x128 ![128, 0] W1 hd (ix2 k j))
        + ∑ k : Fin 16, attr (ix2 e k) * extractStridedSlice (⟨2, ![16, 128]⟩ : Shape) ![256, 0] W1 ha (ix2 k j) := by
  refine (Cert.PlainDot.dotGeneral_apply _ rfl none .single _ W1 (ix2 e j)).trans ?_
  show ∑ k : Fin (128 + 128 + 16),
      concatenate S500000x272 1 [⟨S500000x128, src⟩, ⟨S500000x128, dst⟩, ⟨S500000x16, attr⟩]
        concatenates_S500000x128_S500000x128_S500000x16_S500000x272_d1 (ix2 e k) * W1 (ix2 k j) = _
  rw [sum_split3]
  congr 1
  · congr 1
    · refine Finset.sum_congr rfl fun k _ => ?_
      rw [cat3_fst src dst attr _ e k _ rfl, slice2_axis0_apply 0 W1 hs k j (Fin.castAdd 16 (Fin.castAdd 128 k)) (Nat.zero_add _).symm]
    · refine Finset.sum_congr rfl fun k _ => ?_
      rw [cat3_snd src dst attr _ e k _ rfl, slice2_axis0_apply 128 W1 hd k j (Fin.castAdd 16 (Fin.natAdd 128 k)) rfl]
  · refine Finset.sum_congr rfl fun k _ => ?_
    rw [cat3_trd src dst attr _ e k _ rfl, slice2_axis0_apply 256 W1 ha k j (Fin.natAdd (128 + 128) k) rfl]

/-- A row-laid `[128]` vector at `(e, j)`. -/
theorem bcE_apply (b : FA S128) (e : Fin 500000) (j : Fin 128) : bcE b (ix2 e j) = b (ix1 j) :=
  rowBc_apply _ _ b e j

/-- The first layer after its contraction `x`: bias, rectifier, normalisation, entry by entry. -/
theorem layer1_post_apply (x : FA S500000x128) (b1 g bb mu v : FA S128) (e : Fin 500000) (j : Fin 128) :
    addf (mulf (mulf (subf (maximumf (addf x (bcE b1))
        (broadcastInDim S500000x128 ![] bcast_S_S500000x128 (constant S_ .f32 0x00000000#32))) (bcE mu))
      (bcE (Host.rsqrt (addf v (broadcastInDim S128 ![] bcast_S_S128 (constant S_ .f32 0x3727C5AC#32)))))) (bcE g)) (bcE bb) (ix2 e j)
      = bn (max (x (ix2 e j) + b1 (ix1 j)) zero) (g (ix1 j)) (bb (ix1 j)) (mu (ix1 j)) (v (ix1 j)) := by
  show (max (x (ix2 e j) + bcE b1 (ix2 e j)) zero - bcE mu (ix2 e j))
      * bcE (Host.rsqrt (addf v (broadcastInDim S128 ![] bcast_S_S128 (constant S_ .f32 0x3727C5AC#32)))) (ix2 e j)
      * bcE g (ix2 e j) + bcE bb (ix2 e j) = _
  rw [bcE_apply b1, bcE_apply mu, bcE_apply g, bcE_apply bb, bcE_apply]
  rfl

/-- The first layer at `(e, j)` is `mlpH1`. -/
theorem layer1_apply (src dst : FA S500000x128) (attr : FA S500000x16) (W1 : FA S272x128) (b1 g bb mu v : FA S128)
    (hs : S272x128.Slices ![0, 0] S128x128) (hd : S272x128.Slices ![128, 0] S128x128)
    (ha : S272x128.Slices ![256, 0] (⟨2, ![16, 128]⟩ : Shape)) (e : Fin 500000) (j : Fin 128) :
    addf (mulf (mulf (subf (maximumf (addf (Host.dotGeneral dot_S500000x272_S272x128_S500000x128_1_0_0_1_n_n none
        (concatenate S500000x272 1 [⟨S500000x128, src⟩, ⟨S500000x128, dst⟩, ⟨S500000x16, attr⟩]
          concatenates_S500000x128_S500000x128_S500000x16_S500000x272_d1) W1) (bcE b1))
        (broadcastInDim S500000x128 ![] bcast_S_S500000x128 (constant S_ .f32 0x00000000#32))) (bcE mu))
      (bcE (Host.rsqrt (addf v (broadcastInDim S128 ![] bcast_S_S128 (constant S_ .f32 0x3727C5AC#32)))))) (bcE g)) (bcE bb) (ix2 e j)
      = mlpH1 src dst attr (extractStridedSlice S128x128 ![0, 0] W1 hs) (extractStridedSlice S128x128 ![128, 0] W1 hd)
          (extractStridedSlice (⟨2, ![16, 128]⟩ : Shape) ![256, 0] W1 ha) b1 g bb mu v e j := by
  rw [layer1_post_apply, dot_cat_apply src dst attr W1 hs hd ha e j]
  rfl

/-- The second layer at `(e, j)` is `mlpH2` of row `e` of its input. -/
theorem layer2_apply (h1 : FA S500000x128) (W2 : FA S128x64) (b2 : FA S64) (e : Fin 500000) (j : Fin 64) :
    maximumf (addf (Host.dotGeneral dot_S500000x128_S128x64_S500000x64_1_0_0_1_n_n none h1 W2)
        (broadcastInDim S500000x64 ![0, 1] bcast_S1x64_S500000x64_0_1 (broadcastInDim S1x64 ![1] bcast_S64_S1x64_1 b2)))
      (broadcastInDim S500000x64 ![] bcast_S_S500000x64 (constant S_ .f32 0x00000000#32)) (ix2 e j)
      = mlpH2 (fun k => h1 (ix2 e k)) W2 b2 j := by
  show max (FloatOps.dotGeneral dot_S500000x128_S128x64_S500000x64_1_0_0_1_n_n none .single h1 W2 (ix2 e j)
      + broadcastInDim S500000x64 ![0, 1] bcast_S1x64_S500000x64_0_1 (broadcastInDim S1x64 ![1] bcast_S64_S1x64_1 b2) (ix2 e j)) zero = _
  rw [Cert.PlainDot.dotGeneral_apply dot_S500000x128_S128x64_S500000x64_1_0_0_1_n_n rfl, rowBc_apply]
  rfl

/-- The logit and the logistic function at `(e, 0)` are `mlpOut` of row `e` of their input. -/
theorem layer3_apply (h2 : FA S500000x64) (W3 : FA S64x1) (b3 : FA S1) (e : Fin 500000) :
    Host.divf (broadcastInDim S500000x1 ![] bcast_S_S500000x1 (constant S_ .f32 0x3F800000#32))
        (addf (broadcastInDim S500000x1 ![] bcast_S_S500000x1 (constant S_ .f32 0x3F800000#32))
          (Host.exp (Host.negf (addf (Host.dotGeneral dot_S500000x64_S64x1_S500000x1_1_0_0_1_n_n none h2 W3)
            (broadcastInDim S500000x1 ![0, 1] bcast_S1x1_S500000x1_0_1 (broadcastInDim S1x1 ![1] bcast_S1_S1x1_1 b3))))))
        (ix2 e (0 : Fin 1))
      = mlpOut (fun k => h2 (ix2 e k)) W3 b3 := by
  show Ideal.div one (one + Ideal.exp (-(FloatOps.dotGeneral dot_S500000x64_S64x1_S500000x1_1_0_0_1_n_n none .single h2 W3 (ix2 e (0 : Fin 1))
      + broadcastInDim S500000x1 ![0, 1] bcast_S1x1_S500000x1_0_1 (broadcastInDim S1x1 ![1] bcast_S1_S1x1_1 b3) (ix2 e (0 : Fin 1))))) = _
  rw [Cert.PlainDot.dotGeneral_apply dot_S500000x64_S64x1_S500000x1_1_0_0_1_n_n rfl, rowBc_apply]
  rfl

/-- The final reshape `[500000, 1] → [500000]`: row `e` is entry `(e, 0)`. -/
theorem reshape_apply {α : Type} (x : S500000x1.Idx → α) (e : Fin 500000) :
    shapeCast S500000 x shapeCasts_S500000x1_S500000 (ix1 e) = x (ix2 e (0 : Fin 1)) :=
  shapeCast_apply x _ (ix1 e) (ix2 e (0 : Fin 1)) (by
    rw [Shape.rowMajor_val_two, Shape.rowMajor_val_one]
    show e.val * 1 + 0 = e.val
    omega)

/-- The reference's edge scorer is `mlpRow` edge by edge: its one contraction over the 272 concatenated columns
    `[src | dst | attr]` is the sum of the three slabs' contractions against the matching row slabs of the weight
    matrix (`Cert.Spec.sum_split3`; addition on the extended reals is associative and commutative), and its negation is
    `mlpOut`'s. -/
theorem ref_mlp (src dst : FA S500000x128) (attr : FA S500000x16) (W1 : FA S272x128) (b1 g bb mu v : FA S128)
    (W2 : FA S128x64) (b2 : FA S64) (W3 : FA S64x1) (b3 : FA S1)
    (hs : S272x128.Slices ![0, 0] S128x128) (hd : S272x128.Slices ![128, 0] S128x128) (ha : S272x128.Slices ![256, 0] (⟨2, ![16, 128]⟩ : Shape)) :
    shapeCast S500000
      (Host.divf (broadcastInDim S500000x1 ![] bcast_S_S500000x1 (constant S_ .f32 0x3F800000#32))
        (addf (broadcastInDim S500000x1 ![] bcast_S_S500000x1 (constant S_ .f32 0x3F800000#32))
          (Host.exp (Host.negf (addf (Host.dotGeneral dot_S500000x64_S64x1_S500000x1_1_0_0_1_n_n none
            (maximumf (addf (Host.dotGeneral dot_S500000x128_S128x64_S500000x64_1_0_0_1_n_n none
              (addf (mulf (mulf (subf (maximumf (addf (Host.dotGeneral dot_S500000x272_S272x128_S500000x128_1_0_0_1_n_n none
                  (concatenate S500000x272 1 [⟨S500000x128, src⟩, ⟨S500000x128, dst⟩, ⟨S500000x16, attr⟩] concatenates_S500000x128_S500000x128_S500000x16_S500000x272_d1) W1) (bcE b1))
                  (broadcastInDim S500000x128 ![] bcast_S_S500000x128 (constant S_ .f32 0x00000000#32))) (bcE mu))
                (bcE (Host.rsqrt (addf v (broadcastInDim S128 ![] bcast_S_S128 (constant S_ .f32 0x3727C5AC#32)))))) (bcE g)) (bcE bb)) W2)
              (broadcastInDim S500000x64 ![0, 1] bcast_S1x64_S500000x64_0_1 (broadcastInDim S1x64 ![1] bcast_S64_S1x64_1 b2)))
              (broadcastInDim S500000x64 ![] bcast_S_S500000x64 (constant S_ .f32 0x00000000#32))) W3)
            (broadcastInDim S500000x1 ![0, 1] bcast_S1x1_S500000x1_0_1 (broadcastInDim S1x1 ![1] bcast_S1_S1x1_1 b3)))))))
      shapeCasts_S500000x1_S500000
    = fun j => mlpRow src dst attr (extractStridedSlice S128x128 ![0, 0] W1 hs) (extractStridedSlice S128x128 ![128, 0] W1 hd)
        (extractStridedSlice (⟨2, ![16, 128]⟩ : Shape) ![256, 0] W1 ha) b1 g bb mu v W2 b2 W3 b3 (j 0) := by
  funext i
  obtain ⟨e, rfl⟩ : ∃ e : Fin 500000, i = ix1 e := ⟨i 0, eq_ix1 i⟩
  rw [reshape_apply, layer3_apply]
  show _ = mlpOut _ W3 b3
  refine congrArg (fun f => mlpOut f W3 b3) (funext fun j => ?_)
  rw [layer2_apply]
  refine congrArg (fun f => mlpH2 f W2 b2 j) (funext fun k => ?_)
  exact layer1_apply src dst attr W1 b1 g bb mu v hs hd ha e k

end Cert.ReferenceIdeal.HandE

end
-- ==== Proof.LibNary3.lean ====
import Idealize.ShloMosaic.Lib.StableHlo.Run

noncomputable section

/-! # A host operation of three operands read at its result

An operation over a literal family of three references leaves, at its result buffer, its function of the three
operands' contents, each read AT ITS OWN REFERENCE, so that a reader of a line of operations goes on into the operands.
The library states this for a family of four; this is the same fact for three. -/

namespace Cert.Nary3

open Idealize.ShloMosaic Idealize.ShloMosaic.StableHlo

variable {τ : Topo} {sig : RefSig} {Val : EltTy → Type} {x a b y : Ref sig .tc}

/-- The result of an operation over three literal references. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for a one-pass reader. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Nary3

end
-- ==== Proof.RCut.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import Idealize.ShloMosaic.Lib.Pipeline.Frame

/-! # The reference's operations cut before the concatenation

The fifth window's operations up to the concatenation of source rows, destination rows and edge attributes, and from it on. -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

/-- The fifth window up to the concatenation, and from it on. -/
abbrev ops4a : List (HloOp τ sig (Elt Ideal)) := (ops4 (F := Ideal)).take 62
abbrev ops4b : List (HloOp τ sig (Elt Ideal)) := (ops4 (F := Ideal)).drop 62

/-- The window is the two pieces one after the other. -/
theorem ops4_cut : (ops4 (F := Ideal)) = ops4a ++ ops4b := (List.take_append_drop 62 _).symm

end Cert.ReferenceIdeal.Hand

end
-- ==== Proof.RTail.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import proofs.«426788_j78829829750888_3_alg».proof.Proof.RCut
import Idealize.ShloMosaic.Lib.Pipeline.Frame

/-! # After the cut: the edge scorer of the three arrays as they stand -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

set_option maxHeartbeats 20000000 in
/-- AFTER THE CUT: the result is the edge scorer of the three arrays as they stand, edge by edge. -/
theorem tail_value (W : Valuation τ sig (Elt Ideal)) :
    after (ops5 (F := Ideal)) (after ops4b W) (Proc.devRef .tc main_v302)
      = fun j => Cert.Spec.mlpRow (W (Proc.devRef .tc main_v256)) (W (Proc.devRef .tc main_v265)) (W (Proc.devRef .tc main_arg2))
          (Cert.KernelIdeal.Net.w1s (W (Proc.devRef .tc main_arg16))) (Cert.KernelIdeal.Net.w1d (W (Proc.devRef .tc main_arg16))) (Cert.KernelIdeal.Net.w1a (W (Proc.devRef .tc main_arg16)))
          (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (j 0) := by
  simp only [ops4b, ops4, ops5, List.drop_succ_cons, List.drop_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
  refine (Cert.ReferenceIdeal.HandE.ref_mlp _ _ _ _ _ _ _ _ _ _ _ _ _
    Cert.KernelIdeal.Facts₀.slices_S272x128_S128x128_0_0 Cert.KernelIdeal.Facts₀.slices_S272x128_S128x128_128_0
    Cert.KernelIdeal.Facts₀.slices_S272x128_S16x128_256_0).trans ?_
  rfl

end Cert.ReferenceIdeal.Hand

end
-- ==== Proof.RSrc.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import proofs.«426788_j78829829750888_3_alg».proof.Proof.RCut
import Idealize.ShloMosaic.Lib.Pipeline.Frame

/-! # Before the cut: the gathered source rows

Read back, the term of the gathered source rows folds into the network: three node updates (the second-layer user
features, and under them the first layer's two) and the two projections; what stands between them is the network's own
irregular operations. -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

set_option maxHeartbeats 140000000 in
/-- The gathered source rows are the second-layer user features at the edges' sources. -/
theorem src_value (L : Valuation τ sig (Elt Ideal)) :
    after ops4a (after (ops3 (F := Ideal)) (after (ops2 (F := Ideal)) (after (ops1 (F := Ideal)) (after (ops0 (F := Ideal)) L)))) (Proc.devRef .tc main_v256)
      = Cert.KernelIdeal.Net.rows (Cert.KernelIdeal.Net.hU2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15))) (Cert.KernelIdeal.Net.row0 (L (Proc.devRef .tc main_arg3))) := by
  simp only [ops4a, ops4, ops3, ops2, ops1, ops0, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
  simp only [TRef.ofBuf, TRef.toBuf, cast_eq]
  rw [ref_sage _ _ _ _ _ _ _ _ _ _ Cert.KernelIdeal.Facts₀.bcast_S_S100000x1]
  rw [ref_sage _ _ _ _ _ _ _ _ _ _ Cert.KernelIdeal.Facts₀.bcast_S_S100000x1]
  rw [ref_sage _ _ _ _ _ _ _ _ _ _ Cert.KernelIdeal.Facts₀.bcast_S_S100000x1]
  rw [ref_lin, ref_lin]
  simp only [Cert.KernelIdeal.Net.out, Cert.KernelIdeal.Net.hU2, Cert.KernelIdeal.Net.hR2, Cert.KernelIdeal.Net.hU1, Cert.KernelIdeal.Net.hR1, Cert.KernelIdeal.Net.hU0, Cert.KernelIdeal.Net.hR0, Cert.KernelIdeal.Net.rows, Cert.KernelIdeal.Net.neighSum, Cert.KernelIdeal.Net.invDeg, Cert.KernelIdeal.Net.degClamped, Cert.KernelIdeal.Net.deg, Cert.KernelIdeal.Net.col, Cert.KernelIdeal.Net.wrapCol, Cert.KernelIdeal.Net.row0, Cert.KernelIdeal.Net.row1, Cert.KernelIdeal.Net.v00, Cert.KernelIdeal.Net.v01, Cert.KernelIdeal.Net.v10, Cert.KernelIdeal.Net.v11, Cert.KernelIdeal.Net.m00, Cert.KernelIdeal.Net.m01, Cert.KernelIdeal.Net.m10, Cert.KernelIdeal.Net.m11, Cert.KernelIdeal.Net.w1s, Cert.KernelIdeal.Net.w1d, Cert.KernelIdeal.Net.w1a]
  rfl

end Cert.ReferenceIdeal.Hand

end
-- ==== Proof.RDst.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import proofs.«426788_j78829829750888_3_alg».proof.Proof.RCut
import Idealize.ShloMosaic.Lib.Pipeline.Frame

/-! # Before the cut: the gathered destination rows

As for the source rows, with the second-layer recipient features. -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

set_option maxHeartbeats 140000000 in
/-- The gathered destination rows are the second-layer recipient features at the edges' destinations. -/
theorem dst_value (L : Valuation τ sig (Elt Ideal)) :
    after ops4a (after (ops3 (F := Ideal)) (after (ops2 (F := Ideal)) (after (ops1 (F := Ideal)) (after (ops0 (F := Ideal)) L)))) (Proc.devRef .tc main_v265)
      = Cert.KernelIdeal.Net.rows (Cert.KernelIdeal.Net.hR2 (L (Proc.devRef .tc main_arg0)) (L (Proc.devRef .tc main_arg1)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15))) (Cert.KernelIdeal.Net.row1 (L (Proc.devRef .tc main_arg3))) := by
  simp only [ops4a, ops4, ops3, ops2, ops1, ops0, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
  simp only [TRef.ofBuf, TRef.toBuf, cast_eq]
  rw [ref_sage _ _ _ _ _ _ _ _ _ _ Cert.KernelIdeal.Facts₀.bcast_S_S100000x1]
  rw [ref_sage _ _ _ _ _ _ _ _ _ _ Cert.KernelIdeal.Facts₀.bcast_S_S100000x1]
  rw [ref_sage _ _ _ _ _ _ _ _ _ _ Cert.KernelIdeal.Facts₀.bcast_S_S100000x1]
  rw [ref_lin, ref_lin]
  simp only [Cert.KernelIdeal.Net.out, Cert.KernelIdeal.Net.hU2, Cert.KernelIdeal.Net.hR2, Cert.KernelIdeal.Net.hU1, Cert.KernelIdeal.Net.hR1, Cert.KernelIdeal.Net.hU0, Cert.KernelIdeal.Net.hR0, Cert.KernelIdeal.Net.rows, Cert.KernelIdeal.Net.neighSum, Cert.KernelIdeal.Net.invDeg, Cert.KernelIdeal.Net.degClamped, Cert.KernelIdeal.Net.deg, Cert.KernelIdeal.Net.col, Cert.KernelIdeal.Net.wrapCol, Cert.KernelIdeal.Net.row0, Cert.KernelIdeal.Net.row1, Cert.KernelIdeal.Net.v00, Cert.KernelIdeal.Net.v01, Cert.KernelIdeal.Net.v10, Cert.KernelIdeal.Net.v11, Cert.KernelIdeal.Net.m00, Cert.KernelIdeal.Net.m01, Cert.KernelIdeal.Net.m10, Cert.KernelIdeal.Net.m11, Cert.KernelIdeal.Net.w1s, Cert.KernelIdeal.Net.w1d, Cert.KernelIdeal.Net.w1a]
  rfl

end Cert.ReferenceIdeal.Hand

end
-- ==== Proof.RKeep0.lean ====
import proofs.«426788_j78829829750888_3_alg».proof.Proof.RRun0
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 0 leaves argument 0 as it was. -/
theorem ops0_keep_arg0 (W : Valuation τ sig (Elt F)) :
    after (ops0 (F := F)) W (Proc.devRef .tc main_arg0) = W (Proc.devRef .tc main_arg0) := by
  simp only [ops0]; after_results_simp

/-- Window 0 leaves argument 1 as it was. -/
theorem ops0_keep_arg1 (W : Valuation τ sig (Elt F)) :
    after (ops0 (F := F)) W (Proc.devRef .tc main_arg1) = W (Proc.devRef .tc main_arg1) := by
  simp only [ops0]; after_results_simp

/-- Window 0 leaves argument 2 as it was. -/
theorem ops0_keep_arg2 (W : Valuation τ sig (Elt F)) :
    after (ops0 (F := F)) W (Proc.devRef .tc main_arg2) = W (Proc.devRef .tc main_arg2) := by
  simp only [ops0]; after_results_simp

/-- Window 0 leaves argument 3 as it was. -/
theorem ops0_keep_arg3 (W : Valuation τ sig (Elt F)) :
    after (ops0 (F := F)) W (Proc.devRef .tc main_arg3) = W (Proc.devRef .tc main_arg3) := by
  simp only [ops0]; after_results_simp

/-- Window 0 leaves argument 4 as it was. -/
theorem ops0_keep_arg4 (W : Valuation τ sig (Elt F)) :
    after (ops0 (F := F)) W (Proc.devRef .tc main_arg4) = W (Proc.devRef .tc main_arg4) := by
  simp only [ops0]; after_results_simp

/-- Window 0 leaves argument 5 as it was. -/
theorem ops0_keep_arg5 (W : Valuation τ sig (Elt F)) :
    after (ops0 (F := F)) W (Proc.devRef .tc main_arg5) = W (Proc.devRef .tc main_arg5) := by
  simp only [ops0]; after_results_simp

/-- Window 0 leaves argument 6 as it was. -/
theorem ops0_keep_arg6 (W : Valuation τ sig (Elt F)) :
    after (ops0 (F := F)) W (Proc.devRef .tc main_arg6) = W (Proc.devRef .tc main_arg6) := by
  simp only [ops0]; after_results_simp

/-- Window 0 leaves argument 7 as it was. -/
theorem ops0_keep_arg7 (W : Valuation τ sig (Elt F)) :
    after (ops0 (F := F)) W (Proc.devRef .tc main_arg7) = W (Proc.devRef .tc main_arg7) := by
  simp only [ops0]; after_results_simp

/-- Window 0 leaves argument 8 as it was. -/
theorem ops0_keep_arg8 (W : Valuation τ sig (Elt F)) :
    after (ops0 (F := F)) W (Proc.devRef .tc main_arg8) = W (Proc.devRef .tc main_arg8) := by
  simp only [ops0]; after_results_simp

/-- Window 0 leaves argument 9 as it was. -/
theorem ops0_keep_arg9 (W : Valuation τ sig (Elt F)) :
    after (ops0 (F := F)) W (Proc.devRef .tc main_arg9) = W (Proc.devRef .tc main_arg9) := by
  simp only [ops0]; after_results_simp

/-- Window 0 leaves argument 10 as it was. -/
theorem ops0_keep_arg10 (W : Valuation τ sig (Elt F)) :
    after (ops0 (F := F)) W (Proc.devRef .tc main_arg10) = W (Proc.devRef .tc main_arg10) := by
  simp only [ops0]; after_results_simp

/-- Window 0 leaves argument 11 as it was. -/
theorem ops0_keep_arg11 (W : Valuation τ sig (Elt F)) :
    after (ops0 (F := F)) W (Proc.devRef .tc main_arg11) = W (Proc.devRef .tc main_arg11) := by
  simp only [ops0]; after_results_simp

/-- Window 0 leaves argument 12 as it was. -/
theorem ops0_keep_arg12 (W : Valuation τ sig (Elt F)) :
    after (ops0 (F := F)) W (Proc.devRef .tc main_arg12) = W (Proc.devRef .tc main_arg12) := by
  simp only [ops0]; after_results_simp

/-- Window 0 leaves argument 13 as it was. -/
theorem ops0_keep_arg13 (W : Valuation τ sig (Elt F)) :
    after (ops0 (F := F)) W (Proc.devRef .tc main_arg13) = W (Proc.devRef .tc main_arg13) := by
  simp only [ops0]; after_results_simp

/-- Window 0 leaves argument 14 as it was. -/
theorem ops0_keep_arg14 (W : Valuation τ sig (Elt F)) :
    after (ops0 (F := F)) W (Proc.devRef .tc main_arg14) = W (Proc.devRef .tc main_arg14) := by
  simp only [ops0]; after_results_simp

/-- Window 0 leaves argument 15 as it was. -/
theorem ops0_keep_arg15 (W : Valuation τ sig (Elt F)) :
    after (ops0 (F := F)) W (Proc.devRef .tc main_arg15) = W (Proc.devRef .tc main_arg15) := by
  simp only [ops0]; after_results_simp

/-- Window 0 leaves argument 16 as it was. -/
theorem ops0_keep_arg16 (W : Valuation τ sig (Elt F)) :
    after (ops0 (F := F)) W (Proc.devRef .tc main_arg16) = W (Proc.devRef .tc main_arg16) := by
  simp only [ops0]; after_results_simp

/-- Window 0 leaves argument 17 as it was. -/
theorem ops0_keep_arg17 (W : Valuation τ sig (Elt F)) :
    after (ops0 (F := F)) W (Proc.devRef .tc main_arg17) = W (Proc.devRef .tc main_arg17) := by
  simp only [ops0]; after_results_simp

/-- Window 0 leaves argument 18 as it was. -/
theorem ops0_keep_arg18 (W : Valuation τ sig (Elt F)) :
    after (ops0 (F := F)) W (Proc.devRef .tc main_arg18) = W (Proc.devRef .tc main_arg18) := by
  simp only [ops0]; after_results_simp

/-- Window 0 leaves argument 19 as it was. -/
theorem ops0_keep_arg19 (W : Valuation τ sig (Elt F)) :
    after (ops0 (F := F)) W (Proc.devRef .tc main_arg19) = W (Proc.devRef .tc main_arg19) := by
  simp only [ops0]; after_results_simp

/-- Window 0 leaves argument 20 as it was. -/
theorem ops0_keep_arg20 (W : Valuation τ sig (Elt F)) :
    after (ops0 (F := F)) W (Proc.devRef .tc main_arg20) = W (Proc.devRef .tc main_arg20) := by
  simp only [ops0]; after_results_simp

/-- Window 0 leaves argument 21 as it was. -/
theorem ops0_keep_arg21 (W : Valuation τ sig (Elt F)) :
    after (ops0 (F := F)) W (Proc.devRef .tc main_arg21) = W (Proc.devRef .tc main_arg21) := by
  simp only [ops0]; after_results_simp

/-- Window 0 leaves argument 22 as it was. -/
theorem ops0_keep_arg22 (W : Valuation τ sig (Elt F)) :
    after (ops0 (F := F)) W (Proc.devRef .tc main_arg22) = W (Proc.devRef .tc main_arg22) := by
  simp only [ops0]; after_results_simp

/-- Window 0 leaves argument 23 as it was. -/
theorem ops0_keep_arg23 (W : Valuation τ sig (Elt F)) :
    after (ops0 (F := F)) W (Proc.devRef .tc main_arg23) = W (Proc.devRef .tc main_arg23) := by
  simp only [ops0]; after_results_simp

/-- Window 0 leaves argument 24 as it was. -/
theorem ops0_keep_arg24 (W : Valuation τ sig (Elt F)) :
    after (ops0 (F := F)) W (Proc.devRef .tc main_arg24) = W (Proc.devRef .tc main_arg24) := by
  simp only [ops0]; after_results_simp

/-- Window 0 leaves argument 25 as it was. -/
theorem ops0_keep_arg25 (W : Valuation τ sig (Elt F)) :
    after (ops0 (F := F)) W (Proc.devRef .tc main_arg25) = W (Proc.devRef .tc main_arg25) := by
  simp only [ops0]; after_results_simp

end Cert.ReferenceIdeal.HandRun

end
-- ==== Proof.RKeep1.lean ====
import proofs.«426788_j78829829750888_3_alg».proof.Proof.RRun1
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 1 leaves argument 0 as it was. -/
theorem ops1_keep_arg0 (W : Valuation τ sig (Elt F)) :
    after (ops1 (F := F)) W (Proc.devRef .tc main_arg0) = W (Proc.devRef .tc main_arg0) := by
  simp only [ops1]; after_results_simp

/-- Window 1 leaves argument 1 as it was. -/
theorem ops1_keep_arg1 (W : Valuation τ sig (Elt F)) :
    after (ops1 (F := F)) W (Proc.devRef .tc main_arg1) = W (Proc.devRef .tc main_arg1) := by
  simp only [ops1]; after_results_simp

/-- Window 1 leaves argument 2 as it was. -/
theorem ops1_keep_arg2 (W : Valuation τ sig (Elt F)) :
    after (ops1 (F := F)) W (Proc.devRef .tc main_arg2) = W (Proc.devRef .tc main_arg2) := by
  simp only [ops1]; after_results_simp

/-- Window 1 leaves argument 3 as it was. -/
theorem ops1_keep_arg3 (W : Valuation τ sig (Elt F)) :
    after (ops1 (F := F)) W (Proc.devRef .tc main_arg3) = W (Proc.devRef .tc main_arg3) := by
  simp only [ops1]; after_results_simp

/-- Window 1 leaves argument 4 as it was. -/
theorem ops1_keep_arg4 (W : Valuation τ sig (Elt F)) :
    after (ops1 (F := F)) W (Proc.devRef .tc main_arg4) = W (Proc.devRef .tc main_arg4) := by
  simp only [ops1]; after_results_simp

/-- Window 1 leaves argument 5 as it was. -/
theorem ops1_keep_arg5 (W : Valuation τ sig (Elt F)) :
    after (ops1 (F := F)) W (Proc.devRef .tc main_arg5) = W (Proc.devRef .tc main_arg5) := by
  simp only [ops1]; after_results_simp

/-- Window 1 leaves argument 6 as it was. -/
theorem ops1_keep_arg6 (W : Valuation τ sig (Elt F)) :
    after (ops1 (F := F)) W (Proc.devRef .tc main_arg6) = W (Proc.devRef .tc main_arg6) := by
  simp only [ops1]; after_results_simp

/-- Window 1 leaves argument 7 as it was. -/
theorem ops1_keep_arg7 (W : Valuation τ sig (Elt F)) :
    after (ops1 (F := F)) W (Proc.devRef .tc main_arg7) = W (Proc.devRef .tc main_arg7) := by
  simp only [ops1]; after_results_simp

/-- Window 1 leaves argument 8 as it was. -/
theorem ops1_keep_arg8 (W : Valuation τ sig (Elt F)) :
    after (ops1 (F := F)) W (Proc.devRef .tc main_arg8) = W (Proc.devRef .tc main_arg8) := by
  simp only [ops1]; after_results_simp

/-- Window 1 leaves argument 9 as it was. -/
theorem ops1_keep_arg9 (W : Valuation τ sig (Elt F)) :
    after (ops1 (F := F)) W (Proc.devRef .tc main_arg9) = W (Proc.devRef .tc main_arg9) := by
  simp only [ops1]; after_results_simp

/-- Window 1 leaves argument 10 as it was. -/
theorem ops1_keep_arg10 (W : Valuation τ sig (Elt F)) :
    after (ops1 (F := F)) W (Proc.devRef .tc main_arg10) = W (Proc.devRef .tc main_arg10) := by
  simp only [ops1]; after_results_simp

/-- Window 1 leaves argument 11 as it was. -/
theorem ops1_keep_arg11 (W : Valuation τ sig (Elt F)) :
    after (ops1 (F := F)) W (Proc.devRef .tc main_arg11) = W (Proc.devRef .tc main_arg11) := by
  simp only [ops1]; after_results_simp

/-- Window 1 leaves argument 12 as it was. -/
theorem ops1_keep_arg12 (W : Valuation τ sig (Elt F)) :
    after (ops1 (F := F)) W (Proc.devRef .tc main_arg12) = W (Proc.devRef .tc main_arg12) := by
  simp only [ops1]; after_results_simp

/-- Window 1 leaves argument 13 as it was. -/
theorem ops1_keep_arg13 (W : Valuation τ sig (Elt F)) :
    after (ops1 (F := F)) W (Proc.devRef .tc main_arg13) = W (Proc.devRef .tc main_arg13) := by
  simp only [ops1]; after_results_simp

/-- Window 1 leaves argument 14 as it was. -/
theorem ops1_keep_arg14 (W : Valuation τ sig (Elt F)) :
    after (ops1 (F := F)) W (Proc.devRef .tc main_arg14) = W (Proc.devRef .tc main_arg14) := by
  simp only [ops1]; after_results_simp

/-- Window 1 leaves argument 15 as it was. -/
theorem ops1_keep_arg15 (W : Valuation τ sig (Elt F)) :
    after (ops1 (F := F)) W (Proc.devRef .tc main_arg15) = W (Proc.devRef .tc main_arg15) := by
  simp only [ops1]; after_results_simp

/-- Window 1 leaves argument 16 as it was. -/
theorem ops1_keep_arg16 (W : Valuation τ sig (Elt F)) :
    after (ops1 (F := F)) W (Proc.devRef .tc main_arg16) = W (Proc.devRef .tc main_arg16) := by
  simp only [ops1]; after_results_simp

/-- Window 1 leaves argument 17 as it was. -/
theorem ops1_keep_arg17 (W : Valuation τ sig (Elt F)) :
    after (ops1 (F := F)) W (Proc.devRef .tc main_arg17) = W (Proc.devRef .tc main_arg17) := by
  simp only [ops1]; after_results_simp

/-- Window 1 leaves argument 18 as it was. -/
theorem ops1_keep_arg18 (W : Valuation τ sig (Elt F)) :
    after (ops1 (F := F)) W (Proc.devRef .tc main_arg18) = W (Proc.devRef .tc main_arg18) := by
  simp only [ops1]; after_results_simp

/-- Window 1 leaves argument 19 as it was. -/
theorem ops1_keep_arg19 (W : Valuation τ sig (Elt F)) :
    after (ops1 (F := F)) W (Proc.devRef .tc main_arg19) = W (Proc.devRef .tc main_arg19) := by
  simp only [ops1]; after_results_simp

/-- Window 1 leaves argument 20 as it was. -/
theorem ops1_keep_arg20 (W : Valuation τ sig (Elt F)) :
    after (ops1 (F := F)) W (Proc.devRef .tc main_arg20) = W (Proc.devRef .tc main_arg20) := by
  simp only [ops1]; after_results_simp

/-- Window 1 leaves argument 21 as it was. -/
theorem ops1_keep_arg21 (W : Valuation τ sig (Elt F)) :
    after (ops1 (F := F)) W (Proc.devRef .tc main_arg21) = W (Proc.devRef .tc main_arg21) := by
  simp only [ops1]; after_results_simp

/-- Window 1 leaves argument 22 as it was. -/
theorem ops1_keep_arg22 (W : Valuation τ sig (Elt F)) :
    after (ops1 (F := F)) W (Proc.devRef .tc main_arg22) = W (Proc.devRef .tc main_arg22) := by
  simp only [ops1]; after_results_simp

/-- Window 1 leaves argument 23 as it was. -/
theorem ops1_keep_arg23 (W : Valuation τ sig (Elt F)) :
    after (ops1 (F := F)) W (Proc.devRef .tc main_arg23) = W (Proc.devRef .tc main_arg23) := by
  simp only [ops1]; after_results_simp

/-- Window 1 leaves argument 24 as it was. -/
theorem ops1_keep_arg24 (W : Valuation τ sig (Elt F)) :
    after (ops1 (F := F)) W (Proc.devRef .tc main_arg24) = W (Proc.devRef .tc main_arg24) := by
  simp only [ops1]; after_results_simp

/-- Window 1 leaves argument 25 as it was. -/
theorem ops1_keep_arg25 (W : Valuation τ sig (Elt F)) :
    after (ops1 (F := F)) W (Proc.devRef .tc main_arg25) = W (Proc.devRef .tc main_arg25) := by
  simp only [ops1]; after_results_simp

end Cert.ReferenceIdeal.HandRun

end
-- ==== Proof.RKeep2.lean ====
import proofs.«426788_j78829829750888_3_alg».proof.Proof.RRun2
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 2 leaves argument 0 as it was. -/
theorem ops2_keep_arg0 (W : Valuation τ sig (Elt F)) :
    after (ops2 (F := F)) W (Proc.devRef .tc main_arg0) = W (Proc.devRef .tc main_arg0) := by
  simp only [ops2]; after_results_simp

/-- Window 2 leaves argument 1 as it was. -/
theorem ops2_keep_arg1 (W : Valuation τ sig (Elt F)) :
    after (ops2 (F := F)) W (Proc.devRef .tc main_arg1) = W (Proc.devRef .tc main_arg1) := by
  simp only [ops2]; after_results_simp

/-- Window 2 leaves argument 2 as it was. -/
theorem ops2_keep_arg2 (W : Valuation τ sig (Elt F)) :
    after (ops2 (F := F)) W (Proc.devRef .tc main_arg2) = W (Proc.devRef .tc main_arg2) := by
  simp only [ops2]; after_results_simp

/-- Window 2 leaves argument 3 as it was. -/
theorem ops2_keep_arg3 (W : Valuation τ sig (Elt F)) :
    after (ops2 (F := F)) W (Proc.devRef .tc main_arg3) = W (Proc.devRef .tc main_arg3) := by
  simp only [ops2]; after_results_simp

/-- Window 2 leaves argument 4 as it was. -/
theorem ops2_keep_arg4 (W : Valuation τ sig (Elt F)) :
    after (ops2 (F := F)) W (Proc.devRef .tc main_arg4) = W (Proc.devRef .tc main_arg4) := by
  simp only [ops2]; after_results_simp

/-- Window 2 leaves argument 5 as it was. -/
theorem ops2_keep_arg5 (W : Valuation τ sig (Elt F)) :
    after (ops2 (F := F)) W (Proc.devRef .tc main_arg5) = W (Proc.devRef .tc main_arg5) := by
  simp only [ops2]; after_results_simp

/-- Window 2 leaves argument 6 as it was. -/
theorem ops2_keep_arg6 (W : Valuation τ sig (Elt F)) :
    after (ops2 (F := F)) W (Proc.devRef .tc main_arg6) = W (Proc.devRef .tc main_arg6) := by
  simp only [ops2]; after_results_simp

/-- Window 2 leaves argument 7 as it was. -/
theorem ops2_keep_arg7 (W : Valuation τ sig (Elt F)) :
    after (ops2 (F := F)) W (Proc.devRef .tc main_arg7) = W (Proc.devRef .tc main_arg7) := by
  simp only [ops2]; after_results_simp

/-- Window 2 leaves argument 8 as it was. -/
theorem ops2_keep_arg8 (W : Valuation τ sig (Elt F)) :
    after (ops2 (F := F)) W (Proc.devRef .tc main_arg8) = W (Proc.devRef .tc main_arg8) := by
  simp only [ops2]; after_results_simp

/-- Window 2 leaves argument 9 as it was. -/
theorem ops2_keep_arg9 (W : Valuation τ sig (Elt F)) :
    after (ops2 (F := F)) W (Proc.devRef .tc main_arg9) = W (Proc.devRef .tc main_arg9) := by
  simp only [ops2]; after_results_simp

/-- Window 2 leaves argument 10 as it was. -/
theorem ops2_keep_arg10 (W : Valuation τ sig (Elt F)) :
    after (ops2 (F := F)) W (Proc.devRef .tc main_arg10) = W (Proc.devRef .tc main_arg10) := by
  simp only [ops2]; after_results_simp

/-- Window 2 leaves argument 11 as it was. -/
theorem ops2_keep_arg11 (W : Valuation τ sig (Elt F)) :
    after (ops2 (F := F)) W (Proc.devRef .tc main_arg11) = W (Proc.devRef .tc main_arg11) := by
  simp only [ops2]; after_results_simp

/-- Window 2 leaves argument 12 as it was. -/
theorem ops2_keep_arg12 (W : Valuation τ sig (Elt F)) :
    after (ops2 (F := F)) W (Proc.devRef .tc main_arg12) = W (Proc.devRef .tc main_arg12) := by
  simp only [ops2]; after_results_simp

/-- Window 2 leaves argument 13 as it was. -/
theorem ops2_keep_arg13 (W : Valuation τ sig (Elt F)) :
    after (ops2 (F := F)) W (Proc.devRef .tc main_arg13) = W (Proc.devRef .tc main_arg13) := by
  simp only [ops2]; after_results_simp

/-- Window 2 leaves argument 14 as it was. -/
theorem ops2_keep_arg14 (W : Valuation τ sig (Elt F)) :
    after (ops2 (F := F)) W (Proc.devRef .tc main_arg14) = W (Proc.devRef .tc main_arg14) := by
  simp only [ops2]; after_results_simp

/-- Window 2 leaves argument 15 as it was. -/
theorem ops2_keep_arg15 (W : Valuation τ sig (Elt F)) :
    after (ops2 (F := F)) W (Proc.devRef .tc main_arg15) = W (Proc.devRef .tc main_arg15) := by
  simp only [ops2]; after_results_simp

/-- Window 2 leaves argument 16 as it was. -/
theorem ops2_keep_arg16 (W : Valuation τ sig (Elt F)) :
    after (ops2 (F := F)) W (Proc.devRef .tc main_arg16) = W (Proc.devRef .tc main_arg16) := by
  simp only [ops2]; after_results_simp

/-- Window 2 leaves argument 17 as it was. -/
theorem ops2_keep_arg17 (W : Valuation τ sig (Elt F)) :
    after (ops2 (F := F)) W (Proc.devRef .tc main_arg17) = W (Proc.devRef .tc main_arg17) := by
  simp only [ops2]; after_results_simp

/-- Window 2 leaves argument 18 as it was. -/
theorem ops2_keep_arg18 (W : Valuation τ sig (Elt F)) :
    after (ops2 (F := F)) W (Proc.devRef .tc main_arg18) = W (Proc.devRef .tc main_arg18) := by
  simp only [ops2]; after_results_simp

/-- Window 2 leaves argument 19 as it was. -/
theorem ops2_keep_arg19 (W : Valuation τ sig (Elt F)) :
    after (ops2 (F := F)) W (Proc.devRef .tc main_arg19) = W (Proc.devRef .tc main_arg19) := by
  simp only [ops2]; after_results_simp

/-- Window 2 leaves argument 20 as it was. -/
theorem ops2_keep_arg20 (W : Valuation τ sig (Elt F)) :
    after (ops2 (F := F)) W (Proc.devRef .tc main_arg20) = W (Proc.devRef .tc main_arg20) := by
  simp only [ops2]; after_results_simp

/-- Window 2 leaves argument 21 as it was. -/
theorem ops2_keep_arg21 (W : Valuation τ sig (Elt F)) :
    after (ops2 (F := F)) W (Proc.devRef .tc main_arg21) = W (Proc.devRef .tc main_arg21) := by
  simp only [ops2]; after_results_simp

/-- Window 2 leaves argument 22 as it was. -/
theorem ops2_keep_arg22 (W : Valuation τ sig (Elt F)) :
    after (ops2 (F := F)) W (Proc.devRef .tc main_arg22) = W (Proc.devRef .tc main_arg22) := by
  simp only [ops2]; after_results_simp

/-- Window 2 leaves argument 23 as it was. -/
theorem ops2_keep_arg23 (W : Valuation τ sig (Elt F)) :
    after (ops2 (F := F)) W (Proc.devRef .tc main_arg23) = W (Proc.devRef .tc main_arg23) := by
  simp only [ops2]; after_results_simp

/-- Window 2 leaves argument 24 as it was. -/
theorem ops2_keep_arg24 (W : Valuation τ sig (Elt F)) :
    after (ops2 (F := F)) W (Proc.devRef .tc main_arg24) = W (Proc.devRef .tc main_arg24) := by
  simp only [ops2]; after_results_simp

/-- Window 2 leaves argument 25 as it was. -/
theorem ops2_keep_arg25 (W : Valuation τ sig (Elt F)) :
    after (ops2 (F := F)) W (Proc.devRef .tc main_arg25) = W (Proc.devRef .tc main_arg25) := by
  simp only [ops2]; after_results_simp

end Cert.ReferenceIdeal.HandRun

end
-- ==== Proof.RKeep3.lean ====
import proofs.«426788_j78829829750888_3_alg».proof.Proof.RRun3
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 3 leaves argument 0 as it was. -/
theorem ops3_keep_arg0 (W : Valuation τ sig (Elt F)) :
    after (ops3 (F := F)) W (Proc.devRef .tc main_arg0) = W (Proc.devRef .tc main_arg0) := by
  simp only [ops3]; after_results_simp

/-- Window 3 leaves argument 1 as it was. -/
theorem ops3_keep_arg1 (W : Valuation τ sig (Elt F)) :
    after (ops3 (F := F)) W (Proc.devRef .tc main_arg1) = W (Proc.devRef .tc main_arg1) := by
  simp only [ops3]; after_results_simp

/-- Window 3 leaves argument 2 as it was. -/
theorem ops3_keep_arg2 (W : Valuation τ sig (Elt F)) :
    after (ops3 (F := F)) W (Proc.devRef .tc main_arg2) = W (Proc.devRef .tc main_arg2) := by
  simp only [ops3]; after_results_simp

/-- Window 3 leaves argument 3 as it was. -/
theorem ops3_keep_arg3 (W : Valuation τ sig (Elt F)) :
    after (ops3 (F := F)) W (Proc.devRef .tc main_arg3) = W (Proc.devRef .tc main_arg3) := by
  simp only [ops3]; after_results_simp

/-- Window 3 leaves argument 4 as it was. -/
theorem ops3_keep_arg4 (W : Valuation τ sig (Elt F)) :
    after (ops3 (F := F)) W (Proc.devRef .tc main_arg4) = W (Proc.devRef .tc main_arg4) := by
  simp only [ops3]; after_results_simp

/-- Window 3 leaves argument 5 as it was. -/
theorem ops3_keep_arg5 (W : Valuation τ sig (Elt F)) :
    after (ops3 (F := F)) W (Proc.devRef .tc main_arg5) = W (Proc.devRef .tc main_arg5) := by
  simp only [ops3]; after_results_simp

/-- Window 3 leaves argument 6 as it was. -/
theorem ops3_keep_arg6 (W : Valuation τ sig (Elt F)) :
    after (ops3 (F := F)) W (Proc.devRef .tc main_arg6) = W (Proc.devRef .tc main_arg6) := by
  simp only [ops3]; after_results_simp

/-- Window 3 leaves argument 7 as it was. -/
theorem ops3_keep_arg7 (W : Valuation τ sig (Elt F)) :
    after (ops3 (F := F)) W (Proc.devRef .tc main_arg7) = W (Proc.devRef .tc main_arg7) := by
  simp only [ops3]; after_results_simp

/-- Window 3 leaves argument 8 as it was. -/
theorem ops3_keep_arg8 (W : Valuation τ sig (Elt F)) :
    after (ops3 (F := F)) W (Proc.devRef .tc main_arg8) = W (Proc.devRef .tc main_arg8) := by
  simp only [ops3]; after_results_simp

/-- Window 3 leaves argument 9 as it was. -/
theorem ops3_keep_arg9 (W : Valuation τ sig (Elt F)) :
    after (ops3 (F := F)) W (Proc.devRef .tc main_arg9) = W (Proc.devRef .tc main_arg9) := by
  simp only [ops3]; after_results_simp

/-- Window 3 leaves argument 10 as it was. -/
theorem ops3_keep_arg10 (W : Valuation τ sig (Elt F)) :
    after (ops3 (F := F)) W (Proc.devRef .tc main_arg10) = W (Proc.devRef .tc main_arg10) := by
  simp only [ops3]; after_results_simp

/-- Window 3 leaves argument 11 as it was. -/
theorem ops3_keep_arg11 (W : Valuation τ sig (Elt F)) :
    after (ops3 (F := F)) W (Proc.devRef .tc main_arg11) = W (Proc.devRef .tc main_arg11) := by
  simp only [ops3]; after_results_simp

/-- Window 3 leaves argument 12 as it was. -/
theorem ops3_keep_arg12 (W : Valuation τ sig (Elt F)) :
    after (ops3 (F := F)) W (Proc.devRef .tc main_arg12) = W (Proc.devRef .tc main_arg12) := by
  simp only [ops3]; after_results_simp

/-- Window 3 leaves argument 13 as it was. -/
theorem ops3_keep_arg13 (W : Valuation τ sig (Elt F)) :
    after (ops3 (F := F)) W (Proc.devRef .tc main_arg13) = W (Proc.devRef .tc main_arg13) := by
  simp only [ops3]; after_results_simp

/-- Window 3 leaves argument 14 as it was. -/
theorem ops3_keep_arg14 (W : Valuation τ sig (Elt F)) :
    after (ops3 (F := F)) W (Proc.devRef .tc main_arg14) = W (Proc.devRef .tc main_arg14) := by
  simp only [ops3]; after_results_simp

/-- Window 3 leaves argument 15 as it was. -/
theorem ops3_keep_arg15 (W : Valuation τ sig (Elt F)) :
    after (ops3 (F := F)) W (Proc.devRef .tc main_arg15) = W (Proc.devRef .tc main_arg15) := by
  simp only [ops3]; after_results_simp

/-- Window 3 leaves argument 16 as it was. -/
theorem ops3_keep_arg16 (W : Valuation τ sig (Elt F)) :
    after (ops3 (F := F)) W (Proc.devRef .tc main_arg16) = W (Proc.devRef .tc main_arg16) := by
  simp only [ops3]; after_results_simp

/-- Window 3 leaves argument 17 as it was. -/
theorem ops3_keep_arg17 (W : Valuation τ sig (Elt F)) :
    after (ops3 (F := F)) W (Proc.devRef .tc main_arg17) = W (Proc.devRef .tc main_arg17) := by
  simp only [ops3]; after_results_simp

/-- Window 3 leaves argument 18 as it was. -/
theorem ops3_keep_arg18 (W : Valuation τ sig (Elt F)) :
    after (ops3 (F := F)) W (Proc.devRef .tc main_arg18) = W (Proc.devRef .tc main_arg18) := by
  simp only [ops3]; after_results_simp

/-- Window 3 leaves argument 19 as it was. -/
theorem ops3_keep_arg19 (W : Valuation τ sig (Elt F)) :
    after (ops3 (F := F)) W (Proc.devRef .tc main_arg19) = W (Proc.devRef .tc main_arg19) := by
  simp only [ops3]; after_results_simp

/-- Window 3 leaves argument 20 as it was. -/
theorem ops3_keep_arg20 (W : Valuation τ sig (Elt F)) :
    after (ops3 (F := F)) W (Proc.devRef .tc main_arg20) = W (Proc.devRef .tc main_arg20) := by
  simp only [ops3]; after_results_simp

/-- Window 3 leaves argument 21 as it was. -/
theorem ops3_keep_arg21 (W : Valuation τ sig (Elt F)) :
    after (ops3 (F := F)) W (Proc.devRef .tc main_arg21) = W (Proc.devRef .tc main_arg21) := by
  simp only [ops3]; after_results_simp

/-- Window 3 leaves argument 22 as it was. -/
theorem ops3_keep_arg22 (W : Valuation τ sig (Elt F)) :
    after (ops3 (F := F)) W (Proc.devRef .tc main_arg22) = W (Proc.devRef .tc main_arg22) := by
  simp only [ops3]; after_results_simp

/-- Window 3 leaves argument 23 as it was. -/
theorem ops3_keep_arg23 (W : Valuation τ sig (Elt F)) :
    after (ops3 (F := F)) W (Proc.devRef .tc main_arg23) = W (Proc.devRef .tc main_arg23) := by
  simp only [ops3]; after_results_simp

/-- Window 3 leaves argument 24 as it was. -/
theorem ops3_keep_arg24 (W : Valuation τ sig (Elt F)) :
    after (ops3 (F := F)) W (Proc.devRef .tc main_arg24) = W (Proc.devRef .tc main_arg24) := by
  simp only [ops3]; after_results_simp

/-- Window 3 leaves argument 25 as it was. -/
theorem ops3_keep_arg25 (W : Valuation τ sig (Elt F)) :
    after (ops3 (F := F)) W (Proc.devRef .tc main_arg25) = W (Proc.devRef .tc main_arg25) := by
  simp only [ops3]; after_results_simp

end Cert.ReferenceIdeal.HandRun

end
-- ==== Proof.RCutKeep.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import proofs.«426788_j78829829750888_3_alg».proof.Proof.RCut
import proofs.«426788_j78829829750888_3_alg».proof.Proof.RKeep0
import proofs.«426788_j78829829750888_3_alg».proof.Proof.RKeep1
import proofs.«426788_j78829829750888_3_alg».proof.Proof.RKeep2
import proofs.«426788_j78829829750888_3_alg».proof.Proof.RKeep3
import Idealize.ShloMosaic.Lib.Pipeline.Frame

/-! # No operation before the cut writes an argument -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

/-! ## No operation before the cut writes an argument -/

set_option maxHeartbeats 4000000 in
theorem prefix_keep_arg2 (L : Valuation τ sig (Elt Ideal)) :
    after ops4a (after (ops3 (F := Ideal)) (after (ops2 (F := Ideal)) (after (ops1 (F := Ideal)) (after (ops0 (F := Ideal)) L)))) (Proc.devRef .tc main_arg2) = L (Proc.devRef .tc main_arg2) := by
  refine Eq.trans ?_ ((ops3_keep_arg2 _).trans ((ops2_keep_arg2 _).trans ((ops1_keep_arg2 _).trans (ops0_keep_arg2 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg16 (L : Valuation τ sig (Elt Ideal)) :
    after ops4a (after (ops3 (F := Ideal)) (after (ops2 (F := Ideal)) (after (ops1 (F := Ideal)) (after (ops0 (F := Ideal)) L)))) (Proc.devRef .tc main_arg16) = L (Proc.devRef .tc main_arg16) := by
  refine Eq.trans ?_ ((ops3_keep_arg16 _).trans ((ops2_keep_arg16 _).trans ((ops1_keep_arg16 _).trans (ops0_keep_arg16 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg17 (L : Valuation τ sig (Elt Ideal)) :
    after ops4a (after (ops3 (F := Ideal)) (after (ops2 (F := Ideal)) (after (ops1 (F := Ideal)) (after (ops0 (F := Ideal)) L)))) (Proc.devRef .tc main_arg17) = L (Proc.devRef .tc main_arg17) := by
  refine Eq.trans ?_ ((ops3_keep_arg17 _).trans ((ops2_keep_arg17 _).trans ((ops1_keep_arg17 _).trans (ops0_keep_arg17 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg18 (L : Valuation τ sig (Elt Ideal)) :
    after ops4a (after (ops3 (F := Ideal)) (after (ops2 (F := Ideal)) (after (ops1 (F := Ideal)) (after (ops0 (F := Ideal)) L)))) (Proc.devRef .tc main_arg18) = L (Proc.devRef .tc main_arg18) := by
  refine Eq.trans ?_ ((ops3_keep_arg18 _).trans ((ops2_keep_arg18 _).trans ((ops1_keep_arg18 _).trans (ops0_keep_arg18 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg19 (L : Valuation τ sig (Elt Ideal)) :
    after ops4a (after (ops3 (F := Ideal)) (after (ops2 (F := Ideal)) (after (ops1 (F := Ideal)) (after (ops0 (F := Ideal)) L)))) (Proc.devRef .tc main_arg19) = L (Proc.devRef .tc main_arg19) := by
  refine Eq.trans ?_ ((ops3_keep_arg19 _).trans ((ops2_keep_arg19 _).trans ((ops1_keep_arg19 _).trans (ops0_keep_arg19 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg20 (L : Valuation τ sig (Elt Ideal)) :
    after ops4a (after (ops3 (F := Ideal)) (after (ops2 (F := Ideal)) (after (ops1 (F := Ideal)) (after (ops0 (F := Ideal)) L)))) (Proc.devRef .tc main_arg20) = L (Proc.devRef .tc main_arg20) := by
  refine Eq.trans ?_ ((ops3_keep_arg20 _).trans ((ops2_keep_arg20 _).trans ((ops1_keep_arg20 _).trans (ops0_keep_arg20 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg21 (L : Valuation τ sig (Elt Ideal)) :
    after ops4a (after (ops3 (F := Ideal)) (after (ops2 (F := Ideal)) (after (ops1 (F := Ideal)) (after (ops0 (F := Ideal)) L)))) (Proc.devRef .tc main_arg21) = L (Proc.devRef .tc main_arg21) := by
  refine Eq.trans ?_ ((ops3_keep_arg21 _).trans ((ops2_keep_arg21 _).trans ((ops1_keep_arg21 _).trans (ops0_keep_arg21 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg22 (L : Valuation τ sig (Elt Ideal)) :
    after ops4a (after (ops3 (F := Ideal)) (after (ops2 (F := Ideal)) (after (ops1 (F := Ideal)) (after (ops0 (F := Ideal)) L)))) (Proc.devRef .tc main_arg22) = L (Proc.devRef .tc main_arg22) := by
  refine Eq.trans ?_ ((ops3_keep_arg22 _).trans ((ops2_keep_arg22 _).trans ((ops1_keep_arg22 _).trans (ops0_keep_arg22 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg23 (L : Valuation τ sig (Elt Ideal)) :
    after ops4a (after (ops3 (F := Ideal)) (after (ops2 (F := Ideal)) (after (ops1 (F := Ideal)) (after (ops0 (F := Ideal)) L)))) (Proc.devRef .tc main_arg23) = L (Proc.devRef .tc main_arg23) := by
  refine Eq.trans ?_ ((ops3_keep_arg23 _).trans ((ops2_keep_arg23 _).trans ((ops1_keep_arg23 _).trans (ops0_keep_arg23 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg24 (L : Valuation τ sig (Elt Ideal)) :
    after ops4a (after (ops3 (F := Ideal)) (after (ops2 (F := Ideal)) (after (ops1 (F := Ideal)) (after (ops0 (F := Ideal)) L)))) (Proc.devRef .tc main_arg24) = L (Proc.devRef .tc main_arg24) := by
  refine Eq.trans ?_ ((ops3_keep_arg24 _).trans ((ops2_keep_arg24 _).trans ((ops1_keep_arg24 _).trans (ops0_keep_arg24 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']
set_option maxHeartbeats 4000000 in
theorem prefix_keep_arg25 (L : Valuation τ sig (Elt Ideal)) :
    after ops4a (after (ops3 (F := Ideal)) (after (ops2 (F := Ideal)) (after (ops1 (F := Ideal)) (after (ops0 (F := Ideal)) L)))) (Proc.devRef .tc main_arg25) = L (Proc.devRef .tc main_arg25) := by
  refine Eq.trans ?_ ((ops3_keep_arg25 _).trans ((ops2_keep_arg25 _).trans ((ops1_keep_arg25 _).trans (ops0_keep_arg25 _))))
  simp only [ops4a, ops4, List.take_succ_cons, List.take_zero]
  simp (disch := decide) only [after_cons, after_nil,
      nullary_result', unary_result', binary_result', ternary_result', quaternary_result', reshape_result',
      Cert.Nary3.nary3_result', nary4_result', unaryIndexed_result', binaryIndexed_result',
      nullary_result_ne', unary_result_ne', binary_result_ne', ternary_result_ne', quaternary_result_ne', reshape_result_ne',
      nary_result_ne', unaryIndexed_result_ne', binaryIndexed_result_ne']

end Cert.ReferenceIdeal.Hand

end
-- ==== Proof.RGlue.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import proofs.«426788_j78829829750888_3_alg».proof.Proof.RCut
import proofs.«426788_j78829829750888_3_alg».proof.Proof.RTail
import proofs.«426788_j78829829750888_3_alg».proof.Proof.RSrc
import proofs.«426788_j78829829750888_3_alg».proof.Proof.RDst
import proofs.«426788_j78829829750888_3_alg».proof.Proof.RCutKeep
import Idealize.ShloMosaic.Lib.Pipeline.Frame

/-! # The reference program's result as the network of its arguments

The reference's operations are cut once, just before the concatenation of source rows, destination rows and edge
attributes. What comes after the cut is the edge scorer of whatever the three arrays hold. What comes before it computes
the gathered rows: read back, its term folds stage by stage (four node updates, two projections) into the network's
node features, and what stands between the stages (index rows, gathers, accumulating scatters, parameter slices) is,
operation for operation, what the network is built from. No operation before the cut writes an argument. -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

/-! ## The result -/

/-- THE RESULT: the fold of the reference's operations over any contents, read at the result buffer, is the network of
    the arguments' contents. -/
theorem ref_value (L : Valuation τ sig (Elt Ideal)) :
    after (ops (F := Ideal)) L (Proc.devRef .tc main_v302) = Cert.KernelIdeal.Net.out (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) (L (Proc.devRef .tc main_arg17)) (L (Proc.devRef .tc main_arg18)) (L (Proc.devRef .tc main_arg19)) (L (Proc.devRef .tc main_arg20)) (L (Proc.devRef .tc main_arg21)) (L (Proc.devRef .tc main_arg22)) (L (Proc.devRef .tc main_arg23)) (L (Proc.devRef .tc main_arg24)) (L (Proc.devRef .tc main_arg25)) := by
  simp only [ops, StableHlo.after_append]
  rw [ops4_cut, StableHlo.after_append, tail_value, src_value, dst_value,
    prefix_keep_arg2, prefix_keep_arg16, prefix_keep_arg17, prefix_keep_arg18, prefix_keep_arg19, prefix_keep_arg20, prefix_keep_arg21, prefix_keep_arg22, prefix_keep_arg23, prefix_keep_arg24, prefix_keep_arg25]
  rfl

end Cert.ReferenceIdeal.Hand

end
-- ==== Proof.RKeep4.lean ====
import proofs.«426788_j78829829750888_3_alg».proof.Proof.RRun4
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 4 leaves argument 0 as it was. -/
theorem ops4_keep_arg0 (W : Valuation τ sig (Elt F)) :
    after (ops4 (F := F)) W (Proc.devRef .tc main_arg0) = W (Proc.devRef .tc main_arg0) := by
  simp only [ops4]; after_results_simp

/-- Window 4 leaves argument 1 as it was. -/
theorem ops4_keep_arg1 (W : Valuation τ sig (Elt F)) :
    after (ops4 (F := F)) W (Proc.devRef .tc main_arg1) = W (Proc.devRef .tc main_arg1) := by
  simp only [ops4]; after_results_simp

/-- Window 4 leaves argument 2 as it was. -/
theorem ops4_keep_arg2 (W : Valuation τ sig (Elt F)) :
    after (ops4 (F := F)) W (Proc.devRef .tc main_arg2) = W (Proc.devRef .tc main_arg2) := by
  simp only [ops4]; after_results_simp

/-- Window 4 leaves argument 3 as it was. -/
theorem ops4_keep_arg3 (W : Valuation τ sig (Elt F)) :
    after (ops4 (F := F)) W (Proc.devRef .tc main_arg3) = W (Proc.devRef .tc main_arg3) := by
  simp only [ops4]; after_results_simp

/-- Window 4 leaves argument 4 as it was. -/
theorem ops4_keep_arg4 (W : Valuation τ sig (Elt F)) :
    after (ops4 (F := F)) W (Proc.devRef .tc main_arg4) = W (Proc.devRef .tc main_arg4) := by
  simp only [ops4]; after_results_simp

/-- Window 4 leaves argument 5 as it was. -/
theorem ops4_keep_arg5 (W : Valuation τ sig (Elt F)) :
    after (ops4 (F := F)) W (Proc.devRef .tc main_arg5) = W (Proc.devRef .tc main_arg5) := by
  simp only [ops4]; after_results_simp

/-- Window 4 leaves argument 6 as it was. -/
theorem ops4_keep_arg6 (W : Valuation τ sig (Elt F)) :
    after (ops4 (F := F)) W (Proc.devRef .tc main_arg6) = W (Proc.devRef .tc main_arg6) := by
  simp only [ops4]; after_results_simp

/-- Window 4 leaves argument 7 as it was. -/
theorem ops4_keep_arg7 (W : Valuation τ sig (Elt F)) :
    after (ops4 (F := F)) W (Proc.devRef .tc main_arg7) = W (Proc.devRef .tc main_arg7) := by
  simp only [ops4]; after_results_simp

/-- Window 4 leaves argument 8 as it was. -/
theorem ops4_keep_arg8 (W : Valuation τ sig (Elt F)) :
    after (ops4 (F := F)) W (Proc.devRef .tc main_arg8) = W (Proc.devRef .tc main_arg8) := by
  simp only [ops4]; after_results_simp

/-- Window 4 leaves argument 9 as it was. -/
theorem ops4_keep_arg9 (W : Valuation τ sig (Elt F)) :
    after (ops4 (F := F)) W (Proc.devRef .tc main_arg9) = W (Proc.devRef .tc main_arg9) := by
  simp only [ops4]; after_results_simp

/-- Window 4 leaves argument 10 as it was. -/
theorem ops4_keep_arg10 (W : Valuation τ sig (Elt F)) :
    after (ops4 (F := F)) W (Proc.devRef .tc main_arg10) = W (Proc.devRef .tc main_arg10) := by
  simp only [ops4]; after_results_simp

/-- Window 4 leaves argument 11 as it was. -/
theorem ops4_keep_arg11 (W : Valuation τ sig (Elt F)) :
    after (ops4 (F := F)) W (Proc.devRef .tc main_arg11) = W (Proc.devRef .tc main_arg11) := by
  simp only [ops4]; after_results_simp

/-- Window 4 leaves argument 12 as it was. -/
theorem ops4_keep_arg12 (W : Valuation τ sig (Elt F)) :
    after (ops4 (F := F)) W (Proc.devRef .tc main_arg12) = W (Proc.devRef .tc main_arg12) := by
  simp only [ops4]; after_results_simp

/-- Window 4 leaves argument 13 as it was. -/
theorem ops4_keep_arg13 (W : Valuation τ sig (Elt F)) :
    after (ops4 (F := F)) W (Proc.devRef .tc main_arg13) = W (Proc.devRef .tc main_arg13) := by
  simp only [ops4]; after_results_simp

/-- Window 4 leaves argument 14 as it was. -/
theorem ops4_keep_arg14 (W : Valuation τ sig (Elt F)) :
    after (ops4 (F := F)) W (Proc.devRef .tc main_arg14) = W (Proc.devRef .tc main_arg14) := by
  simp only [ops4]; after_results_simp

/-- Window 4 leaves argument 15 as it was. -/
theorem ops4_keep_arg15 (W : Valuation τ sig (Elt F)) :
    after (ops4 (F := F)) W (Proc.devRef .tc main_arg15) = W (Proc.devRef .tc main_arg15) := by
  simp only [ops4]; after_results_simp

/-- Window 4 leaves argument 16 as it was. -/
theorem ops4_keep_arg16 (W : Valuation τ sig (Elt F)) :
    after (ops4 (F := F)) W (Proc.devRef .tc main_arg16) = W (Proc.devRef .tc main_arg16) := by
  simp only [ops4]; after_results_simp

/-- Window 4 leaves argument 17 as it was. -/
theorem ops4_keep_arg17 (W : Valuation τ sig (Elt F)) :
    after (ops4 (F := F)) W (Proc.devRef .tc main_arg17) = W (Proc.devRef .tc main_arg17) := by
  simp only [ops4]; after_results_simp

/-- Window 4 leaves argument 18 as it was. -/
theorem ops4_keep_arg18 (W : Valuation τ sig (Elt F)) :
    after (ops4 (F := F)) W (Proc.devRef .tc main_arg18) = W (Proc.devRef .tc main_arg18) := by
  simp only [ops4]; after_results_simp

/-- Window 4 leaves argument 19 as it was. -/
theorem ops4_keep_arg19 (W : Valuation τ sig (Elt F)) :
    after (ops4 (F := F)) W (Proc.devRef .tc main_arg19) = W (Proc.devRef .tc main_arg19) := by
  simp only [ops4]; after_results_simp

/-- Window 4 leaves argument 20 as it was. -/
theorem ops4_keep_arg20 (W : Valuation τ sig (Elt F)) :
    after (ops4 (F := F)) W (Proc.devRef .tc main_arg20) = W (Proc.devRef .tc main_arg20) := by
  simp only [ops4]; after_results_simp

/-- Window 4 leaves argument 21 as it was. -/
theorem ops4_keep_arg21 (W : Valuation τ sig (Elt F)) :
    after (ops4 (F := F)) W (Proc.devRef .tc main_arg21) = W (Proc.devRef .tc main_arg21) := by
  simp only [ops4]; after_results_simp

/-- Window 4 leaves argument 22 as it was. -/
theorem ops4_keep_arg22 (W : Valuation τ sig (Elt F)) :
    after (ops4 (F := F)) W (Proc.devRef .tc main_arg22) = W (Proc.devRef .tc main_arg22) := by
  simp only [ops4]; after_results_simp

/-- Window 4 leaves argument 23 as it was. -/
theorem ops4_keep_arg23 (W : Valuation τ sig (Elt F)) :
    after (ops4 (F := F)) W (Proc.devRef .tc main_arg23) = W (Proc.devRef .tc main_arg23) := by
  simp only [ops4]; after_results_simp

/-- Window 4 leaves argument 24 as it was. -/
theorem ops4_keep_arg24 (W : Valuation τ sig (Elt F)) :
    after (ops4 (F := F)) W (Proc.devRef .tc main_arg24) = W (Proc.devRef .tc main_arg24) := by
  simp only [ops4]; after_results_simp

/-- Window 4 leaves argument 25 as it was. -/
theorem ops4_keep_arg25 (W : Valuation τ sig (Elt F)) :
    after (ops4 (F := F)) W (Proc.devRef .tc main_arg25) = W (Proc.devRef .tc main_arg25) := by
  simp only [ops4]; after_results_simp

end Cert.ReferenceIdeal.HandRun

end
-- ==== Proof.RKeep5.lean ====
import proofs.«426788_j78829829750888_3_alg».proof.Proof.RRun5
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 5 leaves argument 0 as it was. -/
theorem ops5_keep_arg0 (W : Valuation τ sig (Elt F)) :
    after (ops5 (F := F)) W (Proc.devRef .tc main_arg0) = W (Proc.devRef .tc main_arg0) := by
  simp only [ops5]; after_results_simp

/-- Window 5 leaves argument 1 as it was. -/
theorem ops5_keep_arg1 (W : Valuation τ sig (Elt F)) :
    after (ops5 (F := F)) W (Proc.devRef .tc main_arg1) = W (Proc.devRef .tc main_arg1) := by
  simp only [ops5]; after_results_simp

/-- Window 5 leaves argument 2 as it was. -/
theorem ops5_keep_arg2 (W : Valuation τ sig (Elt F)) :
    after (ops5 (F := F)) W (Proc.devRef .tc main_arg2) = W (Proc.devRef .tc main_arg2) := by
  simp only [ops5]; after_results_simp

/-- Window 5 leaves argument 3 as it was. -/
theorem ops5_keep_arg3 (W : Valuation τ sig (Elt F)) :
    after (ops5 (F := F)) W (Proc.devRef .tc main_arg3) = W (Proc.devRef .tc main_arg3) := by
  simp only [ops5]; after_results_simp

/-- Window 5 leaves argument 4 as it was. -/
theorem ops5_keep_arg4 (W : Valuation τ sig (Elt F)) :
    after (ops5 (F := F)) W (Proc.devRef .tc main_arg4) = W (Proc.devRef .tc main_arg4) := by
  simp only [ops5]; after_results_simp

/-- Window 5 leaves argument 5 as it was. -/
theorem ops5_keep_arg5 (W : Valuation τ sig (Elt F)) :
    after (ops5 (F := F)) W (Proc.devRef .tc main_arg5) = W (Proc.devRef .tc main_arg5) := by
  simp only [ops5]; after_results_simp

/-- Window 5 leaves argument 6 as it was. -/
theorem ops5_keep_arg6 (W : Valuation τ sig (Elt F)) :
    after (ops5 (F := F)) W (Proc.devRef .tc main_arg6) = W (Proc.devRef .tc main_arg6) := by
  simp only [ops5]; after_results_simp

/-- Window 5 leaves argument 7 as it was. -/
theorem ops5_keep_arg7 (W : Valuation τ sig (Elt F)) :
    after (ops5 (F := F)) W (Proc.devRef .tc main_arg7) = W (Proc.devRef .tc main_arg7) := by
  simp only [ops5]; after_results_simp

/-- Window 5 leaves argument 8 as it was. -/
theorem ops5_keep_arg8 (W : Valuation τ sig (Elt F)) :
    after (ops5 (F := F)) W (Proc.devRef .tc main_arg8) = W (Proc.devRef .tc main_arg8) := by
  simp only [ops5]; after_results_simp

/-- Window 5 leaves argument 9 as it was. -/
theorem ops5_keep_arg9 (W : Valuation τ sig (Elt F)) :
    after (ops5 (F := F)) W (Proc.devRef .tc main_arg9) = W (Proc.devRef .tc main_arg9) := by
  simp only [ops5]; after_results_simp

/-- Window 5 leaves argument 10 as it was. -/
theorem ops5_keep_arg10 (W : Valuation τ sig (Elt F)) :
    after (ops5 (F := F)) W (Proc.devRef .tc main_arg10) = W (Proc.devRef .tc main_arg10) := by
  simp only [ops5]; after_results_simp

/-- Window 5 leaves argument 11 as it was. -/
theorem ops5_keep_arg11 (W : Valuation τ sig (Elt F)) :
    after (ops5 (F := F)) W (Proc.devRef .tc main_arg11) = W (Proc.devRef .tc main_arg11) := by
  simp only [ops5]; after_results_simp

/-- Window 5 leaves argument 12 as it was. -/
theorem ops5_keep_arg12 (W : Valuation τ sig (Elt F)) :
    after (ops5 (F := F)) W (Proc.devRef .tc main_arg12) = W (Proc.devRef .tc main_arg12) := by
  simp only [ops5]; after_results_simp

/-- Window 5 leaves argument 13 as it was. -/
theorem ops5_keep_arg13 (W : Valuation τ sig (Elt F)) :
    after (ops5 (F := F)) W (Proc.devRef .tc main_arg13) = W (Proc.devRef .tc main_arg13) := by
  simp only [ops5]; after_results_simp

/-- Window 5 leaves argument 14 as it was. -/
theorem ops5_keep_arg14 (W : Valuation τ sig (Elt F)) :
    after (ops5 (F := F)) W (Proc.devRef .tc main_arg14) = W (Proc.devRef .tc main_arg14) := by
  simp only [ops5]; after_results_simp

/-- Window 5 leaves argument 15 as it was. -/
theorem ops5_keep_arg15 (W : Valuation τ sig (Elt F)) :
    after (ops5 (F := F)) W (Proc.devRef .tc main_arg15) = W (Proc.devRef .tc main_arg15) := by
  simp only [ops5]; after_results_simp

/-- Window 5 leaves argument 16 as it was. -/
theorem ops5_keep_arg16 (W : Valuation τ sig (Elt F)) :
    after (ops5 (F := F)) W (Proc.devRef .tc main_arg16) = W (Proc.devRef .tc main_arg16) := by
  simp only [ops5]; after_results_simp

/-- Window 5 leaves argument 17 as it was. -/
theorem ops5_keep_arg17 (W : Valuation τ sig (Elt F)) :
    after (ops5 (F := F)) W (Proc.devRef .tc main_arg17) = W (Proc.devRef .tc main_arg17) := by
  simp only [ops5]; after_results_simp

/-- Window 5 leaves argument 18 as it was. -/
theorem ops5_keep_arg18 (W : Valuation τ sig (Elt F)) :
    after (ops5 (F := F)) W (Proc.devRef .tc main_arg18) = W (Proc.devRef .tc main_arg18) := by
  simp only [ops5]; after_results_simp

/-- Window 5 leaves argument 19 as it was. -/
theorem ops5_keep_arg19 (W : Valuation τ sig (Elt F)) :
    after (ops5 (F := F)) W (Proc.devRef .tc main_arg19) = W (Proc.devRef .tc main_arg19) := by
  simp only [ops5]; after_results_simp

/-- Window 5 leaves argument 20 as it was. -/
theorem ops5_keep_arg20 (W : Valuation τ sig (Elt F)) :
    after (ops5 (F := F)) W (Proc.devRef .tc main_arg20) = W (Proc.devRef .tc main_arg20) := by
  simp only [ops5]; after_results_simp

/-- Window 5 leaves argument 21 as it was. -/
theorem ops5_keep_arg21 (W : Valuation τ sig (Elt F)) :
    after (ops5 (F := F)) W (Proc.devRef .tc main_arg21) = W (Proc.devRef .tc main_arg21) := by
  simp only [ops5]; after_results_simp

/-- Window 5 leaves argument 22 as it was. -/
theorem ops5_keep_arg22 (W : Valuation τ sig (Elt F)) :
    after (ops5 (F := F)) W (Proc.devRef .tc main_arg22) = W (Proc.devRef .tc main_arg22) := by
  simp only [ops5]; after_results_simp

/-- Window 5 leaves argument 23 as it was. -/
theorem ops5_keep_arg23 (W : Valuation τ sig (Elt F)) :
    after (ops5 (F := F)) W (Proc.devRef .tc main_arg23) = W (Proc.devRef .tc main_arg23) := by
  simp only [ops5]; after_results_simp

/-- Window 5 leaves argument 24 as it was. -/
theorem ops5_keep_arg24 (W : Valuation τ sig (Elt F)) :
    after (ops5 (F := F)) W (Proc.devRef .tc main_arg24) = W (Proc.devRef .tc main_arg24) := by
  simp only [ops5]; after_results_simp

/-- Window 5 leaves argument 25 as it was. -/
theorem ops5_keep_arg25 (W : Valuation τ sig (Elt F)) :
    after (ops5 (F := F)) W (Proc.devRef .tc main_arg25) = W (Proc.devRef .tc main_arg25) := by
  simp only [ops5]; after_results_simp

end Cert.ReferenceIdeal.HandRun

end
-- ==== Proof.RKeepAll.lean ====
import proofs.«426788_j78829829750888_3_alg».proof.Proof.RRun
import proofs.«426788_j78829829750888_3_alg».proof.Proof.RStageN
import proofs.«426788_j78829829750888_3_alg».proof.Proof.RStageE
import proofs.«426788_j78829829750888_3_alg».proof.Proof.Net
import proofs.«426788_j78829829750888_3_alg».proof.Proof.LibNary3
import proofs.«426788_j78829829750888_3_alg».proof.Proof.RKeep0
import proofs.«426788_j78829829750888_3_alg».proof.Proof.RKeep1
import proofs.«426788_j78829829750888_3_alg».proof.Proof.RKeep2
import proofs.«426788_j78829829750888_3_alg».proof.Proof.RKeep3
import proofs.«426788_j78829829750888_3_alg».proof.Proof.RKeep4
import proofs.«426788_j78829829750888_3_alg».proof.Proof.RKeep5
import Idealize.ShloMosaic.Lib.Pipeline.Frame

/-! # No operation of the reference writes an argument

Each argument of @main is kept by the six windows in turn. -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Facts₀ Cert.ReferenceIdeal.HandRun

theorem ops_keep_arg0 (L : Valuation τ sig (Elt Ideal)) :
    after (ops (F := Ideal)) L (Proc.devRef .tc main_arg0) = L (Proc.devRef .tc main_arg0) := by
  simp only [ops, StableHlo.after_append]
  rw [ops5_keep_arg0, ops4_keep_arg0, ops3_keep_arg0, ops2_keep_arg0, ops1_keep_arg0, ops0_keep_arg0]
theorem ops_keep_arg1 (L : Valuation τ sig (Elt Ideal)) :
    after (ops (F := Ideal)) L (Proc.devRef .tc main_arg1) = L (Proc.devRef .tc main_arg1) := by
  simp only [ops, StableHlo.after_append]
  rw [ops5_keep_arg1, ops4_keep_arg1, ops3_keep_arg1, ops2_keep_arg1, ops1_keep_arg1, ops0_keep_arg1]
theorem ops_keep_arg2 (L : Valuation τ sig (Elt Ideal)) :
    after (ops (F := Ideal)) L (Proc.devRef .tc main_arg2) = L (Proc.devRef .tc main_arg2) := by
  simp only [ops, StableHlo.after_append]
  rw [ops5_keep_arg2, ops4_keep_arg2, ops3_keep_arg2, ops2_keep_arg2, ops1_keep_arg2, ops0_keep_arg2]
theorem ops_keep_arg3 (L : Valuation τ sig (Elt Ideal)) :
    after (ops (F := Ideal)) L (Proc.devRef .tc main_arg3) = L (Proc.devRef .tc main_arg3) := by
  simp only [ops, StableHlo.after_append]
  rw [ops5_keep_arg3, ops4_keep_arg3, ops3_keep_arg3, ops2_keep_arg3, ops1_keep_arg3, ops0_keep_arg3]
theorem ops_keep_arg4 (L : Valuation τ sig (Elt Ideal)) :
    after (ops (F := Ideal)) L (Proc.devRef .tc main_arg4) = L (Proc.devRef .tc main_arg4) := by
  simp only [ops, StableHlo.after_append]
  rw [ops5_keep_arg4, ops4_keep_arg4, ops3_keep_arg4, ops2_keep_arg4, ops1_keep_arg4, ops0_keep_arg4]
theorem ops_keep_arg5 (L : Valuation τ sig (Elt Ideal)) :
    after (ops (F := Ideal)) L (Proc.devRef .tc main_arg5) = L (Proc.devRef .tc main_arg5) := by
  simp only [ops, StableHlo.after_append]
  rw [ops5_keep_arg5, ops4_keep_arg5, ops3_keep_arg5, ops2_keep_arg5, ops1_keep_arg5, ops0_keep_arg5]
theorem ops_keep_arg6 (L : Valuation τ sig (Elt Ideal)) :
    after (ops (F := Ideal)) L (Proc.devRef .tc main_arg6) = L (Proc.devRef .tc main_arg6) := by
  simp only [ops, StableHlo.after_append]
  rw [ops5_keep_arg6, ops4_keep_arg6, ops3_keep_arg6, ops2_keep_arg6, ops1_keep_arg6, ops0_keep_arg6]
theorem ops_keep_arg7 (L : Valuation τ sig (Elt Ideal)) :
    after (ops (F := Ideal)) L (Proc.devRef .tc main_arg7) = L (Proc.devRef .tc main_arg7) := by
  simp only [ops, StableHlo.after_append]
  rw [ops5_keep_arg7, ops4_keep_arg7, ops3_keep_arg7, ops2_keep_arg7, ops1_keep_arg7, ops0_keep_arg7]
theorem ops_keep_arg8 (L : Valuation τ sig (Elt Ideal)) :
    after (ops (F := Ideal)) L (Proc.devRef .tc main_arg8) = L (Proc.devRef .tc main_arg8) := by
  simp only [ops, StableHlo.after_append]
  rw [ops5_keep_arg8, ops4_keep_arg8, ops3_keep_arg8, ops2_keep_arg8, ops1_keep_arg8, ops0_keep_arg8]
theorem ops_keep_arg9 (L : Valuation τ sig (Elt Ideal)) :
    after (ops (F := Ideal)) L (Proc.devRef .tc main_arg9) = L (Proc.devRef .tc main_arg9) := by
  simp only [ops, StableHlo.after_append]
  rw [ops5_keep_arg9, ops4_keep_arg9, ops3_keep_arg9, ops2_keep_arg9, ops1_keep_arg9, ops0_keep_arg9]
theorem ops_keep_arg10 (L : Valuation τ sig (Elt Ideal)) :
    after (ops (F := Ideal)) L (Proc.devRef .tc main_arg10) = L (Proc.devRef .tc main_arg10) := by
  simp only [ops, StableHlo.after_append]
  rw [ops5_keep_arg10, ops4_keep_arg10, ops3_keep_arg10, ops2_keep_arg10, ops1_keep_arg10, ops0_keep_arg10]
theorem ops_keep_arg11 (L : Valuation τ sig (Elt Ideal)) :
    after (ops (F := Ideal)) L (Proc.devRef .tc main_arg11) = L (Proc.devRef .tc main_arg11) := by
  simp only [ops, StableHlo.after_append]
  rw [ops5_keep_arg11, ops4_keep_arg11, ops3_keep_arg11, ops2_keep_arg11, ops1_keep_arg11, ops0_keep_arg11]
theorem ops_keep_arg12 (L : Valuation τ sig (Elt Ideal)) :
    after (ops (F := Ideal)) L (Proc.devRef .tc main_arg12) = L (Proc.devRef .tc main_arg12) := by
  simp only [ops, StableHlo.after_append]
  rw [ops5_keep_arg12, ops4_keep_arg12, ops3_keep_arg12, ops2_keep_arg12, ops1_keep_arg12, ops0_keep_arg12]
theorem ops_keep_arg13 (L : Valuation τ sig (Elt Ideal)) :
    after (ops (F := Ideal)) L (Proc.devRef .tc main_arg13) = L (Proc.devRef .tc main_arg13) := by
  simp only [ops, StableHlo.after_append]
  rw [ops5_keep_arg13, ops4_keep_arg13, ops3_keep_arg13, ops2_keep_arg13, ops1_keep_arg13, ops0_keep_arg13]
theorem ops_keep_arg14 (L : Valuation τ sig (Elt Ideal)) :
    after (ops (F := Ideal)) L (Proc.devRef .tc main_arg14) = L (Proc.devRef .tc main_arg14) := by
  simp only [ops, StableHlo.after_append]
  rw [ops5_keep_arg14, ops4_keep_arg14, ops3_keep_arg14, ops2_keep_arg14, ops1_keep_arg14, ops0_keep_arg14]
theorem ops_keep_arg15 (L : Valuation τ sig (Elt Ideal)) :
    after (ops (F := Ideal)) L (Proc.devRef .tc main_arg15) = L (Proc.devRef .tc main_arg15) := by
  simp only [ops, StableHlo.after_append]
  rw [ops5_keep_arg15, ops4_keep_arg15, ops3_keep_arg15, ops2_keep_arg15, ops1_keep_arg15, ops0_keep_arg15]
theorem ops_keep_arg16 (L : Valuation τ sig (Elt Ideal)) :
    after (ops (F := Ideal)) L (Proc.devRef .tc main_arg16) = L (Proc.devRef .tc main_arg16) := by
  simp only [ops, StableHlo.after_append]
  rw [ops5_keep_arg16, ops4_keep_arg16, ops3_keep_arg16, ops2_keep_arg16, ops1_keep_arg16, ops0_keep_arg16]
theorem ops_keep_arg17 (L : Valuation τ sig (Elt Ideal)) :
    after (ops (F := Ideal)) L (Proc.devRef .tc main_arg17) = L (Proc.devRef .tc main_arg17) := by
  simp only [ops, StableHlo.after_append]
  rw [ops5_keep_arg17, ops4_keep_arg17, ops3_keep_arg17, ops2_keep_arg17, ops1_keep_arg17, ops0_keep_arg17]
theorem ops_keep_arg18 (L : Valuation τ sig (Elt Ideal)) :
    after (ops (F := Ideal)) L (Proc.devRef .tc main_arg18) = L (Proc.devRef .tc main_arg18) := by
  simp only [ops, StableHlo.after_append]
  rw [ops5_keep_arg18, ops4_keep_arg18, ops3_keep_arg18, ops2_keep_arg18, ops1_keep_arg18, ops0_keep_arg18]
theorem ops_keep_arg19 (L : Valuation τ sig (Elt Ideal)) :
    after (ops (F := Ideal)) L (Proc.devRef .tc main_arg19) = L (Proc.devRef .tc main_arg19) := by
  simp only [ops, StableHlo.after_append]
  rw [ops5_keep_arg19, ops4_keep_arg19, ops3_keep_arg19, ops2_keep_arg19, ops1_keep_arg19, ops0_keep_arg19]
theorem ops_keep_arg20 (L : Valuation τ sig (Elt Ideal)) :
    after (ops (F := Ideal)) L (Proc.devRef .tc main_arg20) = L (Proc.devRef .tc main_arg20) := by
  simp only [ops, StableHlo.after_append]
  rw [ops5_keep_arg20, ops4_keep_arg20, ops3_keep_arg20, ops2_keep_arg20, ops1_keep_arg20, ops0_keep_arg20]
theorem ops_keep_arg21 (L : Valuation τ sig (Elt Ideal)) :
    after (ops (F := Ideal)) L (Proc.devRef .tc main_arg21) = L (Proc.devRef .tc main_arg21) := by
  simp only [ops, StableHlo.after_append]
  rw [ops5_keep_arg21, ops4_keep_arg21, ops3_keep_arg21, ops2_keep_arg21, ops1_keep_arg21, ops0_keep_arg21]
theorem ops_keep_arg22 (L : Valuation τ sig (Elt Ideal)) :
    after (ops (F := Ideal)) L (Proc.devRef .tc main_arg22) = L (Proc.devRef .tc main_arg22) := by
  simp only [ops, StableHlo.after_append]
  rw [ops5_keep_arg22, ops4_keep_arg22, ops3_keep_arg22, ops2_keep_arg22, ops1_keep_arg22, ops0_keep_arg22]
theorem ops_keep_arg23 (L : Valuation τ sig (Elt Ideal)) :
    after (ops (F := Ideal)) L (Proc.devRef .tc main_arg23) = L (Proc.devRef .tc main_arg23) := by
  simp only [ops, StableHlo.after_append]
  rw [ops5_keep_arg23, ops4_keep_arg23, ops3_keep_arg23, ops2_keep_arg23, ops1_keep_arg23, ops0_keep_arg23]
theorem ops_keep_arg24 (L : Valuation τ sig (Elt Ideal)) :
    after (ops (F := Ideal)) L (Proc.devRef .tc main_arg24) = L (Proc.devRef .tc main_arg24) := by
  simp only [ops, StableHlo.after_append]
  rw [ops5_keep_arg24, ops4_keep_arg24, ops3_keep_arg24, ops2_keep_arg24, ops1_keep_arg24, ops0_keep_arg24]
theorem ops_keep_arg25 (L : Valuation τ sig (Elt Ideal)) :
    after (ops (F := Ideal)) L (Proc.devRef .tc main_arg25) = L (Proc.devRef .tc main_arg25) := by
  simp only [ops, StableHlo.after_append]
  rw [ops5_keep_arg25, ops4_keep_arg25, ops3_keep_arg25, ops2_keep_arg25, ops1_keep_arg25, ops0_keep_arg25]

end Cert.ReferenceIdeal.Hand

end
-- ==== Proof.RValue.lean ====
import proofs.«426788_j78829829750888_3_alg».proof.Proof.RRun
import proofs.«426788_j78829829750888_3_alg».proof.Proof.RGlue
import proofs.«426788_j78829829750888_3_alg».proof.Proof.RKeepAll
import Idealize.ShloMosaic.Lib.Pipeline.Frame

/-! # The reference program's run, with its result named

Every weakly fair execution terminates with the result array at the network of the arguments (`Net.out`) and the
arguments unchanged: the run at the fold of the operations, the fold read at the result buffer as the network, and
each argument kept by every window. -/

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.HandRun

/-! ## The run -/

/-- The run of the reference program at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v302)
        = Cert.KernelIdeal.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run (defs (F := Ideal)) _ _).mono (fun r h c =>
    ⟨(h c main_v302).trans (ref_value _),
     (h c main_arg0).trans (ops_keep_arg0 _),
     (h c main_arg1).trans (ops_keep_arg1 _),
     (h c main_arg2).trans (ops_keep_arg2 _),
     (h c main_arg3).trans (ops_keep_arg3 _),
     (h c main_arg4).trans (ops_keep_arg4 _),
     (h c main_arg5).trans (ops_keep_arg5 _),
     (h c main_arg6).trans (ops_keep_arg6 _),
     (h c main_arg7).trans (ops_keep_arg7 _),
     (h c main_arg8).trans (ops_keep_arg8 _),
     (h c main_arg9).trans (ops_keep_arg9 _),
     (h c main_arg10).trans (ops_keep_arg10 _),
     (h c main_arg11).trans (ops_keep_arg11 _),
     (h c main_arg12).trans (ops_keep_arg12 _),
     (h c main_arg13).trans (ops_keep_arg13 _),
     (h c main_arg14).trans (ops_keep_arg14 _),
     (h c main_arg15).trans (ops_keep_arg15 _),
     (h c main_arg16).trans (ops_keep_arg16 _),
     (h c main_arg17).trans (ops_keep_arg17 _),
     (h c main_arg18).trans (ops_keep_arg18 _),
     (h c main_arg19).trans (ops_keep_arg19 _),
     (h c main_arg20).trans (ops_keep_arg20 _),
     (h c main_arg21).trans (ops_keep_arg21 _),
     (h c main_arg22).trans (ops_keep_arg22 _),
     (h c main_arg23).trans (ops_keep_arg23 _),
     (h c main_arg24).trans (ops_keep_arg24 _),
     (h c main_arg25).trans (ops_keep_arg25 _)⟩)
    (HandRun.run (F := Ideal) m ρ)

end Cert.ReferenceIdeal.Hand

end
-- ==== Proof.lean ====
/- A two-layer bipartite mean-aggregation network with an edge scorer: the Pallas program against its jnp reference, over the
   extended reals.

   Both programs compute: two affine projections of the node features; twice, for each node type, the neighbours' rows
   summed at every node and divided by the node's clamped in-degree, pushed through one weight matrix, added to the node's
   own row through another, normalised, rectified, and the node's own row added back; then, for every edge of the first
   edge type, a three-layer perceptron of (source row, destination row, edge attributes) ending in the logistic function.

   The kernel program runs five pallas regions (two projections, the two layers, the scorer) among host stretches that
   slice, gather and scatter; the reference is host operations only. They differ in three places, none of which the
   extended reals can see or all of which hold there without any finiteness: the kernel stores node rows in half
   precision (a change of format is the identity); it multiplies a neighbour sum by the reciprocal of the clamped degree
   where the reference divides (`x / c = x · (1 / c)` for `c ≠ 0`, and a degree clamped at one is not zero); and it
   contracts source rows, destination rows and edge attributes against three row slabs of the scorer's first weight
   matrix where the reference contracts their concatenation against the whole matrix (a sum over 272 columns split at 128
   and 256: addition on the extended reals is associative and commutative). So the precondition is never opened.

   Both runs end with the result at ONE function of the arguments, `Net.out`: for the kernel program by walking its
   boundaries (each region's output is its dense stage of what it finds; what it finds is the shared host operations of
   what the boundary before held), for the reference by folding the composed term of its operations stage by stage. -/
import proofs.«426788_j78829829750888_3_alg».proof.Defs
import proofs.«426788_j78829829750888_3_alg».proof.Proof.Gen.Kernel
import proofs.«426788_j78829829750888_3_alg».proof.Proof.Gen.Kernel.Frame
import proofs.«426788_j78829829750888_3_alg».proof.Proof.Gen.KernelIdeal
import proofs.«426788_j78829829750888_3_alg».proof.Proof.Gen.KernelIdeal.Frame
import proofs.«426788_j78829829750888_3_alg».proof.Proof.Gen.ReferenceIdeal
import proofs.«426788_j78829829750888_3_alg».proof.Proof.Gen.Pre_finite_inputs
import proofs.«426788_j78829829750888_3_alg».proof.Proof.KValue
import proofs.«426788_j78829829750888_3_alg».proof.Proof.RValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run (Cert.ReferenceIdeal.defs (F := Ideal)) _ _).mono (fun _ h c => (h c).2) (Cert.ReferenceIdeal.Hand.run m ρ)

/-- From memories agreeing on the arguments both programs end with the result at the network of the arguments. -/
theorem algebraic : Cert.algebraic_KernelIdeal_ReferenceIdeal := by
  intro m ρ m' ρ' _ hagree
  refine ⟨_, Cert.KernelIdeal.Hand.run m ρ, ?_⟩
  refine (θ_run (Cert.ReferenceIdeal.defs (F := Ideal)) _ _).mono (fun _ h c => ⟨(h c).1.trans ?_, (h c).2⟩)
    (Cert.ReferenceIdeal.Hand.run m' ρ')
  obtain ⟨e0, e1, e2, e3, e4, e5, e6, e7, e8, e9, e10, e11, e12, e13, e14, e15, e16, e17, e18, e19, e20, e21, e22, e23, e24, e25⟩ := hagree c
  rw [e0, e1, e2, e3, e4, e5, e6, e7, e8, e9, e10, e11, e12, e13, e14, e15, e16, e17, e18, e19, e20, e21, e22, e23, e24, e25]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
